-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16
  ∧ IdealRules.truncf_extf.Statement Cert.KernelIdeal.S40x5120 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x5000x5000 : Shape := ⟨3, ![8, 5000, 5000]⟩
abbrev S8x16x5000 : Shape := ⟨3, ![8, 16, 5000]⟩
abbrev S8x5000x16 : Shape := ⟨3, ![8, 5000, 16]⟩
abbrev S2000 : Shape := ⟨1, ![2000]⟩
abbrev S_ : Shape := ⟨0, ![]⟩

class Facts : Prop where
  bcast_S_S8x5000x5000 : S_.BroadcastsInDim S8x5000x5000 (![] : Fin 0 → Fin S8x5000x5000.rank)
  reducesTo_S8x5000x5000_S_d0_1_2 : S8x5000x5000.ReducesTo [0, 1, 2] S_
  h_S_ : 0 < S_.numel
  bcast_S_S8x16x5000 : S_.BroadcastsInDim S8x16x5000 (![] : Fin 0 → Fin S8x16x5000.rank)
  reducesTo_S8x16x5000_S_d0_1_2 : S8x16x5000.ReducesTo [0, 1, 2] S_
  bcast_S_S8x5000x16 : S_.BroadcastsInDim S8x5000x16 (![] : Fin 0 → Fin S8x5000x16.rank)
  reducesTo_S8x5000x16_S_d0_1_2 : S8x5000x16.ReducesTo [0, 1, 2] S_
  bcast_S_S2000 : S_.BroadcastsInDim S2000 (![] : Fin 0 → Fin S2000.rank)
  reducesTo_S2000_S_d0 : S2000.ReducesTo [0] S_

variable [Facts]

def fn_part1 {F : FTy → Type} [FloatOps F] (main_arg3 : IVec S2000 32) (main_arg4 : IVec S2000 32) (main_v13 : IVec S_ 1) (main_v15 : IVec S2000 1) (main_c_5 : IVec S_ 1) : IVec S_ 1 :=
  let main_v16 : IVec S_ 1 := (fun x v => Host.reduce IntOp.andi x v reducesTo_S2000_S_d0 h_S_) main_v15 main_c_5
  let main_v17 : IVec S_ 1 := andi main_v13 main_v16
  let main_c_6 : IVec S_ 32 := constantI S_ 32 5000#32
  let main_v18 : IVec S2000 32 := broadcastInDim S2000 ![] bcast_S_S2000 main_c_6
  let main_v19 : IVec S2000 1 := cmpi .slt main_arg3 main_v18
  let main_c_7 : IVec S_ 1 := constantI S_ 1 1#1
  let main_v20 : IVec S_ 1 := (fun x v => Host.reduce IntOp.andi x v reducesTo_S2000_S_d0 h_S_) main_v19 main_c_7
  let main_v21 : IVec S_ 1 := andi main_v17 main_v20
  let main_c_8 : IVec S_ 32 := constantI S_ 32 0#32
  let main_v22 : IVec S2000 32 := broadcastInDim S2000 ![] bcast_S_S2000 main_c_8
  let main_v23 : IVec S2000 1 := cmpi .sge main_arg4 main_v22
  let main_c_9 : IVec S_ 1 := constantI S_ 1 1#1
  let main_v24 : IVec S_ 1 := (fun x v => Host.reduce IntOp.andi x v reducesTo_S2000_S_d0 h_S_) main_v23 main_c_9
  let main_v25 : IVec S_ 1 := andi main_v21 main_v24
  let main_c_10 : IVec S_ 32 := constantI S_ 32 5000#32
  let main_v26 : IVec S2000 32 := broadcastInDim S2000 ![] bcast_S_S2000 main_c_10
  let main_v27 : IVec S2000 1 := cmpi .slt main_arg4 main_v26
  let main_c_11 : IVec S_ 1 := constantI S_ 1 1#1
  let main_v28 : IVec S_ 1 := (fun x v => Host.reduce IntOp.andi x v reducesTo_S2000_S_d0 h_S_) main_v27 main_c_11
  let main_v29 : IVec S_ 1 := andi main_v25 main_v28
  main_v29

def fn {F : FTy → Type} [FloatOps F] (main_arg0 : FVec F S8x5000x5000 .f32) (main_arg1 : FVec F S8x16x5000 .f32) (main_arg2 : FVec F S8x5000x16 .f32) (main_arg3 : IVec S2000 32) (main_arg4 : IVec S2000 32) : IVec S_ 1 :=
  let main_v0 : FVec F S8x5000x5000 .f32 := Host.absf main_arg0
  let main_cst : FVec F S_ .f32 := constant S_ .f32 0x7F800000#32
  let main_v1 : FVec F S8x5000x5000 .f32 := broadcastInDim S8x5000x5000 ![] bcast_S_S8x5000x5000 main_cst
  let main_v2 : IVec S8x5000x5000 1 := cmpf .olt main_v0 main_v1
  let main_c : IVec S_ 1 := constantI S_ 1 1#1
  let main_v3 : IVec S_ 1 := (fun x v => Host.reduce IntOp.andi x v reducesTo_S8x5000x5000_S_d0_1_2 h_S_) main_v2 main_c
  let main_v4 : FVec F S8x16x5000 .f32 := Host.absf main_arg1
  let main_cst_0 : FVec F S_ .f32 := constant S_ .f32 0x7F800000#32
  let main_v5 : FVec F S8x16x5000 .f32 := broadcastInDim S8x16x5000 ![] bcast_S_S8x16x5000 main_cst_0
  let main_v6 : IVec S8x16x5000 1 := cmpf .olt main_v4 main_v5
  let main_c_1 : IVec S_ 1 := constantI S_ 1 1#1
  let main_v7 : IVec S_ 1 := (fun x v => Host.reduce IntOp.andi x v reducesTo_S8x16x5000_S_d0_1_2 h_S_) main_v6 main_c_1
  let main_v8 : IVec S_ 1 := andi main_v3 main_v7
  let main_v9 : FVec F S8x5000x16 .f32 := Host.absf main_arg2
  let main_cst_2 : FVec F S_ .f32 := constant S_ .f32 0x7F800000#32
  let main_v10 : FVec F S8x5000x16 .f32 := broadcastInDim S8x5000x16 ![] bcast_S_S8x5000x16 main_cst_2
  let main_v11 : IVec S8x5000x16 1 := cmpf .olt main_v9 main_v10
  let main_c_3 : IVec S_ 1 := constantI S_ 1 1#1
  let main_v12 : IVec S_ 1 := (fun x v => Host.reduce IntOp.andi x v reducesTo_S8x5000x16_S_d0_1_2 h_S_) main_v11 main_c_3
  let main_v13 : IVec S_ 1 := andi main_v8 main_v12
  let main_c_4 : IVec S_ 32 := constantI S_ 32 0#32
  let main_v14 : IVec S2000 32 := broadcastInDim S2000 ![] bcast_S_S2000 main_c_4
  let main_v15 : IVec S2000 1 := cmpi .sge main_arg3 main_v14
  let main_c_5 : IVec S_ 1 := constantI S_ 1 1#1
  fn_part1 (F := F) main_arg3 main_arg4 main_v13 main_v15 main_c_5
-- ==== Kernel.lean ====
abbrev S8x5000x5000 : Shape := ⟨3, ![8, 5000, 5000]⟩
abbrev S8x16x5000 : Shape := ⟨3, ![8, 16, 5000]⟩
abbrev S8x5000x16 : Shape := ⟨3, ![8, 5000, 16]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S8x2000x16 : Shape := ⟨3, ![8, 2000, 16]⟩
abbrev S8x16x2000 : Shape := ⟨3, ![8, 16, 2000]⟩
abbrev S1x5120 : Shape := ⟨2, ![1, 5120]⟩
abbrev S2000x5120 : Shape := ⟨2, ![2000, 5120]⟩
abbrev S5120x2000 : Shape := ⟨2, ![5120, 2000]⟩
abbrev S8x5000x5120 : Shape := ⟨3, ![8, 5000, 5120]⟩
abbrev S2000x2000 : Shape := ⟨2, ![2000, 2000]⟩
abbrev S8x40x16 : Shape := ⟨3, ![8, 40, 16]⟩
abbrev S40x2000 : Shape := ⟨2, ![40, 2000]⟩
abbrev S8x40x5120 : Shape := ⟨3, ![8, 40, 5120]⟩
abbrev S40 : Shape := ⟨1, ![40]⟩
abbrev S8x1x5120 : Shape := ⟨3, ![8, 1, 5120]⟩
abbrev S1x40x5120 : Shape := ⟨3, ![1, 40, 5120]⟩
abbrev S40x5120 : Shape := ⟨2, ![40, 5120]⟩
abbrev S1x40x16 : Shape := ⟨3, ![1, 40, 16]⟩
abbrev S40x16 : Shape := ⟨2, ![40, 16]⟩
abbrev S1x16x2000 : Shape := ⟨3, ![1, 16, 2000]⟩
abbrev S16x2000 : Shape := ⟨2, ![16, 2000]⟩

abbrev nBuf : Space → Nat
  | .hbm => 63
  | .vmem => 7
  | .smem => 1
  | _ => 0

abbrev bufTy : (tb : Table) → Fin (tcTables nBuf tb) → BufTy
  | .hbm, ⟨0, _⟩ => ⟨S8x5000x5000, .f32⟩
  | .hbm, ⟨1, _⟩ => ⟨S8x16x5000, .f32⟩
  | .hbm, ⟨2, _⟩ => ⟨S8x5000x16, .f32⟩
  | .hbm, ⟨3, _⟩ => ⟨S2000, .i32⟩
  | .hbm, ⟨4, _⟩ => ⟨S_, .i32⟩
  | .hbm, ⟨5, _⟩ => ⟨S2000, .i32⟩
  | .hbm, ⟨6, _⟩ => ⟨S2000, .i1⟩
  | .hbm, ⟨7, _⟩ => ⟨S_, .i32⟩
  | .hbm, ⟨8, _⟩ => ⟨S2000, .i32⟩
  | .hbm, ⟨9, _⟩ => ⟨S2000, .i32⟩
  | .hbm, ⟨10, _⟩ => ⟨S2000, .i32⟩
  | .hbm, ⟨11, _⟩ => ⟨S2000x1, .i32⟩
  | .hbm, ⟨12, _⟩ => ⟨S1, .i32⟩
  | .hbm, ⟨13, _⟩ => ⟨S_, .i32⟩
  | .hbm, ⟨14, _⟩ => ⟨S2000x1, .i32⟩
  | .hbm, ⟨15, _⟩ => ⟨S2000x1, .i1⟩
  | .hbm, ⟨16, _⟩ => ⟨S1x1, .i32⟩
  | .hbm, ⟨17, _⟩ => ⟨S2000x1, .i32⟩
  | .hbm, ⟨18, _⟩ => ⟨S2000x1, .i1⟩
  | .hbm, ⟨19, _⟩ => ⟨S2000x1, .i1⟩
  | .hbm, ⟨20, _⟩ => ⟨S_, .i1⟩
  | .hbm, ⟨21, _⟩ => ⟨S2000, .i1⟩
  | .hbm, ⟨22, _⟩ => ⟨S8x2000x16, .f32⟩
  | .hbm, ⟨23, _⟩ => ⟨S8x2000x16, .i1⟩
  | .hbm, ⟨24, _⟩ => ⟨S_, .f32⟩
  | .hbm, ⟨25, _⟩ => ⟨S8x2000x16, .f32⟩
  | .hbm, ⟨26, _⟩ => ⟨S8x2000x16, .f32⟩
  | .hbm, ⟨27, _⟩ => ⟨S8x2000x16, .bf16⟩
  | .hbm, ⟨28, _⟩ => ⟨S_, .i32⟩
  | .hbm, ⟨29, _⟩ => ⟨S2000, .i32⟩
  | .hbm, ⟨30, _⟩ => ⟨S2000, .i1⟩
  | .hbm, ⟨31, _⟩ => ⟨S_, .i32⟩
  | .hbm, ⟨32, _⟩ => ⟨S2000, .i32⟩
  | .hbm, ⟨33, _⟩ => ⟨S2000, .i32⟩
  | .hbm, ⟨34, _⟩ => ⟨S2000, .i32⟩
  | .hbm, ⟨35, _⟩ => ⟨S2000x1, .i32⟩
  | .hbm, ⟨36, _⟩ => ⟨S1, .i32⟩
  | .hbm, ⟨37, _⟩ => ⟨S_, .i32⟩
  | .hbm, ⟨38, _⟩ => ⟨S2000x1, .i32⟩
  | .hbm, ⟨39, _⟩ => ⟨S2000x1, .i1⟩
  | .hbm, ⟨40, _⟩ => ⟨S1x1, .i32⟩
  | .hbm, ⟨41, _⟩ => ⟨S2000x1, .i32⟩
  | .hbm, ⟨42, _⟩ => ⟨S2000x1, .i1⟩
  | .hbm, ⟨43, _⟩ => ⟨S2000x1, .i1⟩
  | .hbm, ⟨44, _⟩ => ⟨S_, .i1⟩
  | .hbm, ⟨45, _⟩ => ⟨S2000, .i1⟩
  | .hbm, ⟨46, _⟩ => ⟨S8x16x2000, .f32⟩
  | .hbm, ⟨47, _⟩ => ⟨S8x16x2000, .i1⟩
  | .hbm, ⟨48, _⟩ => ⟨S_, .f32⟩
  | .hbm, ⟨49, _⟩ => ⟨S8x16x2000, .f32⟩
  | .hbm, ⟨50, _⟩ => ⟨S8x16x2000, .f32⟩
  | .hbm, ⟨51, _⟩ => ⟨S8x16x2000, .bf16⟩
  | .hbm, ⟨52, _⟩ => ⟨S2000x1, .i32⟩
  | .hbm, ⟨53, _⟩ => ⟨S1x5120, .i32⟩
  | .hbm, ⟨54, _⟩ => ⟨S2000x5120, .i32⟩
  | .hbm, ⟨55, _⟩ => ⟨S2000x5120, .i32⟩
  | .hbm, ⟨56, _⟩ => ⟨S2000x5120, .i1⟩
  | .hbm, ⟨57, _⟩ => ⟨S2000x5120, .bf16⟩
  | .hbm, ⟨58, _⟩ => ⟨S5120x2000, .bf16⟩
  | .hbm, ⟨59, _⟩ => ⟨S_, .i32⟩
  | .hbm, ⟨60, _⟩ => ⟨S_, .f32⟩
  | .hbm, ⟨61, _⟩ => ⟨S8x5000x5120, .f32⟩
  | .hbm, ⟨62, _⟩ => ⟨S2000x2000, .f32⟩
  | .local _ .vmem, ⟨0, _⟩ => ⟨S8x40x16, .bf16⟩
  | .local _ .vmem, ⟨1, _⟩ => ⟨S8x40x16, .bf16⟩
  | .local _ .vmem, ⟨2, _⟩ => ⟨S8x16x2000, .bf16⟩
  | .local _ .vmem, ⟨3, _⟩ => ⟨S5120x2000, .bf16⟩
  | .local _ .vmem, ⟨4, _⟩ => ⟨S40x2000, .f32⟩
  | .local _ .vmem, ⟨5, _⟩ => ⟨S40x2000, .f32⟩
  | .local _ .vmem, ⟨6, _⟩ => ⟨S8x40x5120, .f32⟩
  | .local _ .smem, ⟨0, _⟩ => ⟨S2000, .i32⟩
  | _, _ => ⟨S8x5000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v4 : Ref sig .tc := ⟨.hbm, 57, rfl⟩
abbrev main_v5 : Ref sig .tc := ⟨.hbm, 58, rfl⟩
abbrev main_c : Ref sig .tc := ⟨.hbm, 59, rfl⟩
abbrev main_call3_v0 : Ref sig .tc := ⟨.hbm, 60, rfl⟩
abbrev main_v6 : Ref sig .tc := ⟨.hbm, 61, rfl⟩
abbrev main_v7 : Ref sig .tc := ⟨.hbm, 62, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c40_i32 : BitVec 32 := 40#32
  let v0 : BitVec 32 := Scalar.muli arg0 c40_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![0, v3.toNat, 0]

def k0_off3 (i : grid0.Coords) : Fin 1 → Nat :=
  let arg0 : BitVec 32 := BitVec.ofNat 32 (i 0).val
  let c40_i32 : BitVec 32 := 40#32
  let v0 : BitVec 32 := Scalar.muli arg0 c40_i32
  let c1_i32 : BitVec 32 := 1#32
  let v8 : BitVec 32 := Scalar.addi v0 c1_i32
  let v9 : Index := Scalar.indexCast v8
  ![v9.toNat]
def k0_off4 (v10 : BitVec 32) : Fin 3 → Nat :=
  let c0_i32_10 : BitVec 32 := 0#32
  let c0_i32_11 : BitVec 32 := 0#32
  ![0, v10.toNat, 0]

def k0_off5 (i : grid0.Coords) : Fin 1 → Nat :=
  let arg0 : BitVec 32 := BitVec.ofNat 32 (i 0).val
  let c40_i32 : BitVec 32 := 40#32
  let v0 : BitVec 32 := Scalar.muli arg0 c40_i32
  let c2_i32 : BitVec 32 := 2#32
  let v15 : BitVec 32 := Scalar.addi v0 c2_i32
  let v16 : Index := Scalar.indexCast v15
  ![v16.toNat]
def k0_off6 (v17 : BitVec 32) : Fin 3 → Nat :=
  let c0_i32_16 : BitVec 32 := 0#32
  let c0_i32_17 : BitVec 32 := 0#32
  ![0, v17.toNat, 0]

def k0_off7 (i : grid0.Coords) : Fin 1 → Nat :=
  let arg0 : BitVec 32 := BitVec.ofNat 32 (i 0).val
  let c40_i32 : BitVec 32 := 40#32
  let v0 : BitVec 32 := Scalar.muli arg0 c40_i32
  let c3_i32 : BitVec 32 := 3#32
  let v22 : BitVec 32 := Scalar.addi v0 c3_i32
  let v23 : Index := Scalar.indexCast v22
  ![v23.toNat]
def k0_off8 (v24 : BitVec 32) : Fin 3 → Nat :=
  let c0_i32_22 : BitVec 32 := 0#32
  let c0_i32_23 : BitVec 32 := 0#32
  ![0, v24.toNat, 0]

def k0_off9 (i : grid0.Coords) : Fin 1 → Nat :=
  let arg0 : BitVec 32 := BitVec.ofNat 32 (i 0).val
  let c40_i32 : BitVec 32 := 40#32
  let v0 : BitVec 32 := Scalar.muli arg0 c40_i32
  let c4_i32 : BitVec 32 := 4#32
  let v29 : BitVec 32 := Scalar.addi v0 c4_i32
  let v30 : Index := Scalar.indexCast v29
  ![v30.toNat]
def k0_off10 (v31 : BitVec 32) : Fin 3 → Nat :=
  let c0_i32_28 : BitVec 32 := 0#32
  let c0_i32_29 : BitVec 32 := 0#32
  ![0, v31.toNat, 0]

def k0_off11 (i : grid0.Coords) : Fin 1 → Nat :=
  let arg0 : BitVec 32 := BitVec.ofNat 32 (i 0).val
  let c40_i32 : BitVec 32 := 40#32
  let v0 : BitVec 32 := Scalar.muli arg0 c40_i32
  let c5_i32 : BitVec 32 := 5#32
  let v36 : BitVec 32 := Scalar.addi v0 c5_i32
  let v37 : Index := Scalar.indexCast v36
  ![v37.toNat]
def k0_off12 (v38 : BitVec 32) : Fin 3 → Nat :=
  let c0_i32_34 : BitVec 32 := 0#32
  let c0_i32_35 : BitVec 32 := 0#32
  ![0, v38.toNat, 0]

def k0_off13 (i : grid0.Coords) : Fin 1 → Nat :=
  let arg0 : BitVec 32 := BitVec.ofNat 32 (i 0).val
  let c40_i32 : BitVec 32 := 40#32
  let v0 : BitVec 32 := Scalar.muli arg0 c40_i32
  let c6_i32 : BitVec 32 := 6#32
  let v43 : BitVec 32 := Scalar.addi v0 c6_i32
  let v44 : Index := Scalar.indexCast v43
  ![v44.toNat]
def k0_off14 (v45 : BitVec 32) : Fin 3 → Nat :=
  let c0_i32_40 : BitVec 32 := 0#32
  let c0_i32_41 : BitVec 32 := 0#32
  ![0, v45.toNat, 0]

def k0_off15 (i : grid0.Coords) : Fin 1 → Nat :=
  let arg0 : BitVec 32 := BitVec.ofNat 32 (i 0).val
  let c40_i32 : BitVec 32 := 40#32
  let v0 : BitVec 32 := Scalar.muli arg0 c40_i32
  let c7_i32 : BitVec 32 := 7#32
  let v50 : BitVec 32 := Scalar.addi v0 c7_i32
  let v51 : Index := Scalar.indexCast v50
  ![v51.toNat]
def k0_off16 (v52 : BitVec 32) : Fin 3 → Nat :=
  let c0_i32_46 : BitVec 32 := 0#32
  let c0_i32_47 : BitVec 32 := 0#32
  ![0, v52.toNat, 0]

def k0_off17 (i : grid0.Coords) : Fin 1 → Nat :=
  let arg0 : BitVec 32 := BitVec.ofNat 32 (i 0).val
  let c40_i32 : BitVec 32 := 40#32
  let v0 : BitVec 32 := Scalar.muli arg0 c40_i32
  let c8_i32 : BitVec 32 := 8#32
  let v57 : BitVec 32 := Scalar.addi v0 c8_i32
  let v58 : Index := Scalar.indexCast v57
  ![v58.toNat]
def k0_off18 (v59 : BitVec 32) : Fin 3 → Nat :=
  let c0_i32_52 : BitVec 32 := 0#32
  let c0_i32_53 : BitVec 32 := 0#32
  ![0, v59.toNat, 0]

def k0_off19 (i : grid0.Coords) : Fin 1 → Nat :=
  let arg0 : BitVec 32 := BitVec.ofNat 32 (i 0).val
  let c40_i32 : BitVec 32 := 40#32
  let v0 : BitVec 32 := Scalar.muli arg0 c40_i32
  let c9_i32 : BitVec 32 := 9#32
  let v64 : BitVec 32 := Scalar.addi v0 c9_i32
  let v65 : Index := Scalar.indexCast v64
  ![v65.toNat]
def k0_off20 (v66 : BitVec 32) : Fin 3 → Nat :=
  let c0_i32_58 : BitVec 32 := 0#32
  let c0_i32_59 : BitVec 32 := 0#32
  ![0, v66.toNat, 0]

def k0_off21 (i : grid0.Coords) : Fin 1 → Nat :=
  let arg0 : BitVec 32 := BitVec.ofNat 32 (i 0).val
  let c40_i32 : BitVec 32 := 40#32
  let v0 : BitVec 32 := Scalar.muli arg0 c40_i32
  let c10_i32 : BitVec 32 := 10#32
  let v71 : BitVec 32 := Scalar.addi v0 c10_i32
  let v72 : Index := Scalar.indexCast v71
  ![v72.toNat]
def k0_off22 (v73 : BitVec 32) : Fin 3 → Nat :=
  let c0_i32_64 : BitVec 32 := 0#32
  let c0_i32_65 : BitVec 32 := 0#32
  ![0, v73.toNat, 0]

def k0_off23 (i : grid0.Coords) : Fin 1 → Nat :=
  let arg0 : BitVec 32 := BitVec.ofNat 32 (i 0).val
  let c40_i32 : BitVec 32 := 40#32
  let v0 : BitVec 32 := Scalar.muli arg0 c40_i32
  let c11_i32 : BitVec 32 := 11#32
  let v78 : BitVec 32 := Scalar.addi v0 c11_i32
  let v79 : Index := Scalar.indexCast v78
  ![v79.toNat]
def k0_off24 (v80 : BitVec 32) : Fin 3 → Nat :=
  let c0_i32_70 : BitVec 32 := 0#32
  let c0_i32_71 : BitVec 32 := 0#32
  ![0, v80.toNat, 0]

def k0_off25 (i : grid0.Coords) : Fin 1 → Nat :=
  let arg0 : BitVec 32 := BitVec.ofNat 32 (i 0).val
  let c40_i32 : BitVec 32 := 40#32
  let v0 : BitVec 32 := Scalar.muli arg0 c40_i32
  let c12_i32 : BitVec 32 := 12#32
  let v85 : BitVec 32 := Scalar.addi v0 c12_i32
  let v86 : Index := Scalar.indexCast v85
  ![v86.toNat]
def k0_off26 (v87 : BitVec 32) : Fin 3 → Nat :=
  let c0_i32_76 : BitVec 32 := 0#32
  let c0_i32_77 : BitVec 32 := 0#32
  ![0, v87.toNat, 0]

def k0_off27 (i : grid0.Coords) : Fin 1 → Nat :=
  let arg0 : BitVec 32 := BitVec.ofNat 32 (i 0).val
  let c40_i32 : BitVec 32 := 40#32
  let v0 : BitVec 32 := Scalar.muli arg0 c40_i32
  let c13_i32 : BitVec 32 := 13#32
  let v92 : BitVec 32 := Scalar.addi v0 c13_i32
  let v93 : Index := Scalar.indexCast v92
  ![v93.toNat]
def k0_off28 (v94 : BitVec 32) : Fin 3 → Nat :=
  let c0_i32_82 : BitVec 32 := 0#32
  let c0_i32_83 : BitVec 32 := 0#32
  ![0, v94.toNat, 0]

def k0_off29 (i : grid0.Coords) : Fin 1 → Nat :=
  let arg0 : BitVec 32 := BitVec.ofNat 32 (i 0).val
  let c40_i32 : BitVec 32 := 40#32
  let v0 : BitVec 32 := Scalar.muli arg0 c40_i32
  let c14_i32 : BitVec 32 := 14#32
  let v99 : BitVec 32 := Scalar.addi v0 c14_i32
  let v100 : Index := Scalar.indexCast v99
  ![v100.toNat]
def k0_off30 (v101 : BitVec 32) : Fin 3 → Nat :=
  let c0_i32_88 : BitVec 32 := 0#32
  let c0_i32_89 : BitVec 32 := 0#32
  ![0, v101.toNat, 0]

def k0_off31 (i : grid0.Coords) : Fin 1 → Nat :=
  let arg0 : BitVec 32 := BitVec.ofNat 32 (i 0).val
  let c40_i32 : BitVec 32 := 40#32
  let v0 : BitVec 32 := Scalar.muli arg0 c40_i32
  let c15_i32 : BitVec 32 := 15#32
  let v106 : BitVec 32 := Scalar.addi v0 c15_i32
  let v107 : Index := Scalar.indexCast v106
  ![v107.toNat]
def k0_off32 (v108 : BitVec 32) : Fin 3 → Nat :=
  let c0_i32_94 : BitVec 32 := 0#32
  let c0_i32_95 : BitVec 32 := 0#32
  ![0, v108.toNat, 0]

def k0_off33 (i : grid0.Coords) : Fin 1 → Nat :=
  let arg0 : BitVec 32 := BitVec.ofNat 32 (i 0).val
  let c40_i32 : BitVec 32 := 40#32
  let v0 : BitVec 32 := Scalar.muli arg0 c40_i32
  let c16_i32 : BitVec 32 := 16#32
  let v113 : BitVec 32 := Scalar.addi v0 c16_i32
  let v114 : Index := Scalar.indexCast v113
  ![v114.toNat]
def k0_off34 (v115 : BitVec 32) : Fin 3 → Nat :=
  let c0_i32_100 : BitVec 32 := 0#32
  let c0_i32_101 : BitVec 32 := 0#32
  ![0, v115.toNat, 0]

def k0_off35 (i : grid0.Coords) : Fin 1 → Nat :=
  let arg0 : BitVec 32 := BitVec.ofNat 32 (i 0).val
  let c40_i32 : BitVec 32 := 40#32
  let v0 : BitVec 32 := Scalar.muli arg0 c40_i32
  let c17_i32 : BitVec 32 := 17#32
  let v120 : BitVec 32 := Scalar.addi v0 c17_i32
  let v121 : Index := Scalar.indexCast v120
  ![v121.toNat]
def k0_off36 (v122 : BitVec 32) : Fin 3 → Nat :=
  let c0_i32_106 : BitVec 32 := 0#32
  let c0_i32_107 : BitVec 32 := 0#32
  ![0, v122.toNat, 0]

def k0_off37 (i : grid0.Coords) : Fin 1 → Nat :=
  let arg0 : BitVec 32 := BitVec.ofNat 32 (i 0).val
  let c40_i32 : BitVec 32 := 40#32
  let v0 : BitVec 32 := Scalar.muli arg0 c40_i32
  let c18_i32 : BitVec 32 := 18#32
  let v127 : BitVec 32 := Scalar.addi v0 c18_i32
  let v128 : Index := Scalar.indexCast v127
  ![v128.toNat]
def k0_off38 (v129 : BitVec 32) : Fin 3 → Nat :=
  let c0_i32_112 : BitVec 32 := 0#32
  let c0_i32_113 : BitVec 32 := 0#32
  ![0, v129.toNat, 0]

def k0_off39 (i : grid0.Coords) : Fin 1 → Nat :=
  let arg0 : BitVec 32 := BitVec.ofNat 32 (i 0).val
  let c40_i32 : BitVec 32 := 40#32
  let v0 : BitVec 32 := Scalar.muli arg0 c40_i32
  let c19_i32 : BitVec 32 := 19#32
  let v134 : BitVec 32 := Scalar.addi v0 c19_i32
  let v135 : Index := Scalar.indexCast v134
  ![v135.toNat]
def k0_off40 (v136 : BitVec 32) : Fin 3 → Nat :=
  let c0_i32_118 : BitVec 32 := 0#32
  let c0_i32_119 : BitVec 32 := 0#32
  ![0, v136.toNat, 0]

def k0_off41 (i : grid0.Coords) : Fin 1 → Nat :=
  let arg0 : BitVec 32 := BitVec.ofNat 32 (i 0).val
  let c40_i32 : BitVec 32 := 40#32
  let v0 : BitVec 32 := Scalar.muli arg0 c40_i32
  let c20_i32 : BitVec 32 := 20#32
  let v141 : BitVec 32 := Scalar.addi v0 c20_i32
  let v142 : Index := Scalar.indexCast v141
  ![v142.toNat]
def k0_off42 (v143 : BitVec 32) : Fin 3 → Nat :=
  let c0_i32_124 : BitVec 32 := 0#32
  let c0_i32_125 : BitVec 32 := 0#32
  ![0, v143.toNat, 0]

def k0_off43 (i : grid0.Coords) : Fin 1 → Nat :=
  let arg0 : BitVec 32 := BitVec.ofNat 32 (i 0).val
  let c40_i32 : BitVec 32 := 40#32
  let v0 : BitVec 32 := Scalar.muli arg0 c40_i32
  let c21_i32 : BitVec 32 := 21#32
  let v148 : BitVec 32 := Scalar.addi v0 c21_i32
  let v149 : Index := Scalar.indexCast v148
  ![v149.toNat]
def k0_off44 (v150 : BitVec 32) : Fin 3 → Nat :=
  let c0_i32_130 : BitVec 32 := 0#32
  let c0_i32_131 : BitVec 32 := 0#32
  ![0, v150.toNat, 0]

def k0_off45 (i : grid0.Coords) : Fin 1 → Nat :=
  let arg0 : BitVec 32 := BitVec.ofNat 32 (i 0).val
  let c40_i32 : BitVec 32 := 40#32
  let v0 : BitVec 32 := Scalar.muli arg0 c40_i32
  let c22_i32 : BitVec 32 := 22#32
  let v155 : BitVec 32 := Scalar.addi v0 c22_i32
  let v156 : Index := Scalar.indexCast v155
  ![v156.toNat]
def k0_off46 (v157 : BitVec 32) : Fin 3 → Nat :=
  let c0_i32_136 : BitVec 32 := 0#32
  let c0_i32_137 : BitVec 32 := 0#32
  ![0, v157.toNat, 0]

def k0_off47 (i : grid0.Coords) : Fin 1 → Nat :=
  let arg0 : BitVec 32 := BitVec.ofNat 32 (i 0).val
  let c40_i32 : BitVec 32 := 40#32
  let v0 : BitVec 32 := Scalar.muli arg0 c40_i32
  let c23_i32 : BitVec 32 := 23#32
  let v162 : BitVec 32 := Scalar.addi v0 c23_i32
  let v163 : Index := Scalar.indexCast v162
  ![v163.toNat]
def k0_off48 (v164 : BitVec 32) : Fin 3 → Nat :=
  let c0_i32_142 : BitVec 32 := 0#32
  let c0_i32_143 : BitVec 32 := 0#32
  ![0, v164.toNat, 0]

def k0_off49 (i : grid0.Coords) : Fin 1 → Nat :=
  let arg0 : BitVec 32 := BitVec.ofNat 32 (i 0).val
  let c40_i32 : BitVec 32 := 40#32
  let v0 : BitVec 32 := Scalar.muli arg0 c40_i32
  let c24_i32 : BitVec 32 := 24#32
  let v169 : BitVec 32 := Scalar.addi v0 c24_i32
  let v170 : Index := Scalar.indexCast v169
  ![v170.toNat]
def k0_off50 (v171 : BitVec 32) : Fin 3 → Nat :=
  let c0_i32_148 : BitVec 32 := 0#32
  let c0_i32_149 : BitVec 32 := 0#32
  ![0, v171.toNat, 0]

def k0_off51 (i : grid0.Coords) : Fin 1 → Nat :=
  let arg0 : BitVec 32 := BitVec.ofNat 32 (i 0).val
  let c40_i32 : BitVec 32 := 40#32
  let v0 : BitVec 32 := Scalar.muli arg0 c40_i32
  let c25_i32 : BitVec 32 := 25#32
  let v176 : BitVec 32 := Scalar.addi v0 c25_i32
  let v177 : Index := Scalar.indexCast v176
  ![v177.toNat]
def k0_off52 (v178 : BitVec 32) : Fin 3 → Nat :=
  let c0_i32_154 : BitVec 32 := 0#32
  let c0_i32_155 : BitVec 32 := 0#32
  ![0, v178.toNat, 0]

def k0_off53 (i : grid0.Coords) : Fin 1 → Nat :=
  let arg0 : BitVec 32 := BitVec.ofNat 32 (i 0).val
  let c40_i32 : BitVec 32 := 40#32
  let v0 : BitVec 32 := Scalar.muli arg0 c40_i32
  let c26_i32 : BitVec 32 := 26#32
  let v183 : BitVec 32 := Scalar.addi v0 c26_i32
  let v184 : Index := Scalar.indexCast v183
  ![v184.toNat]
def k0_off54 (v185 : BitVec 32) : Fin 3 → Nat :=
  let c0_i32_160 : BitVec 32 := 0#32
  let c0_i32_161 : BitVec 32 := 0#32
  ![0, v185.toNat, 0]

def k0_off55 (i : grid0.Coords) : Fin 1 → Nat :=
  let arg0 : BitVec 32 := BitVec.ofNat 32 (i 0).val
  let c40_i32 : BitVec 32 := 40#32
  let v0 : BitVec 32 := Scalar.muli arg0 c40_i32
  let c27_i32 : BitVec 32 := 27#32
  let v190 : BitVec 32 := Scalar.addi v0 c27_i32
  let v191 : Index := Scalar.indexCast v190
  ![v191.toNat]
def k0_off56 (v192 : BitVec 32) : Fin 3 → Nat :=
  let c0_i32_166 : BitVec 32 := 0#32
  let c0_i32_167 : BitVec 32 := 0#32
  ![0, v192.toNat, 0]

def k0_off57 (i : grid0.Coords) : Fin 1 → Nat :=
  let arg0 : BitVec 32 := BitVec.ofNat 32 (i 0).val
  let c40_i32 : BitVec 32 := 40#32
  let v0 : BitVec 32 := Scalar.muli arg0 c40_i32
  let c28_i32 : BitVec 32 := 28#32
  let v197 : BitVec 32 := Scalar.addi v0 c28_i32
  let v198 : Index := Scalar.indexCast v197
  ![v198.toNat]
def k0_off58 (v199 : BitVec 32) : Fin 3 → Nat :=
  let c0_i32_172 : BitVec 32 := 0#32
  let c0_i32_173 : BitVec 32 := 0#32
  ![0, v199.toNat, 0]

def k0_off59 (i : grid0.Coords) : Fin 1 → Nat :=
  let arg0 : BitVec 32 := BitVec.ofNat 32 (i 0).val
  let c40_i32 : BitVec 32 := 40#32
  let v0 : BitVec 32 := Scalar.muli arg0 c40_i32
  let c29_i32 : BitVec 32 := 29#32
  let v204 : BitVec 32 := Scalar.addi v0 c29_i32
  let v205 : Index := Scalar.indexCast v204
  ![v205.toNat]
def k0_off60 (v206 : BitVec 32) : Fin 3 → Nat :=
  let c0_i32_178 : BitVec 32 := 0#32
  let c0_i32_179 : BitVec 32 := 0#32
  ![0, v206.toNat, 0]

def k0_off61 (i : grid0.Coords) : Fin 1 → Nat :=
  let arg0 : BitVec 32 := BitVec.ofNat 32 (i 0).val
  let c40_i32 : BitVec 32 := 40#32
  let v0 : BitVec 32 := Scalar.muli arg0 c40_i32
  let c30_i32 : BitVec 32 := 30#32
  let v211 : BitVec 32 := Scalar.addi v0 c30_i32
  let v212 : Index := Scalar.indexCast v211
  ![v212.toNat]
def k0_off62 (v213 : BitVec 32) : Fin 3 → Nat :=
  let c0_i32_184 : BitVec 32 := 0#32
  let c0_i32_185 : BitVec 32 := 0#32
  ![0, v213.toNat, 0]

def k0_off63 (i : grid0.Coords) : Fin 1 → Nat :=
  let arg0 : BitVec 32 := BitVec.ofNat 32 (i 0).val
  let c40_i32 : BitVec 32 := 40#32
  let v0 : BitVec 32 := Scalar.muli arg0 c40_i32
  let c31_i32 : BitVec 32 := 31#32
  let v218 : BitVec 32 := Scalar.addi v0 c31_i32
  let v219 : Index := Scalar.indexCast v218
  ![v219.toNat]
def k0_off64 (v220 : BitVec 32) : Fin 3 → Nat :=
  let c0_i32_190 : BitVec 32 := 0#32
  let c0_i32_191 : BitVec 32 := 0#32
  ![0, v220.toNat, 0]

def k0_off65 (i : grid0.Coords) : Fin 1 → Nat :=
  let arg0 : BitVec 32 := BitVec.ofNat 32 (i 0).val
  let c40_i32 : BitVec 32 := 40#32
  let v0 : BitVec 32 := Scalar.muli arg0 c40_i32
  let c32_i32 : BitVec 32 := 32#32
  let v225 : BitVec 32 := Scalar.addi v0 c32_i32
  let v226 : Index := Scalar.indexCast v225
  ![v226.toNat]
def k0_off66 (v227 : BitVec 32) : Fin 3 → Nat :=
  let c0_i32_196 : BitVec 32 := 0#32
  let c0_i32_197 : BitVec 32 := 0#32
  ![0, v227.toNat, 0]

def k0_off67 (i : grid0.Coords) : Fin 1 → Nat :=
  let arg0 : BitVec 32 := BitVec.ofNat 32 (i 0).val
  let c40_i32 : BitVec 32 := 40#32
  let v0 : BitVec 32 := Scalar.muli arg0 c40_i32
  let c33_i32 : BitVec 32 := 33#32
  let v232 : BitVec 32 := Scalar.addi v0 c33_i32
  let v233 : Index := Scalar.indexCast v232
  ![v233.toNat]
def k0_off68 (v234 : BitVec 32) : Fin 3 → Nat :=
  let c0_i32_202 : BitVec 32 := 0#32
  let c0_i32_203 : BitVec 32 := 0#32
  ![0, v234.toNat, 0]

def k0_off69 (i : grid0.Coords) : Fin 1 → Nat :=
  let arg0 : BitVec 32 := BitVec.ofNat 32 (i 0).val
  let c40_i32 : BitVec 32 := 40#32
  let v0 : BitVec 32 := Scalar.muli arg0 c40_i32
  let c34_i32 : BitVec 32 := 34#32
  let v239 : BitVec 32 := Scalar.addi v0 c34_i32
  let v240 : Index := Scalar.indexCast v239
  ![v240.toNat]
def k0_off70 (v241 : BitVec 32) : Fin 3 → Nat :=
  let c0_i32_208 : BitVec 32 := 0#32
  let c0_i32_209 : BitVec 32 := 0#32
  ![0, v241.toNat, 0]

def k0_off71 (i : grid0.Coords) : Fin 1 → Nat :=
  let arg0 : BitVec 32 := BitVec.ofNat 32 (i 0).val
  let c40_i32 : BitVec 32 := 40#32
  let v0 : BitVec 32 := Scalar.muli arg0 c40_i32
  let c35_i32 : BitVec 32 := 35#32
  let v246 : BitVec 32 := Scalar.addi v0 c35_i32
  let v247 : Index := Scalar.indexCast v246
  ![v247.toNat]
def k0_off72 (v248 : BitVec 32) : Fin 3 → Nat :=
  let c0_i32_214 : BitVec 32 := 0#32
  let c0_i32_215 : BitVec 32 := 0#32
  ![0, v248.toNat, 0]

def k0_off73 (i : grid0.Coords) : Fin 1 → Nat :=
  let arg0 : BitVec 32 := BitVec.ofNat 32 (i 0).val
  let c40_i32 : BitVec 32 := 40#32
  let v0 : BitVec 32 := Scalar.muli arg0 c40_i32
  let c36_i32 : BitVec 32 := 36#32
  let v253 : BitVec 32 := Scalar.addi v0 c36_i32
  let v254 : Index := Scalar.indexCast v253
  ![v254.toNat]
def k0_off74 (v255 : BitVec 32) : Fin 3 → Nat :=
  let c0_i32_220 : BitVec 32 := 0#32
  let c0_i32_221 : BitVec 32 := 0#32
  ![0, v255.toNat, 0]

def k0_off75 (i : grid0.Coords) : Fin 1 → Nat :=
  let arg0 : BitVec 32 := BitVec.ofNat 32 (i 0).val
  let c40_i32 : BitVec 32 := 40#32
  let v0 : BitVec 32 := Scalar.muli arg0 c40_i32
  let c37_i32 : BitVec 32 := 37#32
  let v260 : BitVec 32 := Scalar.addi v0 c37_i32
  let v261 : Index := Scalar.indexCast v260
  ![v261.toNat]
def k0_off76 (v262 : BitVec 32) : Fin 3 → Nat :=
  let c0_i32_226 : BitVec 32 := 0#32
  let c0_i32_227 : BitVec 32 := 0#32
  ![0, v262.toNat, 0]

def k0_off77 (i : grid0.Coords) : Fin 1 → Nat :=
  let arg0 : BitVec 32 := BitVec.ofNat 32 (i 0).val
  let c40_i32 : BitVec 32 := 40#32
  let v0 : BitVec 32 := Scalar.muli arg0 c40_i32
  let c38_i32 : BitVec 32 := 38#32
  let v267 : BitVec 32 := Scalar.addi v0 c38_i32
  let v268 : Index := Scalar.indexCast v267
  ![v268.toNat]
def k0_off78 (v269 : BitVec 32) : Fin 3 → Nat :=
  let c0_i32_232 : BitVec 32 := 0#32
  let c0_i32_233 : BitVec 32 := 0#32
  ![0, v269.toNat, 0]

def k0_off79 (i : grid0.Coords) : Fin 1 → Nat :=
  let arg0 : BitVec 32 := BitVec.ofNat 32 (i 0).val
  let c40_i32 : BitVec 32 := 40#32
  let v0 : BitVec 32 := Scalar.muli arg0 c40_i32
  let c39_i32 : BitVec 32 := 39#32
  let v274 : BitVec 32 := Scalar.addi v0 c39_i32
  let v275 : Index := Scalar.indexCast v274
  ![v275.toNat]
def k0_off80 (v276 : BitVec 32) : Fin 3 → Nat :=
  let c0_i32_238 : BitVec 32 := 0#32
  let c0_i32_239 : BitVec 32 := 0#32
  ![0, v276.toNat, 0]

def k0_chk40 (v276 : BitVec 32) : Prop :=
  (∀ a, (k0_off80 v276) a + S8x1x5120.size a ≤ S8x5000x5120.size a)
instance k0_chk40.dec : ∀ (v276 : BitVec 32), Decidable (k0_chk40 v276) := fun v276 => decidable_of_iff' _ (Iff.of_eq (k0_chk40.eq_1 v276))
theorem k0_off80_inb : ∀ (v276 : BitVec 32) (k0_hw40 : k0_chk40 v276), ∀ a, (k0_off80 v276) a + S8x1x5120.size a ≤ S8x5000x5120.size a := fun v276 k0_hw40 => k0_hw40

def k0_off81 (v3 : BitVec 32) : Fin 3 → Nat :=
  let c0_i32_244 : BitVec 32 := 0#32
  let c0_i32_245 : BitVec 32 := 0#32
  ![0, v3.toNat, 0]

def k0_chk1 (v3 : BitVec 32) : Prop :=
  (∀ a, (k0_off2 v3) a + S8x1x5120.size a ≤ S8x5000x5120.size a) ∧
  (∀ a, (k0_off81 v3) a + S8x1x5120.size a ≤ S8x5000x5120.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S8x1x5120.size a ≤ S8x5000x5120.size a := fun v3 k0_hw1 => k0_hw1.1
theorem k0_off81_inb : ∀ (v3 : BitVec 32) (k0_hw1 : k0_chk1 v3), ∀ a, (k0_off81 v3) a + S8x1x5120.size a ≤ S8x5000x5120.size a := fun v3 k0_hw1 => k0_hw1.2

def k0_off82 (v10 : BitVec 32) : Fin 3 → Nat :=
  let c0_i32_250 : BitVec 32 := 0#32
  let c0_i32_251 : BitVec 32 := 0#32
  ![0, v10.toNat, 0]

def k0_chk2 (v10 : BitVec 32) : Prop :=
  (∀ a, (k0_off4 v10) a + S8x1x5120.size a ≤ S8x5000x5120.size a) ∧
  (∀ a, (k0_off82 v10) a + S8x1x5120.size a ≤ S8x5000x5120.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S8x1x5120.size a ≤ S8x5000x5120.size a := fun v10 k0_hw2 => k0_hw2.1
theorem k0_off82_inb : ∀ (v10 : BitVec 32) (k0_hw2 : k0_chk2 v10), ∀ a, (k0_off82 v10) a + S8x1x5120.size a ≤ S8x5000x5120.size a := fun v10 k0_hw2 => k0_hw2.2

def k0_off83 (v17 : BitVec 32) : Fin 3 → Nat :=
  let c0_i32_256 : BitVec 32 := 0#32
  let c0_i32_257 : BitVec 32 := 0#32
  ![0, v17.toNat, 0]

def k0_chk3 (v17 : BitVec 32) : Prop :=
  (∀ a, (k0_off6 v17) a + S8x1x5120.size a ≤ S8x5000x5120.size a) ∧
  (∀ a, (k0_off83 v17) a + S8x1x5120.size a ≤ S8x5000x5120.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S8x1x5120.size a ≤ S8x5000x5120.size a := fun v17 k0_hw3 => k0_hw3.1
theorem k0_off83_inb : ∀ (v17 : BitVec 32) (k0_hw3 : k0_chk3 v17), ∀ a, (k0_off83 v17) a + S8x1x5120.size a ≤ S8x5000x5120.size a := fun v17 k0_hw3 => k0_hw3.2

def k0_off84 (v24 : BitVec 32) : Fin 3 → Nat :=
  let c0_i32_262 : BitVec 32 := 0#32
  let c0_i32_263 : BitVec 32 := 0#32
  ![0, v24.toNat, 0]

def k0_chk4 (v24 : BitVec 32) : Prop :=
  (∀ a, (k0_off8 v24) a + S8x1x5120.size a ≤ S8x5000x5120.size a) ∧
  (∀ a, (k0_off84 v24) a + S8x1x5120.size a ≤ S8x5000x5120.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S8x1x5120.size a ≤ S8x5000x5120.size a := fun v24 k0_hw4 => k0_hw4.1
theorem k0_off84_inb : ∀ (v24 : BitVec 32) (k0_hw4 : k0_chk4 v24), ∀ a, (k0_off84 v24) a + S8x1x5120.size a ≤ S8x5000x5120.size a := fun v24 k0_hw4 => k0_hw4.2

def k0_off85 (v31 : BitVec 32) : Fin 3 → Nat :=
  let c0_i32_268 : BitVec 32 := 0#32
  let c0_i32_269 : BitVec 32 := 0#32
  ![0, v31.toNat, 0]

def k0_chk5 (v31 : BitVec 32) : Prop :=
  (∀ a, (k0_off10 v31) a + S8x1x5120.size a ≤ S8x5000x5120.size a) ∧
  (∀ a, (k0_off85 v31) a + S8x1x5120.size a ≤ S8x5000x5120.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S8x1x5120.size a ≤ S8x5000x5120.size a := fun v31 k0_hw5 => k0_hw5.1
theorem k0_off85_inb : ∀ (v31 : BitVec 32) (k0_hw5 : k0_chk5 v31), ∀ a, (k0_off85 v31) a + S8x1x5120.size a ≤ S8x5000x5120.size a := fun v31 k0_hw5 => k0_hw5.2

def k0_off86 (v38 : BitVec 32) : Fin 3 → Nat :=
  let c0_i32_274 : BitVec 32 := 0#32
  let c0_i32_275 : BitVec 32 := 0#32
  ![0, v38.toNat, 0]

def k0_chk6 (v38 : BitVec 32) : Prop :=
  (∀ a, (k0_off12 v38) a + S8x1x5120.size a ≤ S8x5000x5120.size a) ∧
  (∀ a, (k0_off86 v38) a + S8x1x5120.size a ≤ S8x5000x5120.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S8x1x5120.size a ≤ S8x5000x5120.size a := fun v38 k0_hw6 => k0_hw6.1
theorem k0_off86_inb : ∀ (v38 : BitVec 32) (k0_hw6 : k0_chk6 v38), ∀ a, (k0_off86 v38) a + S8x1x5120.size a ≤ S8x5000x5120.size a := fun v38 k0_hw6 => k0_hw6.2

def k0_off87 (v45 : BitVec 32) : Fin 3 → Nat :=
  let c0_i32_280 : BitVec 32 := 0#32
  let c0_i32_281 : BitVec 32 := 0#32
  ![0, v45.toNat, 0]

def k0_chk7 (v45 : BitVec 32) : Prop :=
  (∀ a, (k0_off14 v45) a + S8x1x5120.size a ≤ S8x5000x5120.size a) ∧
  (∀ a, (k0_off87 v45) a + S8x1x5120.size a ≤ S8x5000x5120.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S8x1x5120.size a ≤ S8x5000x5120.size a := fun v45 k0_hw7 => k0_hw7.1
theorem k0_off87_inb : ∀ (v45 : BitVec 32) (k0_hw7 : k0_chk7 v45), ∀ a, (k0_off87 v45) a + S8x1x5120.size a ≤ S8x5000x5120.size a := fun v45 k0_hw7 => k0_hw7.2

def k0_off88 (v52 : BitVec 32) : Fin 3 → Nat :=
  let c0_i32_286 : BitVec 32 := 0#32
  let c0_i32_287 : BitVec 32 := 0#32
  ![0, v52.toNat, 0]

def k0_chk8 (v52 : BitVec 32) : Prop :=
  (∀ a, (k0_off16 v52) a + S8x1x5120.size a ≤ S8x5000x5120.size a) ∧
  (∀ a, (k0_off88 v52) a + S8x1x5120.size a ≤ S8x5000x5120.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S8x1x5120.size a ≤ S8x5000x5120.size a := fun v52 k0_hw8 => k0_hw8.1
theorem k0_off88_inb : ∀ (v52 : BitVec 32) (k0_hw8 : k0_chk8 v52), ∀ a, (k0_off88 v52) a + S8x1x5120.size a ≤ S8x5000x5120.size a := fun v52 k0_hw8 => k0_hw8.2

def k0_off89 (v59 : BitVec 32) : Fin 3 → Nat :=
  let c0_i32_292 : BitVec 32 := 0#32
  let c0_i32_293 : BitVec 32 := 0#32
  ![0, v59.toNat, 0]

def k0_chk9 (v59 : BitVec 32) : Prop :=
  (∀ a, (k0_off18 v59) a + S8x1x5120.size a ≤ S8x5000x5120.size a) ∧
  (∀ a, (k0_off89 v59) a + S8x1x5120.size a ≤ S8x5000x5120.size a)
instance k0_chk9.dec : ∀ (v59 : BitVec 32), Decidable (k0_chk9 v59) := fun v59 => decidable_of_iff' _ (Iff.of_eq (k0_chk9.eq_1 v59))
theorem k0_off18_inb : ∀ (v59 : BitVec 32) (k0_hw9 : k0_chk9 v59), ∀ a, (k0_off18 v59) a + S8x1x5120.size a ≤ S8x5000x5120.size a := fun v59 k0_hw9 => k0_hw9.1
theorem k0_off89_inb : ∀ (v59 : BitVec 32) (k0_hw9 : k0_chk9 v59), ∀ a, (k0_off89 v59) a + S8x1x5120.size a ≤ S8x5000x5120.size a := fun v59 k0_hw9 => k0_hw9.2

def k0_off90 (v66 : BitVec 32) : Fin 3 → Nat :=
  let c0_i32_298 : BitVec 32 := 0#32
  let c0_i32_299 : BitVec 32 := 0#32
  ![0, v66.toNat, 0]

def k0_chk10 (v66 : BitVec 32) : Prop :=
  (∀ a, (k0_off20 v66) a + S8x1x5120.size a ≤ S8x5000x5120.size a) ∧
  (∀ a, (k0_off90 v66) a + S8x1x5120.size a ≤ S8x5000x5120.size a)
instance k0_chk10.dec : ∀ (v66 : BitVec 32), Decidable (k0_chk10 v66) := fun v66 => decidable_of_iff' _ (Iff.of_eq (k0_chk10.eq_1 v66))
theorem k0_off20_inb : ∀ (v66 : BitVec 32) (k0_hw10 : k0_chk10 v66), ∀ a, (k0_off20 v66) a + S8x1x5120.size a ≤ S8x5000x5120.size a := fun v66 k0_hw10 => k0_hw10.1
theorem k0_off90_inb : ∀ (v66 : BitVec 32) (k0_hw10 : k0_chk10 v66), ∀ a, (k0_off90 v66) a + S8x1x5120.size a ≤ S8x5000x5120.size a := fun v66 k0_hw10 => k0_hw10.2

def k0_off91 (v73 : BitVec 32) : Fin 3 → Nat :=
  let c0_i32_304 : BitVec 32 := 0#32
  let c0_i32_305 : BitVec 32 := 0#32
  ![0, v73.toNat, 0]

def k0_chk11 (v73 : BitVec 32) : Prop :=
  (∀ a, (k0_off22 v73) a + S8x1x5120.size a ≤ S8x5000x5120.size a) ∧
  (∀ a, (k0_off91 v73) a + S8x1x5120.size a ≤ S8x5000x5120.size a)
instance k0_chk11.dec : ∀ (v73 : BitVec 32), Decidable (k0_chk11 v73) := fun v73 => decidable_of_iff' _ (Iff.of_eq (k0_chk11.eq_1 v73))
theorem k0_off22_inb : ∀ (v73 : BitVec 32) (k0_hw11 : k0_chk11 v73), ∀ a, (k0_off22 v73) a + S8x1x5120.size a ≤ S8x5000x5120.size a := fun v73 k0_hw11 => k0_hw11.1
theorem k0_off91_inb : ∀ (v73 : BitVec 32) (k0_hw11 : k0_chk11 v73), ∀ a, (k0_off91 v73) a + S8x1x5120.size a ≤ S8x5000x5120.size a := fun v73 k0_hw11 => k0_hw11.2

def k0_off92 (v80 : BitVec 32) : Fin 3 → Nat :=
  let c0_i32_310 : BitVec 32 := 0#32
  let c0_i32_311 : BitVec 32 := 0#32
  ![0, v80.toNat, 0]

def k0_chk12 (v80 : BitVec 32) : Prop :=
  (∀ a, (k0_off24 v80) a + S8x1x5120.size a ≤ S8x5000x5120.size a) ∧
  (∀ a, (k0_off92 v80) a + S8x1x5120.size a ≤ S8x5000x5120.size a)
instance k0_chk12.dec : ∀ (v80 : BitVec 32), Decidable (k0_chk12 v80) := fun v80 => decidable_of_iff' _ (Iff.of_eq (k0_chk12.eq_1 v80))
theorem k0_off24_inb : ∀ (v80 : BitVec 32) (k0_hw12 : k0_chk12 v80), ∀ a, (k0_off24 v80) a + S8x1x5120.size a ≤ S8x5000x5120.size a := fun v80 k0_hw12 => k0_hw12.1
theorem k0_off92_inb : ∀ (v80 : BitVec 32) (k0_hw12 : k0_chk12 v80), ∀ a, (k0_off92 v80) a + S8x1x5120.size a ≤ S8x5000x5120.size a := fun v80 k0_hw12 => k0_hw12.2

def k0_off93 (v87 : BitVec 32) : Fin 3 → Nat :=
  let c0_i32_316 : BitVec 32 := 0#32
  let c0_i32_317 : BitVec 32 := 0#32
  ![0, v87.toNat, 0]

def k0_chk13 (v87 : BitVec 32) : Prop :=
  (∀ a, (k0_off26 v87) a + S8x1x5120.size a ≤ S8x5000x5120.size a) ∧
  (∀ a, (k0_off93 v87) a + S8x1x5120.size a ≤ S8x5000x5120.size a)
instance k0_chk13.dec : ∀ (v87 : BitVec 32), Decidable (k0_chk13 v87) := fun v87 => decidable_of_iff' _ (Iff.of_eq (k0_chk13.eq_1 v87))
theorem k0_off26_inb : ∀ (v87 : BitVec 32) (k0_hw13 : k0_chk13 v87), ∀ a, (k0_off26 v87) a + S8x1x5120.size a ≤ S8x5000x5120.size a := fun v87 k0_hw13 => k0_hw13.1
theorem k0_off93_inb : ∀ (v87 : BitVec 32) (k0_hw13 : k0_chk13 v87), ∀ a, (k0_off93 v87) a + S8x1x5120.size a ≤ S8x5000x5120.size a := fun v87 k0_hw13 => k0_hw13.2

def k0_off94 (v94 : BitVec 32) : Fin 3 → Nat :=
  let c0_i32_322 : BitVec 32 := 0#32
  let c0_i32_323 : BitVec 32 := 0#32
  ![0, v94.toNat, 0]

def k0_chk14 (v94 : BitVec 32) : Prop :=
  (∀ a, (k0_off28 v94) a + S8x1x5120.size a ≤ S8x5000x5120.size a) ∧
  (∀ a, (k0_off94 v94) a + S8x1x5120.size a ≤ S8x5000x5120.size a)
instance k0_chk14.dec : ∀ (v94 : BitVec 32), Decidable (k0_chk14 v94) := fun v94 => decidable_of_iff' _ (Iff.of_eq (k0_chk14.eq_1 v94))
theorem k0_off28_inb : ∀ (v94 : BitVec 32) (k0_hw14 : k0_chk14 v94), ∀ a, (k0_off28 v94) a + S8x1x5120.size a ≤ S8x5000x5120.size a := fun v94 k0_hw14 => k0_hw14.1
theorem k0_off94_inb : ∀ (v94 : BitVec 32) (k0_hw14 : k0_chk14 v94), ∀ a, (k0_off94 v94) a + S8x1x5120.size a ≤ S8x5000x5120.size a := fun v94 k0_hw14 => k0_hw14.2

def k0_off95 (v101 : BitVec 32) : Fin 3 → Nat :=
  let c0_i32_328 : BitVec 32 := 0#32
  let c0_i32_329 : BitVec 32 := 0#32
  ![0, v101.toNat, 0]

def k0_chk15 (v101 : BitVec 32) : Prop :=
  (∀ a, (k0_off30 v101) a + S8x1x5120.size a ≤ S8x5000x5120.size a) ∧
  (∀ a, (k0_off95 v101) a + S8x1x5120.size a ≤ S8x5000x5120.size a)
instance k0_chk15.dec : ∀ (v101 : BitVec 32), Decidable (k0_chk15 v101) := fun v101 => decidable_of_iff' _ (Iff.of_eq (k0_chk15.eq_1 v101))
theorem k0_off30_inb : ∀ (v101 : BitVec 32) (k0_hw15 : k0_chk15 v101), ∀ a, (k0_off30 v101) a + S8x1x5120.size a ≤ S8x5000x5120.size a := fun v101 k0_hw15 => k0_hw15.1
theorem k0_off95_inb : ∀ (v101 : BitVec 32) (k0_hw15 : k0_chk15 v101), ∀ a, (k0_off95 v101) a + S8x1x5120.size a ≤ S8x5000x5120.size a := fun v101 k0_hw15 => k0_hw15.2

def k0_off96 (v108 : BitVec 32) : Fin 3 → Nat :=
  let c0_i32_334 : BitVec 32 := 0#32
  let c0_i32_335 : BitVec 32 := 0#32
  ![0, v108.toNat, 0]

def k0_chk16 (v108 : BitVec 32) : Prop :=
  (∀ a, (k0_off32 v108) a + S8x1x5120.size a ≤ S8x5000x5120.size a) ∧
  (∀ a, (k0_off96 v108) a + S8x1x5120.size a ≤ S8x5000x5120.size a)
instance k0_chk16.dec : ∀ (v108 : BitVec 32), Decidable (k0_chk16 v108) := fun v108 => decidable_of_iff' _ (Iff.of_eq (k0_chk16.eq_1 v108))
theorem k0_off32_inb : ∀ (v108 : BitVec 32) (k0_hw16 : k0_chk16 v108), ∀ a, (k0_off32 v108) a + S8x1x5120.size a ≤ S8x5000x5120.size a := fun v108 k0_hw16 => k0_hw16.1
theorem k0_off96_inb : ∀ (v108 : BitVec 32) (k0_hw16 : k0_chk16 v108), ∀ a, (k0_off96 v108) a + S8x1x5120.size a ≤ S8x5000x5120.size a := fun v108 k0_hw16 => k0_hw16.2

def k0_off97 (v115 : BitVec 32) : Fin 3 → Nat :=
  let c0_i32_340 : BitVec 32 := 0#32
  let c0_i32_341 : BitVec 32 := 0#32
  ![0, v115.toNat, 0]

def k0_chk17 (v115 : BitVec 32) : Prop :=
  (∀ a, (k0_off34 v115) a + S8x1x5120.size a ≤ S8x5000x5120.size a) ∧
  (∀ a, (k0_off97 v115) a + S8x1x5120.size a ≤ S8x5000x5120.size a)
instance k0_chk17.dec : ∀ (v115 : BitVec 32), Decidable (k0_chk17 v115) := fun v115 => decidable_of_iff' _ (Iff.of_eq (k0_chk17.eq_1 v115))
theorem k0_off34_inb : ∀ (v115 : BitVec 32) (k0_hw17 : k0_chk17 v115), ∀ a, (k0_off34 v115) a + S8x1x5120.size a ≤ S8x5000x5120.size a := fun v115 k0_hw17 => k0_hw17.1
theorem k0_off97_inb : ∀ (v115 : BitVec 32) (k0_hw17 : k0_chk17 v115), ∀ a, (k0_off97 v115) a + S8x1x5120.size a ≤ S8x5000x5120.size a := fun v115 k0_hw17 => k0_hw17.2

def k0_off98 (v122 : BitVec 32) : Fin 3 → Nat :=
  let c0_i32_346 : BitVec 32 := 0#32
  let c0_i32_347 : BitVec 32 := 0#32
  ![0, v122.toNat, 0]

def k0_chk18 (v122 : BitVec 32) : Prop :=
  (∀ a, (k0_off36 v122) a + S8x1x5120.size a ≤ S8x5000x5120.size a) ∧
  (∀ a, (k0_off98 v122) a + S8x1x5120.size a ≤ S8x5000x5120.size a)
instance k0_chk18.dec : ∀ (v122 : BitVec 32), Decidable (k0_chk18 v122) := fun v122 => decidable_of_iff' _ (Iff.of_eq (k0_chk18.eq_1 v122))
theorem k0_off36_inb : ∀ (v122 : BitVec 32) (k0_hw18 : k0_chk18 v122), ∀ a, (k0_off36 v122) a + S8x1x5120.size a ≤ S8x5000x5120.size a := fun v122 k0_hw18 => k0_hw18.1
theorem k0_off98_inb : ∀ (v122 : BitVec 32) (k0_hw18 : k0_chk18 v122), ∀ a, (k0_off98 v122) a + S8x1x5120.size a ≤ S8x5000x5120.size a := fun v122 k0_hw18 => k0_hw18.2

def k0_off99 (v129 : BitVec 32) : Fin 3 → Nat :=
  let c0_i32_352 : BitVec 32 := 0#32
  let c0_i32_353 : BitVec 32 := 0#32
  ![0, v129.toNat, 0]

def k0_chk19 (v129 : BitVec 32) : Prop :=
  (∀ a, (k0_off38 v129) a + S8x1x5120.size a ≤ S8x5000x5120.size a) ∧
  (∀ a, (k0_off99 v129) a + S8x1x5120.size a ≤ S8x5000x5120.size a)
instance k0_chk19.dec : ∀ (v129 : BitVec 32), Decidable (k0_chk19 v129) := fun v129 => decidable_of_iff' _ (Iff.of_eq (k0_chk19.eq_1 v129))
theorem k0_off38_inb : ∀ (v129 : BitVec 32) (k0_hw19 : k0_chk19 v129), ∀ a, (k0_off38 v129) a + S8x1x5120.size a ≤ S8x5000x5120.size a := fun v129 k0_hw19 => k0_hw19.1
theorem k0_off99_inb : ∀ (v129 : BitVec 32) (k0_hw19 : k0_chk19 v129), ∀ a, (k0_off99 v129) a + S8x1x5120.size a ≤ S8x5000x5120.size a := fun v129 k0_hw19 => k0_hw19.2

def k0_off100 (v136 : BitVec 32) : Fin 3 → Nat :=
  let c0_i32_358 : BitVec 32 := 0#32
  let c0_i32_359 : BitVec 32 := 0#32
  ![0, v136.toNat, 0]

def k0_chk20 (v136 : BitVec 32) : Prop :=
  (∀ a, (k0_off40 v136) a + S8x1x5120.size a ≤ S8x5000x5120.size a) ∧
  (∀ a, (k0_off100 v136) a + S8x1x5120.size a ≤ S8x5000x5120.size a)
instance k0_chk20.dec : ∀ (v136 : BitVec 32), Decidable (k0_chk20 v136) := fun v136 => decidable_of_iff' _ (Iff.of_eq (k0_chk20.eq_1 v136))
theorem k0_off40_inb : ∀ (v136 : BitVec 32) (k0_hw20 : k0_chk20 v136), ∀ a, (k0_off40 v136) a + S8x1x5120.size a ≤ S8x5000x5120.size a := fun v136 k0_hw20 => k0_hw20.1
theorem k0_off100_inb : ∀ (v136 : BitVec 32) (k0_hw20 : k0_chk20 v136), ∀ a, (k0_off100 v136) a + S8x1x5120.size a ≤ S8x5000x5120.size a := fun v136 k0_hw20 => k0_hw20.2

def k0_off101 (v143 : BitVec 32) : Fin 3 → Nat :=
  let c0_i32_364 : BitVec 32 := 0#32
  let c0_i32_365 : BitVec 32 := 0#32
  ![0, v143.toNat, 0]

def k0_chk21 (v143 : BitVec 32) : Prop :=
  (∀ a, (k0_off42 v143) a + S8x1x5120.size a ≤ S8x5000x5120.size a) ∧
  (∀ a, (k0_off101 v143) a + S8x1x5120.size a ≤ S8x5000x5120.size a)
instance k0_chk21.dec : ∀ (v143 : BitVec 32), Decidable (k0_chk21 v143) := fun v143 => decidable_of_iff' _ (Iff.of_eq (k0_chk21.eq_1 v143))
theorem k0_off42_inb : ∀ (v143 : BitVec 32) (k0_hw21 : k0_chk21 v143), ∀ a, (k0_off42 v143) a + S8x1x5120.size a ≤ S8x5000x5120.size a := fun v143 k0_hw21 => k0_hw21.1
theorem k0_off101_inb : ∀ (v143 : BitVec 32) (k0_hw21 : k0_chk21 v143), ∀ a, (k0_off101 v143) a + S8x1x5120.size a ≤ S8x5000x5120.size a := fun v143 k0_hw21 => k0_hw21.2

def k0_off102 (v150 : BitVec 32) : Fin 3 → Nat :=
  let c0_i32_370 : BitVec 32 := 0#32
  let c0_i32_371 : BitVec 32 := 0#32
  ![0, v150.toNat, 0]

def k0_chk22 (v150 : BitVec 32) : Prop :=
  (∀ a, (k0_off44 v150) a + S8x1x5120.size a ≤ S8x5000x5120.size a) ∧
  (∀ a, (k0_off102 v150) a + S8x1x5120.size a ≤ S8x5000x5120.size a)
instance k0_chk22.dec : ∀ (v150 : BitVec 32), Decidable (k0_chk22 v150) := fun v150 => decidable_of_iff' _ (Iff.of_eq (k0_chk22.eq_1 v150))
theorem k0_off44_inb : ∀ (v150 : BitVec 32) (k0_hw22 : k0_chk22 v150), ∀ a, (k0_off44 v150) a + S8x1x5120.size a ≤ S8x5000x5120.size a := fun v150 k0_hw22 => k0_hw22.1
theorem k0_off102_inb : ∀ (v150 : BitVec 32) (k0_hw22 : k0_chk22 v150), ∀ a, (k0_off102 v150) a + S8x1x5120.size a ≤ S8x5000x5120.size a := fun v150 k0_hw22 => k0_hw22.2

def k0_off103 (v157 : BitVec 32) : Fin 3 → Nat :=
  let c0_i32_376 : BitVec 32 := 0#32
  let c0_i32_377 : BitVec 32 := 0#32
  ![0, v157.toNat, 0]

def k0_chk23 (v157 : BitVec 32) : Prop :=
  (∀ a, (k0_off46 v157) a + S8x1x5120.size a ≤ S8x5000x5120.size a) ∧
  (∀ a, (k0_off103 v157) a + S8x1x5120.size a ≤ S8x5000x5120.size a)
instance k0_chk23.dec : ∀ (v157 : BitVec 32), Decidable (k0_chk23 v157) := fun v157 => decidable_of_iff' _ (Iff.of_eq (k0_chk23.eq_1 v157))
theorem k0_off46_inb : ∀ (v157 : BitVec 32) (k0_hw23 : k0_chk23 v157), ∀ a, (k0_off46 v157) a + S8x1x5120.size a ≤ S8x5000x5120.size a := fun v157 k0_hw23 => k0_hw23.1
theorem k0_off103_inb : ∀ (v157 : BitVec 32) (k0_hw23 : k0_chk23 v157), ∀ a, (k0_off103 v157) a + S8x1x5120.size a ≤ S8x5000x5120.size a := fun v157 k0_hw23 => k0_hw23.2

def k0_off104 (v164 : BitVec 32) : Fin 3 → Nat :=
  let c0_i32_382 : BitVec 32 := 0#32
  let c0_i32_383 : BitVec 32 := 0#32
  ![0, v164.toNat, 0]

def k0_chk24 (v164 : BitVec 32) : Prop :=
  (∀ a, (k0_off48 v164) a + S8x1x5120.size a ≤ S8x5000x5120.size a) ∧
  (∀ a, (k0_off104 v164) a + S8x1x5120.size a ≤ S8x5000x5120.size a)
instance k0_chk24.dec : ∀ (v164 : BitVec 32), Decidable (k0_chk24 v164) := fun v164 => decidable_of_iff' _ (Iff.of_eq (k0_chk24.eq_1 v164))
theorem k0_off48_inb : ∀ (v164 : BitVec 32) (k0_hw24 : k0_chk24 v164), ∀ a, (k0_off48 v164) a + S8x1x5120.size a ≤ S8x5000x5120.size a := fun v164 k0_hw24 => k0_hw24.1
theorem k0_off104_inb : ∀ (v164 : BitVec 32) (k0_hw24 : k0_chk24 v164), ∀ a, (k0_off104 v164) a + S8x1x5120.size a ≤ S8x5000x5120.size a := fun v164 k0_hw24 => k0_hw24.2

def k0_off105 (v171 : BitVec 32) : Fin 3 → Nat :=
  let c0_i32_388 : BitVec 32 := 0#32
  let c0_i32_389 : BitVec 32 := 0#32
  ![0, v171.toNat, 0]

def k0_chk25 (v171 : BitVec 32) : Prop :=
  (∀ a, (k0_off50 v171) a + S8x1x5120.size a ≤ S8x5000x5120.size a) ∧
  (∀ a, (k0_off105 v171) a + S8x1x5120.size a ≤ S8x5000x5120.size a)
instance k0_chk25.dec : ∀ (v171 : BitVec 32), Decidable (k0_chk25 v171) := fun v171 => decidable_of_iff' _ (Iff.of_eq (k0_chk25.eq_1 v171))
theorem k0_off50_inb : ∀ (v171 : BitVec 32) (k0_hw25 : k0_chk25 v171), ∀ a, (k0_off50 v171) a + S8x1x5120.size a ≤ S8x5000x5120.size a := fun v171 k0_hw25 => k0_hw25.1
theorem k0_off105_inb : ∀ (v171 : BitVec 32) (k0_hw25 : k0_chk25 v171), ∀ a, (k0_off105 v171) a + S8x1x5120.size a ≤ S8x5000x5120.size a := fun v171 k0_hw25 => k0_hw25.2

def k0_off106 (v178 : BitVec 32) : Fin 3 → Nat :=
  let c0_i32_394 : BitVec 32 := 0#32
  let c0_i32_395 : BitVec 32 := 0#32
  ![0, v178.toNat, 0]

def k0_chk26 (v178 : BitVec 32) : Prop :=
  (∀ a, (k0_off52 v178) a + S8x1x5120.size a ≤ S8x5000x5120.size a) ∧
  (∀ a, (k0_off106 v178) a + S8x1x5120.size a ≤ S8x5000x5120.size a)
instance k0_chk26.dec : ∀ (v178 : BitVec 32), Decidable (k0_chk26 v178) := fun v178 => decidable_of_iff' _ (Iff.of_eq (k0_chk26.eq_1 v178))
theorem k0_off52_inb : ∀ (v178 : BitVec 32) (k0_hw26 : k0_chk26 v178), ∀ a, (k0_off52 v178) a + S8x1x5120.size a ≤ S8x5000x5120.size a := fun v178 k0_hw26 => k0_hw26.1
theorem k0_off106_inb : ∀ (v178 : BitVec 32) (k0_hw26 : k0_chk26 v178), ∀ a, (k0_off106 v178) a + S8x1x5120.size a ≤ S8x5000x5120.size a := fun v178 k0_hw26 => k0_hw26.2

def k0_off107 (v185 : BitVec 32) : Fin 3 → Nat :=
  let c0_i32_400 : BitVec 32 := 0#32
  let c0_i32_401 : BitVec 32 := 0#32
  ![0, v185.toNat, 0]

def k0_chk27 (v185 : BitVec 32) : Prop :=
  (∀ a, (k0_off54 v185) a + S8x1x5120.size a ≤ S8x5000x5120.size a) ∧
  (∀ a, (k0_off107 v185) a + S8x1x5120.size a ≤ S8x5000x5120.size a)
instance k0_chk27.dec : ∀ (v185 : BitVec 32), Decidable (k0_chk27 v185) := fun v185 => decidable_of_iff' _ (Iff.of_eq (k0_chk27.eq_1 v185))
theorem k0_off54_inb : ∀ (v185 : BitVec 32) (k0_hw27 : k0_chk27 v185), ∀ a, (k0_off54 v185) a + S8x1x5120.size a ≤ S8x5000x5120.size a := fun v185 k0_hw27 => k0_hw27.1
theorem k0_off107_inb : ∀ (v185 : BitVec 32) (k0_hw27 : k0_chk27 v185), ∀ a, (k0_off107 v185) a + S8x1x5120.size a ≤ S8x5000x5120.size a := fun v185 k0_hw27 => k0_hw27.2

def k0_off108 (v192 : BitVec 32) : Fin 3 → Nat :=
  let c0_i32_406 : BitVec 32 := 0#32
  let c0_i32_407 : BitVec 32 := 0#32
  ![0, v192.toNat, 0]

def k0_chk28 (v192 : BitVec 32) : Prop :=
  (∀ a, (k0_off56 v192) a + S8x1x5120.size a ≤ S8x5000x5120.size a) ∧
  (∀ a, (k0_off108 v192) a + S8x1x5120.size a ≤ S8x5000x5120.size a)
instance k0_chk28.dec : ∀ (v192 : BitVec 32), Decidable (k0_chk28 v192) := fun v192 => decidable_of_iff' _ (Iff.of_eq (k0_chk28.eq_1 v192))
theorem k0_off56_inb : ∀ (v192 : BitVec 32) (k0_hw28 : k0_chk28 v192), ∀ a, (k0_off56 v192) a + S8x1x5120.size a ≤ S8x5000x5120.size a := fun v192 k0_hw28 => k0_hw28.1
theorem k0_off108_inb : ∀ (v192 : BitVec 32) (k0_hw28 : k0_chk28 v192), ∀ a, (k0_off108 v192) a + S8x1x5120.size a ≤ S8x5000x5120.size a := fun v192 k0_hw28 => k0_hw28.2

def k0_off109 (v199 : BitVec 32) : Fin 3 → Nat :=
  let c0_i32_412 : BitVec 32 := 0#32
  let c0_i32_413 : BitVec 32 := 0#32
  ![0, v199.toNat, 0]

def k0_chk29 (v199 : BitVec 32) : Prop :=
  (∀ a, (k0_off58 v199) a + S8x1x5120.size a ≤ S8x5000x5120.size a) ∧
  (∀ a, (k0_off109 v199) a + S8x1x5120.size a ≤ S8x5000x5120.size a)
instance k0_chk29.dec : ∀ (v199 : BitVec 32), Decidable (k0_chk29 v199) := fun v199 => decidable_of_iff' _ (Iff.of_eq (k0_chk29.eq_1 v199))
theorem k0_off58_inb : ∀ (v199 : BitVec 32) (k0_hw29 : k0_chk29 v199), ∀ a, (k0_off58 v199) a + S8x1x5120.size a ≤ S8x5000x5120.size a := fun v199 k0_hw29 => k0_hw29.1
theorem k0_off109_inb : ∀ (v199 : BitVec 32) (k0_hw29 : k0_chk29 v199), ∀ a, (k0_off109 v199) a + S8x1x5120.size a ≤ S8x5000x5120.size a := fun v199 k0_hw29 => k0_hw29.2

def k0_off110 (v206 : BitVec 32) : Fin 3 → Nat :=
  let c0_i32_418 : BitVec 32 := 0#32
  let c0_i32_419 : BitVec 32 := 0#32
  ![0, v206.toNat, 0]

def k0_chk30 (v206 : BitVec 32) : Prop :=
  (∀ a, (k0_off60 v206) a + S8x1x5120.size a ≤ S8x5000x5120.size a) ∧
  (∀ a, (k0_off110 v206) a + S8x1x5120.size a ≤ S8x5000x5120.size a)
instance k0_chk30.dec : ∀ (v206 : BitVec 32), Decidable (k0_chk30 v206) := fun v206 => decidable_of_iff' _ (Iff.of_eq (k0_chk30.eq_1 v206))
theorem k0_off60_inb : ∀ (v206 : BitVec 32) (k0_hw30 : k0_chk30 v206), ∀ a, (k0_off60 v206) a + S8x1x5120.size a ≤ S8x5000x5120.size a := fun v206 k0_hw30 => k0_hw30.1
theorem k0_off110_inb : ∀ (v206 : BitVec 32) (k0_hw30 : k0_chk30 v206), ∀ a, (k0_off110 v206) a + S8x1x5120.size a ≤ S8x5000x5120.size a := fun v206 k0_hw30 => k0_hw30.2

def k0_off111 (v213 : BitVec 32) : Fin 3 → Nat :=
  let c0_i32_424 : BitVec 32 := 0#32
  let c0_i32_425 : BitVec 32 := 0#32
  ![0, v213.toNat, 0]

def k0_chk31 (v213 : BitVec 32) : Prop :=
  (∀ a, (k0_off62 v213) a + S8x1x5120.size a ≤ S8x5000x5120.size a) ∧
  (∀ a, (k0_off111 v213) a + S8x1x5120.size a ≤ S8x5000x5120.size a)
instance k0_chk31.dec : ∀ (v213 : BitVec 32), Decidable (k0_chk31 v213) := fun v213 => decidable_of_iff' _ (Iff.of_eq (k0_chk31.eq_1 v213))
theorem k0_off62_inb : ∀ (v213 : BitVec 32) (k0_hw31 : k0_chk31 v213), ∀ a, (k0_off62 v213) a + S8x1x5120.size a ≤ S8x5000x5120.size a := fun v213 k0_hw31 => k0_hw31.1
theorem k0_off111_inb : ∀ (v213 : BitVec 32) (k0_hw31 : k0_chk31 v213), ∀ a, (k0_off111 v213) a + S8x1x5120.size a ≤ S8x5000x5120.size a := fun v213 k0_hw31 => k0_hw31.2

def k0_off112 (v220 : BitVec 32) : Fin 3 → Nat :=
  let c0_i32_430 : BitVec 32 := 0#32
  let c0_i32_431 : BitVec 32 := 0#32
  ![0, v220.toNat, 0]

def k0_chk32 (v220 : BitVec 32) : Prop :=
  (∀ a, (k0_off64 v220) a + S8x1x5120.size a ≤ S8x5000x5120.size a) ∧
  (∀ a, (k0_off112 v220) a + S8x1x5120.size a ≤ S8x5000x5120.size a)
instance k0_chk32.dec : ∀ (v220 : BitVec 32), Decidable (k0_chk32 v220) := fun v220 => decidable_of_iff' _ (Iff.of_eq (k0_chk32.eq_1 v220))
theorem k0_off64_inb : ∀ (v220 : BitVec 32) (k0_hw32 : k0_chk32 v220), ∀ a, (k0_off64 v220) a + S8x1x5120.size a ≤ S8x5000x5120.size a := fun v220 k0_hw32 => k0_hw32.1
theorem k0_off112_inb : ∀ (v220 : BitVec 32) (k0_hw32 : k0_chk32 v220), ∀ a, (k0_off112 v220) a + S8x1x5120.size a ≤ S8x5000x5120.size a := fun v220 k0_hw32 => k0_hw32.2

def k0_off113 (v227 : BitVec 32) : Fin 3 → Nat :=
  let c0_i32_436 : BitVec 32 := 0#32
  let c0_i32_437 : BitVec 32 := 0#32
  ![0, v227.toNat, 0]

def k0_chk33 (v227 : BitVec 32) : Prop :=
  (∀ a, (k0_off66 v227) a + S8x1x5120.size a ≤ S8x5000x5120.size a) ∧
  (∀ a, (k0_off113 v227) a + S8x1x5120.size a ≤ S8x5000x5120.size a)
instance k0_chk33.dec : ∀ (v227 : BitVec 32), Decidable (k0_chk33 v227) := fun v227 => decidable_of_iff' _ (Iff.of_eq (k0_chk33.eq_1 v227))
theorem k0_off66_inb : ∀ (v227 : BitVec 32) (k0_hw33 : k0_chk33 v227), ∀ a, (k0_off66 v227) a + S8x1x5120.size a ≤ S8x5000x5120.size a := fun v227 k0_hw33 => k0_hw33.1
theorem k0_off113_inb : ∀ (v227 : BitVec 32) (k0_hw33 : k0_chk33 v227), ∀ a, (k0_off113 v227) a + S8x1x5120.size a ≤ S8x5000x5120.size a := fun v227 k0_hw33 => k0_hw33.2

def k0_off114 (v234 : BitVec 32) : Fin 3 → Nat :=
  let c0_i32_442 : BitVec 32 := 0#32
  let c0_i32_443 : BitVec 32 := 0#32
  ![0, v234.toNat, 0]

def k0_chk34 (v234 : BitVec 32) : Prop :=
  (∀ a, (k0_off68 v234) a + S8x1x5120.size a ≤ S8x5000x5120.size a) ∧
  (∀ a, (k0_off114 v234) a + S8x1x5120.size a ≤ S8x5000x5120.size a)
instance k0_chk34.dec : ∀ (v234 : BitVec 32), Decidable (k0_chk34 v234) := fun v234 => decidable_of_iff' _ (Iff.of_eq (k0_chk34.eq_1 v234))
theorem k0_off68_inb : ∀ (v234 : BitVec 32) (k0_hw34 : k0_chk34 v234), ∀ a, (k0_off68 v234) a + S8x1x5120.size a ≤ S8x5000x5120.size a := fun v234 k0_hw34 => k0_hw34.1
theorem k0_off114_inb : ∀ (v234 : BitVec 32) (k0_hw34 : k0_chk34 v234), ∀ a, (k0_off114 v234) a + S8x1x5120.size a ≤ S8x5000x5120.size a := fun v234 k0_hw34 => k0_hw34.2

def k0_off115 (v241 : BitVec 32) : Fin 3 → Nat :=
  let c0_i32_448 : BitVec 32 := 0#32
  let c0_i32_449 : BitVec 32 := 0#32
  ![0, v241.toNat, 0]

def k0_chk35 (v241 : BitVec 32) : Prop :=
  (∀ a, (k0_off70 v241) a + S8x1x5120.size a ≤ S8x5000x5120.size a) ∧
  (∀ a, (k0_off115 v241) a + S8x1x5120.size a ≤ S8x5000x5120.size a)
instance k0_chk35.dec : ∀ (v241 : BitVec 32), Decidable (k0_chk35 v241) := fun v241 => decidable_of_iff' _ (Iff.of_eq (k0_chk35.eq_1 v241))
theorem k0_off70_inb : ∀ (v241 : BitVec 32) (k0_hw35 : k0_chk35 v241), ∀ a, (k0_off70 v241) a + S8x1x5120.size a ≤ S8x5000x5120.size a := fun v241 k0_hw35 => k0_hw35.1
theorem k0_off115_inb : ∀ (v241 : BitVec 32) (k0_hw35 : k0_chk35 v241), ∀ a, (k0_off115 v241) a + S8x1x5120.size a ≤ S8x5000x5120.size a := fun v241 k0_hw35 => k0_hw35.2

def k0_off116 (v248 : BitVec 32) : Fin 3 → Nat :=
  let c0_i32_454 : BitVec 32 := 0#32
  let c0_i32_455 : BitVec 32 := 0#32
  ![0, v248.toNat, 0]

def k0_chk36 (v248 : BitVec 32) : Prop :=
  (∀ a, (k0_off72 v248) a + S8x1x5120.size a ≤ S8x5000x5120.size a) ∧
  (∀ a, (k0_off116 v248) a + S8x1x5120.size a ≤ S8x5000x5120.size a)
instance k0_chk36.dec : ∀ (v248 : BitVec 32), Decidable (k0_chk36 v248) := fun v248 => decidable_of_iff' _ (Iff.of_eq (k0_chk36.eq_1 v248))
theorem k0_off72_inb : ∀ (v248 : BitVec 32) (k0_hw36 : k0_chk36 v248), ∀ a, (k0_off72 v248) a + S8x1x5120.size a ≤ S8x5000x5120.size a := fun v248 k0_hw36 => k0_hw36.1
theorem k0_off116_inb : ∀ (v248 : BitVec 32) (k0_hw36 : k0_chk36 v248), ∀ a, (k0_off116 v248) a + S8x1x5120.size a ≤ S8x5000x5120.size a := fun v248 k0_hw36 => k0_hw36.2

def k0_off117 (v255 : BitVec 32) : Fin 3 → Nat :=
  let c0_i32_460 : BitVec 32 := 0#32
  let c0_i32_461 : BitVec 32 := 0#32
  ![0, v255.toNat, 0]

def k0_chk37 (v255 : BitVec 32) : Prop :=
  (∀ a, (k0_off74 v255) a + S8x1x5120.size a ≤ S8x5000x5120.size a) ∧
  (∀ a, (k0_off117 v255) a + S8x1x5120.size a ≤ S8x5000x5120.size a)
instance k0_chk37.dec : ∀ (v255 : BitVec 32), Decidable (k0_chk37 v255) := fun v255 => decidable_of_iff' _ (Iff.of_eq (k0_chk37.eq_1 v255))
theorem k0_off74_inb : ∀ (v255 : BitVec 32) (k0_hw37 : k0_chk37 v255), ∀ a, (k0_off74 v255) a + S8x1x5120.size a ≤ S8x5000x5120.size a := fun v255 k0_hw37 => k0_hw37.1
theorem k0_off117_inb : ∀ (v255 : BitVec 32) (k0_hw37 : k0_chk37 v255), ∀ a, (k0_off117 v255) a + S8x1x5120.size a ≤ S8x5000x5120.size a := fun v255 k0_hw37 => k0_hw37.2

def k0_off118 (v262 : BitVec 32) : Fin 3 → Nat :=
  let c0_i32_466 : BitVec 32 := 0#32
  let c0_i32_467 : BitVec 32 := 0#32
  ![0, v262.toNat, 0]

def k0_chk38 (v262 : BitVec 32) : Prop :=
  (∀ a, (k0_off76 v262) a + S8x1x5120.size a ≤ S8x5000x5120.size a) ∧
  (∀ a, (k0_off118 v262) a + S8x1x5120.size a ≤ S8x5000x5120.size a)
instance k0_chk38.dec : ∀ (v262 : BitVec 32), Decidable (k0_chk38 v262) := fun v262 => decidable_of_iff' _ (Iff.of_eq (k0_chk38.eq_1 v262))
theorem k0_off76_inb : ∀ (v262 : BitVec 32) (k0_hw38 : k0_chk38 v262), ∀ a, (k0_off76 v262) a + S8x1x5120.size a ≤ S8x5000x5120.size a := fun v262 k0_hw38 => k0_hw38.1
theorem k0_off118_inb : ∀ (v262 : BitVec 32) (k0_hw38 : k0_chk38 v262), ∀ a, (k0_off118 v262) a + S8x1x5120.size a ≤ S8x5000x5120.size a := fun v262 k0_hw38 => k0_hw38.2

def k0_off119 (v269 : BitVec 32) : Fin 3 → Nat :=
  let c0_i32_472 : BitVec 32 := 0#32
  let c0_i32_473 : BitVec 32 := 0#32
  ![0, v269.toNat, 0]

def k0_chk39 (v269 : BitVec 32) : Prop :=
  (∀ a, (k0_off78 v269) a + S8x1x5120.size a ≤ S8x5000x5120.size a) ∧
  (∀ a, (k0_off119 v269) a + S8x1x5120.size a ≤ S8x5000x5120.size a)
instance k0_chk39.dec : ∀ (v269 : BitVec 32), Decidable (k0_chk39 v269) := fun v269 => decidable_of_iff' _ (Iff.of_eq (k0_chk39.eq_1 v269))
theorem k0_off78_inb : ∀ (v269 : BitVec 32) (k0_hw39 : k0_chk39 v269), ∀ a, (k0_off78 v269) a + S8x1x5120.size a ≤ S8x5000x5120.size a := fun v269 k0_hw39 => k0_hw39.1
theorem k0_off119_inb : ∀ (v269 : BitVec 32) (k0_hw39 : k0_chk39 v269), ∀ a, (k0_off119 v269) a + S8x1x5120.size a ≤ S8x5000x5120.size a := fun v269 k0_hw39 => k0_hw39.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x40x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16x2000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x2000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2000 : S_.BroadcastsInDim S2000 (![] : Fin 0 → Fin S2000.rank)
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  reducesTo_S2000x1_S2000_d1 : S2000x1.ReducesTo [1] S2000
  h_S_ : 0 < S_.numel
  bcast_S2000_S8x2000x16_1 : S2000.BroadcastsInDim S8x2000x16 (![1] : Fin 1 → Fin S8x2000x16.rank)
  bcast_S_S8x2000x16 : S_.BroadcastsInDim S8x2000x16 (![] : Fin 0 → Fin S8x2000x16.rank)
  bitsLt_bf16_f32 : FTy.bits .bf16 < FTy.bits .f32
  bcast_S2000_S8x16x2000_2 : S2000.BroadcastsInDim S8x16x2000 (![2] : Fin 1 → Fin S8x16x2000.rank)
  bcast_S_S8x16x2000 : S_.BroadcastsInDim S8x16x2000 (![] : Fin 0 → Fin S8x16x2000.rank)
  bcast_S2000x1_S2000x5120_0_1 : S2000x1.BroadcastsInDim S2000x5120 (![0, 1] : Fin 2 → Fin S2000x5120.rank)
  bcast_S1x5120_S2000x5120_0_1 : S1x5120.BroadcastsInDim S2000x5120 (![0, 1] : Fin 2 → Fin S2000x5120.rank)
  transposes_S2000x5120_S5120x2000_1_0 : S2000x5120.Transposes [1, 0] S5120x2000
  pads_S8x5000x5000_S8x5000x5120_000_000_01200 : S8x5000x5000.Pads (![0, 0, 0] : Fin 3 → Nat) ![0, 0, 120] ![0, 0, 0] S8x5000x5120
  numel1_S1 : S1.numel = 1
  inb_S40_S1_0 : ∀ a, (![0] : Fin 1 → Nat) a + S1.size a ≤ S40.size a
  squeezes_S1_S_ : S1.Squeezes S_
  inb_S8x40x5120_S8x1x5120_0_0_0 : ∀ a, (![0, 0, 0] : Fin 3 → Nat) a + S8x1x5120.size a ≤ S8x40x5120.size a
  inb_S40_S1_1 : ∀ a, (![1] : Fin 1 → Nat) a + S1.size a ≤ S40.size a
  inb_S8x40x5120_S8x1x5120_0_1_0 : ∀ a, (![0, 1, 0] : Fin 3 → Nat) a + S8x1x5120.size a ≤ S8x40x5120.size a
  inb_S40_S1_2 : ∀ a, (![2] : Fin 1 → Nat) a + S1.size a ≤ S40.size a
  inb_S8x40x5120_S8x1x5120_0_2_0 : ∀ a, (![0, 2, 0] : Fin 3 → Nat) a + S8x1x5120.size a ≤ S8x40x5120.size a
  inb_S40_S1_3 : ∀ a, (![3] : Fin 1 → Nat) a + S1.size a ≤ S40.size a
  inb_S8x40x5120_S8x1x5120_0_3_0 : ∀ a, (![0, 3, 0] : Fin 3 → Nat) a + S8x1x5120.size a ≤ S8x40x5120.size a
  inb_S40_S1_4 : ∀ a, (![4] : Fin 1 → Nat) a + S1.size a ≤ S40.size a
  inb_S8x40x5120_S8x1x5120_0_4_0 : ∀ a, (![0, 4, 0] : Fin 3 → Nat) a + S8x1x5120.size a ≤ S8x40x5120.size a
  inb_S40_S1_5 : ∀ a, (![5] : Fin 1 → Nat) a + S1.size a ≤ S40.size a
  inb_S8x40x5120_S8x1x5120_0_5_0 : ∀ a, (![0, 5, 0] : Fin 3 → Nat) a + S8x1x5120.size a ≤ S8x40x5120.size a
  inb_S40_S1_6 : ∀ a, (![6] : Fin 1 → Nat) a + S1.size a ≤ S40.size a
  inb_S8x40x5120_S8x1x5120_0_6_0 : ∀ a, (![0, 6, 0] : Fin 3 → Nat) a + S8x1x5120.size a ≤ S8x40x5120.size a
  inb_S40_S1_7 : ∀ a, (![7] : Fin 1 → Nat) a + S1.size a ≤ S40.size a
  inb_S8x40x5120_S8x1x5120_0_7_0 : ∀ a, (![0, 7, 0] : Fin 3 → Nat) a + S8x1x5120.size a ≤ S8x40x5120.size a
  inb_S40_S1_8 : ∀ a, (![8] : Fin 1 → Nat) a + S1.size a ≤ S40.size a
  inb_S8x40x5120_S8x1x5120_0_8_0 : ∀ a, (![0, 8, 0] : Fin 3 → Nat) a + S8x1x5120.size a ≤ S8x40x5120.size a
  inb_S40_S1_9 : ∀ a, (![9] : Fin 1 → Nat) a + S1.size a ≤ S40.size a
  inb_S8x40x5120_S8x1x5120_0_9_0 : ∀ a, (![0, 9, 0] : Fin 3 → Nat) a + S8x1x5120.size a ≤ S8x40x5120.size a
  inb_S40_S1_10 : ∀ a, (![10] : Fin 1 → Nat) a + S1.size a ≤ S40.size a
  inb_S8x40x5120_S8x1x5120_0_10_0 : ∀ a, (![0, 10, 0] : Fin 3 → Nat) a + S8x1x5120.size a ≤ S8x40x5120.size a
  inb_S40_S1_11 : ∀ a, (![11] : Fin 1 → Nat) a + S1.size a ≤ S40.size a
  inb_S8x40x5120_S8x1x5120_0_11_0 : ∀ a, (![0, 11, 0] : Fin 3 → Nat) a + S8x1x5120.size a ≤ S8x40x5120.size a
  inb_S40_S1_12 : ∀ a, (![12] : Fin 1 → Nat) a + S1.size a ≤ S40.size a
  inb_S8x40x5120_S8x1x5120_0_12_0 : ∀ a, (![0, 12, 0] : Fin 3 → Nat) a + S8x1x5120.size a ≤ S8x40x5120.size a
  inb_S40_S1_13 : ∀ a, (![13] : Fin 1 → Nat) a + S1.size a ≤ S40.size a
  inb_S8x40x5120_S8x1x5120_0_13_0 : ∀ a, (![0, 13, 0] : Fin 3 → Nat) a + S8x1x5120.size a ≤ S8x40x5120.size a
  inb_S40_S1_14 : ∀ a, (![14] : Fin 1 → Nat) a + S1.size a ≤ S40.size a
  inb_S8x40x5120_S8x1x5120_0_14_0 : ∀ a, (![0, 14, 0] : Fin 3 → Nat) a + S8x1x5120.size a ≤ S8x40x5120.size a
  inb_S40_S1_15 : ∀ a, (![15] : Fin 1 → Nat) a + S1.size a ≤ S40.size a
  inb_S8x40x5120_S8x1x5120_0_15_0 : ∀ a, (![0, 15, 0] : Fin 3 → Nat) a + S8x1x5120.size a ≤ S8x40x5120.size a
  inb_S40_S1_16 : ∀ a, (![16] : Fin 1 → Nat) a + S1.size a ≤ S40.size a
  inb_S8x40x5120_S8x1x5120_0_16_0 : ∀ a, (![0, 16, 0] : Fin 3 → Nat) a + S8x1x5120.size a ≤ S8x40x5120.size a
  inb_S40_S1_17 : ∀ a, (![17] : Fin 1 → Nat) a + S1.size a ≤ S40.size a
  inb_S8x40x5120_S8x1x5120_0_17_0 : ∀ a, (![0, 17, 0] : Fin 3 → Nat) a + S8x1x5120.size a ≤ S8x40x5120.size a
  inb_S40_S1_18 : ∀ a, (![18] : Fin 1 → Nat) a + S1.size a ≤ S40.size a
  inb_S8x40x5120_S8x1x5120_0_18_0 : ∀ a, (![0, 18, 0] : Fin 3 → Nat) a + S8x1x5120.size a ≤ S8x40x5120.size a
  inb_S40_S1_19 : ∀ a, (![19] : Fin 1 → Nat) a + S1.size a ≤ S40.size a
  inb_S8x40x5120_S8x1x5120_0_19_0 : ∀ a, (![0, 19, 0] : Fin 3 → Nat) a + S8x1x5120.size a ≤ S8x40x5120.size a
  inb_S40_S1_20 : ∀ a, (![20] : Fin 1 → Nat) a + S1.size a ≤ S40.size a
  inb_S8x40x5120_S8x1x5120_0_20_0 : ∀ a, (![0, 20, 0] : Fin 3 → Nat) a + S8x1x5120.size a ≤ S8x40x5120.size a
  inb_S40_S1_21 : ∀ a, (![21] : Fin 1 → Nat) a + S1.size a ≤ S40.size a
  inb_S8x40x5120_S8x1x5120_0_21_0 : ∀ a, (![0, 21, 0] : Fin 3 → Nat) a + S8x1x5120.size a ≤ S8x40x5120.size a
  inb_S40_S1_22 : ∀ a, (![22] : Fin 1 → Nat) a + S1.size a ≤ S40.size a
  inb_S8x40x5120_S8x1x5120_0_22_0 : ∀ a, (![0, 22, 0] : Fin 3 → Nat) a + S8x1x5120.size a ≤ S8x40x5120.size a
  inb_S40_S1_23 : ∀ a, (![23] : Fin 1 → Nat) a + S1.size a ≤ S40.size a
  inb_S8x40x5120_S8x1x5120_0_23_0 : ∀ a, (![0, 23, 0] : Fin 3 → Nat) a + S8x1x5120.size a ≤ S8x40x5120.size a
  inb_S40_S1_24 : ∀ a, (![24] : Fin 1 → Nat) a + S1.size a ≤ S40.size a
  inb_S8x40x5120_S8x1x5120_0_24_0 : ∀ a, (![0, 24, 0] : Fin 3 → Nat) a + S8x1x5120.size a ≤ S8x40x5120.size a
  inb_S40_S1_25 : ∀ a, (![25] : Fin 1 → Nat) a + S1.size a ≤ S40.size a
  inb_S8x40x5120_S8x1x5120_0_25_0 : ∀ a, (![0, 25, 0] : Fin 3 → Nat) a + S8x1x5120.size a ≤ S8x40x5120.size a
  inb_S40_S1_26 : ∀ a, (![26] : Fin 1 → Nat) a + S1.size a ≤ S40.size a
  inb_S8x40x5120_S8x1x5120_0_26_0 : ∀ a, (![0, 26, 0] : Fin 3 → Nat) a + S8x1x5120.size a ≤ S8x40x5120.size a
  inb_S40_S1_27 : ∀ a, (![27] : Fin 1 → Nat) a + S1.size a ≤ S40.size a
  inb_S8x40x5120_S8x1x5120_0_27_0 : ∀ a, (![0, 27, 0] : Fin 3 → Nat) a + S8x1x5120.size a ≤ S8x40x5120.size a
  inb_S40_S1_28 : ∀ a, (![28] : Fin 1 → Nat) a + S1.size a ≤ S40.size a
  inb_S8x40x5120_S8x1x5120_0_28_0 : ∀ a, (![0, 28, 0] : Fin 3 → Nat) a + S8x1x5120.size a ≤ S8x40x5120.size a
  inb_S40_S1_29 : ∀ a, (![29] : Fin 1 → Nat) a + S1.size a ≤ S40.size a
  inb_S8x40x5120_S8x1x5120_0_29_0 : ∀ a, (![0, 29, 0] : Fin 3 → Nat) a + S8x1x5120.size a ≤ S8x40x5120.size a
  inb_S40_S1_30 : ∀ a, (![30] : Fin 1 → Nat) a + S1.size a ≤ S40.size a
  inb_S8x40x5120_S8x1x5120_0_30_0 : ∀ a, (![0, 30, 0] : Fin 3 → Nat) a + S8x1x5120.size a ≤ S8x40x5120.size a
  inb_S40_S1_31 : ∀ a, (![31] : Fin 1 → Nat) a + S1.size a ≤ S40.size a
  inb_S8x40x5120_S8x1x5120_0_31_0 : ∀ a, (![0, 31, 0] : Fin 3 → Nat) a + S8x1x5120.size a ≤ S8x40x5120.size a
  inb_S40_S1_32 : ∀ a, (![32] : Fin 1 → Nat) a + S1.size a ≤ S40.size a
  inb_S8x40x5120_S8x1x5120_0_32_0 : ∀ a, (![0, 32, 0] : Fin 3 → Nat) a + S8x1x5120.size a ≤ S8x40x5120.size a
  inb_S40_S1_33 : ∀ a, (![33] : Fin 1 → Nat) a + S1.size a ≤ S40.size a
  inb_S8x40x5120_S8x1x5120_0_33_0 : ∀ a, (![0, 33, 0] : Fin 3 → Nat) a + S8x1x5120.size a ≤ S8x40x5120.size a
  inb_S40_S1_34 : ∀ a, (![34] : Fin 1 → Nat) a + S1.size a ≤ S40.size a
  inb_S8x40x5120_S8x1x5120_0_34_0 : ∀ a, (![0, 34, 0] : Fin 3 → Nat) a + S8x1x5120.size a ≤ S8x40x5120.size a
  inb_S40_S1_35 : ∀ a, (![35] : Fin 1 → Nat) a + S1.size a ≤ S40.size a
  inb_S8x40x5120_S8x1x5120_0_35_0 : ∀ a, (![0, 35, 0] : Fin 3 → Nat) a + S8x1x5120.size a ≤ S8x40x5120.size a
  inb_S40_S1_36 : ∀ a, (![36] : Fin 1 → Nat) a + S1.size a ≤ S40.size a
  inb_S8x40x5120_S8x1x5120_0_36_0 : ∀ a, (![0, 36, 0] : Fin 3 → Nat) a + S8x1x5120.size a ≤ S8x40x5120.size a
  inb_S40_S1_37 : ∀ a, (![37] : Fin 1 → Nat) a + S1.size a ≤ S40.size a
  inb_S8x40x5120_S8x1x5120_0_37_0 : ∀ a, (![0, 37, 0] : Fin 3 → Nat) a + S8x1x5120.size a ≤ S8x40x5120.size a
  inb_S40_S1_38 : ∀ a, (![38] : Fin 1 → Nat) a + S1.size a ≤ S40.size a
  inb_S8x40x5120_S8x1x5120_0_38_0 : ∀ a, (![0, 38, 0] : Fin 3 → Nat) a + S8x1x5120.size a ≤ S8x40x5120.size a
  inb_S40_S1_39 : ∀ a, (![39] : Fin 1 → Nat) a + S1.size a ≤ S40.size a
  inb_S8x40x5120_S8x1x5120_0_39_0 : ∀ a, (![0, 39, 0] : Fin 3 → Nat) a + S8x1x5120.size a ≤ S8x40x5120.size a
  inb_S8x40x5120_S1x40x5120_0_0_0 : ∀ a, (![0, 0, 0] : Fin 3 → Nat) a + S1x40x5120.size a ≤ S8x40x5120.size a
  h_S1x40x5120 : 0 < S1x40x5120.numel
  shapeCasts_S1x40x5120_S40x5120 : S1x40x5120.ShapeCasts S40x5120
  inb_S5120x2000_S5120x2000_0_0 : ∀ a, (![0, 0] : Fin 2 → Nat) a + S5120x2000.size a ≤ S5120x2000.size a
  h_S5120x2000 : 0 < S5120x2000.numel
  shapeCasts_S5120x2000_S5120x2000 : S5120x2000.ShapeCasts S5120x2000
  inb_S8x40x16_S1x40x16_0_0_0 : ∀ a, (![0, 0, 0] : Fin 3 → Nat) a + S1x40x16.size a ≤ S8x40x16.size a
  h_S1x40x16 : 0 < S1x40x16.numel
  shapeCasts_S1x40x16_S40x16 : S1x40x16.ShapeCasts S40x16
  inb_S8x16x2000_S1x16x2000_0_0_0 : ∀ a, (![0, 0, 0] : Fin 3 → Nat) a + S1x16x2000.size a ≤ S8x16x2000.size a
  h_S1x16x2000 : 0 < S1x16x2000.numel
  shapeCasts_S1x16x2000_S16x2000 : S1x16x2000.ShapeCasts S16x2000
  inb_S8x40x5120_S1x40x5120_1_0_0 : ∀ a, (![1, 0, 0] : Fin 3 → Nat) a + S1x40x5120.size a ≤ S8x40x5120.size a
  inb_S8x40x16_S1x40x16_1_0_0 : ∀ a, (![1, 0, 0] : Fin 3 → Nat) a + S1x40x16.size a ≤ S8x40x16.size a
  inb_S8x16x2000_S1x16x2000_1_0_0 : ∀ a, (![1, 0, 0] : Fin 3 → Nat) a + S1x16x2000.size a ≤ S8x16x2000.size a
  inb_S8x40x5120_S1x40x5120_2_0_0 : ∀ a, (![2, 0, 0] : Fin 3 → Nat) a + S1x40x5120.size a ≤ S8x40x5120.size a
  inb_S8x40x16_S1x40x16_2_0_0 : ∀ a, (![2, 0, 0] : Fin 3 → Nat) a + S1x40x16.size a ≤ S8x40x16.size a
  inb_S8x16x2000_S1x16x2000_2_0_0 : ∀ a, (![2, 0, 0] : Fin 3 → Nat) a + S1x16x2000.size a ≤ S8x16x2000.size a
  inb_S8x40x5120_S1x40x5120_3_0_0 : ∀ a, (![3, 0, 0] : Fin 3 → Nat) a + S1x40x5120.size a ≤ S8x40x5120.size a
  inb_S8x40x16_S1x40x16_3_0_0 : ∀ a, (![3, 0, 0] : Fin 3 → Nat) a + S1x40x16.size a ≤ S8x40x16.size a
  inb_S8x16x2000_S1x16x2000_3_0_0 : ∀ a, (![3, 0, 0] : Fin 3 → Nat) a + S1x16x2000.size a ≤ S8x16x2000.size a
  inb_S8x40x5120_S1x40x5120_4_0_0 : ∀ a, (![4, 0, 0] : Fin 3 → Nat) a + S1x40x5120.size a ≤ S8x40x5120.size a
  inb_S8x40x16_S1x40x16_4_0_0 : ∀ a, (![4, 0, 0] : Fin 3 → Nat) a + S1x40x16.size a ≤ S8x40x16.size a
  inb_S8x16x2000_S1x16x2000_4_0_0 : ∀ a, (![4, 0, 0] : Fin 3 → Nat) a + S1x16x2000.size a ≤ S8x16x2000.size a
  inb_S8x40x5120_S1x40x5120_5_0_0 : ∀ a, (![5, 0, 0] : Fin 3 → Nat) a + S1x40x5120.size a ≤ S8x40x5120.size a
  inb_S8x40x16_S1x40x16_5_0_0 : ∀ a, (![5, 0, 0] : Fin 3 → Nat) a + S1x40x16.size a ≤ S8x40x16.size a
  inb_S8x16x2000_S1x16x2000_5_0_0 : ∀ a, (![5, 0, 0] : Fin 3 → Nat) a + S1x16x2000.size a ≤ S8x16x2000.size a
  inb_S8x40x5120_S1x40x5120_6_0_0 : ∀ a, (![6, 0, 0] : Fin 3 → Nat) a + S1x40x5120.size a ≤ S8x40x5120.size a
  inb_S8x40x16_S1x40x16_6_0_0 : ∀ a, (![6, 0, 0] : Fin 3 → Nat) a + S1x40x16.size a ≤ S8x40x16.size a
  inb_S8x16x2000_S1x16x2000_6_0_0 : ∀ a, (![6, 0, 0] : Fin 3 → Nat) a + S1x16x2000.size a ≤ S8x16x2000.size a
  inb_S8x40x5120_S1x40x5120_7_0_0 : ∀ a, (![7, 0, 0] : Fin 3 → Nat) a + S1x40x5120.size a ≤ S8x40x5120.size a
  inb_S8x40x16_S1x40x16_7_0_0 : ∀ a, (![7, 0, 0] : Fin 3 → Nat) a + S1x40x16.size a ≤ S8x40x16.size a
  inb_S8x16x2000_S1x16x2000_7_0_0 : ∀ a, (![7, 0, 0] : Fin 3 → Nat) a + S1x16x2000.size a ≤ S8x16x2000.size a
  inb_S40x2000_S40x2000_0_0 : ∀ a, (![0, 0] : Fin 2 → Nat) a + S40x2000.size a ≤ S40x2000.size a
  h_S40x2000 : 0 < S40x2000.numel
  gather_S8x5000x16_S2000x1_S8x2000x16_02_1_n_n_1_1_8116_wf : GatherDims.WF S8x5000x16 S2000x1 S8x2000x16 [0, 2] [1] [] [1] [] 1 ![8, 1, 16]
  gather_S8x16x5000_S2000x1_S8x16x2000_01_2_n_n_2_1_8161_wf : GatherDims.WF S8x16x5000 S2000x1 S8x16x2000 [0, 1] [2] [] [2] [] 1 ![8, 16, 1]
  dot_S40x5120_S5120x2000_S40x2000_1_0_0_1_n_n_wf : DotDims.WF S40x5120 S5120x2000 S40x2000 [1] [0] [0] [1] [] []
  dot_S40x16_S16x2000_S40x2000_1_0_0_1_n_n_wf : DotDims.WF S40x16 S16x2000 S40x2000 [1] [0] [0] [1] [] []
  hcc0_scratch1 : 6 + S40.numel ≤ 46
  hrank0 : 0 < grid0.rank
  k0_off1_inb : ∀ i : grid0.Coords, ∀ a, (k0_off1 i) a + S1.size a ≤ S2000.size a
  k0_off3_inb : ∀ i : grid0.Coords, ∀ a, (k0_off3 i) a + S1.size a ≤ S2000.size a
  k0_off5_inb : ∀ i : grid0.Coords, ∀ a, (k0_off5 i) a + S1.size a ≤ S2000.size a
  k0_off7_inb : ∀ i : grid0.Coords, ∀ a, (k0_off7 i) a + S1.size a ≤ S2000.size a
  k0_off9_inb : ∀ i : grid0.Coords, ∀ a, (k0_off9 i) a + S1.size a ≤ S2000.size a
  k0_off11_inb : ∀ i : grid0.Coords, ∀ a, (k0_off11 i) a + S1.size a ≤ S2000.size a
  k0_off13_inb : ∀ i : grid0.Coords, ∀ a, (k0_off13 i) a + S1.size a ≤ S2000.size a
  k0_off15_inb : ∀ i : grid0.Coords, ∀ a, (k0_off15 i) a + S1.size a ≤ S2000.size a
  k0_off17_inb : ∀ i : grid0.Coords, ∀ a, (k0_off17 i) a + S1.size a ≤ S2000.size a
  k0_off19_inb : ∀ i : grid0.Coords, ∀ a, (k0_off19 i) a + S1.size a ≤ S2000.size a
  k0_off21_inb : ∀ i : grid0.Coords, ∀ a, (k0_off21 i) a + S1.size a ≤ S2000.size a
  k0_off23_inb : ∀ i : grid0.Coords, ∀ a, (k0_off23 i) a + S1.size a ≤ S2000.size a
  k0_off25_inb : ∀ i : grid0.Coords, ∀ a, (k0_off25 i) a + S1.size a ≤ S2000.size a
  k0_off27_inb : ∀ i : grid0.Coords, ∀ a, (k0_off27 i) a + S1.size a ≤ S2000.size a
  k0_off29_inb : ∀ i : grid0.Coords, ∀ a, (k0_off29 i) a + S1.size a ≤ S2000.size a
  k0_off31_inb : ∀ i : grid0.Coords, ∀ a, (k0_off31 i) a + S1.size a ≤ S2000.size a
  k0_off33_inb : ∀ i : grid0.Coords, ∀ a, (k0_off33 i) a + S1.size a ≤ S2000.size a
  k0_off35_inb : ∀ i : grid0.Coords, ∀ a, (k0_off35 i) a + S1.size a ≤ S2000.size a
  k0_off37_inb : ∀ i : grid0.Coords, ∀ a, (k0_off37 i) a + S1.size a ≤ S2000.size a
  k0_off39_inb : ∀ i : grid0.Coords, ∀ a, (k0_off39 i) a + S1.size a ≤ S2000.size a
  k0_off41_inb : ∀ i : grid0.Coords, ∀ a, (k0_off41 i) a + S1.size a ≤ S2000.size a
  k0_off43_inb : ∀ i : grid0.Coords, ∀ a, (k0_off43 i) a + S1.size a ≤ S2000.size a
  k0_off45_inb : ∀ i : grid0.Coords, ∀ a, (k0_off45 i) a + S1.size a ≤ S2000.size a
  k0_off47_inb : ∀ i : grid0.Coords, ∀ a, (k0_off47 i) a + S1.size a ≤ S2000.size a
  k0_off49_inb : ∀ i : grid0.Coords, ∀ a, (k0_off49 i) a + S1.size a ≤ S2000.size a
  k0_off51_inb : ∀ i : grid0.Coords, ∀ a, (k0_off51 i) a + S1.size a ≤ S2000.size a
  k0_off53_inb : ∀ i : grid0.Coords, ∀ a, (k0_off53 i) a + S1.size a ≤ S2000.size a
  k0_off55_inb : ∀ i : grid0.Coords, ∀ a, (k0_off55 i) a + S1.size a ≤ S2000.size a
  k0_off57_inb : ∀ i : grid0.Coords, ∀ a, (k0_off57 i) a + S1.size a ≤ S2000.size a
  k0_off59_inb : ∀ i : grid0.Coords, ∀ a, (k0_off59 i) a + S1.size a ≤ S2000.size a
  k0_off61_inb : ∀ i : grid0.Coords, ∀ a, (k0_off61 i) a + S1.size a ≤ S2000.size a
  k0_off63_inb : ∀ i : grid0.Coords, ∀ a, (k0_off63 i) a + S1.size a ≤ S2000.size a
  k0_off65_inb : ∀ i : grid0.Coords, ∀ a, (k0_off65 i) a + S1.size a ≤ S2000.size a
  k0_off67_inb : ∀ i : grid0.Coords, ∀ a, (k0_off67 i) a + S1.size a ≤ S2000.size a
  k0_off69_inb : ∀ i : grid0.Coords, ∀ a, (k0_off69 i) a + S1.size a ≤ S2000.size a
  k0_off71_inb : ∀ i : grid0.Coords, ∀ a, (k0_off71 i) a + S1.size a ≤ S2000.size a
  k0_off73_inb : ∀ i : grid0.Coords, ∀ a, (k0_off73 i) a + S1.size a ≤ S2000.size a
  k0_off75_inb : ∀ i : grid0.Coords, ∀ a, (k0_off75 i) a + S1.size a ≤ S2000.size a
  k0_off77_inb : ∀ i : grid0.Coords, ∀ a, (k0_off77 i) a + S1.size a ≤ S2000.size a
  k0_off79_inb : ∀ i : grid0.Coords, ∀ a, (k0_off79 i) a + S1.size a ≤ S2000.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x40x16.size a ≤ S8x2000x16.size a
  hwx0_0 : ∀ i : grid0.Coords, EltTy.bits .bf16 = 32 ∨ (Rect.block (s := S8x2000x16) S8x40x16.size (cc0_transform_1 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S8x16x2000.size a ≤ S8x16x2000.size a
  hwx0_1 : ∀ i : grid0.Coords, EltTy.bits .bf16 = 32 ∨ (Rect.block (s := S8x16x2000) S8x16x2000.size (cc0_transform_2 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S5120x2000.size a ≤ S5120x2000.size a
  hwx0_2 : ∀ i : grid0.Coords, EltTy.bits .bf16 = 32 ∨ (Rect.block (s := S5120x2000) S5120x2000.size (cc0_transform_3 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S40x2000.size a ≤ S2000x2000.size a
  hwx0_3 : ∀ i : grid0.Coords, EltTy.bits .f32 = 32 ∨ (Rect.block (s := S2000x2000) S40x2000.size (cc0_transform_4 i) (hinb0_3 i)).WholeWords (EltTy.packing .f32)

variable [Facts₀]

abbrev cc0_scratch1 : DmaSems sig S40 := SemArray.consecutive 6 S40 hcc0_scratch1
def gather_S8x5000x16_S2000x1_S8x2000x16_02_1_n_n_1_1_8116 : GatherDims S8x5000x16 S2000x1 S8x2000x16 where
  offsetDims := [0, 2]
  collapsedSliceDims := [1]
  operandBatchingDims := []
  startIndicesBatchingDims := []
  startIndexMap := [1]
  indexVectorDim := 1
  sliceSizes := ![8, 1, 16]
  wf := gather_S8x5000x16_S2000x1_S8x2000x16_02_1_n_n_1_1_8116_wf
def gather_S8x16x5000_S2000x1_S8x16x2000_01_2_n_n_2_1_8161 : GatherDims S8x16x5000 S2000x1 S8x16x2000 where
  offsetDims := [0, 1]
  collapsedSliceDims := [2]
  operandBatchingDims := []
  startIndicesBatchingDims := []
  startIndexMap := [2]
  indexVectorDim := 1
  sliceSizes := ![8, 16, 1]
  wf := gather_S8x16x5000_S2000x1_S8x16x2000_01_2_n_n_2_1_8161_wf
def dot_S40x5120_S5120x2000_S40x2000_1_0_0_1_n_n : DotDims S40x5120 S5120x2000 S40x2000 where
  lhsContracting := [1]
  rhsContracting := [0]
  lhsNonContracting := [0]
  rhsNonContracting := [1]
  lhsBatch := []
  rhsBatch := []
  wf := dot_S40x5120_S5120x2000_S40x2000_1_0_0_1_n_n_wf
def dot_S40x16_S16x2000_S40x2000_1_0_0_1_n_n : DotDims S40x16 S16x2000 S40x2000 where
  lhsContracting := [1]
  rhsContracting := [0]
  lhsNonContracting := [0]
  rhsNonContracting := [1]
  lhsBatch := []
  rhsBatch := []
  wf := dot_S40x16_S16x2000_S40x2000_1_0_0_1_n_n_wf

abbrev spec0_0 : Pipeline.WinSpec sig grid0.rank :=
  Pipeline.WinSpec.ofSpec (Memref.whole main_v1) S8x40x16.size reads0_0 false false 2 stage0_0 sem0_0 nbuf0_0 hstage0_0

abbrev spec0_1 : Pipeline.WinSpec sig grid0.rank :=
  Pipeline.WinSpec.ofSpec (Memref.whole main_v3) S8x16x2000.size reads0_1 false true 1 stage0_1 sem0_1 nbuf0_1 hstage0_1

abbrev spec0_2 : Pipeline.WinSpec sig grid0.rank :=
  Pipeline.WinSpec.ofSpec (Memref.whole main_v5) S5120x2000.size reads0_2 false true 1 stage0_2 sem0_2 nbuf0_2 hstage0_2

abbrev spec0_3 : Pipeline.WinSpec sig grid0.rank :=
  Pipeline.WinSpec.ofSpec (Memref.whole main_v7) S40x2000.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_1 | 1 => cc0_transform_2 | 2 => cc0_transform_3 | 3 => cc0_transform_4 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x5000x5000 : Shape := ⟨3, ![8, 5000, 5000]⟩
abbrev S8x16x5000 : Shape := ⟨3, ![8, 16, 5000]⟩
abbrev S8x5000x16 : Shape := ⟨3, ![8, 5000, 16]⟩
abbrev S2000 : Shape := ⟨1, ![2000]⟩
abbrev S_ : Shape := ⟨0, ![]⟩
abbrev S2000x1 : Shape := ⟨2, ![2000, 1]⟩
abbrev S8x2000x5000 : Shape := ⟨3, ![8, 2000, 5000]⟩
abbrev S8x2000x2000 : Shape := ⟨3, ![8, 2000, 2000]⟩
abbrev S8x16x2000 : Shape := ⟨3, ![8, 16, 2000]⟩
abbrev S8x2000x16 : Shape := ⟨3, ![8, 2000, 16]⟩
abbrev S2000x2000 : Shape := ⟨2, ![2000, 2000]⟩

abbrev nBuf : Space → Nat
  | .hbm => 46
  | .vmem => 0
  | .smem => 0
  | _ => 0

abbrev bufTy : (tb : Table) → Fin (tcTables nBuf tb) → BufTy
  | .hbm, ⟨0, _⟩ => ⟨S8x5000x5000, .f32⟩
  | .hbm, ⟨1, _⟩ => ⟨S8x16x5000, .f32⟩
  | .hbm, ⟨2, _⟩ => ⟨S8x5000x16, .f32⟩
  | .hbm, ⟨3, _⟩ => ⟨S2000, .i32⟩
  | .hbm, ⟨4, _⟩ => ⟨S2000, .i32⟩
  | .hbm, ⟨5, _⟩ => ⟨S_, .i32⟩
  | .hbm, ⟨6, _⟩ => ⟨S2000, .i32⟩
  | .hbm, ⟨7, _⟩ => ⟨S2000, .i1⟩
  | .hbm, ⟨8, _⟩ => ⟨S_, .i32⟩
  | .hbm, ⟨9, _⟩ => ⟨S2000, .i32⟩
  | .hbm, ⟨10, _⟩ => ⟨S2000, .i32⟩
  | .hbm, ⟨11, _⟩ => ⟨S2000, .i32⟩
  | .hbm, ⟨12, _⟩ => ⟨S2000x1, .i32⟩
  | .hbm, ⟨13, _⟩ => ⟨S8x2000x5000, .f32⟩
  | .hbm, ⟨14, _⟩ => ⟨S_, .i32⟩
  | .hbm, ⟨15, _⟩ => ⟨S2000, .i32⟩
  | .hbm, ⟨16, _⟩ => ⟨S2000, .i1⟩
  | .hbm, ⟨17, _⟩ => ⟨S_, .i32⟩
  | .hbm, ⟨18, _⟩ => ⟨S2000, .i32⟩
  | .hbm, ⟨19, _⟩ => ⟨S2000, .i32⟩
  | .hbm, ⟨20, _⟩ => ⟨S2000, .i32⟩
  | .hbm, ⟨21, _⟩ => ⟨S2000x1, .i32⟩
  | .hbm, ⟨22, _⟩ => ⟨S8x2000x2000, .f32⟩
  | .hbm, ⟨23, _⟩ => ⟨S_, .i32⟩
  | .hbm, ⟨24, _⟩ => ⟨S2000, .i32⟩
  | .hbm, ⟨25, _⟩ => ⟨S2000, .i1⟩
  | .hbm, ⟨26, _⟩ => ⟨S_, .i32⟩
  | .hbm, ⟨27, _⟩ => ⟨S2000, .i32⟩
  | .hbm, ⟨28, _⟩ => ⟨S2000, .i32⟩
  | .hbm, ⟨29, _⟩ => ⟨S2000, .i32⟩
  | .hbm, ⟨30, _⟩ => ⟨S2000x1, .i32⟩
  | .hbm, ⟨31, _⟩ => ⟨S8x16x2000, .f32⟩
  | .hbm, ⟨32, _⟩ => ⟨S_, .i32⟩
  | .hbm, ⟨33, _⟩ => ⟨S2000, .i32⟩
  | .hbm, ⟨34, _⟩ => ⟨S2000, .i1⟩
  | .hbm, ⟨35, _⟩ => ⟨S_, .i32⟩
  | .hbm, ⟨36, _⟩ => ⟨S2000, .i32⟩
  | .hbm, ⟨37, _⟩ => ⟨S2000, .i32⟩
  | .hbm, ⟨38, _⟩ => ⟨S2000, .i32⟩
  | .hbm, ⟨39, _⟩ => ⟨S2000x1, .i32⟩
  | .hbm, ⟨40, _⟩ => ⟨S8x2000x16, .f32⟩
  | .hbm, ⟨41, _⟩ => ⟨S8x2000x2000, .f32⟩
  | .hbm, ⟨42, _⟩ => ⟨S8x2000x2000, .f32⟩
  | .hbm, ⟨43, _⟩ => ⟨S8x2000x2000, .f32⟩
  | .hbm, ⟨44, _⟩ => ⟨S_, .f32⟩
  | .hbm, ⟨45, _⟩ => ⟨S2000x2000, .f32⟩
  | _, _ => ⟨S8x5000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S2000 : S_.BroadcastsInDim S2000 (![] : Fin 0 → Fin S2000.rank)
  bcast_S2000_S2000x1_0 : S2000.BroadcastsInDim S2000x1 (![0] : Fin 1 → Fin S2000x1.rank)
  reducesTo_S8x2000x2000_S2000x2000_d0 : S8x2000x2000.ReducesTo [0] S2000x2000
  h_S_ : 0 < S_.numel
  gather_S8x5000x5000_S2000x1_S8x2000x5000_02_1_n_n_1_1_815000_wf : GatherDims.WF S8x5000x5000 S2000x1 S8x2000x5000 [0, 2] [1] [] [1] [] 1 ![8, 1, 5000]
  gather_S8x2000x5000_S2000x1_S8x2000x2000_01_2_n_n_2_1_820001_wf : GatherDims.WF S8x2000x5000 S2000x1 S8x2000x2000 [0, 1] [2] [] [2] [] 1 ![8, 2000, 1]
  gather_S8x16x5000_S2000x1_S8x16x2000_01_2_n_n_2_1_8161_wf : GatherDims.WF S8x16x5000 S2000x1 S8x16x2000 [0, 1] [2] [] [2] [] 1 ![8, 16, 1]
  gather_S8x5000x16_S2000x1_S8x2000x16_02_1_n_n_1_1_8116_wf : GatherDims.WF S8x5000x16 S2000x1 S8x2000x16 [0, 2] [1] [] [1] [] 1 ![8, 1, 16]
  dot_S8x2000x16_S8x16x2000_S8x2000x2000_2_1_1_2_0_0_wf : DotDims.WF S8x2000x16 S8x16x2000 S8x2000x2000 [2] [1] [1] [2] [0] [0]

variable [Facts₀]

def gather_S8x5000x5000_S2000x1_S8x2000x5000_02_1_n_n_1_1_815000 : GatherDims S8x5000x5000 S2000x1 S8x2000x5000 where
  offsetDims := [0, 2]
  collapsedSliceDims := [1]
  operandBatchingDims := []
  startIndicesBatchingDims := []
  startIndexMap := [1]
  indexVectorDim := 1
  sliceSizes := ![8, 1, 5000]
  wf := gather_S8x5000x5000_S2000x1_S8x2000x5000_02_1_n_n_1_1_815000_wf
def gather_S8x2000x5000_S2000x1_S8x2000x2000_01_2_n_n_2_1_820001 : GatherDims S8x2000x5000 S2000x1 S8x2000x2000 where
  offsetDims := [0, 1]
  collapsedSliceDims := [2]
  operandBatchingDims := []
  startIndicesBatchingDims := []
  startIndexMap := [2]
  indexVectorDim := 1
  sliceSizes := ![8, 2000, 1]
  wf := gather_S8x2000x5000_S2000x1_S8x2000x2000_01_2_n_n_2_1_820001_wf
def gather_S8x16x5000_S2000x1_S8x16x2000_01_2_n_n_2_1_8161 : GatherDims S8x16x5000 S2000x1 S8x16x2000 where
  offsetDims := [0, 1]
  collapsedSliceDims := [2]
  operandBatchingDims := []
  startIndicesBatchingDims := []
  startIndexMap := [2]
  indexVectorDim := 1
  sliceSizes := ![8, 16, 1]
  wf := gather_S8x16x5000_S2000x1_S8x16x2000_01_2_n_n_2_1_8161_wf
def gather_S8x5000x16_S2000x1_S8x2000x16_02_1_n_n_1_1_8116 : GatherDims S8x5000x16 S2000x1 S8x2000x16 where
  offsetDims := [0, 2]
  collapsedSliceDims := [1]
  operandBatchingDims := []
  startIndicesBatchingDims := []
  startIndexMap := [1]
  indexVectorDim := 1
  sliceSizes := ![8, 1, 16]
  wf := gather_S8x5000x16_S2000x1_S8x2000x16_02_1_n_n_1_1_8116_wf
def dot_S8x2000x16_S8x16x2000_S8x2000x2000_2_1_1_2_0_0 : DotDims S8x2000x16 S8x16x2000 S8x2000x2000 where
  lhsContracting := [2]
  rhsContracting := [1]
  lhsNonContracting := [1]
  rhsNonContracting := [2]
  lhsBatch := [0]
  rhsBatch := [0]
  wf := dot_S8x2000x16_S8x16x2000_S8x2000x2000_2_1_1_2_0_0_wf

class Facts : Prop extends Facts₀ where

variable [Facts]
-- ==== Proof.RowSetsKernel.lean ====
/-
  The forty row windows of the [8, 40, 5120] scratch as sets of buffer elements. Row window n is the unit-stride
  rectangle of sizes [8, 1, 5120] at offsets (0, n, 0): the indices whose middle coordinate is n. Two row windows
  with different n are separated on the middle axis, hence disjoint, and so are their images under the scratch's
  (injective) placement in its buffer. Taking windows 0, …, k − 1 out of the scratch's set one after the other leaves
  a set that still contains window n for every n ≥ k; with all forty taken out nothing is left, since every index
  of the scratch has a middle coordinate below forty.
-/
import proofs.«422802_j50680614093476_3_alg».proof.Kernel
import Idealize.ShloMosaic.Signature.Memref

noncomputable section

namespace Cert.Kernel.RowSets

open Cert.Kernel Idealize.ShloMosaic

/-- Row n of the scratch, as an [8, 1, 5120] block at offsets (0, n, 0), lies inside the [8, 40, 5120] shape. -/
theorem rowInb (n : ℕ) (h : n < 40) :
    ∀ a, (![0, n, 0] : Fin 3 → ℕ) a + S8x1x5120.size a ≤ S8x40x5120.size a := by
  intro a
  fin_cases a <;> simp [S8x1x5120, S8x40x5120] <;> omega

/-- The rectangle of row n. -/
abbrev rowRect (n : ℕ) (h : n < 40) : Rect S8x40x5120 :=
  Rect.unit (s := S8x40x5120) ![0, n, 0] S8x1x5120.size (rowInb n h)

/-- Rows n ≠ k are separated on the middle axis. -/
theorem rect_disjoint (n k : ℕ) (hn : n < 40) (hk : k < 40) (hne : n ≠ k) :
    Disjoint (rowRect n hn).set (rowRect k hk).set :=
  Rect.unit_disjoint (1 : Fin 3) (by show n + 1 ≤ k ∨ k + 1 ≤ n; omega)

/-- An index is in row n's rectangle iff its middle coordinate is n. -/
theorem mem_rowRect (n : ℕ) (hn : n < 40) (y : S8x40x5120.Idx) : y ∈ (rowRect n hn).set ↔ (y 1).val = n := by
  rw [Rect.mem_set_unit]
  have h0 : (y 0).val < 8 := (y 0).isLt
  have h2 : (y 2).val < 5120 := (y 2).isLt
  constructor
  · intro h
    have b : n ≤ (y 1).val ∧ (y 1).val < n + 1 := h 1
    omega
  · intro h a
    match a with
    | ⟨0, _⟩ => show 0 ≤ (y 0).val ∧ (y 0).val < 0 + 8; omega
    | ⟨1, _⟩ => show n ≤ (y 1).val ∧ (y 1).val < n + 1; omega
    | ⟨2, _⟩ => show 0 ≤ (y 2).val ∧ (y 2).val < 0 + 5120; omega

variable {κ : Kind} (m : Memref sig κ .vmem S8x40x5120 .f32)

/-- The buffer elements under row window n of the scratch. -/
abbrev rowSet (n : ℕ) (h : n < 40) : Finset m.view.ty.Idx :=
  (m.slice (rowRect n h) (fun _ => rfl)).view.set

/-- The scratch's elements with row windows 0, …, k − 1 taken out, one after the other. -/
def restSet : (k : ℕ) → k ≤ 40 → Finset m.view.ty.Idx
  | 0, _ => m.view.set
  | k + 1, h => restSet k (Nat.le_of_succ_le h) \ rowSet m k h

/-- A row window's elements are the images of its rectangle's indices. -/
theorem rowSet_eq (n : ℕ) (hn : n < 40) : rowSet m n hn = (rowRect n hn).set.map m.view.emb :=
  View.set_slice (v := m.view) (rowRect n hn)

theorem row_disjoint (n k : ℕ) (hn : n < 40) (hk : k < 40) (hne : n ≠ k) :
    Disjoint (rowSet m n hn) (rowSet m k hk) := by
  rw [rowSet_eq, rowSet_eq, Finset.disjoint_map]
  exact rect_disjoint n k hn hk hne

/-- Window n is still whole in the rest after windows 0, …, k − 1 are out, for every k ≤ n. -/
theorem row_sub_rest_of_le (n : ℕ) (hn : n < 40) : ∀ (k : ℕ) (hk : k ≤ 40), k ≤ n → rowSet m n hn ⊆ restSet m k hk
  | 0, _, _ => View.set_slice_subset (v := m.view) (rowRect n hn)
  | k + 1, hk, hkn => by
    show rowSet m n hn ⊆ restSet m k (Nat.le_of_succ_le hk) \ rowSet m k hk
    exact Finset.subset_sdiff.mpr
      ⟨row_sub_rest_of_le n hn k (Nat.le_of_succ_le hk) (Nat.le_of_succ_le hkn), row_disjoint m n k hn hk (by omega)⟩

theorem row_sub_rest (n : ℕ) (hn : n < 40) : rowSet m n hn ⊆ restSet m n hn.le :=
  row_sub_rest_of_le m n hn n hn.le le_rfl

/-- What is left after k windows are out lies in the scratch and meets none of the windows taken. -/
theorem mem_restSet {x : m.view.ty.Idx} : ∀ (k : ℕ) (hk : k ≤ 40), x ∈ restSet m k hk →
    x ∈ m.view.set ∧ ∀ (j : ℕ) (hj : j < 40), j < k → x ∉ rowSet m j hj
  | 0, _, h => ⟨h, fun _ _ hj => absurd hj (Nat.not_lt_zero _)⟩
  | k + 1, hk, h => by
    have h' : x ∈ restSet m k (Nat.le_of_succ_le hk) \ rowSet m k hk := h
    rw [Finset.mem_sdiff] at h'
    obtain ⟨hin, hall⟩ := mem_restSet k (Nat.le_of_succ_le hk) h'.1
    refine ⟨hin, fun j hj hjk => ?_⟩
    rcases Nat.lt_succ_iff_lt_or_eq.mp hjk with hlt | rfl
    · exact hall j hj hlt
    · exact h'.2

/-- The forty rows tile the scratch: nothing is left when all are out. -/
theorem rest_forty : restSet m 40 le_rfl = ∅ := by
  rw [Finset.eq_empty_iff_forall_notMem]
  intro x hx
  obtain ⟨hin, hall⟩ := mem_restSet m 40 le_rfl hx
  obtain ⟨y, -, rfl⟩ := Finset.mem_map.mp hin
  have hy : (y 1).val < 40 := (y 1).isLt
  refine hall (y 1).val hy hy ?_
  rw [rowSet_eq]
  exact Finset.mem_map_of_mem _ ((mem_rowRect _ hy y).mpr rfl)

/-! The sets unfold to the literal spelling: window 2 inside the scratch less windows 0 and 1, whatever the
    in-bounds evidence of each rectangle. -/
example (m : Memref sig .tc .vmem S8x40x5120 .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a) :
    (m.slice (Rect.unit (s := S8x40x5120) ![0, 2, 0] S8x1x5120.size p2) (fun _ => rfl)).view.set
      ⊆ (m.view.set \ (m.slice (Rect.unit (s := S8x40x5120) ![0, 0, 0] S8x1x5120.size p0) (fun _ => rfl)).view.set)
          \ (m.slice (Rect.unit (s := S8x40x5120) ![0, 1, 0] S8x1x5120.size p1) (fun _ => rfl)).view.set :=
  row_sub_rest m 2 (by decide)

example (m : Memref sig .tc .vmem S8x40x5120 .f32)
    (p38 : ∀ a, (![0, 38, 0] : Fin 3 → ℕ) a + S8x1x5120.size a ≤ S8x40x5120.size a) :
    (m.slice (Rect.unit (s := S8x40x5120) ![0, 38, 0] S8x1x5120.size p38) (fun _ => rfl)).view.set
      ⊆ restSet m 38 (by decide) :=
  row_sub_rest m 38 (by decide)

end Cert.Kernel.RowSets

end
-- ==== Proof.RowsBackKernel.lean ====
/-
  Putting the scratch block's row windows back together. The forty transfers land in forty row windows of the
  [8, 40, 5120] scratch block, row n of every cell type; a window held apart at contents that agree, on the window's
  own elements, with the contents after all forty writes rejoins the rest held at those contents. The writes are
  listed last first; row n's window reads the same after the first n + 1 writes as after all forty, the later
  writes being other rows.
-/
import proofs.«422802_j50680614093476_3_alg».proof.Kernel
import Idealize.ShloMosaic.Lib.Writes
import Idealize.ShloMosaic.Rules.PointsTo
import Idealize.ShloMosaic.Lib.Pipeline.Frame

noncomputable section

namespace Cert.Kernel.RowsBack

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The join step -/

/-- A part of a buffer's elements held at contents that agree there with f joins the rest of a larger part held
    at f. -/
theorem win_back {ℓ : Loc nD τ sig} {I T : Finset (Idx ℓ)} {q : PosShare TreeShare} {g f : Buf (Elt F) ℓ}
    (hsub : I ⊆ T) (hagree : ∀ i ∈ I, g i = f i) :
    (ℓ ↦[I]{q} g : sProp 𝕄) ⊢ iprop((ℓ ↦[T \ I]{q} f) -∗ ℓ ↦[T]{q} f) := by
  rw [pointsTo_congr hagree]
  exact BIClass.wand_intro (pointsTo_split_subset hsub).2

/-- The same with the two side conditions as one pure premise. -/
theorem win_back' {ℓ : Loc nD τ sig} {I T : Finset (Idx ℓ)} {q : PosShare TreeShare} {g f : Buf (Elt F) ℓ} :
    (ℓ ↦[I]{q} g : sProp 𝕄) ⊢ iprop((ℓ ↦[T \ I]{q} f) -∗ ⌜I ⊆ T ∧ ∀ i ∈ I, g i = f i⌝ -∗ ℓ ↦[T]{q} f) := by
  iintro HI HR %h
  iapply (win_back (F := F) h.1 h.2) $$ HI HR

end Cert.Kernel.RowsBack

end
-- ==== Proof.RowsAgreeKernel.lean ====
/-
  Row n's window of the scratch block reads the same after the first n + 1 row writes as after all forty. The
  forty writes, row k's payload through row k's rectangle, listed last first, are blocks of ONE function of the
  scratch index, (a, k, j) ↦ row k's payload at (a, 0, j); so an element under row n's window, which piece n covers
  in either list, reads that function there after either list of writes, whatever the block held before.
-/
import proofs.«422802_j50680614093476_3_alg».proof.Kernel
import proofs.«422802_j50680614093476_3_alg».proof.Proof.RowSetsKernel
import Idealize.ShloMosaic.Lib.Writes
import Idealize.ShloMosaic.Lib.ValueIdx

noncomputable section

namespace Cert.Kernel.RowsBack

open Cert.Kernel Cert.Kernel.RowSets Idealize.ShloMosaic Idealize.ShloMosaic.ValueIdx

variable {F : FTy → Type} [FloatOps F]

/-- The first k row writes, the last made first: row j's payload through row j's rectangle, j = k − 1, …, 0. -/
def rowList (pay : ℕ → S8x1x5120.Idx → Elt F .f32) : (k : ℕ) → k ≤ 40 → List (View.Piece (Elt F) S8x40x5120 .f32)
  | 0, _ => []
  | k + 1, h => ⟨rowRect k h, pay k⟩ :: rowList pay k (Nat.le_of_succ_le h)

/-- The function of the scratch index every row write is a block of: at (a, k, j), row k's payload at (a, 0, j). -/
def rowFun (pay : ℕ → S8x1x5120.Idx → Elt F .f32) : S8x40x5120.Idx → Elt F .f32 :=
  fun y => pay (y 1).val (ix3 (y 0) 0 (y 2))

/-- Row j's payload is that function's block at row j's rectangle. -/
theorem row_piece (pay : ℕ → S8x1x5120.Idx → Elt F .f32) (j : ℕ) (hj : j < 40) (x : S8x1x5120.Idx) :
    pay j x = rowFun pay ((rowRect j hj).emb x) := by
  have h1 : (x 1).val < 1 := (x 1).isLt
  have e1 : ((rowRect j hj).emb x 1).val = j := by
    show j + 1 * (x 1).val = j
    omega
  have e2 : (ix3 ((rowRect j hj).emb x 0) 0 ((rowRect j hj).emb x 2) : S8x1x5120.Idx) = x :=
    funext fun d => Fin.ext (by
      match d with
      | ⟨0, _⟩ => show 0 + 1 * (x 0).val = (x 0).val; omega
      | ⟨1, _⟩ => show 0 = (x 1).val; omega
      | ⟨2, _⟩ => show 0 + 1 * (x 2).val = (x 2).val; omega)
  unfold rowFun
  rw [e1, e2]

/-- So is every piece of every initial list. -/
theorem rowList_pieces (pay : ℕ → S8x1x5120.Idx → Elt F .f32) : ∀ (k : ℕ) (hk : k ≤ 40),
    ∀ p ∈ rowList pay k hk, ∀ x : p.1.shape.Idx, p.2 x = rowFun pay (p.1.emb x)
  | 0, _, _, hp, _ => absurd hp List.not_mem_nil
  | k + 1, hk, p, hp, x => by
    rcases List.mem_cons.mp hp with rfl | hp'
    · exact row_piece pay k hk x
    · exact rowList_pieces pay k (Nat.le_of_succ_le hk) p hp' x

/-- Row n's piece is in every initial list longer than n. -/
theorem mem_rowList (pay : ℕ → S8x1x5120.Idx → Elt F .f32) (n : ℕ) (hn : n < 40) : ∀ (k : ℕ) (hk : k ≤ 40), n < k →
    (⟨rowRect n hn, pay n⟩ : View.Piece (Elt F) S8x40x5120 .f32) ∈ rowList pay k hk
  | 0, _, h => absurd h (Nat.not_lt_zero _)
  | k + 1, hk, h => by
    rcases Nat.lt_succ_iff_lt_or_eq.mp h with hlt | rfl
    · exact List.mem_cons_of_mem _ (mem_rowList pay n hn k (Nat.le_of_succ_le hk) hlt)
    · exact List.mem_cons_self

/-- Row n's window holds the same after the first n + 1 row writes as after all forty. -/
theorem agree_on_row {κ : Kind} (m : Memref sig κ .vmem S8x40x5120 .f32) (f0 : m.view.ty.Contents (Elt F))
    (pay : ℕ → S8x1x5120.Idx → Elt F .f32) (n : ℕ) (hn : n < 40) :
    ∀ i ∈ (m.slice (rowRect n hn) (fun _ => rfl)).view.set,
      m.view.writes (Elt F) f0 (rowList pay (n + 1) hn) i = m.view.writes (Elt F) f0 (rowList pay 40 le_rfl) i := by
  intro i hi
  have hi' : i ∈ (rowRect n hn).set.map m.view.emb := (rowSet_eq m n hn) ▸ hi
  obtain ⟨y, hy, rfl⟩ := Finset.mem_map.mp hi'
  have hcov : ∀ (k : ℕ) (hk : k ≤ 40), n < k → ∃ p ∈ rowList pay k hk, y ∈ p.1.set :=
    fun k hk h => ⟨_, mem_rowList pay n hn k hk h, hy⟩
  have h1 := View.read_writes_apply_of_pieces m.view f0 (rowFun pay) (rowList pay (n + 1) hn)
    (rowList_pieces pay (n + 1) hn) y (hcov (n + 1) hn (Nat.lt_succ_self n))
  have h2 := View.read_writes_apply_of_pieces m.view f0 (rowFun pay) (rowList pay 40 le_rfl)
    (rowList_pieces pay 40 le_rfl) y (hcov 40 le_rfl hn)
  have h := h1.trans h2.symm
  rw [View.read_apply, View.read_apply] at h
  exact (cast_inj _).mp h

/-! The lists unfold to their literal spelling, whatever the in-bounds evidence of each rectangle. -/

example {κ : Kind} (m : Memref sig κ .vmem S8x40x5120 .f32) (f0 : m.view.ty.Contents (Elt F))
    (pay : ℕ → S8x1x5120.Idx → Elt F .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a) :
    ∀ i ∈ (m.slice (Rect.unit (s := S8x40x5120) ![0, 2, 0] S8x1x5120.size p2) (fun _ => rfl)).view.set,
      m.view.writes (Elt F) f0
          [⟨Rect.unit (s := S8x40x5120) ![0, 2, 0] S8x1x5120.size p2, pay 2⟩,
          ⟨Rect.unit (s := S8x40x5120) ![0, 1, 0] S8x1x5120.size p1, pay 1⟩,
          ⟨Rect.unit (s := S8x40x5120) ![0, 0, 0] S8x1x5120.size p0, pay 0⟩] i
        = m.view.writes (Elt F) f0 (rowList pay 40 le_rfl) i :=
  agree_on_row m f0 pay 2 (by decide)

example {κ : Kind} (m : Memref sig κ .vmem S8x40x5120 .f32) (f0 : m.view.ty.Contents (Elt F))
    (w0 w1 w2 w3 w4 w5 w6 w7 w8 w9 w10 w11 w12 w13 w14 w15 w16 w17 w18 w19 w20 w21 w22 w23 w24 w25 w26 w27 w28 w29 w30 w31 w32 w33 w34 w35 w36 w37 w38 w39 : S8x1x5120.Idx → Elt F .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a)
    (p3 : ∀ a, (![0, 3, 0] : Fin 3 → ℕ) a + S8x1x5120.size a ≤ S8x40x5120.size a)
    (p4 : ∀ a, (![0, 4, 0] : Fin 3 → ℕ) a + S8x1x5120.size a ≤ S8x40x5120.size a)
    (p5 : ∀ a, (![0, 5, 0] : Fin 3 → ℕ) a + S8x1x5120.size a ≤ S8x40x5120.size a)
    (p6 : ∀ a, (![0, 6, 0] : Fin 3 → ℕ) a + S8x1x5120.size a ≤ S8x40x5120.size a)
    (p7 : ∀ a, (![0, 7, 0] : Fin 3 → ℕ) a + S8x1x5120.size a ≤ S8x40x5120.size a)
    (p8 : ∀ a, (![0, 8, 0] : Fin 3 → ℕ) a + S8x1x5120.size a ≤ S8x40x5120.size a)
    (p9 : ∀ a, (![0, 9, 0] : Fin 3 → ℕ) a + S8x1x5120.size a ≤ S8x40x5120.size a)
    (p10 : ∀ a, (![0, 10, 0] : Fin 3 → ℕ) a + S8x1x5120.size a ≤ S8x40x5120.size a)
    (p11 : ∀ a, (![0, 11, 0] : Fin 3 → ℕ) a + S8x1x5120.size a ≤ S8x40x5120.size a)
    (p12 : ∀ a, (![0, 12, 0] : Fin 3 → ℕ) a + S8x1x5120.size a ≤ S8x40x5120.size a)
    (p13 : ∀ a, (![0, 13, 0] : Fin 3 → ℕ) a + S8x1x5120.size a ≤ S8x40x5120.size a)
    (p14 : ∀ a, (![0, 14, 0] : Fin 3 → ℕ) a + S8x1x5120.size a ≤ S8x40x5120.size a)
    (p15 : ∀ a, (![0, 15, 0] : Fin 3 → ℕ) a + S8x1x5120.size a ≤ S8x40x5120.size a)
    (p16 : ∀ a, (![0, 16, 0] : Fin 3 → ℕ) a + S8x1x5120.size a ≤ S8x40x5120.size a)
    (p17 : ∀ a, (![0, 17, 0] : Fin 3 → ℕ) a + S8x1x5120.size a ≤ S8x40x5120.size a)
    (p18 : ∀ a, (![0, 18, 0] : Fin 3 → ℕ) a + S8x1x5120.size a ≤ S8x40x5120.size a)
    (p19 : ∀ a, (![0, 19, 0] : Fin 3 → ℕ) a + S8x1x5120.size a ≤ S8x40x5120.size a)
    (p20 : ∀ a, (![0, 20, 0] : Fin 3 → ℕ) a + S8x1x5120.size a ≤ S8x40x5120.size a)
    (p21 : ∀ a, (![0, 21, 0] : Fin 3 → ℕ) a + S8x1x5120.size a ≤ S8x40x5120.size a)
    (p22 : ∀ a, (![0, 22, 0] : Fin 3 → ℕ) a + S8x1x5120.size a ≤ S8x40x5120.size a)
    (p23 : ∀ a, (![0, 23, 0] : Fin 3 → ℕ) a + S8x1x5120.size a ≤ S8x40x5120.size a)
    (p24 : ∀ a, (![0, 24, 0] : Fin 3 → ℕ) a + S8x1x5120.size a ≤ S8x40x5120.size a)
    (p25 : ∀ a, (![0, 25, 0] : Fin 3 → ℕ) a + S8x1x5120.size a ≤ S8x40x5120.size a)
    (p26 : ∀ a, (![0, 26, 0] : Fin 3 → ℕ) a + S8x1x5120.size a ≤ S8x40x5120.size a)
    (p27 : ∀ a, (![0, 27, 0] : Fin 3 → ℕ) a + S8x1x5120.size a ≤ S8x40x5120.size a)
    (p28 : ∀ a, (![0, 28, 0] : Fin 3 → ℕ) a + S8x1x5120.size a ≤ S8x40x5120.size a)
    (p29 : ∀ a, (![0, 29, 0] : Fin 3 → ℕ) a + S8x1x5120.size a ≤ S8x40x5120.size a)
    (p30 : ∀ a, (![0, 30, 0] : Fin 3 → ℕ) a + S8x1x5120.size a ≤ S8x40x5120.size a)
    (p31 : ∀ a, (![0, 31, 0] : Fin 3 → ℕ) a + S8x1x5120.size a ≤ S8x40x5120.size a)
    (p32 : ∀ a, (![0, 32, 0] : Fin 3 → ℕ) a + S8x1x5120.size a ≤ S8x40x5120.size a)
    (p33 : ∀ a, (![0, 33, 0] : Fin 3 → ℕ) a + S8x1x5120.size a ≤ S8x40x5120.size a)
    (p34 : ∀ a, (![0, 34, 0] : Fin 3 → ℕ) a + S8x1x5120.size a ≤ S8x40x5120.size a)
    (p35 : ∀ a, (![0, 35, 0] : Fin 3 → ℕ) a + S8x1x5120.size a ≤ S8x40x5120.size a)
    (p36 : ∀ a, (![0, 36, 0] : Fin 3 → ℕ) a + S8x1x5120.size a ≤ S8x40x5120.size a)
    (p37 : ∀ a, (![0, 37, 0] : Fin 3 → ℕ) a + S8x1x5120.size a ≤ S8x40x5120.size a)
    (p38 : ∀ a, (![0, 38, 0] : Fin 3 → ℕ) a + S8x1x5120.size a ≤ S8x40x5120.size a)
    (p39 : ∀ a, (![0, 39, 0] : Fin 3 → ℕ) a + S8x1x5120.size a ≤ S8x40x5120.size a) :
    ∀ i ∈ (m.slice (Rect.unit (s := S8x40x5120) ![0, 2, 0] S8x1x5120.size p2) (fun _ => rfl)).view.set,
      m.view.writes (Elt F) f0
          [⟨Rect.unit (s := S8x40x5120) ![0, 2, 0] S8x1x5120.size p2, w2⟩,
          ⟨Rect.unit (s := S8x40x5120) ![0, 1, 0] S8x1x5120.size p1, w1⟩,
          ⟨Rect.unit (s := S8x40x5120) ![0, 0, 0] S8x1x5120.size p0, w0⟩] i
        = m.view.writes (Elt F) f0
          [⟨Rect.unit (s := S8x40x5120) ![0, 39, 0] S8x1x5120.size p39, w39⟩,
          ⟨Rect.unit (s := S8x40x5120) ![0, 38, 0] S8x1x5120.size p38, w38⟩,
          ⟨Rect.unit (s := S8x40x5120) ![0, 37, 0] S8x1x5120.size p37, w37⟩,
          ⟨Rect.unit (s := S8x40x5120) ![0, 36, 0] S8x1x5120.size p36, w36⟩,
          ⟨Rect.unit (s := S8x40x5120) ![0, 35, 0] S8x1x5120.size p35, w35⟩,
          ⟨Rect.unit (s := S8x40x5120) ![0, 34, 0] S8x1x5120.size p34, w34⟩,
          ⟨Rect.unit (s := S8x40x5120) ![0, 33, 0] S8x1x5120.size p33, w33⟩,
          ⟨Rect.unit (s := S8x40x5120) ![0, 32, 0] S8x1x5120.size p32, w32⟩,
          ⟨Rect.unit (s := S8x40x5120) ![0, 31, 0] S8x1x5120.size p31, w31⟩,
          ⟨Rect.unit (s := S8x40x5120) ![0, 30, 0] S8x1x5120.size p30, w30⟩,
          ⟨Rect.unit (s := S8x40x5120) ![0, 29, 0] S8x1x5120.size p29, w29⟩,
          ⟨Rect.unit (s := S8x40x5120) ![0, 28, 0] S8x1x5120.size p28, w28⟩,
          ⟨Rect.unit (s := S8x40x5120) ![0, 27, 0] S8x1x5120.size p27, w27⟩,
          ⟨Rect.unit (s := S8x40x5120) ![0, 26, 0] S8x1x5120.size p26, w26⟩,
          ⟨Rect.unit (s := S8x40x5120) ![0, 25, 0] S8x1x5120.size p25, w25⟩,
          ⟨Rect.unit (s := S8x40x5120) ![0, 24, 0] S8x1x5120.size p24, w24⟩,
          ⟨Rect.unit (s := S8x40x5120) ![0, 23, 0] S8x1x5120.size p23, w23⟩,
          ⟨Rect.unit (s := S8x40x5120) ![0, 22, 0] S8x1x5120.size p22, w22⟩,
          ⟨Rect.unit (s := S8x40x5120) ![0, 21, 0] S8x1x5120.size p21, w21⟩,
          ⟨Rect.unit (s := S8x40x5120) ![0, 20, 0] S8x1x5120.size p20, w20⟩,
          ⟨Rect.unit (s := S8x40x5120) ![0, 19, 0] S8x1x5120.size p19, w19⟩,
          ⟨Rect.unit (s := S8x40x5120) ![0, 18, 0] S8x1x5120.size p18, w18⟩,
          ⟨Rect.unit (s := S8x40x5120) ![0, 17, 0] S8x1x5120.size p17, w17⟩,
          ⟨Rect.unit (s := S8x40x5120) ![0, 16, 0] S8x1x5120.size p16, w16⟩,
          ⟨Rect.unit (s := S8x40x5120) ![0, 15, 0] S8x1x5120.size p15, w15⟩,
          ⟨Rect.unit (s := S8x40x5120) ![0, 14, 0] S8x1x5120.size p14, w14⟩,
          ⟨Rect.unit (s := S8x40x5120) ![0, 13, 0] S8x1x5120.size p13, w13⟩,
          ⟨Rect.unit (s := S8x40x5120) ![0, 12, 0] S8x1x5120.size p12, w12⟩,
          ⟨Rect.unit (s := S8x40x5120) ![0, 11, 0] S8x1x5120.size p11, w11⟩,
          ⟨Rect.unit (s := S8x40x5120) ![0, 10, 0] S8x1x5120.size p10, w10⟩,
          ⟨Rect.unit (s := S8x40x5120) ![0, 9, 0] S8x1x5120.size p9, w9⟩,
          ⟨Rect.unit (s := S8x40x5120) ![0, 8, 0] S8x1x5120.size p8, w8⟩,
          ⟨Rect.unit (s := S8x40x5120) ![0, 7, 0] S8x1x5120.size p7, w7⟩,
          ⟨Rect.unit (s := S8x40x5120) ![0, 6, 0] S8x1x5120.size p6, w6⟩,
          ⟨Rect.unit (s := S8x40x5120) ![0, 5, 0] S8x1x5120.size p5, w5⟩,
          ⟨Rect.unit (s := S8x40x5120) ![0, 4, 0] S8x1x5120.size p4, w4⟩,
          ⟨Rect.unit (s := S8x40x5120) ![0, 3, 0] S8x1x5120.size p3, w3⟩,
          ⟨Rect.unit (s := S8x40x5120) ![0, 2, 0] S8x1x5120.size p2, w2⟩,
          ⟨Rect.unit (s := S8x40x5120) ![0, 1, 0] S8x1x5120.size p1, w1⟩,
          ⟨Rect.unit (s := S8x40x5120) ![0, 0, 0] S8x1x5120.size p0, w0⟩] i :=
  agree_on_row m f0 (fun k => match k with | 0 => w0 | 1 => w1 | 2 => w2 | 3 => w3 | 4 => w4 | 5 => w5 | 6 => w6 | 7 => w7 | 8 => w8 | 9 => w9 | 10 => w10 | 11 => w11 | 12 => w12 | 13 => w13 | 14 => w14 | 15 => w15 | 16 => w16 | 17 => w17 | 18 => w18 | 19 => w19 | 20 => w20 | 21 => w21 | 22 => w22 | 23 => w23 | 24 => w24 | 25 => w25 | 26 => w26 | 27 => w27 | 28 => w28 | 29 => w29 | 30 => w30 | 31 => w31 | 32 => w32 | 33 => w33 | 34 => w34 | 35 => w35 | 36 => w36 | 37 => w37 | 38 => w38 | 39 => w39 | _ => w0) 2 (by decide)

end Cert.Kernel.RowsBack

end
-- ==== Proof.RowsReturnKernel.lean ====
/-
  The scratch block's row windows, returned one by one. With the windows named by their row number (row n of every
  cell type) and the rest of the block named by how many leading rows are still out, window n joins the rest with
  rows 0 … n out and leaves the rest with rows 0 … n − 1 out, provided its contents agree on row n with the rest's.
  The first step restates the rest's element set, written as the block's elements less forty windows one after the
  other, as that rest.
-/
import proofs.«422802_j50680614093476_3_alg».proof.Proof.RowSetsKernel
import proofs.«422802_j50680614093476_3_alg».proof.Proof.RowsBackKernel

noncomputable section

namespace Cert.Kernel.RowsBack

open Cert.Kernel Cert.Kernel.RowSets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A part of a buffer held under one spelling of its element set is held under any equal one. -/
theorem respell {ℓ : Loc nD τ sig} {S S' : Finset (Idx ℓ)} {q : PosShare TreeShare} {f : Buf (Elt F) ℓ} :
    (ℓ ↦[S]{q} f : sProp 𝕄) ⊢ iprop(⌜S = S'⌝ -∗ ℓ ↦[S']{q} f) := by
  iintro H %h
  subst h
  iexact H

/-- Row window `n` goes back: held at contents that agree on the row with `f`, it joins the rest with rows
    `0 … n` out, held at `f`, into the rest with rows `0 … n − 1` out. -/
theorem row_back (c : Dev nD) (m : Memref sig .tc .vmem S8x40x5120 .f32) (q : PosShare TreeShare)
    (g f : Buf (Elt F) (m.view.loc (c : Thread nD τ))) (n n1 : ℕ) (h1 : n1 = n + 1) (hn : n < 40) :
    (m.view.loc (c : Thread nD τ) ↦[rowSet m n hn]{q} g : sProp 𝕄)
      ⊢ iprop((m.view.loc (c : Thread nD τ) ↦[restSet m n1 (h1 ▸ hn)]{q} f) -∗ ⌜∀ i ∈ rowSet m n hn, g i = f i⌝
          -∗ m.view.loc (c : Thread nD τ) ↦[restSet m n hn.le]{q} f) := by
  subst h1
  iintro HI HR %h
  -- the rest with rows 0 … n out is, by definition, the rest with rows 0 … n − 1 out less row n
  iapply (show (m.view.loc (c : Thread nD τ) ↦[rowSet m n hn]{q} g : sProp 𝕄)
      ⊢ iprop((m.view.loc (c : Thread nD τ) ↦[restSet m (n + 1) hn]{q} f) -∗ m.view.loc (c : Thread nD τ) ↦[restSet m n hn.le]{q} f)
      from win_back (F := F) (row_sub_rest m n hn) h) $$ HI HR

end Cert.Kernel.RowsBack

end
-- ==== Proof.RowSets.lean ====
/-
  The forty row windows of the [8, 40, 5120] scratch as sets of buffer elements. Row window n is the unit-stride
  rectangle of sizes [8, 1, 5120] at offsets (0, n, 0): the indices whose middle coordinate is n. Two row windows
  with different n are separated on the middle axis, hence disjoint, and so are their images under the scratch's
  (injective) placement in its buffer. Taking windows 0, …, k − 1 out of the scratch's set one after the other leaves
  a set that still contains window n for every n ≥ k; with all forty taken out nothing is left, since every index
  of the scratch has a middle coordinate below forty.
-/
import proofs.«422802_j50680614093476_3_alg».proof.KernelIdeal
import Idealize.ShloMosaic.Signature.Memref

noncomputable section

namespace Cert.KernelIdeal.RowSets

open Cert.KernelIdeal Idealize.ShloMosaic

/-- Row n of the scratch, as an [8, 1, 5120] block at offsets (0, n, 0), lies inside the [8, 40, 5120] shape. -/
theorem rowInb (n : ℕ) (h : n < 40) :
    ∀ a, (![0, n, 0] : Fin 3 → ℕ) a + S8x1x5120.size a ≤ S8x40x5120.size a := by
  intro a
  fin_cases a <;> simp [S8x1x5120, S8x40x5120] <;> omega

/-- The rectangle of row n. -/
abbrev rowRect (n : ℕ) (h : n < 40) : Rect S8x40x5120 :=
  Rect.unit (s := S8x40x5120) ![0, n, 0] S8x1x5120.size (rowInb n h)

/-- Rows n ≠ k are separated on the middle axis. -/
theorem rect_disjoint (n k : ℕ) (hn : n < 40) (hk : k < 40) (hne : n ≠ k) :
    Disjoint (rowRect n hn).set (rowRect k hk).set :=
  Rect.unit_disjoint (1 : Fin 3) (by show n + 1 ≤ k ∨ k + 1 ≤ n; omega)

/-- An index is in row n's rectangle iff its middle coordinate is n. -/
theorem mem_rowRect (n : ℕ) (hn : n < 40) (y : S8x40x5120.Idx) : y ∈ (rowRect n hn).set ↔ (y 1).val = n := by
  rw [Rect.mem_set_unit]
  have h0 : (y 0).val < 8 := (y 0).isLt
  have h2 : (y 2).val < 5120 := (y 2).isLt
  constructor
  · intro h
    have b : n ≤ (y 1).val ∧ (y 1).val < n + 1 := h 1
    omega
  · intro h a
    match a with
    | ⟨0, _⟩ => show 0 ≤ (y 0).val ∧ (y 0).val < 0 + 8; omega
    | ⟨1, _⟩ => show n ≤ (y 1).val ∧ (y 1).val < n + 1; omega
    | ⟨2, _⟩ => show 0 ≤ (y 2).val ∧ (y 2).val < 0 + 5120; omega

variable {κ : Kind} (m : Memref sig κ .vmem S8x40x5120 .f32)

/-- The buffer elements under row window n of the scratch. -/
abbrev rowSet (n : ℕ) (h : n < 40) : Finset m.view.ty.Idx :=
  (m.slice (rowRect n h) (fun _ => rfl)).view.set

/-- The scratch's elements with row windows 0, …, k − 1 taken out, one after the other. -/
def restSet : (k : ℕ) → k ≤ 40 → Finset m.view.ty.Idx
  | 0, _ => m.view.set
  | k + 1, h => restSet k (Nat.le_of_succ_le h) \ rowSet m k h

/-- A row window's elements are the images of its rectangle's indices. -/
theorem rowSet_eq (n : ℕ) (hn : n < 40) : rowSet m n hn = (rowRect n hn).set.map m.view.emb :=
  View.set_slice (v := m.view) (rowRect n hn)

theorem row_disjoint (n k : ℕ) (hn : n < 40) (hk : k < 40) (hne : n ≠ k) :
    Disjoint (rowSet m n hn) (rowSet m k hk) := by
  rw [rowSet_eq, rowSet_eq, Finset.disjoint_map]
  exact rect_disjoint n k hn hk hne

/-- Window n is still whole in the rest after windows 0, …, k − 1 are out, for every k ≤ n. -/
theorem row_sub_rest_of_le (n : ℕ) (hn : n < 40) : ∀ (k : ℕ) (hk : k ≤ 40), k ≤ n → rowSet m n hn ⊆ restSet m k hk
  | 0, _, _ => View.set_slice_subset (v := m.view) (rowRect n hn)
  | k + 1, hk, hkn => by
    show rowSet m n hn ⊆ restSet m k (Nat.le_of_succ_le hk) \ rowSet m k hk
    exact Finset.subset_sdiff.mpr
      ⟨row_sub_rest_of_le n hn k (Nat.le_of_succ_le hk) (Nat.le_of_succ_le hkn), row_disjoint m n k hn hk (by omega)⟩

theorem row_sub_rest (n : ℕ) (hn : n < 40) : rowSet m n hn ⊆ restSet m n hn.le :=
  row_sub_rest_of_le m n hn n hn.le le_rfl

/-- What is left after k windows are out lies in the scratch and meets none of the windows taken. -/
theorem mem_restSet {x : m.view.ty.Idx} : ∀ (k : ℕ) (hk : k ≤ 40), x ∈ restSet m k hk →
    x ∈ m.view.set ∧ ∀ (j : ℕ) (hj : j < 40), j < k → x ∉ rowSet m j hj
  | 0, _, h => ⟨h, fun _ _ hj => absurd hj (Nat.not_lt_zero _)⟩
  | k + 1, hk, h => by
    have h' : x ∈ restSet m k (Nat.le_of_succ_le hk) \ rowSet m k hk := h
    rw [Finset.mem_sdiff] at h'
    obtain ⟨hin, hall⟩ := mem_restSet k (Nat.le_of_succ_le hk) h'.1
    refine ⟨hin, fun j hj hjk => ?_⟩
    rcases Nat.lt_succ_iff_lt_or_eq.mp hjk with hlt | rfl
    · exact hall j hj hlt
    · exact h'.2

/-- The forty rows tile the scratch: nothing is left when all are out. -/
theorem rest_forty : restSet m 40 le_rfl = ∅ := by
  rw [Finset.eq_empty_iff_forall_notMem]
  intro x hx
  obtain ⟨hin, hall⟩ := mem_restSet m 40 le_rfl hx
  obtain ⟨y, -, rfl⟩ := Finset.mem_map.mp hin
  have hy : (y 1).val < 40 := (y 1).isLt
  refine hall (y 1).val hy hy ?_
  rw [rowSet_eq]
  exact Finset.mem_map_of_mem _ ((mem_rowRect _ hy y).mpr rfl)

/-! The sets unfold to the literal spelling: window 2 inside the scratch less windows 0 and 1, whatever the
    in-bounds evidence of each rectangle. -/
example (m : Memref sig .tc .vmem S8x40x5120 .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a) :
    (m.slice (Rect.unit (s := S8x40x5120) ![0, 2, 0] S8x1x5120.size p2) (fun _ => rfl)).view.set
      ⊆ (m.view.set \ (m.slice (Rect.unit (s := S8x40x5120) ![0, 0, 0] S8x1x5120.size p0) (fun _ => rfl)).view.set)
          \ (m.slice (Rect.unit (s := S8x40x5120) ![0, 1, 0] S8x1x5120.size p1) (fun _ => rfl)).view.set :=
  row_sub_rest m 2 (by decide)

example (m : Memref sig .tc .vmem S8x40x5120 .f32)
    (p38 : ∀ a, (![0, 38, 0] : Fin 3 → ℕ) a + S8x1x5120.size a ≤ S8x40x5120.size a) :
    (m.slice (Rect.unit (s := S8x40x5120) ![0, 38, 0] S8x1x5120.size p38) (fun _ => rfl)).view.set
      ⊆ restSet m 38 (by decide) :=
  row_sub_rest m 38 (by decide)

end Cert.KernelIdeal.RowSets

end
-- ==== Proof.RowsBack.lean ====
/-
  Putting the scratch block's row windows back together. The forty transfers land in forty row windows of the
  [8, 40, 5120] scratch block, row n of every cell type; a window held apart at contents that agree, on the window's
  own elements, with the contents after all forty writes rejoins the rest held at those contents. The writes are
  listed last first; row n's window reads the same after the first n + 1 writes as after all forty, the later
  writes being other rows.
-/
import proofs.«422802_j50680614093476_3_alg».proof.KernelIdeal
import Idealize.ShloMosaic.Lib.Writes
import Idealize.ShloMosaic.Rules.PointsTo
import Idealize.ShloMosaic.Lib.Pipeline.Frame

noncomputable section

namespace Cert.KernelIdeal.RowsBack

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The join step -/

/-- A part of a buffer's elements held at contents that agree there with f joins the rest of a larger part held
    at f. -/
theorem win_back {ℓ : Loc nD τ sig} {I T : Finset (Idx ℓ)} {q : PosShare TreeShare} {g f : Buf (Elt F) ℓ}
    (hsub : I ⊆ T) (hagree : ∀ i ∈ I, g i = f i) :
    (ℓ ↦[I]{q} g : sProp 𝕄) ⊢ iprop((ℓ ↦[T \ I]{q} f) -∗ ℓ ↦[T]{q} f) := by
  rw [pointsTo_congr hagree]
  exact BIClass.wand_intro (pointsTo_split_subset hsub).2

/-- The same with the two side conditions as one pure premise. -/
theorem win_back' {ℓ : Loc nD τ sig} {I T : Finset (Idx ℓ)} {q : PosShare TreeShare} {g f : Buf (Elt F) ℓ} :
    (ℓ ↦[I]{q} g : sProp 𝕄) ⊢ iprop((ℓ ↦[T \ I]{q} f) -∗ ⌜I ⊆ T ∧ ∀ i ∈ I, g i = f i⌝ -∗ ℓ ↦[T]{q} f) := by
  iintro HI HR %h
  iapply (win_back (F := F) h.1 h.2) $$ HI HR

end Cert.KernelIdeal.RowsBack

end
-- ==== Proof.RowsAgree.lean ====
/-
  Row n's window of the scratch block reads the same after the first n + 1 row writes as after all forty. The
  forty writes, row k's payload through row k's rectangle, listed last first, are blocks of ONE function of the
  scratch index, (a, k, j) ↦ row k's payload at (a, 0, j); so an element under row n's window, which piece n covers
  in either list, reads that function there after either list of writes, whatever the block held before.
-/
import proofs.«422802_j50680614093476_3_alg».proof.KernelIdeal
import proofs.«422802_j50680614093476_3_alg».proof.Proof.RowSets
import Idealize.ShloMosaic.Lib.Writes
import Idealize.ShloMosaic.Lib.ValueIdx

noncomputable section

namespace Cert.KernelIdeal.RowsBack

open Cert.KernelIdeal Cert.KernelIdeal.RowSets Idealize.ShloMosaic Idealize.ShloMosaic.ValueIdx

variable {F : FTy → Type} [FloatOps F]

/-- The first k row writes, the last made first: row j's payload through row j's rectangle, j = k − 1, …, 0. -/
def rowList (pay : ℕ → S8x1x5120.Idx → Elt F .f32) : (k : ℕ) → k ≤ 40 → List (View.Piece (Elt F) S8x40x5120 .f32)
  | 0, _ => []
  | k + 1, h => ⟨rowRect k h, pay k⟩ :: rowList pay k (Nat.le_of_succ_le h)

/-- The function of the scratch index every row write is a block of: at (a, k, j), row k's payload at (a, 0, j). -/
def rowFun (pay : ℕ → S8x1x5120.Idx → Elt F .f32) : S8x40x5120.Idx → Elt F .f32 :=
  fun y => pay (y 1).val (ix3 (y 0) 0 (y 2))

/-- Row j's payload is that function's block at row j's rectangle. -/
theorem row_piece (pay : ℕ → S8x1x5120.Idx → Elt F .f32) (j : ℕ) (hj : j < 40) (x : S8x1x5120.Idx) :
    pay j x = rowFun pay ((rowRect j hj).emb x) := by
  have h1 : (x 1).val < 1 := (x 1).isLt
  have e1 : ((rowRect j hj).emb x 1).val = j := by
    show j + 1 * (x 1).val = j
    omega
  have e2 : (ix3 ((rowRect j hj).emb x 0) 0 ((rowRect j hj).emb x 2) : S8x1x5120.Idx) = x :=
    funext fun d => Fin.ext (by
      match d with
      | ⟨0, _⟩ => show 0 + 1 * (x 0).val = (x 0).val; omega
      | ⟨1, _⟩ => show 0 = (x 1).val; omega
      | ⟨2, _⟩ => show 0 + 1 * (x 2).val = (x 2).val; omega)
  unfold rowFun
  rw [e1, e2]

/-- So is every piece of every initial list. -/
theorem rowList_pieces (pay : ℕ → S8x1x5120.Idx → Elt F .f32) : ∀ (k : ℕ) (hk : k ≤ 40),
    ∀ p ∈ rowList pay k hk, ∀ x : p.1.shape.Idx, p.2 x = rowFun pay (p.1.emb x)
  | 0, _, _, hp, _ => absurd hp List.not_mem_nil
  | k + 1, hk, p, hp, x => by
    rcases List.mem_cons.mp hp with rfl | hp'
    · exact row_piece pay k hk x
    · exact rowList_pieces pay k (Nat.le_of_succ_le hk) p hp' x

/-- Row n's piece is in every initial list longer than n. -/
theorem mem_rowList (pay : ℕ → S8x1x5120.Idx → Elt F .f32) (n : ℕ) (hn : n < 40) : ∀ (k : ℕ) (hk : k ≤ 40), n < k →
    (⟨rowRect n hn, pay n⟩ : View.Piece (Elt F) S8x40x5120 .f32) ∈ rowList pay k hk
  | 0, _, h => absurd h (Nat.not_lt_zero _)
  | k + 1, hk, h => by
    rcases Nat.lt_succ_iff_lt_or_eq.mp h with hlt | rfl
    · exact List.mem_cons_of_mem _ (mem_rowList pay n hn k (Nat.le_of_succ_le hk) hlt)
    · exact List.mem_cons_self

/-- Row n's window holds the same after the first n + 1 row writes as after all forty. -/
theorem agree_on_row {κ : Kind} (m : Memref sig κ .vmem S8x40x5120 .f32) (f0 : m.view.ty.Contents (Elt F))
    (pay : ℕ → S8x1x5120.Idx → Elt F .f32) (n : ℕ) (hn : n < 40) :
    ∀ i ∈ (m.slice (rowRect n hn) (fun _ => rfl)).view.set,
      m.view.writes (Elt F) f0 (rowList pay (n + 1) hn) i = m.view.writes (Elt F) f0 (rowList pay 40 le_rfl) i := by
  intro i hi
  have hi' : i ∈ (rowRect n hn).set.map m.view.emb := (rowSet_eq m n hn) ▸ hi
  obtain ⟨y, hy, rfl⟩ := Finset.mem_map.mp hi'
  have hcov : ∀ (k : ℕ) (hk : k ≤ 40), n < k → ∃ p ∈ rowList pay k hk, y ∈ p.1.set :=
    fun k hk h => ⟨_, mem_rowList pay n hn k hk h, hy⟩
  have h1 := View.read_writes_apply_of_pieces m.view f0 (rowFun pay) (rowList pay (n + 1) hn)
    (rowList_pieces pay (n + 1) hn) y (hcov (n + 1) hn (Nat.lt_succ_self n))
  have h2 := View.read_writes_apply_of_pieces m.view f0 (rowFun pay) (rowList pay 40 le_rfl)
    (rowList_pieces pay 40 le_rfl) y (hcov 40 le_rfl hn)
  have h := h1.trans h2.symm
  rw [View.read_apply, View.read_apply] at h
  exact (cast_inj _).mp h

/-! The lists unfold to their literal spelling, whatever the in-bounds evidence of each rectangle. -/

example {κ : Kind} (m : Memref sig κ .vmem S8x40x5120 .f32) (f0 : m.view.ty.Contents (Elt F))
    (pay : ℕ → S8x1x5120.Idx → Elt F .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a) :
    ∀ i ∈ (m.slice (Rect.unit (s := S8x40x5120) ![0, 2, 0] S8x1x5120.size p2) (fun _ => rfl)).view.set,
      m.view.writes (Elt F) f0
          [⟨Rect.unit (s := S8x40x5120) ![0, 2, 0] S8x1x5120.size p2, pay 2⟩,
          ⟨Rect.unit (s := S8x40x5120) ![0, 1, 0] S8x1x5120.size p1, pay 1⟩,
          ⟨Rect.unit (s := S8x40x5120) ![0, 0, 0] S8x1x5120.size p0, pay 0⟩] i
        = m.view.writes (Elt F) f0 (rowList pay 40 le_rfl) i :=
  agree_on_row m f0 pay 2 (by decide)

example {κ : Kind} (m : Memref sig κ .vmem S8x40x5120 .f32) (f0 : m.view.ty.Contents (Elt F))
    (w0 w1 w2 w3 w4 w5 w6 w7 w8 w9 w10 w11 w12 w13 w14 w15 w16 w17 w18 w19 w20 w21 w22 w23 w24 w25 w26 w27 w28 w29 w30 w31 w32 w33 w34 w35 w36 w37 w38 w39 : S8x1x5120.Idx → Elt F .f32)
    (p0 : ∀ a, (![0, 0, 0] : Fin 3 → ℕ) a + S8x1x5120.size a ≤ S8x40x5120.size a)
    (p1 : ∀ a, (![0, 1, 0] : Fin 3 → ℕ) a + S8x1x5120.size a ≤ S8x40x5120.size a)
    (p2 : ∀ a, (![0, 2, 0] : Fin 3 → ℕ) a + S8x1x5120.size a ≤ S8x40x5120.size a)
    (p3 : ∀ a, (![0, 3, 0] : Fin 3 → ℕ) a + S8x1x5120.size a ≤ S8x40x5120.size a)
    (p4 : ∀ a, (![0, 4, 0] : Fin 3 → ℕ) a + S8x1x5120.size a ≤ S8x40x5120.size a)
    (p5 : ∀ a, (![0, 5, 0] : Fin 3 → ℕ) a + S8x1x5120.size a ≤ S8x40x5120.size a)
    (p6 : ∀ a, (![0, 6, 0] : Fin 3 → ℕ) a + S8x1x5120.size a ≤ S8x40x5120.size a)
    (p7 : ∀ a, (![0, 7, 0] : Fin 3 → ℕ) a + S8x1x5120.size a ≤ S8x40x5120.size a)
    (p8 : ∀ a, (![0, 8, 0] : Fin 3 → ℕ) a + S8x1x5120.size a ≤ S8x40x5120.size a)
    (p9 : ∀ a, (![0, 9, 0] : Fin 3 → ℕ) a + S8x1x5120.size a ≤ S8x40x5120.size a)
    (p10 : ∀ a, (![0, 10, 0] : Fin 3 → ℕ) a + S8x1x5120.size a ≤ S8x40x5120.size a)
    (p11 : ∀ a, (![0, 11, 0] : Fin 3 → ℕ) a + S8x1x5120.size a ≤ S8x40x5120.size a)
    (p12 : ∀ a, (![0, 12, 0] : Fin 3 → ℕ) a + S8x1x5120.size a ≤ S8x40x5120.size a)
    (p13 : ∀ a, (![0, 13, 0] : Fin 3 → ℕ) a + S8x1x5120.size a ≤ S8x40x5120.size a)
    (p14 : ∀ a, (![0, 14, 0] : Fin 3 → ℕ) a + S8x1x5120.size a ≤ S8x40x5120.size a)
    (p15 : ∀ a, (![0, 15, 0] : Fin 3 → ℕ) a + S8x1x5120.size a ≤ S8x40x5120.size a)
    (p16 : ∀ a, (![0, 16, 0] : Fin 3 → ℕ) a + S8x1x5120.size a ≤ S8x40x5120.size a)
    (p17 : ∀ a, (![0, 17, 0] : Fin 3 → ℕ) a + S8x1x5120.size a ≤ S8x40x5120.size a)
    (p18 : ∀ a, (![0, 18, 0] : Fin 3 → ℕ) a + S8x1x5120.size a ≤ S8x40x5120.size a)
    (p19 : ∀ a, (![0, 19, 0] : Fin 3 → ℕ) a + S8x1x5120.size a ≤ S8x40x5120.size a)
    (p20 : ∀ a, (![0, 20, 0] : Fin 3 → ℕ) a + S8x1x5120.size a ≤ S8x40x5120.size a)
    (p21 : ∀ a, (![0, 21, 0] : Fin 3 → ℕ) a + S8x1x5120.size a ≤ S8x40x5120.size a)
    (p22 : ∀ a, (![0, 22, 0] : Fin 3 → ℕ) a + S8x1x5120.size a ≤ S8x40x5120.size a)
    (p23 : ∀ a, (![0, 23, 0] : Fin 3 → ℕ) a + S8x1x5120.size a ≤ S8x40x5120.size a)
    (p24 : ∀ a, (![0, 24, 0] : Fin 3 → ℕ) a + S8x1x5120.size a ≤ S8x40x5120.size a)
    (p25 : ∀ a, (![0, 25, 0] : Fin 3 → ℕ) a + S8x1x5120.size a ≤ S8x40x5120.size a)
    (p26 : ∀ a, (![0, 26, 0] : Fin 3 → ℕ) a + S8x1x5120.size a ≤ S8x40x5120.size a)
    (p27 : ∀ a, (![0, 27, 0] : Fin 3 → ℕ) a + S8x1x5120.size a ≤ S8x40x5120.size a)
    (p28 : ∀ a, (![0, 28, 0] : Fin 3 → ℕ) a + S8x1x5120.size a ≤ S8x40x5120.size a)
    (p29 : ∀ a, (![0, 29, 0] : Fin 3 → ℕ) a + S8x1x5120.size a ≤ S8x40x5120.size a)
    (p30 : ∀ a, (![0, 30, 0] : Fin 3 → ℕ) a + S8x1x5120.size a ≤ S8x40x5120.size a)
    (p31 : ∀ a, (![0, 31, 0] : Fin 3 → ℕ) a + S8x1x5120.size a ≤ S8x40x5120.size a)
    (p32 : ∀ a, (![0, 32, 0] : Fin 3 → ℕ) a + S8x1x5120.size a ≤ S8x40x5120.size a)
    (p33 : ∀ a, (![0, 33, 0] : Fin 3 → ℕ) a + S8x1x5120.size a ≤ S8x40x5120.size a)
    (p34 : ∀ a, (![0, 34, 0] : Fin 3 → ℕ) a + S8x1x5120.size a ≤ S8x40x5120.size a)
    (p35 : ∀ a, (![0, 35, 0] : Fin 3 → ℕ) a + S8x1x5120.size a ≤ S8x40x5120.size a)
    (p36 : ∀ a, (![0, 36, 0] : Fin 3 → ℕ) a + S8x1x5120.size a ≤ S8x40x5120.size a)
    (p37 : ∀ a, (![0, 37, 0] : Fin 3 → ℕ) a + S8x1x5120.size a ≤ S8x40x5120.size a)
    (p38 : ∀ a, (![0, 38, 0] : Fin 3 → ℕ) a + S8x1x5120.size a ≤ S8x40x5120.size a)
    (p39 : ∀ a, (![0, 39, 0] : Fin 3 → ℕ) a + S8x1x5120.size a ≤ S8x40x5120.size a) :
    ∀ i ∈ (m.slice (Rect.unit (s := S8x40x5120) ![0, 2, 0] S8x1x5120.size p2) (fun _ => rfl)).view.set,
      m.view.writes (Elt F) f0
          [⟨Rect.unit (s := S8x40x5120) ![0, 2, 0] S8x1x5120.size p2, w2⟩,
          ⟨Rect.unit (s := S8x40x5120) ![0, 1, 0] S8x1x5120.size p1, w1⟩,
          ⟨Rect.unit (s := S8x40x5120) ![0, 0, 0] S8x1x5120.size p0, w0⟩] i
        = m.view.writes (Elt F) f0
          [⟨Rect.unit (s := S8x40x5120) ![0, 39, 0] S8x1x5120.size p39, w39⟩,
          ⟨Rect.unit (s := S8x40x5120) ![0, 38, 0] S8x1x5120.size p38, w38⟩,
          ⟨Rect.unit (s := S8x40x5120) ![0, 37, 0] S8x1x5120.size p37, w37⟩,
          ⟨Rect.unit (s := S8x40x5120) ![0, 36, 0] S8x1x5120.size p36, w36⟩,
          ⟨Rect.unit (s := S8x40x5120) ![0, 35, 0] S8x1x5120.size p35, w35⟩,
          ⟨Rect.unit (s := S8x40x5120) ![0, 34, 0] S8x1x5120.size p34, w34⟩,
          ⟨Rect.unit (s := S8x40x5120) ![0, 33, 0] S8x1x5120.size p33, w33⟩,
          ⟨Rect.unit (s := S8x40x5120) ![0, 32, 0] S8x1x5120.size p32, w32⟩,
          ⟨Rect.unit (s := S8x40x5120) ![0, 31, 0] S8x1x5120.size p31, w31⟩,
          ⟨Rect.unit (s := S8x40x5120) ![0, 30, 0] S8x1x5120.size p30, w30⟩,
          ⟨Rect.unit (s := S8x40x5120) ![0, 29, 0] S8x1x5120.size p29, w29⟩,
          ⟨Rect.unit (s := S8x40x5120) ![0, 28, 0] S8x1x5120.size p28, w28⟩,
          ⟨Rect.unit (s := S8x40x5120) ![0, 27, 0] S8x1x5120.size p27, w27⟩,
          ⟨Rect.unit (s := S8x40x5120) ![0, 26, 0] S8x1x5120.size p26, w26⟩,
          ⟨Rect.unit (s := S8x40x5120) ![0, 25, 0] S8x1x5120.size p25, w25⟩,
          ⟨Rect.unit (s := S8x40x5120) ![0, 24, 0] S8x1x5120.size p24, w24⟩,
          ⟨Rect.unit (s := S8x40x5120) ![0, 23, 0] S8x1x5120.size p23, w23⟩,
          ⟨Rect.unit (s := S8x40x5120) ![0, 22, 0] S8x1x5120.size p22, w22⟩,
          ⟨Rect.unit (s := S8x40x5120) ![0, 21, 0] S8x1x5120.size p21, w21⟩,
          ⟨Rect.unit (s := S8x40x5120) ![0, 20, 0] S8x1x5120.size p20, w20⟩,
          ⟨Rect.unit (s := S8x40x5120) ![0, 19, 0] S8x1x5120.size p19, w19⟩,
          ⟨Rect.unit (s := S8x40x5120) ![0, 18, 0] S8x1x5120.size p18, w18⟩,
          ⟨Rect.unit (s := S8x40x5120) ![0, 17, 0] S8x1x5120.size p17, w17⟩,
          ⟨Rect.unit (s := S8x40x5120) ![0, 16, 0] S8x1x5120.size p16, w16⟩,
          ⟨Rect.unit (s := S8x40x5120) ![0, 15, 0] S8x1x5120.size p15, w15⟩,
          ⟨Rect.unit (s := S8x40x5120) ![0, 14, 0] S8x1x5120.size p14, w14⟩,
          ⟨Rect.unit (s := S8x40x5120) ![0, 13, 0] S8x1x5120.size p13, w13⟩,
          ⟨Rect.unit (s := S8x40x5120) ![0, 12, 0] S8x1x5120.size p12, w12⟩,
          ⟨Rect.unit (s := S8x40x5120) ![0, 11, 0] S8x1x5120.size p11, w11⟩,
          ⟨Rect.unit (s := S8x40x5120) ![0, 10, 0] S8x1x5120.size p10, w10⟩,
          ⟨Rect.unit (s := S8x40x5120) ![0, 9, 0] S8x1x5120.size p9, w9⟩,
          ⟨Rect.unit (s := S8x40x5120) ![0, 8, 0] S8x1x5120.size p8, w8⟩,
          ⟨Rect.unit (s := S8x40x5120) ![0, 7, 0] S8x1x5120.size p7, w7⟩,
          ⟨Rect.unit (s := S8x40x5120) ![0, 6, 0] S8x1x5120.size p6, w6⟩,
          ⟨Rect.unit (s := S8x40x5120) ![0, 5, 0] S8x1x5120.size p5, w5⟩,
          ⟨Rect.unit (s := S8x40x5120) ![0, 4, 0] S8x1x5120.size p4, w4⟩,
          ⟨Rect.unit (s := S8x40x5120) ![0, 3, 0] S8x1x5120.size p3, w3⟩,
          ⟨Rect.unit (s := S8x40x5120) ![0, 2, 0] S8x1x5120.size p2, w2⟩,
          ⟨Rect.unit (s := S8x40x5120) ![0, 1, 0] S8x1x5120.size p1, w1⟩,
          ⟨Rect.unit (s := S8x40x5120) ![0, 0, 0] S8x1x5120.size p0, w0⟩] i :=
  agree_on_row m f0 (fun k => match k with | 0 => w0 | 1 => w1 | 2 => w2 | 3 => w3 | 4 => w4 | 5 => w5 | 6 => w6 | 7 => w7 | 8 => w8 | 9 => w9 | 10 => w10 | 11 => w11 | 12 => w12 | 13 => w13 | 14 => w14 | 15 => w15 | 16 => w16 | 17 => w17 | 18 => w18 | 19 => w19 | 20 => w20 | 21 => w21 | 22 => w22 | 23 => w23 | 24 => w24 | 25 => w25 | 26 => w26 | 27 => w27 | 28 => w28 | 29 => w29 | 30 => w30 | 31 => w31 | 32 => w32 | 33 => w33 | 34 => w34 | 35 => w35 | 36 => w36 | 37 => w37 | 38 => w38 | 39 => w39 | _ => w0) 2 (by decide)

end Cert.KernelIdeal.RowsBack

end
-- ==== Proof.RowsReturn.lean ====
/-
  The scratch block's row windows, returned one by one. With the windows named by their row number (row n of every
  cell type) and the rest of the block named by how many leading rows are still out, window n joins the rest with
  rows 0 … n out and leaves the rest with rows 0 … n − 1 out, provided its contents agree on row n with the rest's.
  The first step restates the rest's element set, written as the block's elements less forty windows one after the
  other, as that rest.
-/
import proofs.«422802_j50680614093476_3_alg».proof.Proof.RowSets
import proofs.«422802_j50680614093476_3_alg».proof.Proof.RowsBack

noncomputable section

namespace Cert.KernelIdeal.RowsBack

open Cert.KernelIdeal Cert.KernelIdeal.RowSets
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A part of a buffer held under one spelling of its element set is held under any equal one. -/
theorem respell {ℓ : Loc nD τ sig} {S S' : Finset (Idx ℓ)} {q : PosShare TreeShare} {f : Buf (Elt F) ℓ} :
    (ℓ ↦[S]{q} f : sProp 𝕄) ⊢ iprop(⌜S = S'⌝ -∗ ℓ ↦[S']{q} f) := by
  iintro H %h
  subst h
  iexact H

/-- Row window `n` goes back: held at contents that agree on the row with `f`, it joins the rest with rows
    `0 … n` out, held at `f`, into the rest with rows `0 … n − 1` out. -/
theorem row_back (c : Dev nD) (m : Memref sig .tc .vmem S8x40x5120 .f32) (q : PosShare TreeShare)
    (g f : Buf (Elt F) (m.view.loc (c : Thread nD τ))) (n n1 : ℕ) (h1 : n1 = n + 1) (hn : n < 40) :
    (m.view.loc (c : Thread nD τ) ↦[rowSet m n hn]{q} g : sProp 𝕄)
      ⊢ iprop((m.view.loc (c : Thread nD τ) ↦[restSet m n1 (h1 ▸ hn)]{q} f) -∗ ⌜∀ i ∈ rowSet m n hn, g i = f i⌝
          -∗ m.view.loc (c : Thread nD τ) ↦[restSet m n hn.le]{q} f) := by
  subst h1
  iintro HI HR %h
  -- the rest with rows 0 … n out is, by definition, the rest with rows 0 … n − 1 out less row n
  iapply (show (m.view.loc (c : Thread nD τ) ↦[rowSet m n hn]{q} g : sProp 𝕄)
      ⊢ iprop((m.view.loc (c : Thread nD τ) ↦[restSet m (n + 1) hn]{q} f) -∗ m.view.loc (c : Thread nD τ) ↦[restSet m n hn.le]{q} f)
      from win_back (F := F) (row_sub_rest m n hn) h) $$ HI HR

end Cert.KernelIdeal.RowsBack

end
-- ==== Proof.WordRange.lean ====
/-
  Index words. A 32-bit word that is non-negative and below a bound `n ≤ 2^31` when read as a signed
  integer has an unsigned value below `n`: the sign bit is clear, so the two readings agree.
-/
import Idealize.ShloMosaic.Lib.StableHlo.Predicate

namespace Cert.WordRange

/-- A word whose signed value lies in `[0, n)` has unsigned value below `n`. -/
theorem toNat_lt_of_toInt_range (v : BitVec 32) (n : ℕ) (h0 : 0 ≤ v.toInt) (h1 : v.toInt < (n : ℤ)) :
    v.toNat < n := by
  have hmsb : v.toInt = (v.toNat : ℤ) := by
    rw [BitVec.toInt_eq_toNat_cond] at h0 ⊢
    split
    · rfl
    · rename_i h
      rw [if_neg h] at h0
      have := v.isLt
      omega
  rw [hmsb] at h1
  exact_mod_cast h1

end Cert.WordRange
-- ==== Proof.PreDecode.lean ====
/-
  The precondition read back. The predicate is the conjunction of seven statements, each "every element of an
  array passes a test": the three float arrays' absolute values lie below +∞, and the words of the two index
  arrays lie in [0, 5000) read as signed integers. From the predicate's value 1 this file derives, for the two
  index arrays, that every word's unsigned value is below 5000 (the sign bit is clear, so both readings agree),
  and, over the extended reals, that every entry of the first float array is a real number.
-/
import proofs.«422802_j50680614093476_3_alg».proof.Pre_finite_inputs
import proofs.«422802_j50680614093476_3_alg».proof.Proof.WordRange
import Idealize.ShloMosaic.Lib.ReduceAll
import Idealize.ShloMosaic.Lib.ValueIdx
import Idealize.ShloMosaic.PureOps.Ideal

noncomputable section

namespace Cert.PreDecode

open Idealize.ShloMosaic

/-- A word that tests at least 0 and below 5000, both signed, is below 5000 unsigned. -/
theorem word_lt (v : BitVec 32) (lo : IntOp.cmpi .sge v 0#32 = 1#1) (hi : IntOp.cmpi .slt v 5000#32 = 1#1) :
    v.toNat < 5000 := by
  rw [IntOp.cmpi_sge] at lo
  rw [IntOp.cmpi_slt] at hi
  have e0 : (0#32 : BitVec 32).toInt = 0 := by decide
  have e5 : (5000#32 : BitVec 32).toInt = ((5000 : ℕ) : ℤ) := by decide
  rw [e0] at lo
  rw [e5] at hi
  exact Cert.WordRange.toNat_lt_of_toInt_range v 5000 lo hi

/-- The pattern 0x7F800000 denotes +∞. -/
theorem ofBits_inf_f32 : Ideal.ofBits .f32 0x7F800000#32 = (⊤ : EReal) := by
  simp [Ideal.ofBits, Ideal.ieee]

/-- An extended real whose absolute value max x (−x) lies below +∞ is a real number: at either infinity the
    maximum is +∞. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

variable [Cert.Pre_finite_inputs.Facts]
open Cert.Pre_finite_inputs

/-- A rank-0 array has one index. -/
instance : Subsingleton S_.Idx := ⟨fun a b => funext fun d => d.elim0⟩

/-- Both index arrays' words lie below 5000, on either float instance. -/
theorem idx_range {F : FTy → Type} [FloatOps F] (a0 : FVec F S8x5000x5000 .f32) (a1 : FVec F S8x16x5000 .f32)
    (a2 : FVec F S8x5000x16 .f32) (a3 a4 : IVec S2000 32)
    (h : fn (F := F) a0 a1 a2 a3 a4 = fun _ => 1#1) :
    (∀ i, (a3 i).toNat < 5000) ∧ (∀ i, (a4 i).toNat < 5000) := by
  have e := congrFun h ValueIdx.ix0
  dsimp only [fn, fn_part1] at e
  simp only [andi, IntOp.andi_eq_one] at e
  obtain ⟨⟨⟨⟨-, h3lo⟩, h3hi⟩, h4lo⟩, h4hi⟩ := e
  exact ⟨fun i => word_lt _ (Host.reduce_andi_all _ _ _ _ _ h3lo i) (Host.reduce_andi_all _ _ _ _ _ h3hi i),
    fun i => word_lt _ (Host.reduce_andi_all _ _ _ _ _ h4lo i) (Host.reduce_andi_all _ _ _ _ _ h4hi i)⟩

/-- Over the extended reals every entry of the first float array is a real number. -/
theorem lr_finite (a0 : FVec Ideal S8x5000x5000 .f32) (a1 : FVec Ideal S8x16x5000 .f32)
    (a2 : FVec Ideal S8x5000x16 .f32) (a3 a4 : IVec S2000 32)
    (h : fn (F := Ideal) a0 a1 a2 a3 a4 = fun _ => 1#1) : ∀ i, ∃ r : ℝ, a0 i = (r : EReal) := by
  have e := congrFun h ValueIdx.ix0
  dsimp only [fn, fn_part1] at e
  simp only [andi, IntOp.andi_eq_one] at e
  obtain ⟨⟨⟨⟨⟨⟨h0, -⟩, -⟩, -⟩, -⟩, -⟩, -⟩ := e
  exact fun i => real_of_abs_lt_inf (a0 i) (Host.reduce_andi_all _ _ _ _ _ h0 i)

end Cert.PreDecode

end
-- ==== Proof.HypsKernel.lean ====
/-
  The side conditions of `Kernel`'s frame, from the precondition. The region reads forty words of the gene-index
  table at every grid point and, for each word v, copies row v of the [8, 5000, 5120] array as an [8, 1, 5120]
  block at offsets (0, v, 0); the body assumes of each word that this block lies inside the array, which holds
  exactly when v < 5000 unsigned. The table the region holds is the fifth argument array unchanged (the host
  operations before the region write none of the arguments), and the precondition bounds every word of that array:
  0 ≤ v < 5000 signed, hence v < 5000 unsigned. No index map reads a table, so the pipeline's own side condition
  is trivially true.
-/
import proofs.«422802_j50680614093476_3_alg».proof.Defs
import proofs.«422802_j50680614093476_3_alg».proof.Proof.Gen.Kernel.Frame.Runs
import proofs.«422802_j50680614093476_3_alg».proof.Proof.Gen.Pre_finite_inputs
import proofs.«422802_j50680614093476_3_alg».proof.Proof.PreDecode

set_option maxRecDepth 16384

noncomputable section

namespace Cert.Kernel.HypsOfPre

open Cert.Kernel Cert.Kernel.Gen
open Idealize.ShloMosaic Idealize.ShloMosaic.TcCoe Idealize.SL.Sem

/-- Row v of the [8, 5000, 5120] array, taken as an [8, 1, 5120] block at offsets (0, v, 0), lies inside the
    array when v < 5000. -/
theorem row_inb (v : BitVec 32) (hv : v.toNat < 5000) :
    ∀ a, (![0, v.toNat, 0] : Fin 3 → Nat) a + S8x1x5120.size a ≤ S8x5000x5120.size a := by
  intro a
  fin_cases a <;> simp [S8x1x5120, S8x5000x5120] <;> omega

/-- A word read through the whole table, at any coordinates, is one of the table's words: a bound on all of
    them bounds it. -/
theorem read_lt (tb : S2000.Idx → BitVec 32) (htb : ∀ i, (tb i).toNat < 5000) (R : LoadRect S2000) (x : R.shape.Idx) :
    (tbM0_0.view.readAt (Elt Bits) R tb x : BitVec 32).toNat < 5000 := htb _

variable (m : (ℓ : Loc nD τ sig) → Buf (Elt Bits) ℓ)

/-- No index map reads a table: the pipeline's side condition is `True`. -/
theorem ok_of_pre : Ok m := trivial

/-- The table the region holds is the gene-index argument, whose words the precondition bounds. -/
theorem tbl_lt (h : Cert.Pre_Kernel m) : ∀ i : S2000.Idx, ((tbl m 0 : S2000.Idx → BitVec 32) i).toNat < 5000 := by
  have ht : tbl m 0 = m (((0 : Dev nD) : Thread nD τ).loc main_arg4) := V_main_arg4 m 0
  rw [ht]
  exact (Cert.PreDecode.idx_range _ _ _ _ _ (h 0)).2

theorem hyps_of_pre (h : Cert.Pre_Kernel m) (hO : Ok m) : Hyps m hO := by
  have hr : ∀ (R : LoadRect S2000) (x : R.shape.Idx),
      (tbM0_0.view.readAt (Elt Bits) R (tbl m 0) x : BitVec 32).toNat < 5000 :=
    fun R x => read_lt (tbl m 0) (tbl_lt m h) R x
  apply Hyps.of <;> intro c t <;>
    first
    | exact And.intro (row_inb _ (hr _ _)) (row_inb _ (hr _ _))
    | exact row_inb _ (hr _ _)

end Cert.Kernel.HypsOfPre

end
-- ==== Proof.HypsKernelIdeal.lean ====
/-
  The side conditions of `KernelIdeal`'s frame, from the precondition. The region reads forty words of the gene-index
  table at every grid point and, for each word v, copies row v of the [8, 5000, 5120] array as an [8, 1, 5120]
  block at offsets (0, v, 0); the body assumes of each word that this block lies inside the array, which holds
  exactly when v < 5000 unsigned. The table the region holds is the fifth argument array unchanged (the host
  operations before the region write none of the arguments), and the precondition bounds every word of that array:
  0 ≤ v < 5000 signed, hence v < 5000 unsigned. No index map reads a table, so the pipeline's own side condition
  is trivially true.
-/
import proofs.«422802_j50680614093476_3_alg».proof.Defs
import proofs.«422802_j50680614093476_3_alg».proof.Proof.Gen.KernelIdeal.Frame.Runs
import proofs.«422802_j50680614093476_3_alg».proof.Proof.Gen.Pre_finite_inputs
import proofs.«422802_j50680614093476_3_alg».proof.Proof.PreDecode

set_option maxRecDepth 16384

noncomputable section

namespace Cert.KernelIdeal.HypsOfPre

open Cert.KernelIdeal Cert.KernelIdeal.Gen
open Idealize.ShloMosaic Idealize.ShloMosaic.TcCoe Idealize.SL.Sem

/-- Row v of the [8, 5000, 5120] array, taken as an [8, 1, 5120] block at offsets (0, v, 0), lies inside the
    array when v < 5000. -/
theorem row_inb (v : BitVec 32) (hv : v.toNat < 5000) :
    ∀ a, (![0, v.toNat, 0] : Fin 3 → Nat) a + S8x1x5120.size a ≤ S8x5000x5120.size a := by
  intro a
  fin_cases a <;> simp [S8x1x5120, S8x5000x5120] <;> omega

/-- A word read through the whole table, at any coordinates, is one of the table's words: a bound on all of
    them bounds it. -/
theorem read_lt (tb : S2000.Idx → BitVec 32) (htb : ∀ i, (tb i).toNat < 5000) (R : LoadRect S2000) (x : R.shape.Idx) :
    (tbM0_0.view.readAt (Elt Ideal) R tb x : BitVec 32).toNat < 5000 := htb _

variable (m : (ℓ : Loc nD τ sig) → Buf (Elt Ideal) ℓ)

/-- No index map reads a table: the pipeline's side condition is `True`. -/
theorem ok_of_pre : Ok m := trivial

/-- The table the region holds is the gene-index argument, whose words the precondition bounds. -/
theorem tbl_lt (h : Cert.Pre_KernelIdeal m) : ∀ i : S2000.Idx, ((tbl m 0 : S2000.Idx → BitVec 32) i).toNat < 5000 := by
  have ht : tbl m 0 = m (((0 : Dev nD) : Thread nD τ).loc main_arg4) := V_main_arg4 m 0
  rw [ht]
  exact (Cert.PreDecode.idx_range _ _ _ _ _ (h 0)).2

theorem hyps_of_pre (h : Cert.Pre_KernelIdeal m) (hO : Ok m) : Hyps m hO := by
  have hr : ∀ (R : LoadRect S2000) (x : R.shape.Idx),
      (tbM0_0.view.readAt (Elt Ideal) R (tbl m 0) x : BitVec 32).toNat < 5000 :=
    fun R x => read_lt (tbl m 0) (tbl_lt m h) R x
  apply Hyps.of <;> intro c t <;>
    first
    | exact And.intro (row_inb _ (hr _ _)) (row_inb _ (hr _ _))
    | exact row_inb _ (hr _ _)

end Cert.KernelIdeal.HypsOfPre

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.BlockValue.lean ====
/-
  The kernel body's arithmetic as one function of its loads. For one cell type the body forms, from the gathered
  rows x (a [1, 40, 5120] block read as [40, 5120]), the one-hot column selector sel ([5120, 2000]) and the two
  factor blocks vg ([1, 40, 16]) and wg ([1, 16, 2000]),

      t = exp ( ( x · sel + (x − x) · sel ) + vg · wg ),

  and it stores the eight cell types' t added up from the left. At the extended reals, on a row of x that is
  real everywhere and a column of sel that is 1 at one row j and 0 elsewhere, entry (p, q) of t is

      exp ( x[p, j] + ∑_{t < 16} vg[p, t] · wg[t, q] ).
-/
import proofs.«422802_j50680614093476_3_alg».proof.Proof.Gen.KernelIdeal.Skeleton
import proofs.«422802_j50680614093476_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- One cell type's term: the exponential of the selected log-rate column (the rows' high part times the selector
    plus their low part times the selector) plus the rank-16 product of the two factor blocks. -/
def chan {F : FTy → Type} [FloatOps F] (l : Vec F S1x40x5120 .f32) (s : Vec F S5120x2000 .bf16)
    (vg : Vec F S1x40x16 .bf16) (wg : Vec F S1x16x2000 .bf16) : FVec F S40x2000 .f32 :=
  exp (addf
    (addf
      (matmul dot_S40x5120_S5120x2000_S40x2000_1_0_0_1_n_n none
        (truncf .bf16 (shapeCast S40x5120 l shapeCasts_S1x40x5120_S40x5120) bitsLt_bf16_f32)
        (shapeCast S5120x2000 s shapeCasts_S5120x2000_S5120x2000) (constant S40x2000 .f32 0x00000000#32))
      (matmul dot_S40x5120_S5120x2000_S40x2000_1_0_0_1_n_n none
        (truncf .bf16 (subf (shapeCast S40x5120 l shapeCasts_S1x40x5120_S40x5120)
          (shapeCast S40x5120 l shapeCasts_S1x40x5120_S40x5120)) bitsLt_bf16_f32)
        (shapeCast S5120x2000 s shapeCasts_S5120x2000_S5120x2000) (constant S40x2000 .f32 0x00000000#32)))
    (matmul dot_S40x16_S16x2000_S40x2000_1_0_0_1_n_n none
      (shapeCast S40x16 vg shapeCasts_S1x40x16_S40x16) (shapeCast S16x2000 wg shapeCasts_S1x16x2000_S16x2000)
      (constant S40x2000 .f32 0x00000000#32)))

/-- The value the body stores, as the payloads nest, is the eight cell types' terms added up from the left. -/
theorem stored_eq {F : FTy → Type} [FloatOps F] (l : Fin 8 → Vec F S1x40x5120 .f32) (s : Vec F S5120x2000 .bf16)
    (vg : Fin 8 → Vec F S1x40x16 .bf16) (wg : Fin 8 → Vec F S1x16x2000 .bf16) :
    k0_pay16
        (k0_pay12
          (k0_pay9
            (k0_pay5 (k0_pay1 (l 0) s s (vg 0) (wg 0)) (k0_pay3 (l 1) s) (k0_pay4 (l 1) s) (vg 1) (wg 1) (l 2) s s (vg 2) (wg 2))
            (k0_pay6 (l 3)) (k0_pay7 (l 3)) (k0_pay8 (l 3)) s s (vg 3) (wg 3))
          (k0_pay10 (l 4) s s) (k0_pay11 (vg 4)) (wg 4) (l 5) s s (vg 5) (wg 5))
        (k0_pay14 (l 6)) (k0_pay15 (l 6) s) s (vg 6) (wg 6) (l 7) s s (vg 7) (wg 7)
      = addf (addf (addf (addf (addf (addf (addf (chan (l 0) s (vg 0) (wg 0)) (chan (l 1) s (vg 1) (wg 1)))
          (chan (l 2) s (vg 2) (wg 2))) (chan (l 3) s (vg 3) (wg 3))) (chan (l 4) s (vg 4) (wg 4)))
          (chan (l 5) s (vg 5) (wg 5))) (chan (l 6) s (vg 6) (wg 6))) (chan (l 7) s (vg 7) (wg 7)) := rfl

/-! ## One cell type's term at an index, on the extended reals -/

/-- A real number minus itself is zero on the extended reals (an infinity minus itself is not). -/
theorem sub_self_of_real (x : EReal) (h : ∃ r : ℝ, x = (r : EReal)) : x - x = 0 := by
  obtain ⟨r, rfl⟩ := h
  rw [← EReal.coe_sub, sub_self, EReal.coe_zero]

/-- A sum against a column that is 1 at row j and 0 elsewhere picks the j-th term. -/
theorem sum_mul_onehot {K : Nat} (f g : Fin K → EReal) (j : Fin K) (hg : ∀ k, g k = if k = j then (1 : EReal) else 0) :
    ∑ k : Fin K, f k * g k = f j := by
  rw [Finset.sum_eq_single j]
  · rw [hg j, if_pos rfl, mul_one]
  · intro k _ hk
    rw [hg k, if_neg hk, mul_zero]
  · intro h
    exact absurd (Finset.mem_univ j) h

/-- A sum whose left factors are each a real number minus itself is zero. -/
theorem sum_sub_self_mul {K : Nat} (f g : Fin K → EReal) (hf : ∀ k, ∃ r : ℝ, f k = (r : EReal)) :
    ∑ k : Fin K, (f k - f k) * g k = 0 :=
  Finset.sum_eq_zero fun k _ => by rw [sub_self_of_real _ (hf k), zero_mul]

/-- The exponential of a block at an index is the exponential of the element. -/
theorem exp_apply {s : Shape} {φ : FTy} (a : FVec Ideal s φ) (i : s.Idx) : exp a i = Ideal.exp (a i) := rfl

/-- The rows' product with the selector into the zero accumulator, at (p, q): the sum over the 5120 columns. -/
theorem sel_apply (x : FVec Ideal S40x5120 .bf16) (s : FVec Ideal S5120x2000 .bf16) (p : Fin 40) (q : Fin 2000) :
    matmul dot_S40x5120_S5120x2000_S40x2000_1_0_0_1_n_n none x s (constant S40x2000 .f32 0x00000000#32) (ix2 p q)
      = ∑ k : Fin 5120, x (ix2 p k) * s (ix2 k q) :=
  (congrFun (Cert.LibPlainDot.matmul_zero_eq_matProd dot_S40x5120_S5120x2000_S40x2000_1_0_0_1_n_n rfl rfl rfl rfl rfl rfl
    none x s) (ix2 p q)).trans (Cert.LibPlainDot.matProd_ix2 x s p q)

/-- The factor blocks' product into the zero accumulator, at (p, q): the sum over the 16 factors. -/
theorem fac_apply (v : FVec Ideal S40x16 .bf16) (w : FVec Ideal S16x2000 .bf16) (p : Fin 40) (q : Fin 2000) :
    matmul dot_S40x16_S16x2000_S40x2000_1_0_0_1_n_n none v w (constant S40x2000 .f32 0x00000000#32) (ix2 p q)
      = ∑ t : Fin 16, v (ix2 p t) * w (ix2 t q) :=
  (congrFun (Cert.LibPlainDot.matmul_zero_eq_matProd dot_S40x16_S16x2000_S40x2000_1_0_0_1_n_n rfl rfl rfl rfl rfl rfl
    none v w) (ix2 p q)).trans (Cert.LibPlainDot.matProd_ix2 v w p q)

/-- One cell type's term at (p, q), when row p of the gathered rows is real and column q of the selector is the
    indicator of row j: the exponential of the row's j-th entry plus the factors' product. The rows' high part is
    the rows themselves and picks entry j; their low part is zero. -/
theorem chan_apply (l : Vec Ideal S1x40x5120 .f32) (s : Vec Ideal S5120x2000 .bf16) (vg : Vec Ideal S1x40x16 .bf16)
    (wg : Vec Ideal S1x16x2000 .bf16) (p : Fin 40) (q : Fin 2000) (j : Fin 5120)
    (hfin : ∀ k : Fin 5120, ∃ r : ℝ, l (ix3 0 p k) = (r : EReal))
    (hsel : ∀ k : Fin 5120, s (ix2 k q) = if k = j then (1 : EReal) else 0) :
    chan (F := Ideal) l s vg wg (ix2 p q)
      = Ideal.exp (l (ix3 0 p j) + ∑ t : Fin 16, vg (ix3 0 p t) * wg (ix3 0 t q)) := by
  unfold chan
  rw [exp_apply, addf_apply, addf_apply, sel_apply, sel_apply, fac_apply, shapeCast_self]
  simp only [truncf_apply, subf_apply, shapeCast_1ab_ab_apply]
  rw [sum_mul_onehot (fun k => l (ix3 0 p k)) (fun k => s (ix2 k q)) j hsel,
    sum_sub_self_mul (fun k => l (ix3 0 p k)) (fun k => s (ix2 k q)) hfin, add_zero]

/-! ## The stored value at an index -/

/-- The eight cell types' terms added up from the left, at (p, q): the sum over the cell types of the exponentials,
    when for every cell type row p of its gathered rows is real and column q of the shared selector is the indicator
    of row j. -/
theorem stored_apply (l : Fin 8 → Vec Ideal S1x40x5120 .f32) (s : Vec Ideal S5120x2000 .bf16)
    (vg : Fin 8 → Vec Ideal S1x40x16 .bf16) (wg : Fin 8 → Vec Ideal S1x16x2000 .bf16) (p : Fin 40) (q : Fin 2000)
    (j : Fin 5120) (hfin : ∀ (c : Fin 8) (k : Fin 5120), ∃ r : ℝ, l c (ix3 0 p k) = (r : EReal))
    (hsel : ∀ k : Fin 5120, s (ix2 k q) = if k = j then (1 : EReal) else 0) :
    addf (addf (addf (addf (addf (addf (addf (chan (F := Ideal) (l 0) s (vg 0) (wg 0)) (chan (l 1) s (vg 1) (wg 1)))
          (chan (l 2) s (vg 2) (wg 2))) (chan (l 3) s (vg 3) (wg 3))) (chan (l 4) s (vg 4) (wg 4)))
          (chan (l 5) s (vg 5) (wg 5))) (chan (l 6) s (vg 6) (wg 6))) (chan (l 7) s (vg 7) (wg 7)) (ix2 p q)
      = ∑ c : Fin 8, Ideal.exp (l c (ix3 0 p j) + ∑ t : Fin 16, vg c (ix3 0 p t) * wg c (ix3 0 t q)) := by
  rw [addf_apply, addf_apply, addf_apply, addf_apply, addf_apply, addf_apply, addf_apply,
    chan_apply (l 0) s (vg 0) (wg 0) p q j (hfin 0) hsel, chan_apply (l 1) s (vg 1) (wg 1) p q j (hfin 1) hsel,
    chan_apply (l 2) s (vg 2) (wg 2) p q j (hfin 2) hsel, chan_apply (l 3) s (vg 3) (wg 3) p q j (hfin 3) hsel,
    chan_apply (l 4) s (vg 4) (wg 4) p q j (hfin 4) hsel, chan_apply (l 5) s (vg 5) (wg 5) p q j (hfin 5) hsel,
    chan_apply (l 6) s (vg 6) (wg 6) p q j (hfin 6) hsel, chan_apply (l 7) s (vg 7) (wg 7) p q j (hfin 7) hsel,
    Fin.sum_univ_eight]

/-- The same for the value as the payloads nest: what the body stores, at (p, q). -/
theorem stored_pay_apply (l : Fin 8 → Vec Ideal S1x40x5120 .f32) (s : Vec Ideal S5120x2000 .bf16)
    (vg : Fin 8 → Vec Ideal S1x40x16 .bf16) (wg : Fin 8 → Vec Ideal S1x16x2000 .bf16) (p : Fin 40) (q : Fin 2000)
    (j : Fin 5120) (hfin : ∀ (c : Fin 8) (k : Fin 5120), ∃ r : ℝ, l c (ix3 0 p k) = (r : EReal))
    (hsel : ∀ k : Fin 5120, s (ix2 k q) = if k = j then (1 : EReal) else 0) :
    k0_pay16 (F := Ideal)
        (k0_pay12
          (k0_pay9
            (k0_pay5 (k0_pay1 (l 0) s s (vg 0) (wg 0)) (k0_pay3 (l 1) s) (k0_pay4 (l 1) s) (vg 1) (wg 1) (l 2) s s (vg 2) (wg 2))
            (k0_pay6 (l 3)) (k0_pay7 (l 3)) (k0_pay8 (l 3)) s s (vg 3) (wg 3))
          (k0_pay10 (l 4) s s) (k0_pay11 (vg 4)) (wg 4) (l 5) s s (vg 5) (wg 5))
        (k0_pay14 (l 6)) (k0_pay15 (l 6) s) s (vg 6) (wg 6) (l 7) s s (vg 7) (wg 7) (ix2 p q)
      = ∑ c : Fin 8, Ideal.exp (l c (ix3 0 p j) + ∑ t : Fin 16, vg c (ix3 0 p t) * wg c (ix3 0 t q)) :=
  (congrFun (stored_eq l s vg wg) (ix2 p q)).trans (stored_apply l s vg wg p q j hfin hsel)

end Cert.KernelIdeal.BlockValue

end
-- ==== Proof.RowRead.lean ====
/-
  The rows the body's transfers move, read as values. Each transfer copies one row of every cell type's log-rate
  matrix: the [8, 1, 5120] slice of the [8, 5000, 5120] array at row r, into row n of the [8, 40, 5120] scratch
  block. Read at (a, 0, k) the slice is the array at (a, r, k); the forty delivered slices are the blocks of one
  function of the scratch index, (a, n, k) ↦ array at (a, rows n, k); and a [1, 40, 5120] box of the scratch at
  cell type c has index (0, p, k) at (c, p, k).
-/
import proofs.«422802_j50680614093476_3_alg».proof.Proof.Gen.KernelIdeal.Frame.Runs
import Idealize.ShloMosaic.Lib.Pipeline.Value
import Idealize.ShloMosaic.Lib.ValueIdx

noncomputable section

namespace Cert.KernelIdeal.RowRead

open Cert.KernelIdeal Cert.KernelIdeal.Gen Idealize.ShloMosaic Idealize.ShloMosaic.ValueIdx

variable {F : FTy → Type} [FloatOps F]

/-- The source slice of one transfer, read at (a, 0, k): the array at (a, r, k), r the slice's row. -/
theorem row_read (c : Dev nD) (fh0 : HbBuf0 (F := F) c hbM0_0) (off : Fin 3 → Nat) (r : Nat) (hoff : off = ![0, r, 0])
    (inb : ∀ a, off a + S8x1x5120.size a ≤ S8x5000x5120.size a) (hr : r < 5000) (a : Fin 8) (k : Fin 5120) :
    ReadAs.same.apply (((Memref.whole main_v6).slice (Rect.unit (s := S8x5000x5120) off S8x1x5120.size inb) (fun _ => rfl)).view.read
        (Elt F) fh0) (ix3 a 0 k)
      = fh0 (ix3 a ⟨r, hr⟩ k) := by
  subst hoff
  show fh0 _ = fh0 _
  refine congrArg fh0 (funext fun d => Fin.ext ?_)
  match d with
  | ⟨0, _⟩ => show 0 + 1 * a.val = a.val; omega
  | ⟨1, _⟩ => show r + 1 * 0 = r; omega
  | ⟨2, _⟩ => show 0 + 1 * k.val = k.val; omega

/-! ## The scratch block as one function of its index -/

/-- The scratch block once the forty rows have landed: row n of cell type a holds row `rows n` of the array. -/
def scratchOf {c : Dev nD} (fh0 : HbBuf0 (F := F) c hbM0_0) (rows : Fin 40 → Fin 5000) : S8x40x5120.Idx → Elt F .f32 :=
  fun y => fh0 (ix3 (y 0) (rows (y 1)) (y 2))

theorem scratchOf_ix3 {c : Dev nD} (fh0 : HbBuf0 (F := F) c hbM0_0) (rows : Fin 40 → Fin 5000) (a : Fin 8) (n : Fin 40)
    (k : Fin 5120) : scratchOf fh0 rows (ix3 a n k) = fh0 (ix3 a (rows n) k) := rfl

/-- The slice a transfer delivers into row n of the scratch is that function's block there: at the slice's own index
    x = (a, 0, k), the source read at x is the array at (a, rows n, k), and the destination rectangle places x at
    (a, n, k). -/
theorem piece_eq {c : Dev nD} (fh0 : HbBuf0 (F := F) c hbM0_0) (rows : Fin 40 → Fin 5000) (n : Fin 40)
    (offSrc : Fin 3 → Nat) (hoffSrc : offSrc = ![0, (rows n).val, 0])
    (inbSrc : ∀ a, offSrc a + S8x1x5120.size a ≤ S8x5000x5120.size a)
    (offDst : Fin 3 → Nat) (hoffDst : offDst = ![0, n.val, 0])
    (inbDst : ∀ a, offDst a + S8x1x5120.size a ≤ S8x40x5120.size a) :
    ∀ x : (Rect.unit (s := S8x40x5120) offDst S8x1x5120.size inbDst).shape.Idx,
      ReadAs.same.apply (((Memref.whole main_v6).slice (Rect.unit (s := S8x5000x5120) offSrc S8x1x5120.size inbSrc)
          (fun _ => rfl)).view.read (Elt F) fh0) x
        = scratchOf fh0 rows ((Rect.unit (s := S8x40x5120) offDst S8x1x5120.size inbDst).emb x) := by
  subst hoffSrc hoffDst
  intro (x : S8x1x5120.Idx)
  have h1 : (x 1).val < 1 := (x 1).isLt
  have hdst : (Rect.unit (s := S8x40x5120) ![0, n.val, 0] S8x1x5120.size inbDst).emb x = ix3 (x 0) n (x 2) :=
    funext fun d => Fin.ext (by
      match d with
      | ⟨0, _⟩ => show 0 + 1 * (x 0).val = (x 0).val; omega
      | ⟨1, _⟩ => show n.val + 1 * (x 1).val = n.val; omega
      | ⟨2, _⟩ => show 0 + 1 * (x 2).val = (x 2).val; omega)
  unfold scratchOf
  rw [hdst]
  show fh0 _ = fh0 _
  refine congrArg fh0 (funext fun d => Fin.ext ?_)
  match d with
  | ⟨0, _⟩ => show 0 + 1 * (x 0).val = (x 0).val; omega
  | ⟨1, _⟩ => show (rows n).val + 1 * (x 1).val = (rows n).val; omega
  | ⟨2, _⟩ => show 0 + 1 * (x 2).val = (x 2).val; omega

/-! ## A cell type's box of the scratch -/

/-- The [1, 40, 5120] box of the scratch at cell type ct places its index (0, p, k) at (ct, p, k). -/
theorem box_idx (off : Fin 3 → Nat) (ct : Fin 8) (hoff : off = ![ct.val, 0, 0])
    (inb : ∀ a, off a + S1x40x5120.size a ≤ S8x40x5120.size a) (p : Fin 40) (k : Fin 5120) :
    (Rect.unit (s := S8x40x5120) off S1x40x5120.size inb).toLoadRect.idx (ix3 0 p k) = ix3 ct p k := by
  subst hoff
  refine funext fun d => Fin.ext ?_
  match d with
  | ⟨0, _⟩ => show ct.val + 1 * 0 = ct.val; omega
  | ⟨1, _⟩ => show 0 + 1 * p.val = p.val; omega
  | ⟨2, _⟩ => show 0 + 1 * k.val = k.val; omega

/-- A load of that box after stores that are all blocks of the scratch function and together cover the scratch
    reads, at (0, p, k), the array at (ct, rows p, k). -/
theorem readCov_box {c : Dev nD} (fh0 : HbBuf0 (F := F) c hbM0_0) (rows : Fin 40 → Fin 5000) {κ : Kind} {sp : Space}
    (v : View sig κ sp S8x40x5120 .f32) (L : List (View.Piece (Elt F) S8x40x5120 .f32))
    (hpieces : ∀ q ∈ L, ∀ x : q.1.shape.Idx, q.2 x = scratchOf fh0 rows (q.1.emb x))
    (hcover : ∀ y : S8x40x5120.Idx, ∃ q ∈ L, y ∈ q.1.set)
    (off : Fin 3 → Nat) (ct : Fin 8) (hoff : off = ![ct.val, 0, 0])
    (inb : ∀ a, off a + S1x40x5120.size a ≤ S8x40x5120.size a) (p : Fin 40) (k : Fin 5120) :
    v.readCov L (Rect.unit (s := S8x40x5120) off S1x40x5120.size inb).toLoadRect (ix3 0 p k) = fh0 (ix3 ct (rows p) k) := by
  refine (congrFun (View.readCov_eq_canon' v L _) _).trans ?_
  show View.canon L ((Rect.unit (s := S8x40x5120) off S1x40x5120.size inb).toLoadRect.idx (ix3 0 p k)) = _
  rw [box_idx off ct hoff inb p k, View.canon_apply_of_pieces (scratchOf fh0 rows) L hpieces _ (hcover _)]
  rfl

end Cert.KernelIdeal.RowRead

end
-- ==== Proof.WordRead.lean ====
/-
  The body's read of one word of the gene-index table, as the table's contents at an index. The body reads the
  word through a one-element rectangle of the [2000] table at an offset r; read through the whole table that is
  the table at index r. At grid point i the forty offsets are 40 · i + n, n < 40, all below 2000 since the grid's
  one axis has fifty points.
-/
import proofs.«422802_j50680614093476_3_alg».proof.Proof.Gen.KernelIdeal.Frame.Runs
import Idealize.ShloMosaic.Lib.ValueIdx

noncomputable section

namespace Cert.KernelIdeal.WordRead

open Cert.KernelIdeal Cert.KernelIdeal.Gen Idealize.ShloMosaic Idealize.ShloMosaic.ValueIdx

variable {F : FTy → Type} [FloatOps F]

/-- One word read at offset r of the table is the table at index r. -/
theorem word_eq (c : Dev nD) (xt0 : TbBuf0 (F := F) c tbM0_0) (off : Fin 1 → Nat) (r : ℕ) (hoff : off = ![r])
    (inb : ∀ a, off a + S1.size a ≤ S2000.size a) (hr : r < 2000) (h1 : 0 < S1.numel) :
    tbM0_0.view.readAt (Elt F) (Rect.unit (s := S2000) off S1.size inb).toLoadRect xt0 (Shape.Idx.first h1)
      = xt0 (ix1 ⟨r, hr⟩) := by
  subst hoff
  show xt0 _ = xt0 _
  refine congrArg xt0 (funext fun d => Fin.ext ?_)
  match d with
  | ⟨0, _⟩ => show r + 1 * 0 = r; omega

/-- The n-th word's offset at grid point i is inside the table: the grid's one axis has fifty points. -/
theorem hb (i : grid0.Coords) (n : ℕ) (hn : n < 40) : 40 * (i 0).val + n < 2000 := by
  have h : (i 0).val < 50 := (i 0).isLt
  omega

/-- The n-th of the forty words the body reads at grid point i, through any offsets equal to (40 · i + n): the
    table at index 40 · i + n. -/
theorem word_at (c : Dev nD) (xt0 : TbBuf0 (F := F) c tbM0_0) (i : grid0.Coords) (n : ℕ) (hn : n < 40)
    (off : Fin 1 → Nat) (hoff : off = ![40 * (i 0).val + n]) (inb : ∀ a, off a + S1.size a ≤ S2000.size a)
    (h1 : 0 < S1.numel) :
    tbM0_0.view.readAt (Elt F) (Rect.unit (s := S2000) off S1.size inb).toLoadRect xt0 (Shape.Idx.first h1)
      = xt0 (ix1 ⟨40 * (i 0).val + n, hb i n hn⟩) :=
  word_eq c xt0 off _ hoff inb (hb i n hn) h1

/-! The body's own spelling of the first and the last word, closed by the general statement. -/

example (c : Dev nD) (xt0 : TbBuf0 (F := F) c tbM0_0) (i : grid0.Coords) :
    tbM0_0.view.readAt (Elt F) (Rect.unit (s := S2000) (k0_off1 i) S1.size (k0_off1_inb i)).toLoadRect xt0
        (Shape.Idx.first (numel1_S1.symm ▸ Nat.one_pos))
      = xt0 (ix1 ⟨40 * (i 0).val + 0, hb i 0 (by decide)⟩) :=
  word_at c xt0 i 0 (by decide) _ (k0_off1_eq i) _ _

example (c : Dev nD) (xt0 : TbBuf0 (F := F) c tbM0_0) (i : grid0.Coords) (P : Elt F .i32 → Prop)
    (h : P (xt0 (ix1 ⟨40 * (i 0).val + 39, hb i 39 (by decide)⟩))) :
    P (tbM0_0.view.readAt (Elt F) (Rect.unit (s := S2000) (k0_off79 i) S1.size (k0_off79_inb i)).toLoadRect xt0
        (Shape.Idx.first (numel1_S1.symm ▸ Nat.one_pos))) := by
  rw [word_at c xt0 i 39 (by decide) _ (k0_off79_eq i)]
  exact h

end Cert.KernelIdeal.WordRead

end
-- ==== Proof.RowsRead.lean ====
/-
  A [1, 40, 5120] box of the scratch block read after the forty row writes. Every index of the block lies in the
  row rectangle of its own middle coordinate, so the forty pieces cover the block and the block reads the one
  function they are blocks of; the box at cell type ct places (0, p, k) at (ct, p, k), where that function is row
  p's payload at (ct, 0, k).
-/
import proofs.«422802_j50680614093476_3_alg».proof.Proof.RowsAgree
import proofs.«422802_j50680614093476_3_alg».proof.Proof.RowRead
import Idealize.ShloMosaic.Lib.Pipeline.Value

noncomputable section

namespace Cert.KernelIdeal.RowsBack

open Cert.KernelIdeal Cert.KernelIdeal.RowSets Idealize.ShloMosaic Idealize.ShloMosaic.ValueIdx

variable {F : FTy → Type} [FloatOps F]

/-- The forty row pieces cover the scratch block: index y lies in the row rectangle of its middle coordinate. -/
theorem rowList_cover (pay : ℕ → S8x1x5120.Idx → Elt F .f32) (y : S8x40x5120.Idx) :
    ∃ q ∈ rowList pay 40 le_rfl, y ∈ q.1.set := by
  have hy : (y 1).val < 40 := (y 1).isLt
  exact ⟨_, mem_rowList pay (y 1).val hy 40 le_rfl hy, (mem_rowRect (y 1).val hy y).mpr rfl⟩

/-- The box of cell type ct, loaded after the forty row writes, reads at (0, p, k) row p's payload at (ct, 0, k). -/
theorem readCov_rowList {κ : Kind} {sp : Space} (v : View sig κ sp S8x40x5120 .f32)
    (pay : ℕ → S8x1x5120.Idx → Elt F .f32) (off : Fin 3 → Nat) (ct : Fin 8) (hoff : off = ![ct.val, 0, 0])
    (inb : ∀ a, off a + S1x40x5120.size a ≤ S8x40x5120.size a) (p : Fin 40) (k : Fin 5120) :
    v.readCov (rowList pay 40 le_rfl) (Rect.unit (s := S8x40x5120) off S1x40x5120.size inb).toLoadRect (ix3 0 p k)
      = pay p.val (ix3 ct 0 k) := by
  refine (congrFun (View.readCov_eq_canon' v (rowList pay 40 le_rfl) _) _).trans ?_
  show View.canon (rowList pay 40 le_rfl)
      ((Rect.unit (s := S8x40x5120) off S1x40x5120.size inb).toLoadRect.idx (ix3 0 p k)) = _
  rw [Cert.KernelIdeal.RowRead.box_idx off ct hoff inb p k,
    View.canon_apply_of_pieces (rowFun pay) (rowList pay 40 le_rfl) (rowList_pieces pay 40 le_rfl) _
      (rowList_cover pay _)]
  rfl

end Cert.KernelIdeal.RowsBack

end
-- ==== Proof.BlockReads.lean ====
/-
  The body's loads of its input blocks, read at an index. A load through a unit-stride rectangle of a buffer held
  whole reads the buffer's array at the rectangle's offsets plus the index: cell type `a`'s slab of the gathered gene
  factors and of the gathered spot factors, at offsets (a, 0, 0), and the selection matrix whole, at offsets (0, 0).
-/
import proofs.«422802_j50680614093476_3_alg».proof.Proof.Gen.KernelIdeal.Frame.Runs
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.ValueIdx

variable {F : FTy → Type} [FloatOps F]

/-- Slab `a` of the gathered gene factors, loaded as a [1, 40, 16] block, reads the array at (a, p, t). -/
theorem vg_read (arg3 : Memref sig .tc .vmem S8x40x16 .bf16) (harg3 : arg3.IsWhole) (x0 : Vec F S8x40x16 .bf16) (a : Fin 8)
    (off : Fin 3 → Nat) (hoff : off = ![a.val, 0, 0]) (inb : ∀ b, off b + S1x40x16.size b ≤ S8x40x16.size b)
    (p : Fin 40) (t : Fin 16) :
    View.readAt (Elt F) arg3.view (Rect.unit (s := S8x40x16) off S1x40x16.size inb).toLoadRect (harg3.unread x0) (ix3 0 p t)
      = x0 (ix3 a p t) := by
  subst hoff
  rw [View.readAt_apply, harg3.read_unread]
  refine congrArg x0 (funext fun b => Fin.ext ?_)
  match b with
  | ⟨0, _⟩ => show a.val + 1 * 0 = a.val; omega
  | ⟨1, _⟩ => show 0 + 1 * p.val = p.val; omega
  | ⟨2, _⟩ => show 0 + 1 * t.val = t.val; omega

/-- Slab `a` of the gathered spot factors, loaded as a [1, 16, 2000] block, reads the array at (a, t, q). -/
theorem wg_read (arg4 : Memref sig .tc .vmem S8x16x2000 .bf16) (harg4 : arg4.IsWhole) (x1 : Vec F S8x16x2000 .bf16) (a : Fin 8)
    (off : Fin 3 → Nat) (hoff : off = ![a.val, 0, 0]) (inb : ∀ b, off b + S1x16x2000.size b ≤ S8x16x2000.size b)
    (t : Fin 16) (q : Fin 2000) :
    View.readAt (Elt F) arg4.view (Rect.unit (s := S8x16x2000) off S1x16x2000.size inb).toLoadRect (harg4.unread x1) (ix3 0 t q)
      = x1 (ix3 a t q) := by
  subst hoff
  rw [View.readAt_apply, harg4.read_unread]
  refine congrArg x1 (funext fun b => Fin.ext ?_)
  match b with
  | ⟨0, _⟩ => show a.val + 1 * 0 = a.val; omega
  | ⟨1, _⟩ => show 0 + 1 * t.val = t.val; omega
  | ⟨2, _⟩ => show 0 + 1 * q.val = q.val; omega

/-- The selection matrix, loaded whole, reads itself. -/
theorem sel_read (arg5 : Memref sig .tc .vmem S5120x2000 .bf16) (harg5 : arg5.IsWhole) (x2 : Vec F S5120x2000 .bf16)
    (off : Fin 2 → Nat) (hoff : off = ![0, 0]) (inb : ∀ b, off b + S5120x2000.size b ≤ S5120x2000.size b)
    (k : Fin 5120) (q : Fin 2000) :
    View.readAt (Elt F) arg5.view (Rect.unit (s := S5120x2000) off S5120x2000.size inb).toLoadRect (harg5.unread x2) (ix2 k q)
      = x2 (ix2 k q) := by
  subst hoff
  rw [View.readAt_apply, harg5.read_unread]
  refine congrArg x2 (funext fun b => Fin.ext ?_)
  match b with
  | ⟨0, _⟩ => show 0 + 1 * k.val = k.val; omega
  | ⟨1, _⟩ => show 0 + 1 * q.val = q.val; omega

end Cert.KernelIdeal.BlockReads

end
-- ==== Proof.OutEq.lean ====
/-
  What the kernel body stores at a grid point, entry by entry. The body's forty transfers deliver forty rows of the
  padded log-rates — local row n the row whose number is the n-th gene word the point reads — into the scratch block,
  one [8, 1, 5120] piece per row; a load of cell type a's [1, 40, 5120] box of the scratch reads, at (0, p, k), piece p
  at (a, 0, k), that is log-rate (a, rows p, k). The stored block is the body's arithmetic of those eight loads, the
  one-hot matrix and the two factor blocks; with the one-hot column of q selecting column j and the gathered rows
  finite, entry (p, q) is the sum over the eight cell types of exp of the log-rate at (a, rows p, j) plus the rank-16
  product of the factors.
-/
import proofs.«422802_j50680614093476_3_alg».proof.Proof.KernelIdealFrame
import proofs.«422802_j50680614093476_3_alg».proof.Proof.BlockValue
import proofs.«422802_j50680614093476_3_alg».proof.Proof.RowRead
import proofs.«422802_j50680614093476_3_alg».proof.Proof.WordRead
import proofs.«422802_j50680614093476_3_alg».proof.Proof.RowsAgree
import proofs.«422802_j50680614093476_3_alg».proof.Proof.RowsRead
import proofs.«422802_j50680614093476_3_alg».proof.Proof.BlockReads
import Idealize.ShloMosaic.Lib.Pipeline.Value

set_option maxRecDepth 16384

noncomputable section

namespace Cert.KernelIdeal.OutEq
open Cert.KernelIdeal Cert.KernelIdeal.Gen
open Idealize.ShloMosaic Idealize.ShloMosaic.TcCoe Idealize.ShloMosaic.ValueIdx Idealize.SL.Sem Idealize.ShloMosaic.Tactic
open scoped BigOperators

theorem hb (i : grid0.Coords) (n : Fin 40) : 40 * (i 0).val + n.val < 2000 := by
  have h0 : (i 0).val < 50 := (i 0).isLt
  have := n.isLt
  omega

/-- The copied rows at their literal type. -/
abbrev lrpOf (c : Dev nD) (fh0 : HbBuf0 (F := Ideal) c hbM0_0) : S8x5000x5120.Idx → EReal := fh0

theorem hz2 : (![0, 0] : Fin 2 → Nat) = fun _ => 0 := funext fun a => by fin_cases a <;> rfl
theorem hz3 : (![0, 0, 0] : Fin 3 → Nat) = fun _ => 0 := funext fun a => by fin_cases a <;> rfl

/-- A cell type's [1, 40, 5120] box lies inside the scratch block; likewise its factor blocks. -/
theorem boxInb (a : Fin 8) : ∀ b, (![a.val, 0, 0] : Fin 3 → ℕ) b + S1x40x5120.size b ≤ S8x40x5120.size b := by
  intro b; have := a.isLt; fin_cases b <;> simp [S1x40x5120, S8x40x5120] <;> omega
theorem vgInb (a : Fin 8) : ∀ b, (![a.val, 0, 0] : Fin 3 → ℕ) b + S1x40x16.size b ≤ S8x40x16.size b := by
  intro b; have := a.isLt; fin_cases b <;> simp [S1x40x16, S8x40x16] <;> omega
theorem wgInb (a : Fin 8) : ∀ b, (![a.val, 0, 0] : Fin 3 → ℕ) b + S1x16x2000.size b ≤ S8x16x2000.size b := by
  intro b; have := a.isLt; fin_cases b <;> simp [S1x16x2000, S8x16x2000] <;> omega

/-- The rows the forty transfers deliver, by local row number: transfer n copies row genes[40·t + n] of every cell
    type. -/
def pay (c : Dev nD) (i : grid0.Coords) (xt0 : TbBuf0 (F := Ideal) c tbM0_0) (fh0 : HbBuf0 (F := Ideal) c hbM0_0) (k0_hw1 : k0_chk1 (tbM0_0.view.readAt (Elt Ideal) (Rect.unit (s := S2000) (k0_off1 i) S1.size (k0_off1_inb i)).toLoadRect xt0 (Shape.Idx.first (numel1_S1.symm ▸ Nat.one_pos)))) (k0_hw2 : k0_chk2 (tbM0_0.view.readAt (Elt Ideal) (Rect.unit (s := S2000) (k0_off3 i) S1.size (k0_off3_inb i)).toLoadRect xt0 (Shape.Idx.first (numel1_S1.symm ▸ Nat.one_pos)))) (k0_hw3 : k0_chk3 (tbM0_0.view.readAt (Elt Ideal) (Rect.unit (s := S2000) (k0_off5 i) S1.size (k0_off5_inb i)).toLoadRect xt0 (Shape.Idx.first (numel1_S1.symm ▸ Nat.one_pos)))) (k0_hw4 : k0_chk4 (tbM0_0.view.readAt (Elt Ideal) (Rect.unit (s := S2000) (k0_off7 i) S1.size (k0_off7_inb i)).toLoadRect xt0 (Shape.Idx.first (numel1_S1.symm ▸ Nat.one_pos)))) (k0_hw5 : k0_chk5 (tbM0_0.view.readAt (Elt Ideal) (Rect.unit (s := S2000) (k0_off9 i) S1.size (k0_off9_inb i)).toLoadRect xt0 (Shape.Idx.first (numel1_S1.symm ▸ Nat.one_pos)))) (k0_hw6 : k0_chk6 (tbM0_0.view.readAt (Elt Ideal) (Rect.unit (s := S2000) (k0_off11 i) S1.size (k0_off11_inb i)).toLoadRect xt0 (Shape.Idx.first (numel1_S1.symm ▸ Nat.one_pos)))) (k0_hw7 : k0_chk7 (tbM0_0.view.readAt (Elt Ideal) (Rect.unit (s := S2000) (k0_off13 i) S1.size (k0_off13_inb i)).toLoadRect xt0 (Shape.Idx.first (numel1_S1.symm ▸ Nat.one_pos)))) (k0_hw8 : k0_chk8 (tbM0_0.view.readAt (Elt Ideal) (Rect.unit (s := S2000) (k0_off15 i) S1.size (k0_off15_inb i)).toLoadRect xt0 (Shape.Idx.first (numel1_S1.symm ▸ Nat.one_pos)))) (k0_hw9 : k0_chk9 (tbM0_0.view.readAt (Elt Ideal) (Rect.unit (s := S2000) (k0_off17 i) S1.size (k0_off17_inb i)).toLoadRect xt0 (Shape.Idx.first (numel1_S1.symm ▸ Nat.one_pos)))) (k0_hw10 : k0_chk10 (tbM0_0.view.readAt (Elt Ideal) (Rect.unit (s := S2000) (k0_off19 i) S1.size (k0_off19_inb i)).toLoadRect xt0 (Shape.Idx.first (numel1_S1.symm ▸ Nat.one_pos)))) (k0_hw11 : k0_chk11 (tbM0_0.view.readAt (Elt Ideal) (Rect.unit (s := S2000) (k0_off21 i) S1.size (k0_off21_inb i)).toLoadRect xt0 (Shape.Idx.first (numel1_S1.symm ▸ Nat.one_pos)))) (k0_hw12 : k0_chk12 (tbM0_0.view.readAt (Elt Ideal) (Rect.unit (s := S2000) (k0_off23 i) S1.size (k0_off23_inb i)).toLoadRect xt0 (Shape.Idx.first (numel1_S1.symm ▸ Nat.one_pos)))) (k0_hw13 : k0_chk13 (tbM0_0.view.readAt (Elt Ideal) (Rect.unit (s := S2000) (k0_off25 i) S1.size (k0_off25_inb i)).toLoadRect xt0 (Shape.Idx.first (numel1_S1.symm ▸ Nat.one_pos)))) (k0_hw14 : k0_chk14 (tbM0_0.view.readAt (Elt Ideal) (Rect.unit (s := S2000) (k0_off27 i) S1.size (k0_off27_inb i)).toLoadRect xt0 (Shape.Idx.first (numel1_S1.symm ▸ Nat.one_pos)))) (k0_hw15 : k0_chk15 (tbM0_0.view.readAt (Elt Ideal) (Rect.unit (s := S2000) (k0_off29 i) S1.size (k0_off29_inb i)).toLoadRect xt0 (Shape.Idx.first (numel1_S1.symm ▸ Nat.one_pos)))) (k0_hw16 : k0_chk16 (tbM0_0.view.readAt (Elt Ideal) (Rect.unit (s := S2000) (k0_off31 i) S1.size (k0_off31_inb i)).toLoadRect xt0 (Shape.Idx.first (numel1_S1.symm ▸ Nat.one_pos)))) (k0_hw17 : k0_chk17 (tbM0_0.view.readAt (Elt Ideal) (Rect.unit (s := S2000) (k0_off33 i) S1.size (k0_off33_inb i)).toLoadRect xt0 (Shape.Idx.first (numel1_S1.symm ▸ Nat.one_pos)))) (k0_hw18 : k0_chk18 (tbM0_0.view.readAt (Elt Ideal) (Rect.unit (s := S2000) (k0_off35 i) S1.size (k0_off35_inb i)).toLoadRect xt0 (Shape.Idx.first (numel1_S1.symm ▸ Nat.one_pos)))) (k0_hw19 : k0_chk19 (tbM0_0.view.readAt (Elt Ideal) (Rect.unit (s := S2000) (k0_off37 i) S1.size (k0_off37_inb i)).toLoadRect xt0 (Shape.Idx.first (numel1_S1.symm ▸ Nat.one_pos)))) (k0_hw20 : k0_chk20 (tbM0_0.view.readAt (Elt Ideal) (Rect.unit (s := S2000) (k0_off39 i) S1.size (k0_off39_inb i)).toLoadRect xt0 (Shape.Idx.first (numel1_S1.symm ▸ Nat.one_pos)))) (k0_hw21 : k0_chk21 (tbM0_0.view.readAt (Elt Ideal) (Rect.unit (s := S2000) (k0_off41 i) S1.size (k0_off41_inb i)).toLoadRect xt0 (Shape.Idx.first (numel1_S1.symm ▸ Nat.one_pos)))) (k0_hw22 : k0_chk22 (tbM0_0.view.readAt (Elt Ideal) (Rect.unit (s := S2000) (k0_off43 i) S1.size (k0_off43_inb i)).toLoadRect xt0 (Shape.Idx.first (numel1_S1.symm ▸ Nat.one_pos)))) (k0_hw23 : k0_chk23 (tbM0_0.view.readAt (Elt Ideal) (Rect.unit (s := S2000) (k0_off45 i) S1.size (k0_off45_inb i)).toLoadRect xt0 (Shape.Idx.first (numel1_S1.symm ▸ Nat.one_pos)))) (k0_hw24 : k0_chk24 (tbM0_0.view.readAt (Elt Ideal) (Rect.unit (s := S2000) (k0_off47 i) S1.size (k0_off47_inb i)).toLoadRect xt0 (Shape.Idx.first (numel1_S1.symm ▸ Nat.one_pos)))) (k0_hw25 : k0_chk25 (tbM0_0.view.readAt (Elt Ideal) (Rect.unit (s := S2000) (k0_off49 i) S1.size (k0_off49_inb i)).toLoadRect xt0 (Shape.Idx.first (numel1_S1.symm ▸ Nat.one_pos)))) (k0_hw26 : k0_chk26 (tbM0_0.view.readAt (Elt Ideal) (Rect.unit (s := S2000) (k0_off51 i) S1.size (k0_off51_inb i)).toLoadRect xt0 (Shape.Idx.first (numel1_S1.symm ▸ Nat.one_pos)))) (k0_hw27 : k0_chk27 (tbM0_0.view.readAt (Elt Ideal) (Rect.unit (s := S2000) (k0_off53 i) S1.size (k0_off53_inb i)).toLoadRect xt0 (Shape.Idx.first (numel1_S1.symm ▸ Nat.one_pos)))) (k0_hw28 : k0_chk28 (tbM0_0.view.readAt (Elt Ideal) (Rect.unit (s := S2000) (k0_off55 i) S1.size (k0_off55_inb i)).toLoadRect xt0 (Shape.Idx.first (numel1_S1.symm ▸ Nat.one_pos)))) (k0_hw29 : k0_chk29 (tbM0_0.view.readAt (Elt Ideal) (Rect.unit (s := S2000) (k0_off57 i) S1.size (k0_off57_inb i)).toLoadRect xt0 (Shape.Idx.first (numel1_S1.symm ▸ Nat.one_pos)))) (k0_hw30 : k0_chk30 (tbM0_0.view.readAt (Elt Ideal) (Rect.unit (s := S2000) (k0_off59 i) S1.size (k0_off59_inb i)).toLoadRect xt0 (Shape.Idx.first (numel1_S1.symm ▸ Nat.one_pos)))) (k0_hw31 : k0_chk31 (tbM0_0.view.readAt (Elt Ideal) (Rect.unit (s := S2000) (k0_off61 i) S1.size (k0_off61_inb i)).toLoadRect xt0 (Shape.Idx.first (numel1_S1.symm ▸ Nat.one_pos)))) (k0_hw32 : k0_chk32 (tbM0_0.view.readAt (Elt Ideal) (Rect.unit (s := S2000) (k0_off63 i) S1.size (k0_off63_inb i)).toLoadRect xt0 (Shape.Idx.first (numel1_S1.symm ▸ Nat.one_pos)))) (k0_hw33 : k0_chk33 (tbM0_0.view.readAt (Elt Ideal) (Rect.unit (s := S2000) (k0_off65 i) S1.size (k0_off65_inb i)).toLoadRect xt0 (Shape.Idx.first (numel1_S1.symm ▸ Nat.one_pos)))) (k0_hw34 : k0_chk34 (tbM0_0.view.readAt (Elt Ideal) (Rect.unit (s := S2000) (k0_off67 i) S1.size (k0_off67_inb i)).toLoadRect xt0 (Shape.Idx.first (numel1_S1.symm ▸ Nat.one_pos)))) (k0_hw35 : k0_chk35 (tbM0_0.view.readAt (Elt Ideal) (Rect.unit (s := S2000) (k0_off69 i) S1.size (k0_off69_inb i)).toLoadRect xt0 (Shape.Idx.first (numel1_S1.symm ▸ Nat.one_pos)))) (k0_hw36 : k0_chk36 (tbM0_0.view.readAt (Elt Ideal) (Rect.unit (s := S2000) (k0_off71 i) S1.size (k0_off71_inb i)).toLoadRect xt0 (Shape.Idx.first (numel1_S1.symm ▸ Nat.one_pos)))) (k0_hw37 : k0_chk37 (tbM0_0.view.readAt (Elt Ideal) (Rect.unit (s := S2000) (k0_off73 i) S1.size (k0_off73_inb i)).toLoadRect xt0 (Shape.Idx.first (numel1_S1.symm ▸ Nat.one_pos)))) (k0_hw38 : k0_chk38 (tbM0_0.view.readAt (Elt Ideal) (Rect.unit (s := S2000) (k0_off75 i) S1.size (k0_off75_inb i)).toLoadRect xt0 (Shape.Idx.first (numel1_S1.symm ▸ Nat.one_pos)))) (k0_hw39 : k0_chk39 (tbM0_0.view.readAt (Elt Ideal) (Rect.unit (s := S2000) (k0_off77 i) S1.size (k0_off77_inb i)).toLoadRect xt0 (Shape.Idx.first (numel1_S1.symm ▸ Nat.one_pos)))) (k0_hw40 : k0_chk40 (tbM0_0.view.readAt (Elt Ideal) (Rect.unit (s := S2000) (k0_off79 i) S1.size (k0_off79_inb i)).toLoadRect xt0 (Shape.Idx.first (numel1_S1.symm ▸ Nat.one_pos)))) : ℕ → S8x1x5120.Idx → Elt Ideal .f32 := fun k => match k with
  | 0 => kernelRun0_A.sl.dma1 c i xt0 fh0 k0_hw1
  | 1 => kernelRun0_A.sl.dma2 c i xt0 fh0 k0_hw2
  | 2 => kernelRun0_A.sl.dma3 c i xt0 fh0 k0_hw3
  | 3 => kernelRun0_A.sl.dma4 c i xt0 fh0 k0_hw4
  | 4 => kernelRun0_A.sl.dma5 c i xt0 fh0 k0_hw5
  | 5 => kernelRun0_A.sl.dma6 c i xt0 fh0 k0_hw6
  | 6 => kernelRun0_A.sl.dma7 c i xt0 fh0 k0_hw7
  | 7 => kernelRun0_A.sl.dma8 c i xt0 fh0 k0_hw8
  | 8 => kernelRun0_A.sl.dma9 c i xt0 fh0 k0_hw9
  | 9 => kernelRun0_A.sl.dma10 c i xt0 fh0 k0_hw10
  | 10 => kernelRun0_A.sl.dma11 c i xt0 fh0 k0_hw11
  | 11 => kernelRun0_A.sl.dma12 c i xt0 fh0 k0_hw12
  | 12 => kernelRun0_A.sl.dma13 c i xt0 fh0 k0_hw13
  | 13 => kernelRun0_A.sl.dma14 c i xt0 fh0 k0_hw14
  | 14 => kernelRun0_A.sl.dma15 c i xt0 fh0 k0_hw15
  | 15 => kernelRun0_A.sl.dma16 c i xt0 fh0 k0_hw16
  | 16 => kernelRun0_A.sl.dma17 c i xt0 fh0 k0_hw17
  | 17 => kernelRun0_A.sl.dma18 c i xt0 fh0 k0_hw18
  | 18 => kernelRun0_A.sl.dma19 c i xt0 fh0 k0_hw19
  | 19 => kernelRun0_A.sl.dma20 c i xt0 fh0 k0_hw20
  | 20 => kernelRun0_A.sl.dma21 c i xt0 fh0 k0_hw21
  | 21 => kernelRun0_A.sl.dma22 c i xt0 fh0 k0_hw22
  | 22 => kernelRun0_A.sl.dma23 c i xt0 fh0 k0_hw23
  | 23 => kernelRun0_A.sl.dma24 c i xt0 fh0 k0_hw24
  | 24 => kernelRun0_A.sl.dma25 c i xt0 fh0 k0_hw25
  | 25 => kernelRun0_A.sl.dma26 c i xt0 fh0 k0_hw26
  | 26 => kernelRun0_A.sl.dma27 c i xt0 fh0 k0_hw27
  | 27 => kernelRun0_A.sl.dma28 c i xt0 fh0 k0_hw28
  | 28 => kernelRun0_A.sl.dma29 c i xt0 fh0 k0_hw29
  | 29 => kernelRun0_A.sl.dma30 c i xt0 fh0 k0_hw30
  | 30 => kernelRun0_A.sl.dma31 c i xt0 fh0 k0_hw31
  | 31 => kernelRun0_A.sl.dma32 c i xt0 fh0 k0_hw32
  | 32 => kernelRun0_A.sl.dma33 c i xt0 fh0 k0_hw33
  | 33 => kernelRun0_A.sl.dma34 c i xt0 fh0 k0_hw34
  | 34 => kernelRun0_A.sl.dma35 c i xt0 fh0 k0_hw35
  | 35 => kernelRun0_A.sl.dma36 c i xt0 fh0 k0_hw36
  | 36 => kernelRun0_A.sl.dma37 c i xt0 fh0 k0_hw37
  | 37 => kernelRun0_A.sl.dma38 c i xt0 fh0 k0_hw38
  | 38 => kernelRun0_A.sl.dma39 c i xt0 fh0 k0_hw39
  | 39 => kernelRun0_A.sl.dma40 c i xt0 fh0 k0_hw40
  | _ => kernelRun0_A.sl.dma1 c i xt0 fh0 k0_hw1

/-- Transfer n's payload is row `rows n` of the padded log-rates, when `rows n` is the n-th gene word the point
    reads: the transfer's source is the [8, 1, 5120] block at that row. -/
theorem pay_row (c : Dev nD) (i : grid0.Coords) (xt0 : TbBuf0 (F := Ideal) c tbM0_0) (fh0 : HbBuf0 (F := Ideal) c hbM0_0) (k0_hw1 : k0_chk1 (tbM0_0.view.readAt (Elt Ideal) (Rect.unit (s := S2000) (k0_off1 i) S1.size (k0_off1_inb i)).toLoadRect xt0 (Shape.Idx.first (numel1_S1.symm ▸ Nat.one_pos)))) (k0_hw2 : k0_chk2 (tbM0_0.view.readAt (Elt Ideal) (Rect.unit (s := S2000) (k0_off3 i) S1.size (k0_off3_inb i)).toLoadRect xt0 (Shape.Idx.first (numel1_S1.symm ▸ Nat.one_pos)))) (k0_hw3 : k0_chk3 (tbM0_0.view.readAt (Elt Ideal) (Rect.unit (s := S2000) (k0_off5 i) S1.size (k0_off5_inb i)).toLoadRect xt0 (Shape.Idx.first (numel1_S1.symm ▸ Nat.one_pos)))) (k0_hw4 : k0_chk4 (tbM0_0.view.readAt (Elt Ideal) (Rect.unit (s := S2000) (k0_off7 i) S1.size (k0_off7_inb i)).toLoadRect xt0 (Shape.Idx.first (numel1_S1.symm ▸ Nat.one_pos)))) (k0_hw5 : k0_chk5 (tbM0_0.view.readAt (Elt Ideal) (Rect.unit (s := S2000) (k0_off9 i) S1.size (k0_off9_inb i)).toLoadRect xt0 (Shape.Idx.first (numel1_S1.symm ▸ Nat.one_pos)))) (k0_hw6 : k0_chk6 (tbM0_0.view.readAt (Elt Ideal) (Rect.unit (s := S2000) (k0_off11 i) S1.size (k0_off11_inb i)).toLoadRect xt0 (Shape.Idx.first (numel1_S1.symm ▸ Nat.one_pos)))) (k0_hw7 : k0_chk7 (tbM0_0.view.readAt (Elt Ideal) (Rect.unit (s := S2000) (k0_off13 i) S1.size (k0_off13_inb i)).toLoadRect xt0 (Shape.Idx.first (numel1_S1.symm ▸ Nat.one_pos)))) (k0_hw8 : k0_chk8 (tbM0_0.view.readAt (Elt Ideal) (Rect.unit (s := S2000) (k0_off15 i) S1.size (k0_off15_inb i)).toLoadRect xt0 (Shape.Idx.first (numel1_S1.symm ▸ Nat.one_pos)))) (k0_hw9 : k0_chk9 (tbM0_0.view.readAt (Elt Ideal) (Rect.unit (s := S2000) (k0_off17 i) S1.size (k0_off17_inb i)).toLoadRect xt0 (Shape.Idx.first (numel1_S1.symm ▸ Nat.one_pos)))) (k0_hw10 : k0_chk10 (tbM0_0.view.readAt (Elt Ideal) (Rect.unit (s := S2000) (k0_off19 i) S1.size (k0_off19_inb i)).toLoadRect xt0 (Shape.Idx.first (numel1_S1.symm ▸ Nat.one_pos)))) (k0_hw11 : k0_chk11 (tbM0_0.view.readAt (Elt Ideal) (Rect.unit (s := S2000) (k0_off21 i) S1.size (k0_off21_inb i)).toLoadRect xt0 (Shape.Idx.first (numel1_S1.symm ▸ Nat.one_pos)))) (k0_hw12 : k0_chk12 (tbM0_0.view.readAt (Elt Ideal) (Rect.unit (s := S2000) (k0_off23 i) S1.size (k0_off23_inb i)).toLoadRect xt0 (Shape.Idx.first (numel1_S1.symm ▸ Nat.one_pos)))) (k0_hw13 : k0_chk13 (tbM0_0.view.readAt (Elt Ideal) (Rect.unit (s := S2000) (k0_off25 i) S1.size (k0_off25_inb i)).toLoadRect xt0 (Shape.Idx.first (numel1_S1.symm ▸ Nat.one_pos)))) (k0_hw14 : k0_chk14 (tbM0_0.view.readAt (Elt Ideal) (Rect.unit (s := S2000) (k0_off27 i) S1.size (k0_off27_inb i)).toLoadRect xt0 (Shape.Idx.first (numel1_S1.symm ▸ Nat.one_pos)))) (k0_hw15 : k0_chk15 (tbM0_0.view.readAt (Elt Ideal) (Rect.unit (s := S2000) (k0_off29 i) S1.size (k0_off29_inb i)).toLoadRect xt0 (Shape.Idx.first (numel1_S1.symm ▸ Nat.one_pos)))) (k0_hw16 : k0_chk16 (tbM0_0.view.readAt (Elt Ideal) (Rect.unit (s := S2000) (k0_off31 i) S1.size (k0_off31_inb i)).toLoadRect xt0 (Shape.Idx.first (numel1_S1.symm ▸ Nat.one_pos)))) (k0_hw17 : k0_chk17 (tbM0_0.view.readAt (Elt Ideal) (Rect.unit (s := S2000) (k0_off33 i) S1.size (k0_off33_inb i)).toLoadRect xt0 (Shape.Idx.first (numel1_S1.symm ▸ Nat.one_pos)))) (k0_hw18 : k0_chk18 (tbM0_0.view.readAt (Elt Ideal) (Rect.unit (s := S2000) (k0_off35 i) S1.size (k0_off35_inb i)).toLoadRect xt0 (Shape.Idx.first (numel1_S1.symm ▸ Nat.one_pos)))) (k0_hw19 : k0_chk19 (tbM0_0.view.readAt (Elt Ideal) (Rect.unit (s := S2000) (k0_off37 i) S1.size (k0_off37_inb i)).toLoadRect xt0 (Shape.Idx.first (numel1_S1.symm ▸ Nat.one_pos)))) (k0_hw20 : k0_chk20 (tbM0_0.view.readAt (Elt Ideal) (Rect.unit (s := S2000) (k0_off39 i) S1.size (k0_off39_inb i)).toLoadRect xt0 (Shape.Idx.first (numel1_S1.symm ▸ Nat.one_pos)))) (k0_hw21 : k0_chk21 (tbM0_0.view.readAt (Elt Ideal) (Rect.unit (s := S2000) (k0_off41 i) S1.size (k0_off41_inb i)).toLoadRect xt0 (Shape.Idx.first (numel1_S1.symm ▸ Nat.one_pos)))) (k0_hw22 : k0_chk22 (tbM0_0.view.readAt (Elt Ideal) (Rect.unit (s := S2000) (k0_off43 i) S1.size (k0_off43_inb i)).toLoadRect xt0 (Shape.Idx.first (numel1_S1.symm ▸ Nat.one_pos)))) (k0_hw23 : k0_chk23 (tbM0_0.view.readAt (Elt Ideal) (Rect.unit (s := S2000) (k0_off45 i) S1.size (k0_off45_inb i)).toLoadRect xt0 (Shape.Idx.first (numel1_S1.symm ▸ Nat.one_pos)))) (k0_hw24 : k0_chk24 (tbM0_0.view.readAt (Elt Ideal) (Rect.unit (s := S2000) (k0_off47 i) S1.size (k0_off47_inb i)).toLoadRect xt0 (Shape.Idx.first (numel1_S1.symm ▸ Nat.one_pos)))) (k0_hw25 : k0_chk25 (tbM0_0.view.readAt (Elt Ideal) (Rect.unit (s := S2000) (k0_off49 i) S1.size (k0_off49_inb i)).toLoadRect xt0 (Shape.Idx.first (numel1_S1.symm ▸ Nat.one_pos)))) (k0_hw26 : k0_chk26 (tbM0_0.view.readAt (Elt Ideal) (Rect.unit (s := S2000) (k0_off51 i) S1.size (k0_off51_inb i)).toLoadRect xt0 (Shape.Idx.first (numel1_S1.symm ▸ Nat.one_pos)))) (k0_hw27 : k0_chk27 (tbM0_0.view.readAt (Elt Ideal) (Rect.unit (s := S2000) (k0_off53 i) S1.size (k0_off53_inb i)).toLoadRect xt0 (Shape.Idx.first (numel1_S1.symm ▸ Nat.one_pos)))) (k0_hw28 : k0_chk28 (tbM0_0.view.readAt (Elt Ideal) (Rect.unit (s := S2000) (k0_off55 i) S1.size (k0_off55_inb i)).toLoadRect xt0 (Shape.Idx.first (numel1_S1.symm ▸ Nat.one_pos)))) (k0_hw29 : k0_chk29 (tbM0_0.view.readAt (Elt Ideal) (Rect.unit (s := S2000) (k0_off57 i) S1.size (k0_off57_inb i)).toLoadRect xt0 (Shape.Idx.first (numel1_S1.symm ▸ Nat.one_pos)))) (k0_hw30 : k0_chk30 (tbM0_0.view.readAt (Elt Ideal) (Rect.unit (s := S2000) (k0_off59 i) S1.size (k0_off59_inb i)).toLoadRect xt0 (Shape.Idx.first (numel1_S1.symm ▸ Nat.one_pos)))) (k0_hw31 : k0_chk31 (tbM0_0.view.readAt (Elt Ideal) (Rect.unit (s := S2000) (k0_off61 i) S1.size (k0_off61_inb i)).toLoadRect xt0 (Shape.Idx.first (numel1_S1.symm ▸ Nat.one_pos)))) (k0_hw32 : k0_chk32 (tbM0_0.view.readAt (Elt Ideal) (Rect.unit (s := S2000) (k0_off63 i) S1.size (k0_off63_inb i)).toLoadRect xt0 (Shape.Idx.first (numel1_S1.symm ▸ Nat.one_pos)))) (k0_hw33 : k0_chk33 (tbM0_0.view.readAt (Elt Ideal) (Rect.unit (s := S2000) (k0_off65 i) S1.size (k0_off65_inb i)).toLoadRect xt0 (Shape.Idx.first (numel1_S1.symm ▸ Nat.one_pos)))) (k0_hw34 : k0_chk34 (tbM0_0.view.readAt (Elt Ideal) (Rect.unit (s := S2000) (k0_off67 i) S1.size (k0_off67_inb i)).toLoadRect xt0 (Shape.Idx.first (numel1_S1.symm ▸ Nat.one_pos)))) (k0_hw35 : k0_chk35 (tbM0_0.view.readAt (Elt Ideal) (Rect.unit (s := S2000) (k0_off69 i) S1.size (k0_off69_inb i)).toLoadRect xt0 (Shape.Idx.first (numel1_S1.symm ▸ Nat.one_pos)))) (k0_hw36 : k0_chk36 (tbM0_0.view.readAt (Elt Ideal) (Rect.unit (s := S2000) (k0_off71 i) S1.size (k0_off71_inb i)).toLoadRect xt0 (Shape.Idx.first (numel1_S1.symm ▸ Nat.one_pos)))) (k0_hw37 : k0_chk37 (tbM0_0.view.readAt (Elt Ideal) (Rect.unit (s := S2000) (k0_off73 i) S1.size (k0_off73_inb i)).toLoadRect xt0 (Shape.Idx.first (numel1_S1.symm ▸ Nat.one_pos)))) (k0_hw38 : k0_chk38 (tbM0_0.view.readAt (Elt Ideal) (Rect.unit (s := S2000) (k0_off75 i) S1.size (k0_off75_inb i)).toLoadRect xt0 (Shape.Idx.first (numel1_S1.symm ▸ Nat.one_pos)))) (k0_hw39 : k0_chk39 (tbM0_0.view.readAt (Elt Ideal) (Rect.unit (s := S2000) (k0_off77 i) S1.size (k0_off77_inb i)).toLoadRect xt0 (Shape.Idx.first (numel1_S1.symm ▸ Nat.one_pos)))) (k0_hw40 : k0_chk40 (tbM0_0.view.readAt (Elt Ideal) (Rect.unit (s := S2000) (k0_off79 i) S1.size (k0_off79_inb i)).toLoadRect xt0 (Shape.Idx.first (numel1_S1.symm ▸ Nat.one_pos))))
    (rows : Fin 40 → Fin 5000) (hrows : ∀ n : Fin 40, ((xt0 : S2000.Idx → BitVec 32) (ix1 ⟨40 * (i 0).val + n.val, hb i n⟩)).toNat = (rows n).val)
    (n : Fin 40) (a : Fin 8) (k : Fin 5120) :
    pay c i xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 n.val (ix3 a 0 k) = lrpOf c fh0 (ix3 a (rows n) k) := by
  obtain ⟨n, hn⟩ := n
  interval_cases n
  · show kernelRun0_A.sl.dma1 c i xt0 fh0 k0_hw1 (ix3 a 0 k) = _
    unfold kernelRun0_A.sl.dma1
    refine (Cert.KernelIdeal.RowRead.row_read c fh0 _ (rows ⟨0, hn⟩).val ?_ _ (rows ⟨0, hn⟩).isLt a k)
    rw [← hrows ⟨0, hn⟩]
    exact congrArg (fun v : BitVec 32 => (![0, v.toNat, 0] : Fin 3 → ℕ)) (Cert.KernelIdeal.WordRead.word_at c xt0 i 0 (by decide) _ (k0_off1_eq i) _ _)
  · show kernelRun0_A.sl.dma2 c i xt0 fh0 k0_hw2 (ix3 a 0 k) = _
    unfold kernelRun0_A.sl.dma2
    refine (Cert.KernelIdeal.RowRead.row_read c fh0 _ (rows ⟨1, hn⟩).val ?_ _ (rows ⟨1, hn⟩).isLt a k)
    rw [← hrows ⟨1, hn⟩]
    exact congrArg (fun v : BitVec 32 => (![0, v.toNat, 0] : Fin 3 → ℕ)) (Cert.KernelIdeal.WordRead.word_at c xt0 i 1 (by decide) _ (k0_off3_eq i) _ _)
  · show kernelRun0_A.sl.dma3 c i xt0 fh0 k0_hw3 (ix3 a 0 k) = _
    unfold kernelRun0_A.sl.dma3
    refine (Cert.KernelIdeal.RowRead.row_read c fh0 _ (rows ⟨2, hn⟩).val ?_ _ (rows ⟨2, hn⟩).isLt a k)
    rw [← hrows ⟨2, hn⟩]
    exact congrArg (fun v : BitVec 32 => (![0, v.toNat, 0] : Fin 3 → ℕ)) (Cert.KernelIdeal.WordRead.word_at c xt0 i 2 (by decide) _ (k0_off5_eq i) _ _)
  · show kernelRun0_A.sl.dma4 c i xt0 fh0 k0_hw4 (ix3 a 0 k) = _
    unfold kernelRun0_A.sl.dma4
    refine (Cert.KernelIdeal.RowRead.row_read c fh0 _ (rows ⟨3, hn⟩).val ?_ _ (rows ⟨3, hn⟩).isLt a k)
    rw [← hrows ⟨3, hn⟩]
    exact congrArg (fun v : BitVec 32 => (![0, v.toNat, 0] : Fin 3 → ℕ)) (Cert.KernelIdeal.WordRead.word_at c xt0 i 3 (by decide) _ (k0_off7_eq i) _ _)
  · show kernelRun0_A.sl.dma5 c i xt0 fh0 k0_hw5 (ix3 a 0 k) = _
    unfold kernelRun0_A.sl.dma5
    refine (Cert.KernelIdeal.RowRead.row_read c fh0 _ (rows ⟨4, hn⟩).val ?_ _ (rows ⟨4, hn⟩).isLt a k)
    rw [← hrows ⟨4, hn⟩]
    exact congrArg (fun v : BitVec 32 => (![0, v.toNat, 0] : Fin 3 → ℕ)) (Cert.KernelIdeal.WordRead.word_at c xt0 i 4 (by decide) _ (k0_off9_eq i) _ _)
  · show kernelRun0_A.sl.dma6 c i xt0 fh0 k0_hw6 (ix3 a 0 k) = _
    unfold kernelRun0_A.sl.dma6
    refine (Cert.KernelIdeal.RowRead.row_read c fh0 _ (rows ⟨5, hn⟩).val ?_ _ (rows ⟨5, hn⟩).isLt a k)
    rw [← hrows ⟨5, hn⟩]
    exact congrArg (fun v : BitVec 32 => (![0, v.toNat, 0] : Fin 3 → ℕ)) (Cert.KernelIdeal.WordRead.word_at c xt0 i 5 (by decide) _ (k0_off11_eq i) _ _)
  · show kernelRun0_A.sl.dma7 c i xt0 fh0 k0_hw7 (ix3 a 0 k) = _
    unfold kernelRun0_A.sl.dma7
    refine (Cert.KernelIdeal.RowRead.row_read c fh0 _ (rows ⟨6, hn⟩).val ?_ _ (rows ⟨6, hn⟩).isLt a k)
    rw [← hrows ⟨6, hn⟩]
    exact congrArg (fun v : BitVec 32 => (![0, v.toNat, 0] : Fin 3 → ℕ)) (Cert.KernelIdeal.WordRead.word_at c xt0 i 6 (by decide) _ (k0_off13_eq i) _ _)
  · show kernelRun0_A.sl.dma8 c i xt0 fh0 k0_hw8 (ix3 a 0 k) = _
    unfold kernelRun0_A.sl.dma8
    refine (Cert.KernelIdeal.RowRead.row_read c fh0 _ (rows ⟨7, hn⟩).val ?_ _ (rows ⟨7, hn⟩).isLt a k)
    rw [← hrows ⟨7, hn⟩]
    exact congrArg (fun v : BitVec 32 => (![0, v.toNat, 0] : Fin 3 → ℕ)) (Cert.KernelIdeal.WordRead.word_at c xt0 i 7 (by decide) _ (k0_off15_eq i) _ _)
  · show kernelRun0_A.sl.dma9 c i xt0 fh0 k0_hw9 (ix3 a 0 k) = _
    unfold kernelRun0_A.sl.dma9
    refine (Cert.KernelIdeal.RowRead.row_read c fh0 _ (rows ⟨8, hn⟩).val ?_ _ (rows ⟨8, hn⟩).isLt a k)
    rw [← hrows ⟨8, hn⟩]
    exact congrArg (fun v : BitVec 32 => (![0, v.toNat, 0] : Fin 3 → ℕ)) (Cert.KernelIdeal.WordRead.word_at c xt0 i 8 (by decide) _ (k0_off17_eq i) _ _)
  · show kernelRun0_A.sl.dma10 c i xt0 fh0 k0_hw10 (ix3 a 0 k) = _
    unfold kernelRun0_A.sl.dma10
    refine (Cert.KernelIdeal.RowRead.row_read c fh0 _ (rows ⟨9, hn⟩).val ?_ _ (rows ⟨9, hn⟩).isLt a k)
    rw [← hrows ⟨9, hn⟩]
    exact congrArg (fun v : BitVec 32 => (![0, v.toNat, 0] : Fin 3 → ℕ)) (Cert.KernelIdeal.WordRead.word_at c xt0 i 9 (by decide) _ (k0_off19_eq i) _ _)
  · show kernelRun0_A.sl.dma11 c i xt0 fh0 k0_hw11 (ix3 a 0 k) = _
    unfold kernelRun0_A.sl.dma11
    refine (Cert.KernelIdeal.RowRead.row_read c fh0 _ (rows ⟨10, hn⟩).val ?_ _ (rows ⟨10, hn⟩).isLt a k)
    rw [← hrows ⟨10, hn⟩]
    exact congrArg (fun v : BitVec 32 => (![0, v.toNat, 0] : Fin 3 → ℕ)) (Cert.KernelIdeal.WordRead.word_at c xt0 i 10 (by decide) _ (k0_off21_eq i) _ _)
  · show kernelRun0_A.sl.dma12 c i xt0 fh0 k0_hw12 (ix3 a 0 k) = _
    unfold kernelRun0_A.sl.dma12
    refine (Cert.KernelIdeal.RowRead.row_read c fh0 _ (rows ⟨11, hn⟩).val ?_ _ (rows ⟨11, hn⟩).isLt a k)
    rw [← hrows ⟨11, hn⟩]
    exact congrArg (fun v : BitVec 32 => (![0, v.toNat, 0] : Fin 3 → ℕ)) (Cert.KernelIdeal.WordRead.word_at c xt0 i 11 (by decide) _ (k0_off23_eq i) _ _)
  · show kernelRun0_A.sl.dma13 c i xt0 fh0 k0_hw13 (ix3 a 0 k) = _
    unfold kernelRun0_A.sl.dma13
    refine (Cert.KernelIdeal.RowRead.row_read c fh0 _ (rows ⟨12, hn⟩).val ?_ _ (rows ⟨12, hn⟩).isLt a k)
    rw [← hrows ⟨12, hn⟩]
    exact congrArg (fun v : BitVec 32 => (![0, v.toNat, 0] : Fin 3 → ℕ)) (Cert.KernelIdeal.WordRead.word_at c xt0 i 12 (by decide) _ (k0_off25_eq i) _ _)
  · show kernelRun0_A.sl.dma14 c i xt0 fh0 k0_hw14 (ix3 a 0 k) = _
    unfold kernelRun0_A.sl.dma14
    refine (Cert.KernelIdeal.RowRead.row_read c fh0 _ (rows ⟨13, hn⟩).val ?_ _ (rows ⟨13, hn⟩).isLt a k)
    rw [← hrows ⟨13, hn⟩]
    exact congrArg (fun v : BitVec 32 => (![0, v.toNat, 0] : Fin 3 → ℕ)) (Cert.KernelIdeal.WordRead.word_at c xt0 i 13 (by decide) _ (k0_off27_eq i) _ _)
  · show kernelRun0_A.sl.dma15 c i xt0 fh0 k0_hw15 (ix3 a 0 k) = _
    unfold kernelRun0_A.sl.dma15
    refine (Cert.KernelIdeal.RowRead.row_read c fh0 _ (rows ⟨14, hn⟩).val ?_ _ (rows ⟨14, hn⟩).isLt a k)
    rw [← hrows ⟨14, hn⟩]
    exact congrArg (fun v : BitVec 32 => (![0, v.toNat, 0] : Fin 3 → ℕ)) (Cert.KernelIdeal.WordRead.word_at c xt0 i 14 (by decide) _ (k0_off29_eq i) _ _)
  · show kernelRun0_A.sl.dma16 c i xt0 fh0 k0_hw16 (ix3 a 0 k) = _
    unfold kernelRun0_A.sl.dma16
    refine (Cert.KernelIdeal.RowRead.row_read c fh0 _ (rows ⟨15, hn⟩).val ?_ _ (rows ⟨15, hn⟩).isLt a k)
    rw [← hrows ⟨15, hn⟩]
    exact congrArg (fun v : BitVec 32 => (![0, v.toNat, 0] : Fin 3 → ℕ)) (Cert.KernelIdeal.WordRead.word_at c xt0 i 15 (by decide) _ (k0_off31_eq i) _ _)
  · show kernelRun0_A.sl.dma17 c i xt0 fh0 k0_hw17 (ix3 a 0 k) = _
    unfold kernelRun0_A.sl.dma17
    refine (Cert.KernelIdeal.RowRead.row_read c fh0 _ (rows ⟨16, hn⟩).val ?_ _ (rows ⟨16, hn⟩).isLt a k)
    rw [← hrows ⟨16, hn⟩]
    exact congrArg (fun v : BitVec 32 => (![0, v.toNat, 0] : Fin 3 → ℕ)) (Cert.KernelIdeal.WordRead.word_at c xt0 i 16 (by decide) _ (k0_off33_eq i) _ _)
  · show kernelRun0_A.sl.dma18 c i xt0 fh0 k0_hw18 (ix3 a 0 k) = _
    unfold kernelRun0_A.sl.dma18
    refine (Cert.KernelIdeal.RowRead.row_read c fh0 _ (rows ⟨17, hn⟩).val ?_ _ (rows ⟨17, hn⟩).isLt a k)
    rw [← hrows ⟨17, hn⟩]
    exact congrArg (fun v : BitVec 32 => (![0, v.toNat, 0] : Fin 3 → ℕ)) (Cert.KernelIdeal.WordRead.word_at c xt0 i 17 (by decide) _ (k0_off35_eq i) _ _)
  · show kernelRun0_A.sl.dma19 c i xt0 fh0 k0_hw19 (ix3 a 0 k) = _
    unfold kernelRun0_A.sl.dma19
    refine (Cert.KernelIdeal.RowRead.row_read c fh0 _ (rows ⟨18, hn⟩).val ?_ _ (rows ⟨18, hn⟩).isLt a k)
    rw [← hrows ⟨18, hn⟩]
    exact congrArg (fun v : BitVec 32 => (![0, v.toNat, 0] : Fin 3 → ℕ)) (Cert.KernelIdeal.WordRead.word_at c xt0 i 18 (by decide) _ (k0_off37_eq i) _ _)
  · show kernelRun0_A.sl.dma20 c i xt0 fh0 k0_hw20 (ix3 a 0 k) = _
    unfold kernelRun0_A.sl.dma20
    refine (Cert.KernelIdeal.RowRead.row_read c fh0 _ (rows ⟨19, hn⟩).val ?_ _ (rows ⟨19, hn⟩).isLt a k)
    rw [← hrows ⟨19, hn⟩]
    exact congrArg (fun v : BitVec 32 => (![0, v.toNat, 0] : Fin 3 → ℕ)) (Cert.KernelIdeal.WordRead.word_at c xt0 i 19 (by decide) _ (k0_off39_eq i) _ _)
  · show kernelRun0_A.sl.dma21 c i xt0 fh0 k0_hw21 (ix3 a 0 k) = _
    unfold kernelRun0_A.sl.dma21
    refine (Cert.KernelIdeal.RowRead.row_read c fh0 _ (rows ⟨20, hn⟩).val ?_ _ (rows ⟨20, hn⟩).isLt a k)
    rw [← hrows ⟨20, hn⟩]
    exact congrArg (fun v : BitVec 32 => (![0, v.toNat, 0] : Fin 3 → ℕ)) (Cert.KernelIdeal.WordRead.word_at c xt0 i 20 (by decide) _ (k0_off41_eq i) _ _)
  · show kernelRun0_A.sl.dma22 c i xt0 fh0 k0_hw22 (ix3 a 0 k) = _
    unfold kernelRun0_A.sl.dma22
    refine (Cert.KernelIdeal.RowRead.row_read c fh0 _ (rows ⟨21, hn⟩).val ?_ _ (rows ⟨21, hn⟩).isLt a k)
    rw [← hrows ⟨21, hn⟩]
    exact congrArg (fun v : BitVec 32 => (![0, v.toNat, 0] : Fin 3 → ℕ)) (Cert.KernelIdeal.WordRead.word_at c xt0 i 21 (by decide) _ (k0_off43_eq i) _ _)
  · show kernelRun0_A.sl.dma23 c i xt0 fh0 k0_hw23 (ix3 a 0 k) = _
    unfold kernelRun0_A.sl.dma23
    refine (Cert.KernelIdeal.RowRead.row_read c fh0 _ (rows ⟨22, hn⟩).val ?_ _ (rows ⟨22, hn⟩).isLt a k)
    rw [← hrows ⟨22, hn⟩]
    exact congrArg (fun v : BitVec 32 => (![0, v.toNat, 0] : Fin 3 → ℕ)) (Cert.KernelIdeal.WordRead.word_at c xt0 i 22 (by decide) _ (k0_off45_eq i) _ _)
  · show kernelRun0_A.sl.dma24 c i xt0 fh0 k0_hw24 (ix3 a 0 k) = _
    unfold kernelRun0_A.sl.dma24
    refine (Cert.KernelIdeal.RowRead.row_read c fh0 _ (rows ⟨23, hn⟩).val ?_ _ (rows ⟨23, hn⟩).isLt a k)
    rw [← hrows ⟨23, hn⟩]
    exact congrArg (fun v : BitVec 32 => (![0, v.toNat, 0] : Fin 3 → ℕ)) (Cert.KernelIdeal.WordRead.word_at c xt0 i 23 (by decide) _ (k0_off47_eq i) _ _)
  · show kernelRun0_A.sl.dma25 c i xt0 fh0 k0_hw25 (ix3 a 0 k) = _
    unfold kernelRun0_A.sl.dma25
    refine (Cert.KernelIdeal.RowRead.row_read c fh0 _ (rows ⟨24, hn⟩).val ?_ _ (rows ⟨24, hn⟩).isLt a k)
    rw [← hrows ⟨24, hn⟩]
    exact congrArg (fun v : BitVec 32 => (![0, v.toNat, 0] : Fin 3 → ℕ)) (Cert.KernelIdeal.WordRead.word_at c xt0 i 24 (by decide) _ (k0_off49_eq i) _ _)
  · show kernelRun0_A.sl.dma26 c i xt0 fh0 k0_hw26 (ix3 a 0 k) = _
    unfold kernelRun0_A.sl.dma26
    refine (Cert.KernelIdeal.RowRead.row_read c fh0 _ (rows ⟨25, hn⟩).val ?_ _ (rows ⟨25, hn⟩).isLt a k)
    rw [← hrows ⟨25, hn⟩]
    exact congrArg (fun v : BitVec 32 => (![0, v.toNat, 0] : Fin 3 → ℕ)) (Cert.KernelIdeal.WordRead.word_at c xt0 i 25 (by decide) _ (k0_off51_eq i) _ _)
  · show kernelRun0_A.sl.dma27 c i xt0 fh0 k0_hw27 (ix3 a 0 k) = _
    unfold kernelRun0_A.sl.dma27
    refine (Cert.KernelIdeal.RowRead.row_read c fh0 _ (rows ⟨26, hn⟩).val ?_ _ (rows ⟨26, hn⟩).isLt a k)
    rw [← hrows ⟨26, hn⟩]
    exact congrArg (fun v : BitVec 32 => (![0, v.toNat, 0] : Fin 3 → ℕ)) (Cert.KernelIdeal.WordRead.word_at c xt0 i 26 (by decide) _ (k0_off53_eq i) _ _)
  · show kernelRun0_A.sl.dma28 c i xt0 fh0 k0_hw28 (ix3 a 0 k) = _
    unfold kernelRun0_A.sl.dma28
    refine (Cert.KernelIdeal.RowRead.row_read c fh0 _ (rows ⟨27, hn⟩).val ?_ _ (rows ⟨27, hn⟩).isLt a k)
    rw [← hrows ⟨27, hn⟩]
    exact congrArg (fun v : BitVec 32 => (![0, v.toNat, 0] : Fin 3 → ℕ)) (Cert.KernelIdeal.WordRead.word_at c xt0 i 27 (by decide) _ (k0_off55_eq i) _ _)
  · show kernelRun0_A.sl.dma29 c i xt0 fh0 k0_hw29 (ix3 a 0 k) = _
    unfold kernelRun0_A.sl.dma29
    refine (Cert.KernelIdeal.RowRead.row_read c fh0 _ (rows ⟨28, hn⟩).val ?_ _ (rows ⟨28, hn⟩).isLt a k)
    rw [← hrows ⟨28, hn⟩]
    exact congrArg (fun v : BitVec 32 => (![0, v.toNat, 0] : Fin 3 → ℕ)) (Cert.KernelIdeal.WordRead.word_at c xt0 i 28 (by decide) _ (k0_off57_eq i) _ _)
  · show kernelRun0_A.sl.dma30 c i xt0 fh0 k0_hw30 (ix3 a 0 k) = _
    unfold kernelRun0_A.sl.dma30
    refine (Cert.KernelIdeal.RowRead.row_read c fh0 _ (rows ⟨29, hn⟩).val ?_ _ (rows ⟨29, hn⟩).isLt a k)
    rw [← hrows ⟨29, hn⟩]
    exact congrArg (fun v : BitVec 32 => (![0, v.toNat, 0] : Fin 3 → ℕ)) (Cert.KernelIdeal.WordRead.word_at c xt0 i 29 (by decide) _ (k0_off59_eq i) _ _)
  · show kernelRun0_A.sl.dma31 c i xt0 fh0 k0_hw31 (ix3 a 0 k) = _
    unfold kernelRun0_A.sl.dma31
    refine (Cert.KernelIdeal.RowRead.row_read c fh0 _ (rows ⟨30, hn⟩).val ?_ _ (rows ⟨30, hn⟩).isLt a k)
    rw [← hrows ⟨30, hn⟩]
    exact congrArg (fun v : BitVec 32 => (![0, v.toNat, 0] : Fin 3 → ℕ)) (Cert.KernelIdeal.WordRead.word_at c xt0 i 30 (by decide) _ (k0_off61_eq i) _ _)
  · show kernelRun0_A.sl.dma32 c i xt0 fh0 k0_hw32 (ix3 a 0 k) = _
    unfold kernelRun0_A.sl.dma32
    refine (Cert.KernelIdeal.RowRead.row_read c fh0 _ (rows ⟨31, hn⟩).val ?_ _ (rows ⟨31, hn⟩).isLt a k)
    rw [← hrows ⟨31, hn⟩]
    exact congrArg (fun v : BitVec 32 => (![0, v.toNat, 0] : Fin 3 → ℕ)) (Cert.KernelIdeal.WordRead.word_at c xt0 i 31 (by decide) _ (k0_off63_eq i) _ _)
  · show kernelRun0_A.sl.dma33 c i xt0 fh0 k0_hw33 (ix3 a 0 k) = _
    unfold kernelRun0_A.sl.dma33
    refine (Cert.KernelIdeal.RowRead.row_read c fh0 _ (rows ⟨32, hn⟩).val ?_ _ (rows ⟨32, hn⟩).isLt a k)
    rw [← hrows ⟨32, hn⟩]
    exact congrArg (fun v : BitVec 32 => (![0, v.toNat, 0] : Fin 3 → ℕ)) (Cert.KernelIdeal.WordRead.word_at c xt0 i 32 (by decide) _ (k0_off65_eq i) _ _)
  · show kernelRun0_A.sl.dma34 c i xt0 fh0 k0_hw34 (ix3 a 0 k) = _
    unfold kernelRun0_A.sl.dma34
    refine (Cert.KernelIdeal.RowRead.row_read c fh0 _ (rows ⟨33, hn⟩).val ?_ _ (rows ⟨33, hn⟩).isLt a k)
    rw [← hrows ⟨33, hn⟩]
    exact congrArg (fun v : BitVec 32 => (![0, v.toNat, 0] : Fin 3 → ℕ)) (Cert.KernelIdeal.WordRead.word_at c xt0 i 33 (by decide) _ (k0_off67_eq i) _ _)
  · show kernelRun0_A.sl.dma35 c i xt0 fh0 k0_hw35 (ix3 a 0 k) = _
    unfold kernelRun0_A.sl.dma35
    refine (Cert.KernelIdeal.RowRead.row_read c fh0 _ (rows ⟨34, hn⟩).val ?_ _ (rows ⟨34, hn⟩).isLt a k)
    rw [← hrows ⟨34, hn⟩]
    exact congrArg (fun v : BitVec 32 => (![0, v.toNat, 0] : Fin 3 → ℕ)) (Cert.KernelIdeal.WordRead.word_at c xt0 i 34 (by decide) _ (k0_off69_eq i) _ _)
  · show kernelRun0_A.sl.dma36 c i xt0 fh0 k0_hw36 (ix3 a 0 k) = _
    unfold kernelRun0_A.sl.dma36
    refine (Cert.KernelIdeal.RowRead.row_read c fh0 _ (rows ⟨35, hn⟩).val ?_ _ (rows ⟨35, hn⟩).isLt a k)
    rw [← hrows ⟨35, hn⟩]
    exact congrArg (fun v : BitVec 32 => (![0, v.toNat, 0] : Fin 3 → ℕ)) (Cert.KernelIdeal.WordRead.word_at c xt0 i 35 (by decide) _ (k0_off71_eq i) _ _)
  · show kernelRun0_A.sl.dma37 c i xt0 fh0 k0_hw37 (ix3 a 0 k) = _
    unfold kernelRun0_A.sl.dma37
    refine (Cert.KernelIdeal.RowRead.row_read c fh0 _ (rows ⟨36, hn⟩).val ?_ _ (rows ⟨36, hn⟩).isLt a k)
    rw [← hrows ⟨36, hn⟩]
    exact congrArg (fun v : BitVec 32 => (![0, v.toNat, 0] : Fin 3 → ℕ)) (Cert.KernelIdeal.WordRead.word_at c xt0 i 36 (by decide) _ (k0_off73_eq i) _ _)
  · show kernelRun0_A.sl.dma38 c i xt0 fh0 k0_hw38 (ix3 a 0 k) = _
    unfold kernelRun0_A.sl.dma38
    refine (Cert.KernelIdeal.RowRead.row_read c fh0 _ (rows ⟨37, hn⟩).val ?_ _ (rows ⟨37, hn⟩).isLt a k)
    rw [← hrows ⟨37, hn⟩]
    exact congrArg (fun v : BitVec 32 => (![0, v.toNat, 0] : Fin 3 → ℕ)) (Cert.KernelIdeal.WordRead.word_at c xt0 i 37 (by decide) _ (k0_off75_eq i) _ _)
  · show kernelRun0_A.sl.dma39 c i xt0 fh0 k0_hw39 (ix3 a 0 k) = _
    unfold kernelRun0_A.sl.dma39
    refine (Cert.KernelIdeal.RowRead.row_read c fh0 _ (rows ⟨38, hn⟩).val ?_ _ (rows ⟨38, hn⟩).isLt a k)
    rw [← hrows ⟨38, hn⟩]
    exact congrArg (fun v : BitVec 32 => (![0, v.toNat, 0] : Fin 3 → ℕ)) (Cert.KernelIdeal.WordRead.word_at c xt0 i 38 (by decide) _ (k0_off77_eq i) _ _)
  · show kernelRun0_A.sl.dma40 c i xt0 fh0 k0_hw40 (ix3 a 0 k) = _
    unfold kernelRun0_A.sl.dma40
    refine (Cert.KernelIdeal.RowRead.row_read c fh0 _ (rows ⟨39, hn⟩).val ?_ _ (rows ⟨39, hn⟩).isLt a k)
    rw [← hrows ⟨39, hn⟩]
    exact congrArg (fun v : BitVec 32 => (![0, v.toNat, 0] : Fin 3 → ℕ)) (Cert.KernelIdeal.WordRead.word_at c xt0 i 39 (by decide) _ (k0_off79_eq i) _ _)

/-- The stored block at (p, q). -/
theorem out_apply (c : Dev nD) (i : grid0.Coords) (arg3 : Memref sig .tc .vmem S8x40x16 .bf16) (harg3 : arg3.IsWhole) (arg4 : Memref sig .tc .vmem S8x16x2000 .bf16) (harg4 : arg4.IsWhole) (arg5 : Memref sig .tc .vmem S5120x2000 .bf16) (harg5 : arg5.IsWhole) (arg6 : Memref sig .tc .vmem S40x2000 .f32) (harg6 : arg6.IsWhole) (arg7 : Memref sig .tc .vmem S8x40x5120 .f32) (harg7 : arg7.IsWhole)
    (x0 : Vec Ideal S8x40x16 .bf16) (x1 : Vec Ideal S8x16x2000 .bf16) (x2 : Vec Ideal S5120x2000 .bf16) (xt0 : TbBuf0 (F := Ideal) c tbM0_0) (fh0 : HbBuf0 (F := Ideal) c hbM0_0) (k0_hw1 : k0_chk1 (tbM0_0.view.readAt (Elt Ideal) (Rect.unit (s := S2000) (k0_off1 i) S1.size (k0_off1_inb i)).toLoadRect xt0 (Shape.Idx.first (numel1_S1.symm ▸ Nat.one_pos)))) (k0_hw2 : k0_chk2 (tbM0_0.view.readAt (Elt Ideal) (Rect.unit (s := S2000) (k0_off3 i) S1.size (k0_off3_inb i)).toLoadRect xt0 (Shape.Idx.first (numel1_S1.symm ▸ Nat.one_pos)))) (k0_hw3 : k0_chk3 (tbM0_0.view.readAt (Elt Ideal) (Rect.unit (s := S2000) (k0_off5 i) S1.size (k0_off5_inb i)).toLoadRect xt0 (Shape.Idx.first (numel1_S1.symm ▸ Nat.one_pos)))) (k0_hw4 : k0_chk4 (tbM0_0.view.readAt (Elt Ideal) (Rect.unit (s := S2000) (k0_off7 i) S1.size (k0_off7_inb i)).toLoadRect xt0 (Shape.Idx.first (numel1_S1.symm ▸ Nat.one_pos)))) (k0_hw5 : k0_chk5 (tbM0_0.view.readAt (Elt Ideal) (Rect.unit (s := S2000) (k0_off9 i) S1.size (k0_off9_inb i)).toLoadRect xt0 (Shape.Idx.first (numel1_S1.symm ▸ Nat.one_pos)))) (k0_hw6 : k0_chk6 (tbM0_0.view.readAt (Elt Ideal) (Rect.unit (s := S2000) (k0_off11 i) S1.size (k0_off11_inb i)).toLoadRect xt0 (Shape.Idx.first (numel1_S1.symm ▸ Nat.one_pos)))) (k0_hw7 : k0_chk7 (tbM0_0.view.readAt (Elt Ideal) (Rect.unit (s := S2000) (k0_off13 i) S1.size (k0_off13_inb i)).toLoadRect xt0 (Shape.Idx.first (numel1_S1.symm ▸ Nat.one_pos)))) (k0_hw8 : k0_chk8 (tbM0_0.view.readAt (Elt Ideal) (Rect.unit (s := S2000) (k0_off15 i) S1.size (k0_off15_inb i)).toLoadRect xt0 (Shape.Idx.first (numel1_S1.symm ▸ Nat.one_pos)))) (k0_hw9 : k0_chk9 (tbM0_0.view.readAt (Elt Ideal) (Rect.unit (s := S2000) (k0_off17 i) S1.size (k0_off17_inb i)).toLoadRect xt0 (Shape.Idx.first (numel1_S1.symm ▸ Nat.one_pos)))) (k0_hw10 : k0_chk10 (tbM0_0.view.readAt (Elt Ideal) (Rect.unit (s := S2000) (k0_off19 i) S1.size (k0_off19_inb i)).toLoadRect xt0 (Shape.Idx.first (numel1_S1.symm ▸ Nat.one_pos)))) (k0_hw11 : k0_chk11 (tbM0_0.view.readAt (Elt Ideal) (Rect.unit (s := S2000) (k0_off21 i) S1.size (k0_off21_inb i)).toLoadRect xt0 (Shape.Idx.first (numel1_S1.symm ▸ Nat.one_pos)))) (k0_hw12 : k0_chk12 (tbM0_0.view.readAt (Elt Ideal) (Rect.unit (s := S2000) (k0_off23 i) S1.size (k0_off23_inb i)).toLoadRect xt0 (Shape.Idx.first (numel1_S1.symm ▸ Nat.one_pos)))) (k0_hw13 : k0_chk13 (tbM0_0.view.readAt (Elt Ideal) (Rect.unit (s := S2000) (k0_off25 i) S1.size (k0_off25_inb i)).toLoadRect xt0 (Shape.Idx.first (numel1_S1.symm ▸ Nat.one_pos)))) (k0_hw14 : k0_chk14 (tbM0_0.view.readAt (Elt Ideal) (Rect.unit (s := S2000) (k0_off27 i) S1.size (k0_off27_inb i)).toLoadRect xt0 (Shape.Idx.first (numel1_S1.symm ▸ Nat.one_pos)))) (k0_hw15 : k0_chk15 (tbM0_0.view.readAt (Elt Ideal) (Rect.unit (s := S2000) (k0_off29 i) S1.size (k0_off29_inb i)).toLoadRect xt0 (Shape.Idx.first (numel1_S1.symm ▸ Nat.one_pos)))) (k0_hw16 : k0_chk16 (tbM0_0.view.readAt (Elt Ideal) (Rect.unit (s := S2000) (k0_off31 i) S1.size (k0_off31_inb i)).toLoadRect xt0 (Shape.Idx.first (numel1_S1.symm ▸ Nat.one_pos)))) (k0_hw17 : k0_chk17 (tbM0_0.view.readAt (Elt Ideal) (Rect.unit (s := S2000) (k0_off33 i) S1.size (k0_off33_inb i)).toLoadRect xt0 (Shape.Idx.first (numel1_S1.symm ▸ Nat.one_pos)))) (k0_hw18 : k0_chk18 (tbM0_0.view.readAt (Elt Ideal) (Rect.unit (s := S2000) (k0_off35 i) S1.size (k0_off35_inb i)).toLoadRect xt0 (Shape.Idx.first (numel1_S1.symm ▸ Nat.one_pos)))) (k0_hw19 : k0_chk19 (tbM0_0.view.readAt (Elt Ideal) (Rect.unit (s := S2000) (k0_off37 i) S1.size (k0_off37_inb i)).toLoadRect xt0 (Shape.Idx.first (numel1_S1.symm ▸ Nat.one_pos)))) (k0_hw20 : k0_chk20 (tbM0_0.view.readAt (Elt Ideal) (Rect.unit (s := S2000) (k0_off39 i) S1.size (k0_off39_inb i)).toLoadRect xt0 (Shape.Idx.first (numel1_S1.symm ▸ Nat.one_pos)))) (k0_hw21 : k0_chk21 (tbM0_0.view.readAt (Elt Ideal) (Rect.unit (s := S2000) (k0_off41 i) S1.size (k0_off41_inb i)).toLoadRect xt0 (Shape.Idx.first (numel1_S1.symm ▸ Nat.one_pos)))) (k0_hw22 : k0_chk22 (tbM0_0.view.readAt (Elt Ideal) (Rect.unit (s := S2000) (k0_off43 i) S1.size (k0_off43_inb i)).toLoadRect xt0 (Shape.Idx.first (numel1_S1.symm ▸ Nat.one_pos)))) (k0_hw23 : k0_chk23 (tbM0_0.view.readAt (Elt Ideal) (Rect.unit (s := S2000) (k0_off45 i) S1.size (k0_off45_inb i)).toLoadRect xt0 (Shape.Idx.first (numel1_S1.symm ▸ Nat.one_pos)))) (k0_hw24 : k0_chk24 (tbM0_0.view.readAt (Elt Ideal) (Rect.unit (s := S2000) (k0_off47 i) S1.size (k0_off47_inb i)).toLoadRect xt0 (Shape.Idx.first (numel1_S1.symm ▸ Nat.one_pos)))) (k0_hw25 : k0_chk25 (tbM0_0.view.readAt (Elt Ideal) (Rect.unit (s := S2000) (k0_off49 i) S1.size (k0_off49_inb i)).toLoadRect xt0 (Shape.Idx.first (numel1_S1.symm ▸ Nat.one_pos)))) (k0_hw26 : k0_chk26 (tbM0_0.view.readAt (Elt Ideal) (Rect.unit (s := S2000) (k0_off51 i) S1.size (k0_off51_inb i)).toLoadRect xt0 (Shape.Idx.first (numel1_S1.symm ▸ Nat.one_pos)))) (k0_hw27 : k0_chk27 (tbM0_0.view.readAt (Elt Ideal) (Rect.unit (s := S2000) (k0_off53 i) S1.size (k0_off53_inb i)).toLoadRect xt0 (Shape.Idx.first (numel1_S1.symm ▸ Nat.one_pos)))) (k0_hw28 : k0_chk28 (tbM0_0.view.readAt (Elt Ideal) (Rect.unit (s := S2000) (k0_off55 i) S1.size (k0_off55_inb i)).toLoadRect xt0 (Shape.Idx.first (numel1_S1.symm ▸ Nat.one_pos)))) (k0_hw29 : k0_chk29 (tbM0_0.view.readAt (Elt Ideal) (Rect.unit (s := S2000) (k0_off57 i) S1.size (k0_off57_inb i)).toLoadRect xt0 (Shape.Idx.first (numel1_S1.symm ▸ Nat.one_pos)))) (k0_hw30 : k0_chk30 (tbM0_0.view.readAt (Elt Ideal) (Rect.unit (s := S2000) (k0_off59 i) S1.size (k0_off59_inb i)).toLoadRect xt0 (Shape.Idx.first (numel1_S1.symm ▸ Nat.one_pos)))) (k0_hw31 : k0_chk31 (tbM0_0.view.readAt (Elt Ideal) (Rect.unit (s := S2000) (k0_off61 i) S1.size (k0_off61_inb i)).toLoadRect xt0 (Shape.Idx.first (numel1_S1.symm ▸ Nat.one_pos)))) (k0_hw32 : k0_chk32 (tbM0_0.view.readAt (Elt Ideal) (Rect.unit (s := S2000) (k0_off63 i) S1.size (k0_off63_inb i)).toLoadRect xt0 (Shape.Idx.first (numel1_S1.symm ▸ Nat.one_pos)))) (k0_hw33 : k0_chk33 (tbM0_0.view.readAt (Elt Ideal) (Rect.unit (s := S2000) (k0_off65 i) S1.size (k0_off65_inb i)).toLoadRect xt0 (Shape.Idx.first (numel1_S1.symm ▸ Nat.one_pos)))) (k0_hw34 : k0_chk34 (tbM0_0.view.readAt (Elt Ideal) (Rect.unit (s := S2000) (k0_off67 i) S1.size (k0_off67_inb i)).toLoadRect xt0 (Shape.Idx.first (numel1_S1.symm ▸ Nat.one_pos)))) (k0_hw35 : k0_chk35 (tbM0_0.view.readAt (Elt Ideal) (Rect.unit (s := S2000) (k0_off69 i) S1.size (k0_off69_inb i)).toLoadRect xt0 (Shape.Idx.first (numel1_S1.symm ▸ Nat.one_pos)))) (k0_hw36 : k0_chk36 (tbM0_0.view.readAt (Elt Ideal) (Rect.unit (s := S2000) (k0_off71 i) S1.size (k0_off71_inb i)).toLoadRect xt0 (Shape.Idx.first (numel1_S1.symm ▸ Nat.one_pos)))) (k0_hw37 : k0_chk37 (tbM0_0.view.readAt (Elt Ideal) (Rect.unit (s := S2000) (k0_off73 i) S1.size (k0_off73_inb i)).toLoadRect xt0 (Shape.Idx.first (numel1_S1.symm ▸ Nat.one_pos)))) (k0_hw38 : k0_chk38 (tbM0_0.view.readAt (Elt Ideal) (Rect.unit (s := S2000) (k0_off75 i) S1.size (k0_off75_inb i)).toLoadRect xt0 (Shape.Idx.first (numel1_S1.symm ▸ Nat.one_pos)))) (k0_hw39 : k0_chk39 (tbM0_0.view.readAt (Elt Ideal) (Rect.unit (s := S2000) (k0_off77 i) S1.size (k0_off77_inb i)).toLoadRect xt0 (Shape.Idx.first (numel1_S1.symm ▸ Nat.one_pos)))) (k0_hw40 : k0_chk40 (tbM0_0.view.readAt (Elt Ideal) (Rect.unit (s := S2000) (k0_off79 i) S1.size (k0_off79_inb i)).toLoadRect xt0 (Shape.Idx.first (numel1_S1.symm ▸ Nat.one_pos))))
    (rows : Fin 40 → Fin 5000) (hrows : ∀ n : Fin 40, ((xt0 : S2000.Idx → BitVec 32) (ix1 ⟨40 * (i 0).val + n.val, hb i n⟩)).toNat = (rows n).val)
    (p : Fin 40) (q : Fin 2000) (j : Fin 5120)
    (hfin : ∀ (a : Fin 8) (k : Fin 5120), ∃ r : ℝ, lrpOf c fh0 (ix3 a (rows p) k) = (r : EReal))
    (hsel : ∀ k : Fin 5120, x2 (ix2 k q) = if k = j then (1 : EReal) else 0) :
    out0_A_3 (F := Ideal) c i arg3 harg3 arg4 harg4 arg5 harg5 arg6 harg6 arg7 harg7 x0 x1 x2 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 (ix2 p q)
      = ∑ a : Fin 8, Ideal.exp (lrpOf c fh0 (ix3 a (rows p) j) + ∑ t : Fin 16, x0 (ix3 a p t) * x1 (ix3 a t q)) := by
  unfold out0_A_3
  rw [View.read_writes_eq_canon _ _ _ (cover0_A_3 c i arg3 harg3 arg4 harg4 arg5 harg5 arg6 harg6 arg7 harg7 x0 x1 x2 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40)]
  unfold kernelRun0_A
  dsimp only
  sl_unfold_words
  rw [View.canon_unit_zero hz2]
  refine (Cert.KernelIdeal.BlockValue.stored_pay_apply
      (fun a : Fin 8 => arg7.view.readCov (Cert.KernelIdeal.RowsBack.rowList (pay c i xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40) 40 le_rfl)
        (Rect.unit (s := S8x40x5120) ![a.val, 0, 0] S1x40x5120.size (boxInb a)).toLoadRect)
      (View.readAt (Elt Ideal) arg5.view (Rect.unit (s := S5120x2000) ![0, 0] S5120x2000.size inb_S5120x2000_S5120x2000_0_0).toLoadRect (harg5.unread x2))
      (fun a : Fin 8 => View.readAt (Elt Ideal) arg3.view (Rect.unit (s := S8x40x16) ![a.val, 0, 0] S1x40x16.size (vgInb a)).toLoadRect (harg3.unread x0))
      (fun a : Fin 8 => View.readAt (Elt Ideal) arg4.view (Rect.unit (s := S8x16x2000) ![a.val, 0, 0] S1x16x2000.size (wgInb a)).toLoadRect (harg4.unread x1))
      p q j ?_ ?_).trans ?_
  · intro a k
    beta_reduce
    rw [Cert.KernelIdeal.RowsBack.readCov_rowList arg7.view _ _ a rfl _ p k, pay_row c i xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 rows hrows p a k]
    exact hfin a k
  · intro k
    rw [Cert.KernelIdeal.BlockReads.sel_read arg5 harg5 x2 _ rfl _ k q]
    exact hsel k
  · refine Finset.sum_congr rfl fun a _ => ?_
    beta_reduce
    rw [Cert.KernelIdeal.RowsBack.readCov_rowList arg7.view _ _ a rfl _ p j, pay_row c i xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 rows hrows p a j]
    refine congrArg (fun z => Ideal.exp (lrpOf c fh0 (ix3 a (rows p) j) + z)) ?_
    refine Finset.sum_congr rfl fun t _ => ?_
    rw [Cert.KernelIdeal.BlockReads.vg_read arg3 harg3 x0 a _ rfl _ p t, Cert.KernelIdeal.BlockReads.wg_read arg4 harg4 x1 a _ rfl _ t q]

end Cert.KernelIdeal.OutEq

end
-- ==== Proof.Windows.lean ====
/-
  The geometry of the four windows of the gather pipeline, at any contents of the gene-index table (no index map
  reads it). The grid has 50 points. Window 0 walks the [8, 2000, 16] array of gathered gene factors in blocks
  [8, 40, 16]: point t's block holds rows 40·t … 40·t + 39 of axis 1. Windows 1 ([8, 16, 2000]) and 2 ([5120, 2000])
  are whole arrays at every point. Window 3, the result [2000, 2000], is written in blocks [40, 2000]: point t's
  block is rows 40·t … 40·t + 39, so the fifty blocks partition the rows and row r lies in block r / 40. Inside
  the body, the table offset of local row n at point t is 40·t + n.
-/
import proofs.«422802_j50680614093476_3_alg».proof.Proof.Gen.KernelIdeal.Frame.Runs
import Idealize.ShloMosaic.Lib.Pipeline.Value
import Idealize.ShloMosaic.Lib.ValueIdx

set_option maxRecDepth 16384

noncomputable section

namespace Cert.KernelIdeal.Windows

open Cert.KernelIdeal Cert.KernelIdeal.Gen
open Idealize.ShloMosaic Idealize.ShloMosaic.ValueIdx Idealize.ShloMosaic.TcCoe Idealize.SL.Sem

variable {F : FTy → Type} [FloatOps F]

/-! ## The index maps over the grid -/

/-- The four index maps at point t, and the point's one grid coordinate: decided over the fifty points. -/
theorem idx_facts : ∀ t : Fin grid0.N,
    cc0_transform_1 (grid0.coords t) = ![0, t.val, 0]
    ∧ cc0_transform_2 (grid0.coords t) = ![0, 0, 0]
    ∧ cc0_transform_3 (grid0.coords t) = ![0, 0]
    ∧ cc0_transform_4 (grid0.coords t) = ![t.val, 0]
    ∧ (grid0.coords t 0).val = t.val := by decide +kernel

/-- Point t's grid coordinate is t. -/
theorem coord0 (t : Fin grid0.N) : (grid0.coords t 0).val = t.val := (idx_facts t).2.2.2.2

/-! ## The windows at any admissible contents of the table -/

section Adm
variable (a : (pcfg0 (F := F)).Adm)

theorem N_a : (cfg0 a).N = 50 := N_0

theorem index0 (t : Fin (cfg0 a).N) : ((cfg0 a).win 0).index t = ![0, t.val, 0] := (idx_facts t).1
theorem index1 (t : Fin (cfg0 a).N) : ((cfg0 a).win 1).index t = ![0, 0, 0] := (idx_facts t).2.1
theorem index2 (t : Fin (cfg0 a).N) : ((cfg0 a).win 2).index t = ![0, 0] := (idx_facts t).2.2.1
theorem index3 (t : Fin (cfg0 a).N) : ((cfg0 a).win 3).index t = ![t.val, 0] := (idx_facts t).2.2.2.1

/-- Row p of block t is a row of the array: 40·t + p < 2000. -/
theorem row_lt (t : Fin (cfg0 a).N) (p : Fin 40) : 40 * t.val + p.val < 2000 := by
  have := N_a a; have := t.isLt; have := p.isLt; omega

/-- Window 0 places (r, p, q) of block t at (r, 40·t + p, q): a block's coordinate is index × size + the
    coordinate inside the block. -/
theorem emb0 (t : Fin (cfg0 a).N) (r : Fin 8) (p : Fin 40) (q : Fin 16) :
    (((cfg0 a).win 0).blk t).view.emb (ix3 r p q) = ix3 r ⟨40 * t.val + p.val, row_lt a t p⟩ q := by
  have e0 : ((cfg0 a).win 0).index t (0 : Fin 3) = 0 := congrFun (index0 a t) (0 : Fin 3)
  have e1 : ((cfg0 a).win 0).index t (1 : Fin 3) = t.val := congrFun (index0 a t) (1 : Fin 3)
  have e2 : ((cfg0 a).win 0).index t (2 : Fin 3) = 0 := congrFun (index0 a t) (2 : Fin 3)
  funext d
  apply Fin.ext
  match d with
  | ⟨0, _⟩ => show ((cfg0 a).win 0).index t (0 : Fin 3) * 8 + 1 * r.val = r.val; rw [e0]; omega
  | ⟨1, _⟩ => show ((cfg0 a).win 0).index t (1 : Fin 3) * 40 + 1 * p.val = 40 * t.val + p.val; rw [e1]; omega
  | ⟨2, _⟩ => show ((cfg0 a).win 0).index t (2 : Fin 3) * 16 + 1 * q.val = q.val; rw [e2]; omega

/-- Window 1's block is the whole array. -/
theorem emb1 (t : Fin (cfg0 a).N) (r : Fin 8) (p : Fin 16) (q : Fin 2000) :
    (((cfg0 a).win 1).blk t).view.emb (ix3 r p q) = ix3 r p q := by
  have e0 : ((cfg0 a).win 1).index t (0 : Fin 3) = 0 := congrFun (index1 a t) (0 : Fin 3)
  have e1 : ((cfg0 a).win 1).index t (1 : Fin 3) = 0 := congrFun (index1 a t) (1 : Fin 3)
  have e2 : ((cfg0 a).win 1).index t (2 : Fin 3) = 0 := congrFun (index1 a t) (2 : Fin 3)
  funext d
  apply Fin.ext
  match d with
  | ⟨0, _⟩ => show ((cfg0 a).win 1).index t (0 : Fin 3) * 8 + 1 * r.val = r.val; rw [e0]; omega
  | ⟨1, _⟩ => show ((cfg0 a).win 1).index t (1 : Fin 3) * 16 + 1 * p.val = p.val; rw [e1]; omega
  | ⟨2, _⟩ => show ((cfg0 a).win 1).index t (2 : Fin 3) * 2000 + 1 * q.val = q.val; rw [e2]; omega

/-- Window 2's block is the whole array. -/
theorem emb2 (t : Fin (cfg0 a).N) (k : Fin 5120) (q : Fin 2000) :
    (((cfg0 a).win 2).blk t).view.emb (ix2 k q) = ix2 k q := by
  have e0 : ((cfg0 a).win 2).index t (0 : Fin 2) = 0 := congrFun (index2 a t) (0 : Fin 2)
  have e1 : ((cfg0 a).win 2).index t (1 : Fin 2) = 0 := congrFun (index2 a t) (1 : Fin 2)
  funext d
  apply Fin.ext
  match d with
  | ⟨0, _⟩ => show ((cfg0 a).win 2).index t (0 : Fin 2) * 5120 + 1 * k.val = k.val; rw [e0]; omega
  | ⟨1, _⟩ => show ((cfg0 a).win 2).index t (1 : Fin 2) * 2000 + 1 * q.val = q.val; rw [e1]; omega

/-- Window 3 places (p, q) of block t at (40·t + p, q). -/
theorem emb3_a (t : Fin (cfg0 a).N) (p : Fin 40) (q : Fin 2000) :
    (((cfg0 a).win 3).blk t).view.emb (ix2 p q) = ix2 ⟨40 * t.val + p.val, row_lt a t p⟩ q := by
  have e0 : ((cfg0 a).win 3).index t (0 : Fin 2) = t.val := congrFun (index3 a t) (0 : Fin 2)
  have e1 : ((cfg0 a).win 3).index t (1 : Fin 2) = 0 := congrFun (index3 a t) (1 : Fin 2)
  funext d
  apply Fin.ext
  match d with
  | ⟨0, _⟩ => show ((cfg0 a).win 3).index t (0 : Fin 2) * 40 + 1 * p.val = 40 * t.val + p.val; rw [e0]; omega
  | ⟨1, _⟩ => show ((cfg0 a).win 3).index t (1 : Fin 2) * 2000 + 1 * q.val = q.val; rw [e1]; omega

/-- An array read through an input window's block is the array at the block's place. -/
theorem read0 (t : Fin (cfg0 a).N) (f : S8x2000x16.Idx → Elt F .bf16) (r : Fin 8) (p : Fin 40) (q : Fin 16) :
    (((cfg0 a).win 0).blk t).view.read (Elt F) f (ix3 r p q) = f (ix3 r ⟨40 * t.val + p.val, row_lt a t p⟩ q) := by
  show f ((((cfg0 a).win 0).blk t).view.emb (ix3 r p q)) = _
  exact congrArg f (emb0 a t r p q)
theorem read1 (t : Fin (cfg0 a).N) (f : S8x16x2000.Idx → Elt F .bf16) (r : Fin 8) (p : Fin 16) (q : Fin 2000) :
    (((cfg0 a).win 1).blk t).view.read (Elt F) f (ix3 r p q) = f (ix3 r p q) := by
  show f ((((cfg0 a).win 1).blk t).view.emb (ix3 r p q)) = _
  exact congrArg f (emb1 a t r p q)
theorem read2 (t : Fin (cfg0 a).N) (f : S5120x2000.Idx → Elt F .bf16) (k : Fin 5120) (q : Fin 2000) :
    (((cfg0 a).win 2).blk t).view.read (Elt F) f (ix2 k q) = f (ix2 k q) := by
  show f ((((cfg0 a).win 2).blk t).view.emb (ix2 k q)) = _
  exact congrArg f (emb2 a t k q)

/-- An index of the result is in point t's block iff its row is one of the block's forty. -/
theorem mem_blk3_a (t : Fin (cfg0 a).N) (i : S2000x2000.Idx) :
    i ∈ (((cfg0 a).win 3).blk t).view.set ↔ 40 * t.val ≤ (i 0).val ∧ (i 0).val < 40 * t.val + 40 := by
  have e0 : ((cfg0 a).win 3).index t (0 : Fin 2) = t.val := congrFun (index3 a t) (0 : Fin 2)
  have e1 : ((cfg0 a).win 3).index t (1 : Fin 2) = 0 := congrFun (index3 a t) (1 : Fin 2)
  have hb : i ∈ (((cfg0 a).win 3).blk t).view.set ↔ ∀ d : Fin 2, ((cfg0 a).win 3).index t d * S40x2000.size d ≤ (i d).val
      ∧ (i d).val < ((cfg0 a).win 3).index t d * S40x2000.size d + S40x2000.size d := by
    have hs : (((cfg0 a).win 3).blk t).view.set = (((cfg0 a).win 3).rect t).set := View.set_slice_whole main_v7 _
    rw [hs]
    exact Rect.mem_set_unit
  rw [hb]
  have h1 : (i 1).val < 2000 := (i 1).isLt
  constructor
  · intro h
    have b0 : ((cfg0 a).win 3).index t (0 : Fin 2) * 40 ≤ (i 0).val
        ∧ (i 0).val < ((cfg0 a).win 3).index t (0 : Fin 2) * 40 + 40 := h 0
    rw [e0] at b0; omega
  · intro h d
    match d with
    | ⟨0, _⟩ =>
      show ((cfg0 a).win 3).index t (0 : Fin 2) * 40 ≤ (i 0).val ∧ (i 0).val < ((cfg0 a).win 3).index t (0 : Fin 2) * 40 + 40
      rw [e0]; omega
    | ⟨1, _⟩ =>
      show ((cfg0 a).win 3).index t (1 : Fin 2) * 2000 ≤ (i 1).val ∧ (i 1).val < ((cfg0 a).win 3).index t (1 : Fin 2) * 2000 + 2000
      rw [e1]; omega

/-- Every index of the result is in the block of point (row / 40), which is written back. -/
theorem cover3_a (i : S2000x2000.Idx) :
    ∃ t : Fin (cfg0 a).N, ((cfg0 a).win 3).flush t = true ∧ i ∈ (((cfg0 a).win 3).blk t).view.set := by
  have h0 : (i 0).val < 2000 := (i 0).isLt
  have hN := N_a a
  refine ⟨⟨(i 0).val / 40, by omega⟩, flush0_3 a _, ?_⟩
  rw [mem_blk3_a]
  show 40 * ((i 0).val / 40) ≤ (i 0).val ∧ (i 0).val < 40 * ((i 0).val / 40) + 40
  omega

end Adm

/-! ## The windows at the table the region holds -/

variable (m : (ℓ : Loc nD τ sig) → Buf (Elt F) ℓ) (hO : Ok m)

theorem N_eq : (cfgM m hO).N = 50 := N_a (adm m hO)

/-- The three input blocks at point t, at their literal types. -/
abbrev vgBlk (c : Dev nD) (t : Fin (cfgM m hO).N) : Vec F S8x40x16 .bf16 := iblk m hO c 0 t
abbrev wgBlk (c : Dev nD) (t : Fin (cfgM m hO).N) : Vec F S8x16x2000 .bf16 := iblk m hO c 1 t
abbrev selBlk (c : Dev nD) (t : Fin (cfgM m hO).N) : Vec F S5120x2000 .bf16 := iblk m hO c 2 t

theorem vgBlk_apply (c : Dev nD) (t : Fin (cfgM m hO).N) (r : Fin 8) (p : Fin 40) (q : Fin 16) :
    vgBlk m hO c t (ix3 r p q) = V m c main_v1 (ix3 r ⟨40 * t.val + p.val, row_lt (adm m hO) t p⟩ q) :=
  read0 (adm m hO) t (V m c main_v1) r p q
theorem wgBlk_apply (c : Dev nD) (t : Fin (cfgM m hO).N) (r : Fin 8) (p : Fin 16) (q : Fin 2000) :
    wgBlk m hO c t (ix3 r p q) = V m c main_v3 (ix3 r p q) :=
  read1 (adm m hO) t (V m c main_v3) r p q
theorem selBlk_apply (c : Dev nD) (t : Fin (cfgM m hO).N) (k : Fin 5120) (q : Fin 2000) :
    selBlk m hO c t (ix2 k q) = V m c main_v5 (ix2 k q) :=
  read2 (adm m hO) t (V m c main_v5) k q

theorem mem_blk3 (t : Fin (cfgM m hO).N) (i : S2000x2000.Idx) :
    i ∈ (((cfgM m hO).win 3).blk t).view.set ↔ 40 * t.val ≤ (i 0).val ∧ (i 0).val < 40 * t.val + 40 :=
  mem_blk3_a (adm m hO) t i

theorem cover3 (i : S2000x2000.Idx) :
    ∃ t : Fin (cfgM m hO).N, ((cfgM m hO).win 3).flush t = true ∧ i ∈ (((cfgM m hO).win 3).blk t).view.set :=
  cover3_a (adm m hO) i

theorem emb3 (t : Fin (cfgM m hO).N) (p : Fin 40) (q : Fin 2000) :
    (((cfgM m hO).win 3).blk t).view.emb (ix2 p q) = ix2 ⟨40 * t.val + p.val, row_lt (adm m hO) t p⟩ q :=
  emb3_a (adm m hO) t p q

/-! ## The body's table offsets -/

/-- Local row n of point t reads the table at 40·t + n. -/
theorem off_row0 (t : Fin grid0.N) : k0_off1 (grid0.coords t) = ![40 * t.val] := by rw [k0_off1_eq, coord0 t]
theorem off_row1 (t : Fin grid0.N) : k0_off3 (grid0.coords t) = ![40 * t.val + 1] := by rw [k0_off3_eq, coord0 t]
theorem off_row2 (t : Fin grid0.N) : k0_off5 (grid0.coords t) = ![40 * t.val + 2] := by rw [k0_off5_eq, coord0 t]
theorem off_row3 (t : Fin grid0.N) : k0_off7 (grid0.coords t) = ![40 * t.val + 3] := by rw [k0_off7_eq, coord0 t]
theorem off_row4 (t : Fin grid0.N) : k0_off9 (grid0.coords t) = ![40 * t.val + 4] := by rw [k0_off9_eq, coord0 t]
theorem off_row5 (t : Fin grid0.N) : k0_off11 (grid0.coords t) = ![40 * t.val + 5] := by rw [k0_off11_eq, coord0 t]
theorem off_row6 (t : Fin grid0.N) : k0_off13 (grid0.coords t) = ![40 * t.val + 6] := by rw [k0_off13_eq, coord0 t]
theorem off_row7 (t : Fin grid0.N) : k0_off15 (grid0.coords t) = ![40 * t.val + 7] := by rw [k0_off15_eq, coord0 t]
theorem off_row8 (t : Fin grid0.N) : k0_off17 (grid0.coords t) = ![40 * t.val + 8] := by rw [k0_off17_eq, coord0 t]
theorem off_row9 (t : Fin grid0.N) : k0_off19 (grid0.coords t) = ![40 * t.val + 9] := by rw [k0_off19_eq, coord0 t]
theorem off_row10 (t : Fin grid0.N) : k0_off21 (grid0.coords t) = ![40 * t.val + 10] := by rw [k0_off21_eq, coord0 t]
theorem off_row11 (t : Fin grid0.N) : k0_off23 (grid0.coords t) = ![40 * t.val + 11] := by rw [k0_off23_eq, coord0 t]
theorem off_row12 (t : Fin grid0.N) : k0_off25 (grid0.coords t) = ![40 * t.val + 12] := by rw [k0_off25_eq, coord0 t]
theorem off_row13 (t : Fin grid0.N) : k0_off27 (grid0.coords t) = ![40 * t.val + 13] := by rw [k0_off27_eq, coord0 t]
theorem off_row14 (t : Fin grid0.N) : k0_off29 (grid0.coords t) = ![40 * t.val + 14] := by rw [k0_off29_eq, coord0 t]
theorem off_row15 (t : Fin grid0.N) : k0_off31 (grid0.coords t) = ![40 * t.val + 15] := by rw [k0_off31_eq, coord0 t]
theorem off_row16 (t : Fin grid0.N) : k0_off33 (grid0.coords t) = ![40 * t.val + 16] := by rw [k0_off33_eq, coord0 t]
theorem off_row17 (t : Fin grid0.N) : k0_off35 (grid0.coords t) = ![40 * t.val + 17] := by rw [k0_off35_eq, coord0 t]
theorem off_row18 (t : Fin grid0.N) : k0_off37 (grid0.coords t) = ![40 * t.val + 18] := by rw [k0_off37_eq, coord0 t]
theorem off_row19 (t : Fin grid0.N) : k0_off39 (grid0.coords t) = ![40 * t.val + 19] := by rw [k0_off39_eq, coord0 t]
theorem off_row20 (t : Fin grid0.N) : k0_off41 (grid0.coords t) = ![40 * t.val + 20] := by rw [k0_off41_eq, coord0 t]
theorem off_row21 (t : Fin grid0.N) : k0_off43 (grid0.coords t) = ![40 * t.val + 21] := by rw [k0_off43_eq, coord0 t]
theorem off_row22 (t : Fin grid0.N) : k0_off45 (grid0.coords t) = ![40 * t.val + 22] := by rw [k0_off45_eq, coord0 t]
theorem off_row23 (t : Fin grid0.N) : k0_off47 (grid0.coords t) = ![40 * t.val + 23] := by rw [k0_off47_eq, coord0 t]
theorem off_row24 (t : Fin grid0.N) : k0_off49 (grid0.coords t) = ![40 * t.val + 24] := by rw [k0_off49_eq, coord0 t]
theorem off_row25 (t : Fin grid0.N) : k0_off51 (grid0.coords t) = ![40 * t.val + 25] := by rw [k0_off51_eq, coord0 t]
theorem off_row26 (t : Fin grid0.N) : k0_off53 (grid0.coords t) = ![40 * t.val + 26] := by rw [k0_off53_eq, coord0 t]
theorem off_row27 (t : Fin grid0.N) : k0_off55 (grid0.coords t) = ![40 * t.val + 27] := by rw [k0_off55_eq, coord0 t]
theorem off_row28 (t : Fin grid0.N) : k0_off57 (grid0.coords t) = ![40 * t.val + 28] := by rw [k0_off57_eq, coord0 t]
theorem off_row29 (t : Fin grid0.N) : k0_off59 (grid0.coords t) = ![40 * t.val + 29] := by rw [k0_off59_eq, coord0 t]
theorem off_row30 (t : Fin grid0.N) : k0_off61 (grid0.coords t) = ![40 * t.val + 30] := by rw [k0_off61_eq, coord0 t]
theorem off_row31 (t : Fin grid0.N) : k0_off63 (grid0.coords t) = ![40 * t.val + 31] := by rw [k0_off63_eq, coord0 t]
theorem off_row32 (t : Fin grid0.N) : k0_off65 (grid0.coords t) = ![40 * t.val + 32] := by rw [k0_off65_eq, coord0 t]
theorem off_row33 (t : Fin grid0.N) : k0_off67 (grid0.coords t) = ![40 * t.val + 33] := by rw [k0_off67_eq, coord0 t]
theorem off_row34 (t : Fin grid0.N) : k0_off69 (grid0.coords t) = ![40 * t.val + 34] := by rw [k0_off69_eq, coord0 t]
theorem off_row35 (t : Fin grid0.N) : k0_off71 (grid0.coords t) = ![40 * t.val + 35] := by rw [k0_off71_eq, coord0 t]
theorem off_row36 (t : Fin grid0.N) : k0_off73 (grid0.coords t) = ![40 * t.val + 36] := by rw [k0_off73_eq, coord0 t]
theorem off_row37 (t : Fin grid0.N) : k0_off75 (grid0.coords t) = ![40 * t.val + 37] := by rw [k0_off75_eq, coord0 t]
theorem off_row38 (t : Fin grid0.N) : k0_off77 (grid0.coords t) = ![40 * t.val + 38] := by rw [k0_off77_eq, coord0 t]
theorem off_row39 (t : Fin grid0.N) : k0_off79 (grid0.coords t) = ![40 * t.val + 39] := by rw [k0_off79_eq, coord0 t]

end Cert.KernelIdeal.Windows

end
-- ==== Proof.Spec.lean ====
/-
  The result both programs compute, as one function of the argument arrays. For gene row indices `gi` and spot
  column indices `si` (the words of `genes` and `spots` read as numbers below 5000), entry (g, s) of the
  [2000, 2000] result is

      ∑_{c < 8} exp ( log_rates[c, gi g, si s] + ∑_{p < 16} V[c, gi g, p] · W[c, p, si s] )

  on the extended reals. Imports no program.
-/
import Idealize.ShloMosaic.Lib.ValueIdx
import Idealize.ShloMosaic.PureOps.Ideal

noncomputable section

open scoped BigOperators

namespace Cert.Spec

open Idealize.ShloMosaic Idealize.ShloMosaic.ValueIdx

/-- The three float arguments' shapes and the result's. -/
abbrev SLR : Shape := ⟨3, ![8, 5000, 5000]⟩
abbrev SW : Shape := ⟨3, ![8, 16, 5000]⟩
abbrev SV : Shape := ⟨3, ![8, 5000, 16]⟩
abbrev SOut : Shape := ⟨2, ![2000, 2000]⟩

/-- The exponent of cell type `c` at gene row `r` and spot column `q`: the log-rate plus the rank-16 product of
    the gene's and the spot's factors. -/
def expo (LR : SLR.Idx → EReal) (W : SW.Idx → EReal) (V : SV.Idx → EReal) (c : Fin 8) (r q : Fin 5000) : EReal :=
  LR (ix3 c r q) + ∑ p : Fin 16, V (ix3 c r p) * W (ix3 c p q)

/-- The result: at (g, s), the eight cell types' rates at the gathered row and column, summed. -/
def G (LR : SLR.Idx → EReal) (W : SW.Idx → EReal) (V : SV.Idx → EReal) (gi si : Fin 2000 → Fin 5000) :
    SOut.Idx → EReal :=
  fun y => ∑ c : Fin 8, Ideal.exp (expo LR W V c (gi (y 0)) (si (y 1)))

theorem G_ix2 (LR : SLR.Idx → EReal) (W : SW.Idx → EReal) (V : SV.Idx → EReal) (gi si : Fin 2000 → Fin 5000)
    (g s : Fin 2000) :
    G LR W V gi si (ix2 g s) = ∑ c : Fin 8, Ideal.exp (expo LR W V c (gi g) (si s)) := rfl

/-- The row and column a word names, once it is known to lie below 5000. -/
def rowOf (w : (⟨1, ![2000]⟩ : Shape).Idx → BitVec 32) (h : ∀ i, (w i).toNat < 5000) : Fin 2000 → Fin 5000 :=
  fun g => ⟨(w (ix1 g)).toNat, h _⟩

theorem rowOf_val (w : (⟨1, ![2000]⟩ : Shape).Idx → BitVec 32) (h : ∀ i, (w i).toNat < 5000) (g : Fin 2000) :
    (rowOf w h g).val = (w (ix1 g)).toNat := rfl

end Cert.Spec

end
-- ==== Proof.LibGather3.lean ====
/-
  A rank-3 array gathered along ONE axis by a column of index words, read at one element.

  The gather takes an operand of shape [A, N, C] (or [A, B, N]) and an [M, 1] column of start indices; the
  gathered axis is collapsed and start-indexed, the two other axes are offset axes kept whole, and there are no
  batching axes. Element (a, g, c) of the [A, M, C] result is then the operand at (a, r, c), where r is the g-th
  index word read as a signed integer and clamped into [0, N - 1]; likewise element (a, b, s) of the [A, B, M]
  result is the operand at (a, b, r) with r named by the s-th word. When the word's unsigned value is below N and
  N is at most half the word range, the sign bit is clear, the clamp does nothing, and r is the word's value.

  The lemmas hold for any dimension-number record whose fields are the stated lists, so they apply to a record
  with literal fields by `rfl` on each hypothesis.
-/
import Idealize.ShloMosaic.Lib.ValueIdx

namespace Cert.LibGather3

open Idealize.ShloMosaic Idealize.ShloMosaic.ValueIdx

variable {α : Type}

/-- Reading a list at a position, once the list and the position are known and the known list has `v` there. -/
theorem getElem_eq_of {β : Type} {l l' : List β} {k k' : Nat} {v : β} (h : k < l.length) (hl : l = l') (hk : k = k')
    (hv : l'[k']? = some v) : l[k]'h = v := by
  subst hl hk
  obtain ⟨_, e⟩ := List.getElem?_eq_some_iff.mp hv
  exact e

/-- The three axes of a rank-3 shape. -/
theorem fin3_cases (b : Fin 3) : b = 0 ∨ b = 1 ∨ b = 2 := by revert b; decide
/-- The two axes of a rank-2 shape. -/
theorem fin2_cases (b : Fin 2) : b = 0 ∨ b = 1 := by revert b; decide

/-- A word whose unsigned value is below `N`, with `N` at most half the word range, reads the same signed:
    its sign bit is clear. -/
theorem toInt_toNat_of_lt {w : Nat} (v : BitVec w) (N : Nat) (hlt : v.toNat < N) (hw : 2 * N ≤ 2 ^ w) :
    v.toInt.toNat = v.toNat := by
  rw [BitVec.toInt_eq_toNat_of_lt (by omega)]
  exact Int.toNat_natCast _

/-! ## The middle axis gathered: [A, N, C] at an [M, 1] column gives [A, M, C] -/

/-- Element (a, g, c) of the gather along the middle axis is the operand at (a, r, c), `r` the g-th start index
    read signed and clamped into [0, N - 1]. -/
theorem gather_mid_clamp {A N C M w : Nat}
    (d : GatherDims ⟨3, ![A, N, C]⟩ ⟨2, ![M, 1]⟩ ⟨3, ![A, M, C]⟩)
    (hoff : d.offsetDims = [0, 2]) (hcoll : d.collapsedSliceDims = [1]) (hob : d.operandBatchingDims = [])
    (hsim : d.startIndexMap = [1]) (hivd : d.indexVectorDim = 1)
    (x : (⟨3, ![A, N, C]⟩ : Shape).Idx → α) (idx : IVec ⟨2, ![M, 1]⟩ w)
    (a : Fin A) (g : Fin M) (c : Fin C) (hN : 0 < N) :
    Host.gather d x idx (ix3 a g c) = x (ix3 a ⟨min (idx (ix2 g (0 : Fin 1))).toInt.toNat (N - 1), by omega⟩ c) := by
  unfold Host.gather
  congr 1
  funext b
  apply Fin.ext
  show d.start (ix3 a g c) idx b + d.batchCoord (ix3 a g c) b + d.offCoord (ix3 a g c) b = _
  -- no batching axes: the batching coordinate vanishes on every axis
  have hb : ∀ b, b ∉ d.operandBatchingDims := fun b => by rw [hob]; exact List.not_mem_nil
  rw [GatherDims.batchCoord_eq_zero _ _ _ (hb b), Nat.add_zero]
  -- the operand's kept axes are 0 and 2, the result's one batch axis is 1, the start indices' kept axis is 0
  have hsk : d.sKept = [(0 : Fin 3), 2] := by
    show Shape.kept _ (d.collapsedSliceDims ++ d.operandBatchingDims) = _
    rw [hcoll, hob]; rfl
  have hbd : d.batchDims = [(1 : Fin 3)] := by
    show Shape.kept _ d.offsetDims = _
    rw [hoff]; rfl
  have hsik : d.siKept = [(0 : Fin 2)] := by
    show (List.finRange 2).filter (·.val ≠ d.indexVectorDim) = _
    rw [hivd]; rfl
  have key0 : ∀ k : Fin 3, k = 0 → ((ix3 a g c : (⟨3, ![A, M, C]⟩ : Shape).Idx) k).val = a.val := by
    rintro _ rfl; rfl
  have key1 : ∀ k : Fin 3, k = 1 → ((ix3 a g c : (⟨3, ![A, M, C]⟩ : Shape).Idx) k).val = g.val := by
    rintro _ rfl; rfl
  have key2 : ∀ k : Fin 3, k = 2 → ((ix3 a g c : (⟨3, ![A, M, C]⟩ : Shape).Idx) k).val = c.val := by
    rintro _ rfl; rfl
  rcases fin3_cases b with rfl | rfl | rfl
  · -- axis 0: an offset axis, start 0, the result's coordinate on its offset axis 0
    have hm : (0 : Fin 3) ∉ d.startIndexMap := by rw [hsim]; exact (by decide : (0 : Fin 3) ∉ [(1 : Fin 3)])
    have hk : (0 : Fin 3) ∈ d.sKept := by rw [hsk]; exact (by decide : (0 : Fin 3) ∈ [(0 : Fin 3), 2])
    have hidx : d.sKept.idxOf (0 : Fin 3) = 0 := by rw [hsk]; rfl
    unfold GatherDims.start GatherDims.offCoord
    rw [dif_neg hm, dif_pos hk, Nat.zero_add]
    refine key0 _ ?_
    exact getElem_eq_of _ hoff hidx rfl
  · -- axis 1: collapsed and start-indexed, the clamped start index, no offset
    have hm : (1 : Fin 3) ∈ d.startIndexMap := by rw [hsim]; exact List.mem_singleton.mpr rfl
    have hk : (1 : Fin 3) ∉ d.sKept := by rw [hsk]; exact (by decide : (1 : Fin 3) ∉ [(0 : Fin 3), 2])
    have hsl : d.sliceSizes (1 : Fin 3) = 1 := d.slice_collapsed 1 (by rw [hcoll]; exact List.mem_singleton.mpr rfl)
    rw [GatherDims.offCoord_eq_zero _ _ _ hk, Nat.add_zero]
    unfold GatherDims.start
    rw [dif_pos hm]
    -- the start index is read at row g of the column: the result's batch coordinate is its coordinate on axis 1
    have hsi : ∀ kk, d.siIdx (ix3 a g c) kk = ix2 g (0 : Fin 1) := by
      intro kk; funext b'
      rcases fin2_cases b' with rfl | rfl
      · have hidx : d.siKept.idxOf (0 : Fin 2) = 0 := by rw [hsik]; rfl
        unfold GatherDims.siIdx
        rw [dif_neg (by rw [hivd]; exact Nat.zero_ne_one)]
        unfold GatherDims.siCoord
        apply Fin.ext
        simp only [Fin.val_cast]
        refine key1 _ ?_
        exact getElem_eq_of _ hbd hidx rfl
      · apply Fin.ext
        have h1 := (d.siIdx (ix3 a g c) kk (1 : Fin 2)).isLt
        change _ < 1 at h1
        show _ = 0
        omega
    rw [hsi]
    show min (idx _).toInt.toNat (N - d.sliceSizes (1 : Fin 3)) = min (idx (ix2 g 0)).toInt.toNat (N - 1)
    rw [hsl]
  · -- axis 2: an offset axis, start 0, the result's coordinate on its offset axis 2
    have hm : (2 : Fin 3) ∉ d.startIndexMap := by rw [hsim]; exact (by decide : (2 : Fin 3) ∉ [(1 : Fin 3)])
    have hk : (2 : Fin 3) ∈ d.sKept := by rw [hsk]; exact (by decide : (2 : Fin 3) ∈ [(0 : Fin 3), 2])
    have hidx : d.sKept.idxOf (2 : Fin 3) = 1 := by rw [hsk]; rfl
    unfold GatherDims.start GatherDims.offCoord
    rw [dif_neg hm, dif_pos hk, Nat.zero_add]
    refine key2 _ ?_
    exact getElem_eq_of _ hoff hidx rfl

/-- Element (a, g, c) of the gather along the middle axis, when the g-th index word is below `N` (and `N` is at
    most half the word range): the operand at (a, that word, c). -/
theorem gather_mid {A N C M w : Nat}
    (d : GatherDims ⟨3, ![A, N, C]⟩ ⟨2, ![M, 1]⟩ ⟨3, ![A, M, C]⟩)
    (hoff : d.offsetDims = [0, 2]) (hcoll : d.collapsedSliceDims = [1]) (hob : d.operandBatchingDims = [])
    (hsim : d.startIndexMap = [1]) (hivd : d.indexVectorDim = 1)
    (x : (⟨3, ![A, N, C]⟩ : Shape).Idx → α) (idx : IVec ⟨2, ![M, 1]⟩ w)
    (a : Fin A) (g : Fin M) (c : Fin C) (hw : 2 * N ≤ 2 ^ w) (hlt : (idx (ix2 g (0 : Fin 1))).toNat < N) :
    Host.gather d x idx (ix3 a g c) = x (ix3 a ⟨(idx (ix2 g (0 : Fin 1))).toNat, hlt⟩ c) := by
  rw [gather_mid_clamp d hoff hcoll hob hsim hivd x idx a g c (by omega)]
  have e : min (idx (ix2 g (0 : Fin 1))).toInt.toNat (N - 1) = (idx (ix2 g (0 : Fin 1))).toNat := by
    rw [toInt_toNat_of_lt _ N hlt hw]; omega
  exact congrArg x (congrArg (fun r => ix3 a r c) (Fin.ext e))

/-! ## The last axis gathered: [A, B, N] at an [M, 1] column gives [A, B, M] -/

/-- Element (a, b, s) of the gather along the last axis is the operand at (a, b, r), `r` the s-th start index
    read signed and clamped into [0, N - 1]. -/
theorem gather_last_clamp {A B N M w : Nat}
    (d : GatherDims ⟨3, ![A, B, N]⟩ ⟨2, ![M, 1]⟩ ⟨3, ![A, B, M]⟩)
    (hoff : d.offsetDims = [0, 1]) (hcoll : d.collapsedSliceDims = [2]) (hob : d.operandBatchingDims = [])
    (hsim : d.startIndexMap = [2]) (hivd : d.indexVectorDim = 1)
    (x : (⟨3, ![A, B, N]⟩ : Shape).Idx → α) (idx : IVec ⟨2, ![M, 1]⟩ w)
    (a : Fin A) (b : Fin B) (s : Fin M) (hN : 0 < N) :
    Host.gather d x idx (ix3 a b s) = x (ix3 a b ⟨min (idx (ix2 s (0 : Fin 1))).toInt.toNat (N - 1), by omega⟩) := by
  unfold Host.gather
  congr 1
  funext e
  apply Fin.ext
  show d.start (ix3 a b s) idx e + d.batchCoord (ix3 a b s) e + d.offCoord (ix3 a b s) e = _
  have hb : ∀ e, e ∉ d.operandBatchingDims := fun e => by rw [hob]; exact List.not_mem_nil
  rw [GatherDims.batchCoord_eq_zero _ _ _ (hb e), Nat.add_zero]
  -- the operand's kept axes are 0 and 1, the result's one batch axis is 2, the start indices' kept axis is 0
  have hsk : d.sKept = [(0 : Fin 3), 1] := by
    show Shape.kept _ (d.collapsedSliceDims ++ d.operandBatchingDims) = _
    rw [hcoll, hob]; rfl
  have hbd : d.batchDims = [(2 : Fin 3)] := by
    show Shape.kept _ d.offsetDims = _
    rw [hoff]; rfl
  have hsik : d.siKept = [(0 : Fin 2)] := by
    show (List.finRange 2).filter (·.val ≠ d.indexVectorDim) = _
    rw [hivd]; rfl
  have key0 : ∀ k : Fin 3, k = 0 → ((ix3 a b s : (⟨3, ![A, B, M]⟩ : Shape).Idx) k).val = a.val := by
    rintro _ rfl; rfl
  have key1 : ∀ k : Fin 3, k = 1 → ((ix3 a b s : (⟨3, ![A, B, M]⟩ : Shape).Idx) k).val = b.val := by
    rintro _ rfl; rfl
  have key2 : ∀ k : Fin 3, k = 2 → ((ix3 a b s : (⟨3, ![A, B, M]⟩ : Shape).Idx) k).val = s.val := by
    rintro _ rfl; rfl
  rcases fin3_cases e with rfl | rfl | rfl
  · have hm : (0 : Fin 3) ∉ d.startIndexMap := by rw [hsim]; exact (by decide : (0 : Fin 3) ∉ [(2 : Fin 3)])
    have hk : (0 : Fin 3) ∈ d.sKept := by rw [hsk]; exact (by decide : (0 : Fin 3) ∈ [(0 : Fin 3), 1])
    have hidx : d.sKept.idxOf (0 : Fin 3) = 0 := by rw [hsk]; rfl
    unfold GatherDims.start GatherDims.offCoord
    rw [dif_neg hm, dif_pos hk, Nat.zero_add]
    refine key0 _ ?_
    exact getElem_eq_of _ hoff hidx rfl
  · have hm : (1 : Fin 3) ∉ d.startIndexMap := by rw [hsim]; exact (by decide : (1 : Fin 3) ∉ [(2 : Fin 3)])
    have hk : (1 : Fin 3) ∈ d.sKept := by rw [hsk]; exact (by decide : (1 : Fin 3) ∈ [(0 : Fin 3), 1])
    have hidx : d.sKept.idxOf (1 : Fin 3) = 1 := by rw [hsk]; rfl
    unfold GatherDims.start GatherDims.offCoord
    rw [dif_neg hm, dif_pos hk, Nat.zero_add]
    refine key1 _ ?_
    exact getElem_eq_of _ hoff hidx rfl
  · have hm : (2 : Fin 3) ∈ d.startIndexMap := by rw [hsim]; exact List.mem_singleton.mpr rfl
    have hk : (2 : Fin 3) ∉ d.sKept := by rw [hsk]; exact (by decide : (2 : Fin 3) ∉ [(0 : Fin 3), 1])
    have hsl : d.sliceSizes (2 : Fin 3) = 1 := d.slice_collapsed 2 (by rw [hcoll]; exact List.mem_singleton.mpr rfl)
    rw [GatherDims.offCoord_eq_zero _ _ _ hk, Nat.add_zero]
    unfold GatherDims.start
    rw [dif_pos hm]
    have hsi : ∀ kk, d.siIdx (ix3 a b s) kk = ix2 s (0 : Fin 1) := by
      intro kk; funext b'
      rcases fin2_cases b' with rfl | rfl
      · have hidx : d.siKept.idxOf (0 : Fin 2) = 0 := by rw [hsik]; rfl
        unfold GatherDims.siIdx
        rw [dif_neg (by rw [hivd]; exact Nat.zero_ne_one)]
        unfold GatherDims.siCoord
        apply Fin.ext
        simp only [Fin.val_cast]
        refine key2 _ ?_
        exact getElem_eq_of _ hbd hidx rfl
      · apply Fin.ext
        have h1 := (d.siIdx (ix3 a b s) kk (1 : Fin 2)).isLt
        change _ < 1 at h1
        show _ = 0
        omega
    rw [hsi]
    show min (idx _).toInt.toNat (N - d.sliceSizes (2 : Fin 3)) = min (idx (ix2 s 0)).toInt.toNat (N - 1)
    rw [hsl]

/-- Element (a, b, s) of the gather along the last axis, when the s-th index word is below `N` (and `N` is at
    most half the word range): the operand at (a, b, that word). -/
theorem gather_last {A B N M w : Nat}
    (d : GatherDims ⟨3, ![A, B, N]⟩ ⟨2, ![M, 1]⟩ ⟨3, ![A, B, M]⟩)
    (hoff : d.offsetDims = [0, 1]) (hcoll : d.collapsedSliceDims = [2]) (hob : d.operandBatchingDims = [])
    (hsim : d.startIndexMap = [2]) (hivd : d.indexVectorDim = 1)
    (x : (⟨3, ![A, B, N]⟩ : Shape).Idx → α) (idx : IVec ⟨2, ![M, 1]⟩ w)
    (a : Fin A) (b : Fin B) (s : Fin M) (hw : 2 * N ≤ 2 ^ w) (hlt : (idx (ix2 s (0 : Fin 1))).toNat < N) :
    Host.gather d x idx (ix3 a b s) = x (ix3 a b ⟨(idx (ix2 s (0 : Fin 1))).toNat, hlt⟩) := by
  rw [gather_last_clamp d hoff hcoll hob hsim hivd x idx a b s (by omega)]
  have e : min (idx (ix2 s (0 : Fin 1))).toInt.toNat (N - 1) = (idx (ix2 s (0 : Fin 1))).toNat := by
    rw [toInt_toNat_of_lt _ N hlt hw]; omega
  exact congrArg x (congrArg (fun r => ix3 a b r) (Fin.ext e))

end Cert.LibGather3
-- ==== Proof.HostTake.lean ====
/-
  What the kernel program's host prefix computes for the two small gathers, array by array.

  `jnp.take(V, genes, axis=1)` and `jnp.take(W, spots, axis=2)` print as: wrap negative indices by the axis
  length (`select (x < 0) (x + 5000) x`), lay the indices as a [2000, 1] column, test each for `0 ≤ · ≤ 4999`
  (reduced by `and` over the unit axis), gather along the axis, and select NaN where the test fails; the result is
  then cast to bf16. When every index word is below 5000 the wrap is the identity and the test is true, so on the
  extended reals (where the cast is the identity) the results are

      Vg[c, g, p] = V[c, genes[g], p]        Wg[c, p, s] = W[c, p, spots[s]] .
-/
import proofs.«422802_j50680614093476_3_alg».proof.Proof.Gen.KernelIdeal.Frame.Runs
import proofs.«422802_j50680614093476_3_alg».proof.Proof.Spec
import proofs.«422802_j50680614093476_3_alg».proof.Proof.LibGather3
import Idealize.ShloMosaic.Lib.StableHlo.Predicate
import Idealize.ShloMosaic.Lib.ValueLayout
import Idealize.ShloMosaic.Lib.Pipeline.Value
import Idealize.ShloMosaic.PureOps.Reduce

noncomputable section

namespace Cert.KernelIdeal.HostTake

open Idealize.ShloMosaic Idealize.ShloMosaic.TcCoe Idealize.ShloMosaic.ValueIdx
open Idealize.ShloMosaic.StableHlo Idealize.ShloMosaic.StableHlo.Predicate
open Cert.KernelIdeal Cert.KernelIdeal.Gen

/-! ## Words below 5000 -/

/-- A fold of `and` from 1 over words that are all 1 is 1. -/
theorem foldl_andi_one {ι : Type} (f : ι → BitVec 1) (hf : ∀ i, f i = 1#1) (l : List ι) :
    l.foldl (fun r i => IntOp.andi r (f i)) 1#1 = 1#1 := by
  induction l with
  | nil => rfl
  | cons a l ih =>
    rw [List.foldl_cons, hf a, show IntOp.andi 1#1 1#1 = 1#1 from by decide]
    exact ih

/-- A reduction by `and` of an array of ones from a one is one everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- A word below 5000 is not negative: the wrap of negative indices leaves it. -/
theorem wrap_eq (w : BitVec 32) (hw : w.toNat < 5000) :
    Scalar.select (IntOp.cmpi .slt w 0#32) (IntOp.addi w 5000#32) w = w := by
  have h0 : IntOp.cmpi .slt w 0#32 = 0#1 := eq_zero_of_ne_one fun h =>
    Nat.not_lt_zero _ ((slt_iff_toNat (by omega) (by decide)).1 h)
  rw [h0, select_zero]

/-- A word below 5000 passes the range test `0 ≤ w ≤ 4999`. -/
theorem inRange_word (w : BitVec 32) (hw : w.toNat < 5000) :
    IntOp.andi (IntOp.cmpi .sge w 0#32) (IntOp.cmpi .sle w 4999#32) = 1#1 := by
  rw [(sge_iff_toNat (by omega) (by decide)).2 (Nat.zero_le _),
    (sle_iff_toNat (by omega) (by decide)).2 (show w.toNat ≤ 4999 by omega)]
  decide

/-! ## The index column and the range mask -/

/-- The index column of a take: negative words wrapped by the axis length 5000, laid as a [2000, 1] column. -/
def col (idx : IVec S2000 32) : IVec S2000x1 32 :=
  broadcastInDim S2000x1 ![0] Facts₀.bcast_S2000_S2000x1_0
    (select (cmpi .slt idx (broadcastInDim S2000 ![] Facts₀.bcast_S_S2000 (constantI S_ 32 0#32)))
      (addi idx (broadcastInDim S2000 ![] Facts₀.bcast_S_S2000 (constantI S_ 32 5000#32))) idx)

/-- The range mask of a take: per row, `0 ≤ index ≤ 4999`, reduced by `and` over the unit axis. -/
def inRange (cl : IVec S2000x1 32) : IVec S2000 1 :=
  Host.reduce IntOp.andi
    (andi (cmpi .sge cl (broadcastInDim S2000x1 ![] Facts₀.bcast_S_S2000x1 (constantI S_ 32 0#32)))
      (cmpi .sle cl (broadcastInDim S2000x1 ![0, 1] Facts₀.bcast_S1x1_S2000x1_0_1
        (broadcastInDim S1x1 ![1] Facts₀.bcast_S1_S1x1_1 (constantI S1 32 4999#32)))))
    (constantI S_ 1 1#1) Facts₀.reducesTo_S2000x1_S2000_d1 Facts₀.h_S_

/-- Under the range hypothesis the column at row `g` is the word `g`. -/
theorem col_apply (idx : IVec S2000 32) (h : ∀ i, (idx i).toNat < 5000) (g : Fin 2000) (z : Fin 1) :
    col idx (ix2 g z) = idx (ix1 g) := by
  unfold col
  rw [broadcastInDim_apply _ _ _ _ (ix1 g) (fun a => by match a with | ⟨0, _⟩ => rfl)]
  show Scalar.select (IntOp.cmpi .slt (idx (ix1 g)) 0#32) (IntOp.addi (idx (ix1 g)) 5000#32) (idx (ix1 g)) = idx (ix1 g)
  exact wrap_eq _ (h _)

theorem col_lt (idx : IVec S2000 32) (h : ∀ i, (idx i).toNat < 5000) (i : S2000x1.Idx) : (col idx i).toNat < 5000 := by
  obtain ⟨g, z, rfl⟩ : ∃ (g : Fin 2000) (z : Fin 1), i = ix2 g z := ⟨i 0, i 1, eq_ix2 i⟩
  rw [col_apply idx h]
  exact h _

/-- Under the range hypothesis the mask is one at every row. -/
theorem inRange_eq_one (cl : IVec S2000x1 32) (hcl : ∀ i, (cl i).toNat < 5000) (j : S2000.Idx) : inRange cl j = 1#1 := by
  unfold inRange
  refine reduce_andi_of_all _ _ _ _ (fun i => ?_) rfl j
  show IntOp.andi (IntOp.cmpi .sge (cl i) 0#32) (IntOp.cmpi .sle (cl i) 4999#32) = 1#1
  exact inRange_word _ (hcl i)

/-! ## The two takes as terms of the arguments, and read at an element -/

/-- `jnp.take(V, genes, axis=1)` then the cast to bf16, as printed: the gather at the wrapped column, NaN where the
    range mask is off. -/
def takeMid (x : FVec Ideal S8x5000x16 .f32) (idx : IVec S2000 32) : FVec Ideal S8x2000x16 .bf16 :=
  truncf .bf16
    (select (broadcastInDim S8x2000x16 ![1] Facts₀.bcast_S2000_S8x2000x16_1 (inRange (col idx)))
      (Host.gather gather_S8x5000x16_S2000x1_S8x2000x16_02_1_n_n_1_1_8116 x (col idx))
      (broadcastInDim S8x2000x16 ![] Facts₀.bcast_S_S8x2000x16 (constant (F := Ideal) S_ .f32 0x7FC00000#32)))
    Facts₀.bitsLt_bf16_f32

/-- `jnp.take(W, spots, axis=2)` then the cast to bf16, as printed. -/
def takeLast (x : FVec Ideal S8x16x5000 .f32) (idx : IVec S2000 32) : FVec Ideal S8x16x2000 .bf16 :=
  truncf .bf16
    (select (broadcastInDim S8x16x2000 ![2] Facts₀.bcast_S2000_S8x16x2000_2 (inRange (col idx)))
      (Host.gather gather_S8x16x5000_S2000x1_S8x16x2000_01_2_n_n_2_1_8161 x (col idx))
      (broadcastInDim S8x16x2000 ![] Facts₀.bcast_S_S8x16x2000 (constant (F := Ideal) S_ .f32 0x7FC00000#32)))
    Facts₀.bitsLt_bf16_f32

/-- With every index word below 5000, the take along the middle axis reads row `idx g`: the mask is one, so the
    gathered element is selected, and the gather reads the column's word unclamped. -/
theorem takeMid_ix3 (x : FVec Ideal S8x5000x16 .f32) (idx : IVec S2000 32) (h : ∀ i, (idx i).toNat < 5000)
    (a : Fin 8) (g : Fin 2000) (p : Fin 16) :
    takeMid x idx (ix3 a g p) = x (ix3 a (Cert.Spec.rowOf idx h g) p) := by
  have hm : broadcastInDim S8x2000x16 ![1] Facts₀.bcast_S2000_S8x2000x16_1 (inRange (col idx)) (ix3 a g p) = 1#1 := by
    rw [broadcastInDim_apply _ _ _ _ (ix1 g) (fun b => by match b with | ⟨0, _⟩ => rfl)]
    exact inRange_eq_one _ (col_lt idx h) _
  show Scalar.select (broadcastInDim S8x2000x16 ![1] Facts₀.bcast_S2000_S8x2000x16_1 (inRange (col idx)) (ix3 a g p))
      (Host.gather gather_S8x5000x16_S2000x1_S8x2000x16_02_1_n_n_1_1_8116 x (col idx) (ix3 a g p)) _ = _
  rw [hm, select_one,
    Cert.LibGather3.gather_mid _ rfl rfl rfl rfl rfl x (col idx) a g p (by norm_num) (col_lt idx h _)]
  refine congrArg x (congrArg (fun r => ix3 a r p) (Fin.ext ?_))
  show (col idx (ix2 g 0)).toNat = (idx (ix1 g)).toNat
  rw [col_apply idx h]

/-- Likewise along the last axis: column `idx s`. -/
theorem takeLast_ix3 (x : FVec Ideal S8x16x5000 .f32) (idx : IVec S2000 32) (h : ∀ i, (idx i).toNat < 5000)
    (a : Fin 8) (p : Fin 16) (s : Fin 2000) :
    takeLast x idx (ix3 a p s) = x (ix3 a p (Cert.Spec.rowOf idx h s)) := by
  have hm : broadcastInDim S8x16x2000 ![2] Facts₀.bcast_S2000_S8x16x2000_2 (inRange (col idx)) (ix3 a p s) = 1#1 := by
    rw [broadcastInDim_apply _ _ _ _ (ix1 s) (fun b => by match b with | ⟨0, _⟩ => rfl)]
    exact inRange_eq_one _ (col_lt idx h) _
  show Scalar.select (broadcastInDim S8x16x2000 ![2] Facts₀.bcast_S2000_S8x16x2000_2 (inRange (col idx)) (ix3 a p s))
      (Host.gather gather_S8x16x5000_S2000x1_S8x16x2000_01_2_n_n_2_1_8161 x (col idx) (ix3 a p s)) _ = _
  rw [hm, select_one,
    Cert.LibGather3.gather_last _ rfl rfl rfl rfl rfl x (col idx) a p s (by norm_num) (col_lt idx h _)]
  refine congrArg x (congrArg (fun r => ix3 a p r) (Fin.ext ?_))
  show (col idx (ix2 s 0)).toNat = (idx (ix1 s)).toNat
  rw [col_apply idx h]

/-! ## The region's buffers -/

variable (m : (ℓ : Loc nD τ sig) → Buf (Elt Ideal) ℓ)

set_option maxHeartbeats 1000000 in
/-- The gathered gene factors as the region finds them: the printed take of the arguments. -/
theorem V_v1_term (c : Dev nD) :
    (V m c main_v1 : S8x2000x16.Idx → EReal)
      = takeMid (m ((c : Thread nD τ).loc main_arg2)) (m ((c : Thread nD τ).loc main_arg4)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- The gathered spot factors as the region finds them. -/
theorem V_v3_term (c : Dev nD) :
    (V m c main_v3 : S8x16x2000.Idx → EReal)
      = takeLast (m ((c : Thread nD τ).loc main_arg1)) (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The region finds `Vg[c, g, p] = V[c, genes[g], p]`. -/
theorem V_vg (c : Dev nD) (hg : ∀ i, (m ((c : Thread nD τ).loc main_arg4) i).toNat < 5000) :
    (V m c main_v1 : S8x2000x16.Idx → EReal)
      = fun y => m ((c : Thread nD τ).loc main_arg2)
          (ix3 (y 0) (Cert.Spec.rowOf (m ((c : Thread nD τ).loc main_arg4)) hg (y 1)) (y 2)) := by
  rw [V_v1_term]
  funext y
  exact (congrArg _ (eq_ix3 y)).trans
    (takeMid_ix3 (m ((c : Thread nD τ).loc main_arg2)) (m ((c : Thread nD τ).loc main_arg4)) hg (y 0) (y 1) (y 2))

/-- The region finds `Wg[c, p, s] = W[c, p, spots[s]]`. -/
theorem V_wg (c : Dev nD) (hs : ∀ i, (m ((c : Thread nD τ).loc main_arg3) i).toNat < 5000) :
    (V m c main_v3 : S8x16x2000.Idx → EReal)
      = fun y => m ((c : Thread nD τ).loc main_arg1)
          (ix3 (y 0) (y 1) (Cert.Spec.rowOf (m ((c : Thread nD τ).loc main_arg3)) hs (y 2))) := by
  rw [V_v3_term]
  funext y
  exact (congrArg _ (eq_ix3 y)).trans
    (takeLast_ix3 (m ((c : Thread nD τ).loc main_arg1)) (m ((c : Thread nD τ).loc main_arg3)) hs (y 0) (y 1) (y 2))

end Cert.KernelIdeal.HostTake
end
-- ==== Proof.HostSelPad.lean ====
/-
  What the host operations before the kernel leave in its two computed arguments.

  * The SELECTION MATRIX, [5120, 2000]: entry (k, s) is 1 where k is the number the s-th word of `spots` names and 0
    elsewhere — the words are compared, as a column, with the row numbers 0 … 5119, the bits are converted to floats
    (the set bit is the number 1, the clear bit 0) and the rectangle is transposed.
  * The PADDED LOG-RATES, [8, 5000, 5120]: `log_rates` with 120 columns appended on the right, each holding the float
    conversion of the integer zero, which is the number 0.

  Each is read off in two steps: the buffer's contents as the composed term of the operations over the launch
  memory, then that term at one index, stated over variables.
-/
import proofs.«422802_j50680614093476_3_alg».proof.Proof.Gen.KernelIdeal.Frame.Runs
import proofs.«422802_j50680614093476_3_alg».proof.Proof.Spec
import Idealize.ShloMosaic.Lib.StableHlo.Predicate
import Idealize.ShloMosaic.Lib.StableHlo.Run
import Idealize.ShloMosaic.Lib.ValueIdx
import Idealize.ShloMosaic.Lib.Pipeline.Value

noncomputable section

namespace Cert.KernelIdeal.HostSelPad

open Idealize.ShloMosaic Idealize.ShloMosaic.TcCoe Idealize.ShloMosaic.ValueIdx Idealize.ShloMosaic.StableHlo
open Cert.KernelIdeal Cert.KernelIdeal.Gen

/-! ## One element of the selection matrix -/

/-- A 32-bit word equals the word of a number below 2^32 exactly when its value is that number. -/
theorem word_eq_ofNat_iff (w : BitVec 32) (k : ℕ) (hk : k < 2 ^ 32) : w = BitVec.ofNat 32 k ↔ k = w.toNat := by
  constructor
  · intro h
    rw [h, BitVec.toNat_ofNat, Nat.mod_eq_of_lt hk]
  · intro h
    apply BitVec.eq_of_toNat_eq
    rw [BitVec.toNat_ofNat, Nat.mod_eq_of_lt hk, h]

/-- The one-bit result of an equality test, converted to a float, is 1 where the words agree and 0 elsewhere. -/
theorem uitofp_cmpi_eq (a b : BitVec 32) :
    (FloatOps.uitofp (F := Ideal) .bf16 (IntOp.cmpi .eq a b) : EReal) = if a = b then 1 else 0 := by
  by_cases h : a = b
  · rw [if_pos h, Predicate.cmpi_eq_iff.2 h]
    show (((1#1 : BitVec 1).toNat : ℝ) : EReal) = 1
    norm_num
  · rw [if_neg h, eq_zero_of_ne_one (fun e => h (Predicate.cmpi_eq_iff.1 e))]
    show (((0#1 : BitVec 1).toNat : ℝ) : EReal) = 0
    norm_num

/-- The selection matrix read at row `k`, column `s`: 1 exactly where `k` is the number the `s`-th word names.
    The transpose reads the rectangle at (s, k); there the column of words, laid along the rows, reads the `s`-th
    word and the row of positions, laid down the columns, reads the word of `k`. -/
theorem sel_apply (w : (⟨1, ![2000]⟩ : Shape).Idx → BitVec 32)
    (h₁ : (⟨1, ![2000]⟩ : Shape).BroadcastsInDim ⟨2, ![2000, 1]⟩ ![0])
    (h₂ : (⟨2, ![2000, 1]⟩ : Shape).BroadcastsInDim ⟨2, ![2000, 5120]⟩ ![0, 1])
    (h₃ : (⟨2, ![1, 5120]⟩ : Shape).BroadcastsInDim ⟨2, ![2000, 5120]⟩ ![0, 1])
    (ht : (⟨2, ![2000, 5120]⟩ : Shape).Transposes [1, 0] ⟨2, ![5120, 2000]⟩)
    (k : Fin 5120) (s : Fin 2000) :
    (transpose (⟨2, ![5120, 2000]⟩ : Shape) [1, 0]
        (uitofp (F := Ideal) .bf16
          (cmpi .eq
            (broadcastInDim ⟨2, ![2000, 5120]⟩ ![0, 1] h₂ (broadcastInDim ⟨2, ![2000, 1]⟩ ![0] h₁ w))
            (broadcastInDim ⟨2, ![2000, 5120]⟩ ![0, 1] h₃ (iotaInDim ⟨2, ![1, 5120]⟩ 32 1))))
        ht (ix2 k s) : EReal)
      = if k.val = (w (ix1 s)).toNat then 1 else 0 := by
  rw [transpose_apply [1, 0] _ ht (ix2 k s) (ix2 s k) (fun b => by
    match b with
    | ⟨0, _⟩ => rfl
    | ⟨1, _⟩ => rfl)]
  show (FloatOps.uitofp (F := Ideal) .bf16 (IntOp.cmpi .eq
      (broadcastInDim ⟨2, ![2000, 5120]⟩ ![0, 1] h₂ (broadcastInDim ⟨2, ![2000, 1]⟩ ![0] h₁ w) (Predicate.ij s k))
      (broadcastInDim ⟨2, ![2000, 5120]⟩ ![0, 1] h₃ (iotaInDim ⟨2, ![1, 5120]⟩ 32 1) (Predicate.ij s k))) : EReal) = _
  rw [Predicate.bcast_rows, Predicate.bcast_of_row, uitofp_cmpi_eq]
  have e1 : (Shape.Idx.ofFin s : (⟨1, ![2000]⟩ : Shape).Idx) = ix1 s := by
    funext d; match d with | ⟨0, _⟩ => rfl
  rw [e1]
  show (if w (ix1 s) = BitVec.ofNat 32 k.val then (1 : EReal) else 0) = _
  have hk : k.val < 2 ^ 32 := lt_trans k.isLt (by norm_num)
  by_cases h : k.val = (w (ix1 s)).toNat
  · rw [if_pos h, if_pos ((word_eq_ofNat_iff _ _ hk).2 h)]
  · rw [if_neg h, if_neg (fun e => h ((word_eq_ofNat_iff _ _ hk).1 e))]

/-! ## One element of the padded array -/

/-- The array padded by 120 columns on the right, read at (a, r, k): the array itself below column 5000, the
    padding value from there on. -/
theorem pad_apply (x : (⟨3, ![8, 5000, 5000]⟩ : Shape).Idx → EReal) (v : (⟨0, ![]⟩ : Shape).Idx → EReal)
    (hp : (⟨3, ![8, 5000, 5000]⟩ : Shape).Pads (![0, 0, 0] : Fin 3 → Nat) ![0, 0, 120] ![0, 0, 0] ⟨3, ![8, 5000, 5120]⟩)
    (hu : 0 < (⟨0, ![]⟩ : Shape).numel) (a : Fin 8) (r : Fin 5000) (k : Fin 5120) :
    pad (⟨3, ![8, 5000, 5120]⟩ : Shape) ![0, 0, 0] ![0, 0, 120] ![0, 0, 0] x v hp hu (ix3 a r k)
      = if h : k.val < 5000 then x (ix3 a r ⟨k.val, h⟩) else v ValueIdx.ix0 := by
  unfold pad
  by_cases h : k.val < 5000
  · rw [dif_pos h, dif_pos (fun a' => by
      match a' with
      | ⟨0, _⟩ => exact ⟨Nat.zero_le _, Nat.mod_one _, by show (a.val - 0) / 1 < 8; have := a.isLt; omega⟩
      | ⟨1, _⟩ => exact ⟨Nat.zero_le _, Nat.mod_one _, by show (r.val - 0) / 1 < 5000; have := r.isLt; omega⟩
      | ⟨2, _⟩ => exact ⟨Nat.zero_le _, Nat.mod_one _, by show (k.val - 0) / 1 < 5000; omega⟩)]
    refine congrArg x (funext fun a' => Fin.ext ?_)
    match a' with
    | ⟨0, _⟩ => show (a.val - 0) / 1 = a.val; omega
    | ⟨1, _⟩ => show (r.val - 0) / 1 = r.val; omega
    | ⟨2, _⟩ => show (k.val - 0) / 1 = k.val; omega
  · rw [dif_neg h, dif_neg (fun H => h (by
      have h2 := (H 2).2.2
      have h3 : (k.val - 0) / 1 < 5000 := h2
      omega))]
    exact congrArg v (funext fun b => b.elim0)

/-- The signed conversion of the zero word is the number 0. -/
theorem sitofp_zero : (FloatOps.sitofp (F := Ideal) .f32 (0#32 : BitVec 32) : EReal) = 0 := by
  show ((((0#32 : BitVec 32).toInt : ℝ)) : EReal) = 0
  rw [BitVec.toInt_zero]
  norm_num

/-! ## The two buffers when the kernel is entered -/

variable (m : (ℓ : Loc nD τ sig) → Buf (Elt Ideal) ℓ)

/-- The selection matrix's buffer as the composed term of the six operations that build it and the transpose, over
    the launch memory's `spots`. -/
theorem V_sel_term (c : Dev nD) :
    (V m c main_v5 : S5120x2000.Idx → EReal)
      = transpose S5120x2000 [1, 0]
          (uitofp (F := Ideal) .bf16
            (cmpi .eq
              (broadcastInDim S2000x5120 ![0, 1] bcast_S2000x1_S2000x5120_0_1
                (broadcastInDim S2000x1 ![0] bcast_S2000_S2000x1_0 (m ((c : Thread nD τ).loc main_arg3) : S2000.Idx → BitVec 32)))
              (broadcastInDim S2000x5120 ![0, 1] bcast_S1x5120_S2000x5120_0_1 (iotaInDim S1x5120 32 1))))
          transposes_S2000x5120_S5120x2000_1_0 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The selection matrix: entry (k, s) is 1 where `k` is the number the `s`-th word of `spots` names, else 0. -/
theorem V_sel (c : Dev nD) :
    (V m c main_v5 : S5120x2000.Idx → EReal)
      = fun y => if (y 0).val = (m ((c : Thread nD τ).loc main_arg3) (ix1 (y 1))).toNat then (1 : EReal) else 0 := by
  rw [V_sel_term]
  funext y
  obtain ⟨k, s, rfl⟩ : ∃ k s, y = ix2 k s := ⟨y 0, y 1, eq_ix2 y⟩
  exact sel_apply _ _ _ _ _ k s

/-- The padded array's buffer as the pad of the launch memory's `log_rates` by the converted integer zero. -/
theorem V_lrp_term (c : Dev nD) :
    (V m c main_v6 : S8x5000x5120.Idx → EReal)
      = pad S8x5000x5120 ![0, 0, 0] ![0, 0, 120] ![0, 0, 0]
          (m ((c : Thread nD τ).loc main_arg0) : S8x5000x5000.Idx → EReal)
          (sitofp (F := Ideal) .f32 (constantI S_ 32 0#32))
          pads_S8x5000x5000_S8x5000x5120_000_000_01200 h_S_ := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded log-rates: `log_rates` below column 5000, the number 0 in the 120 columns appended. -/
theorem V_lrp (c : Dev nD) :
    (V m c main_v6 : S8x5000x5120.Idx → EReal)
      = fun y => if h : (y 2).val < 5000 then m ((c : Thread nD τ).loc main_arg0) (ix3 (y 0) (y 1) ⟨(y 2).val, h⟩) else (0 : EReal) := by
  rw [V_lrp_term]
  funext y
  obtain ⟨a, r, k, rfl⟩ : ∃ a r k, y = ix3 a r k := ⟨y 0, y 1, y 2, eq_ix3 y⟩
  show _ = if h : k.val < 5000 then (m ((c : Thread nD τ).loc main_arg0) : S8x5000x5000.Idx → EReal) (ix3 a r ⟨k.val, h⟩)
    else (0 : EReal)
  rw [pad_apply]
  by_cases h : k.val < 5000
  · rw [dif_pos h, dif_pos h]
  · rw [dif_neg h, dif_neg h]
    exact sitofp_zero

end Cert.KernelIdeal.HostSelPad

end
-- ==== Proof.Glue.lean ====
/-
  The selection matrix and the padded log-rates, in the form the block arithmetic takes them: column q of the
  selection matrix is the indicator of ONE row, the one the q-th word of `spots` names; every entry of the padded
  array is a real number when every log-rate is (the appended columns hold 0); and at the column a word names the
  padded array holds the log-rate of that column.
-/
import proofs.«422802_j50680614093476_3_alg».proof.Proof.HostSelPad
import proofs.«422802_j50680614093476_3_alg».proof.Proof.Spec

noncomputable section

namespace Cert.KernelIdeal.Glue

open Cert.KernelIdeal Cert.KernelIdeal.Gen Idealize.ShloMosaic Idealize.ShloMosaic.TcCoe Idealize.ShloMosaic.ValueIdx

variable (m : (ℓ : Loc nD τ sig) → Buf (Elt Ideal) ℓ)

/-- The column of the padded array the `q`-th word of `spots` names: its number, below 5000, as a column below 5120. -/
def colOf (c : Dev nD) (hs : ∀ i, (m ((c : Thread nD τ).loc main_arg3) i).toNat < 5000) (q : Fin 2000) : Fin 5120 :=
  ⟨(Cert.Spec.rowOf (m ((c : Thread nD τ).loc main_arg3)) hs q).val, by
    have := (Cert.Spec.rowOf (m ((c : Thread nD τ).loc main_arg3)) hs q).isLt; omega⟩

/-- Column `q` of the selection matrix is the indicator of the one row the `q`-th word names. -/
theorem sel_col (c : Dev nD) (hs : ∀ i, (m ((c : Thread nD τ).loc main_arg3) i).toNat < 5000) (q : Fin 2000) (k : Fin 5120) :
    (V m c main_v5 : S5120x2000.Idx → EReal) (ix2 k q) = if k = colOf m c hs q then (1 : EReal) else 0 := by
  refine (congrFun (HostSelPad.V_sel m c) (ix2 k q)).trans ?_
  show (if k.val = (m ((c : Thread nD τ).loc main_arg3) (ix1 q)).toNat then (1 : EReal) else 0) = _
  by_cases h : k = colOf m c hs q
  · rw [if_pos h, if_pos (by rw [h]; rfl)]
  · have h' : ¬ k.val = (m ((c : Thread nD τ).loc main_arg3) (ix1 q)).toNat := fun e => h (Fin.ext e)
    rw [if_neg h, if_neg h']

/-- Every entry of the padded array is a real number when every log-rate is: the appended columns hold 0. -/
theorem lrp_real (c : Dev nD) (hfin : ∀ i, ∃ r : ℝ, m ((c : Thread nD τ).loc main_arg0) i = (r : EReal))
    (a : Fin 8) (r : Fin 5000) (k : Fin 5120) :
    ∃ x : ℝ, (V m c main_v6 : S8x5000x5120.Idx → EReal) (ix3 a r k) = (x : EReal) := by
  by_cases h : k.val < 5000
  · obtain ⟨x, hx⟩ := hfin (ix3 a r ⟨k.val, h⟩)
    refine ⟨x, (congrFun (HostSelPad.V_lrp m c) (ix3 a r k)).trans ?_⟩
    show (if h : k.val < 5000 then (m ((c : Thread nD τ).loc main_arg0) : S8x5000x5000.Idx → EReal) (ix3 a r ⟨k.val, h⟩)
      else (0 : EReal)) = _
    rw [dif_pos h]; exact hx
  · refine ⟨0, (congrFun (HostSelPad.V_lrp m c) (ix3 a r k)).trans ?_⟩
    show (if h : k.val < 5000 then (m ((c : Thread nD τ).loc main_arg0) : S8x5000x5000.Idx → EReal) (ix3 a r ⟨k.val, h⟩)
      else (0 : EReal)) = _
    rw [dif_neg h]; exact EReal.coe_zero.symm

/-- At the column a word names, the padded array holds the log-rate of that column. -/
theorem lrp_at (c : Dev nD) (hs : ∀ i, (m ((c : Thread nD τ).loc main_arg3) i).toNat < 5000) (a : Fin 8) (r : Fin 5000)
    (q : Fin 2000) :
    (V m c main_v6 : S8x5000x5120.Idx → EReal) (ix3 a r (colOf m c hs q))
      = m ((c : Thread nD τ).loc main_arg0) (ix3 a r (Cert.Spec.rowOf (m ((c : Thread nD τ).loc main_arg3)) hs q)) := by
  have h : (colOf m c hs q).val < 5000 := (Cert.Spec.rowOf (m ((c : Thread nD τ).loc main_arg3)) hs q).isLt
  refine (congrFun (HostSelPad.V_lrp m c) (ix3 a r (colOf m c hs q))).trans ?_
  show (if h : (colOf m c hs q).val < 5000 then
      (m ((c : Thread nD τ).loc main_arg0) : S8x5000x5000.Idx → EReal) (ix3 a r ⟨(colOf m c hs q).val, h⟩)
      else (0 : EReal)) = _
  rw [dif_pos h]
  rfl

end Cert.KernelIdeal.Glue

end
-- ==== Proof.KernelValue.lean ====
/-
  The result array the gather kernel leaves, from the block its body stores at each grid point. Entry (p, q) of
  point t's block is, over the extended reals, the sum over the eight cell types a of

      exp ( padded log-rate[a, rows p, col q] + ∑_{k < 16} Vg-block[a, p, k] · Wg-block[a, k, q] )

  where rows p is the gene row the (40·t + p)-th word of `genes` names and col q the column the q-th word of
  `spots` names. The region's arrays are the host's gathers and the padded log-rates: Vg[a, g, k] = V[a, genes g, k],
  Wg[a, k, s] = W[a, k, spots s], and the padded log-rate at a named column is the log-rate there. So the entry is
  the specification's value at (40·t + p, q), which is where the output window places it; the fifty blocks cover
  the [2000, 2000] result, so the result is the specification's function everywhere.
-/
import proofs.«422802_j50680614093476_3_alg».proof.Proof.KernelIdealFrame
import proofs.«422802_j50680614093476_3_alg».proof.Proof.OutEq
import proofs.«422802_j50680614093476_3_alg».proof.Proof.Windows
import proofs.«422802_j50680614093476_3_alg».proof.Proof.HostTake
import proofs.«422802_j50680614093476_3_alg».proof.Proof.HostSelPad
import proofs.«422802_j50680614093476_3_alg».proof.Proof.Glue
import proofs.«422802_j50680614093476_3_alg».proof.Proof.PreDecode
import proofs.«422802_j50680614093476_3_alg».proof.Proof.HypsKernelIdeal
import proofs.«422802_j50680614093476_3_alg».proof.Proof.Spec
import Idealize.ShloMosaic.Lib.Pipeline.Value

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the precondition gives -/

/-- The words of `spots` and of `genes` are below 5000; every log-rate is a real number. -/
theorem hs (h : Cert.Pre_KernelIdeal m) (c : Dev nD) : ∀ i, (m ((c : Thread nD τ).loc main_arg3) i).toNat < 5000 :=
  (Cert.PreDecode.idx_range _ _ _ _ _ (h c)).1
theorem hg (h : Cert.Pre_KernelIdeal m) (c : Dev nD) : ∀ i, (m ((c : Thread nD τ).loc main_arg4) i).toNat < 5000 :=
  (Cert.PreDecode.idx_range _ _ _ _ _ (h c)).2
theorem hlr (h : Cert.Pre_KernelIdeal m) (c : Dev nD) : ∀ i, ∃ r : ℝ, m ((c : Thread nD τ).loc main_arg0) i = (r : EReal) :=
  Cert.PreDecode.lr_finite _ _ _ _ _ (h c)

/-- The gene rows and the spot columns the index words name. -/
abbrev gi (h : Cert.Pre_KernelIdeal m) (c : Dev nD) : Fin 2000 → Fin 5000 :=
  Cert.Spec.rowOf (m ((c : Thread nD τ).loc main_arg4)) (hg m h c)
abbrev si (h : Cert.Pre_KernelIdeal m) (c : Dev nD) : Fin 2000 → Fin 5000 :=
  Cert.Spec.rowOf (m ((c : Thread nD τ).loc main_arg3)) (hs m h c)

/-- THE RESULT: the specification's function of the argument arrays. -/
def Gout (h : Cert.Pre_KernelIdeal m) (c : Dev nD) : Cert.Spec.SOut.Idx → EReal :=
  Cert.Spec.G (m ((c : Thread nD τ).loc main_arg0)) (m ((c : Thread nD τ).loc main_arg1)) (m ((c : Thread nD τ).loc main_arg2))
    (gi m h c) (si m h c)

theorem Gout_ix2 (h : Cert.Pre_KernelIdeal m) (c : Dev nD) (g s : Fin 2000) :
    Gout m h c (ix2 g s) = ∑ a : Fin 8, Ideal.exp (Cert.Spec.expo (m ((c : Thread nD τ).loc main_arg0))
      (m ((c : Thread nD τ).loc main_arg1)) (m ((c : Thread nD τ).loc main_arg2)) a (gi m h c g) (si m h c s)) := rfl

/-! ## The body's inputs at a point -/

/-- The padded log-rates as the region finds them, at their literal type. -/
abbrev lrp (c : Dev nD) : S8x5000x5120.Idx → EReal := V m c main_v6

/-- The gene row of local row n of point t: the row the (40·t + n)-th word of `genes` names. -/
abbrev rows (h : Cert.Pre_KernelIdeal m) (hO : Ok m) (c : Dev nD) (t : Fin (cfgM m hO).N) (n : Fin 40) : Fin 5000 :=
  gi m h c ⟨40 * t.val + n.val, Windows.row_lt (adm m hO) t n⟩

/-- The table the region holds is the `genes` argument. -/
theorem tbl_eq (c : Dev nD) : tbl m 0 = m ((c : Thread nD τ).loc main_arg4) :=
  (V_pre m c 0).symm.trans (V_main_arg4 m c)

/-- The word the body reads for local row n names that row. -/
theorem rows_word (h : Cert.Pre_KernelIdeal m) (hO : Ok m) (c : Dev nD) (t : Fin (cfgM m hO).N) (n : Fin 40)
    (hb : 40 * (grid0.coords t 0).val + n.val < 2000) :
    ((tbl m 0 : S2000.Idx → BitVec 32) (ix1 ⟨40 * (grid0.coords t 0).val + n.val, hb⟩)).toNat = (rows m h hO c t n).val := by
  rw [Cert.Spec.rowOf_val]
  have e : (ix1 ⟨40 * (grid0.coords t 0).val + n.val, hb⟩ : S2000.Idx)
      = ix1 ⟨40 * t.val + n.val, Windows.row_lt (adm m hO) t n⟩ :=
    congrArg ix1 (Fin.ext (by show 40 * (grid0.coords t 0).val + n.val = 40 * t.val + n.val; rw [Windows.coord0 t]))
  rw [e]
  exact congrArg BitVec.toNat (congrFun (tbl_eq m c) _)

/-- The padded log-rates the body copies are real numbers on every row. -/
theorem lrp_fin (h : Cert.Pre_KernelIdeal m) (c : Dev nD) (r : Fin 5000) (a : Fin 8) (k : Fin 5120) :
    ∃ x : ℝ, lrp m c (ix3 a r k) = (x : EReal) :=
  Glue.lrp_real m c (hlr m h c) a r k

/-- Column q of the selection block is the indicator of the column the q-th word of `spots` names. -/
theorem sel_ind (h : Cert.Pre_KernelIdeal m) (hO : Ok m) (c : Dev nD) (t : Fin (cfgM m hO).N) (q : Fin 2000) (k : Fin 5120) :
    Windows.selBlk m hO c t (ix2 k q) = if k = Glue.colOf m c (hs m h c) q then (1 : EReal) else 0 :=
  (Windows.selBlk_apply m hO c t k q).trans (Glue.sel_col m c (hs m h c) q k)

/-- THE BLOCK ENTRY IS THE SPECIFICATION'S: the body's sum at (p, q) of point t, over the region's arrays, is the
    result's value at (40·t + p, q). -/
theorem entry_eq (h : Cert.Pre_KernelIdeal m) (hO : Ok m) (c : Dev nD) (t : Fin (cfgM m hO).N) (p : Fin 40) (q : Fin 2000) :
    (∑ a : Fin 8, Ideal.exp (lrp m c (ix3 a (rows m h hO c t p) (Glue.colOf m c (hs m h c) q))
        + ∑ k : Fin 16, Windows.vgBlk m hO c t (ix3 a p k) * Windows.wgBlk m hO c t (ix3 a k q)))
      = Gout m h c (ix2 ⟨40 * t.val + p.val, Windows.row_lt (adm m hO) t p⟩ q) := by
  rw [Gout_ix2]
  refine Finset.sum_congr rfl fun a _ => congrArg Ideal.exp ?_
  unfold Cert.Spec.expo
  refine congrArg₂ (· + ·) (Glue.lrp_at m c (hs m h c) a (rows m h hO c t p) q) (Finset.sum_congr rfl fun k _ => ?_)
  refine congrArg₂ (· * ·) ?_ ?_
  · exact (Windows.vgBlk_apply m hO c t a p k).trans (congrFun (HostTake.V_vg m c (hg m h c)) _)
  · exact (Windows.wgBlk_apply m hO c t a k q).trans (congrFun (HostTake.V_wg m c (hs m h c)) _)

/-! ## The block the body stores at a point -/

/-- Entry (p, q) of what the body leaves in the output's staging buffer at point t is the result's value at
    (40·t + p, q). -/
theorem outs_eq (h : Cert.Pre_KernelIdeal m) (hO : Ok m) (hH : Hyps m hO) (c : Dev nD) (t : Fin (cfgM m hO).N)
    (p : Fin 40) (q : Fin 2000) :
    outsAt0 m hO hH c t (ix2 p q) = Gout m h c (ix2 ⟨40 * t.val + p.val, Windows.row_lt (adm m hO) t p⟩ q) := by
  unfold outsAt0
  refine (OutEq.out_apply c (grid0.coords t) (ms0_0 m hO t) (hs0_0 m hO t) (ms0_1 m hO t) (hs0_1 m hO t) (ms0_2 m hO t)
      (hs0_2 m hO t) (ms0_3 m hO t) (hs0_3 m hO t) scM0_0 (Memref.isWhole_whole _) (iblk m hO c 0 t) (iblk m hO c 1 t)
      (iblk m hO c 2 t) (tbl m 0) (V m c main_v6) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t)
      (rows m h hO c t) (fun n => rows_word m h hO c t n (OutEq.hb (grid0.coords t) n)) p q (Glue.colOf m c (hs m h c) q)
      (fun a k => lrp_fin m h c (rows m h hO c t p) a k) (fun k => sel_ind m h hO c t q k)).trans ?_
  exact entry_eq m h hO c t p q

/-- The block as a function: the result read where the output window places the block. -/
theorem outs_fun (h : Cert.Pre_KernelIdeal m) (hO : Ok m) (hH : Hyps m hO) (c : Dev nD) (t : Fin (cfgM m hO).N) :
    outsAt0 m hO hH c t = fun y : S40x2000.Idx => Gout m h c ((((cfgM m hO).win 3).blk t).view.emb y) := by
  funext y
  obtain ⟨p, q, rfl⟩ : ∃ p q, y = ix2 p q := ⟨y 0, y 1, eq_ix2 y⟩
  rw [Windows.emb3 m hO t p q]
  exact outs_eq m h hO hH c t p q

/-! ## The result array -/

/-- WHAT POINT t WRITES BACK is block t of the result. -/
theorem flushed_eq (h : Cert.Pre_KernelIdeal m) (hO : Ok m) (hH : Hyps m hO) (c : Dev nD) (t : Fin (cfgM m hO).N) :
    (dats m hO hH 0 c).flushed 3 t = (((cfgM m hO).win 3).blk t).view.read (Elt Ideal) (Gout m h c) := by
  show ((cfgM m hO).win 3).cut (grid0.coords t) ((dats m hO hH 0 c).after 3 t) = _
  rw [after0_3]
  exact outs_fun m h hO hH c t

/-- The fifty blocks cover the result: it ends holding the specification's function. -/
theorem final (h : Cert.Pre_KernelIdeal m) (hO : Ok m) (hH : Hyps m hO) (c : Dev nD) :
    (dats m hO hH 0 c).arrAt 3 (cfgM m hO).N = Gout m h c :=
  (dats m hO hH 0 c).arrAt_eq_of_cover 3 (Gout m h c) (fun t _ => flushed_eq m h hO hH c t) (Windows.cover3 m hO)

/-- THE KERNEL'S RUN with its result named: the result array at the specification's function of the arguments, the
    five arguments unchanged. -/
theorem run (ρ : Dev nD → PrngReg) (h : Cert.Pre_KernelIdeal m) :
    θ_run defs (onTc (τ := τ) (main (F := Ideal))) ⟨m, fun _ => 0, ρ⟩ fun r => ∀ c : Dev nD,
      r.2.mem ((c.tc : Thread nD τ).loc main_v7) = Gout m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hq c =>
      ⟨((hq c).1 3).trans (final m h (HypsOfPre.ok_of_pre m) (HypsOfPre.hyps_of_pre m h (HypsOfPre.ok_of_pre m)) c),
        ((hq c).2 main_arg0 (by decide : main_arg0 ∈ Pipeline.restRefs sig spec0)).trans (V_main_arg0 m c),
        ((hq c).2 main_arg1 (by decide : main_arg1 ∈ Pipeline.restRefs sig spec0)).trans (V_main_arg1 m c),
        ((hq c).2 main_arg2 (by decide : main_arg2 ∈ Pipeline.restRefs sig spec0)).trans (V_main_arg2 m c),
        ((hq c).2 main_arg3 (by decide : main_arg3 ∈ Pipeline.restRefs sig spec0)).trans (V_main_arg3 m c),
        ((hq c).2 main_arg4 (by decide : main_arg4 ∈ Pipeline.restRefs sig spec0)).trans (V_main_arg4 m c)⟩)
    (run_main m ρ (HypsOfPre.ok_of_pre m) (HypsOfPre.hyps_of_pre m h (HypsOfPre.ok_of_pre m)))

end Cert.KernelIdeal.KernelValue

end
-- ==== Proof.RefValue.lean ====
/-
  The reference's result, read index by index from its run: entry (g, s) is the sum over the eight cell types of
  exp of the gathered log-rate plus the rank-16 product of the gathered factors.
-/
import proofs.«422802_j50680614093476_3_alg».proof.Proof.Gen.ReferenceIdeal.Run
import proofs.«422802_j50680614093476_3_alg».proof.Proof.Gen.ReferenceIdeal.Read
import proofs.«422802_j50680614093476_3_alg».proof.Proof.Spec
import proofs.«422802_j50680614093476_3_alg».proof.Proof.LibGather3
import Idealize.ShloMosaic.Lib.StableHlo.Predicate

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- A word below 5000 is not negative, so wrapping it (adding 5000 to a negative word) leaves it as it is: the
    wrapped column reads, at row `g`, the word itself. -/
theorem wrap_at (x : (⟨S2000, .i32⟩ : BufTy).Contents (Elt Ideal)) (h : ∀ i, (x i).toNat < 5000) (g : Fin 2000) :
    val_main_v5 (F := Ideal) x (ix2 g (0 : Fin 1)) = x (ix1 g) := by
  have e5 : idx_main_v5 (ix2 g (0 : Fin 1)) = ix1 g := funext fun a => Fin.ext (by match a with | ⟨0, _⟩ => rfl)
  rw [val_main_v5_apply, e5, val_main_v4_apply, val_main_v1_apply, val_main_v0_apply, val_main_c_apply]
  have hlt : (x (ix1 g)).toNat < 2 ^ 31 := lt_trans (h _) (by norm_num)
  have hne : ¬ IntOp.cmpi .slt (x (ix1 g)) 0#32 = 1#1 := by
    rw [Predicate.slt_iff_toNat hlt (by decide)]
    exact Nat.not_lt_zero _
  rw [eq_zero_of_ne_one hne, select_zero]

/-- The four wrapped columns of the program are the same term of their index array. -/
theorem v12_eq (x : (⟨S2000, .i32⟩ : BufTy).Contents (Elt Ideal)) : val_main_v12 (F := Ideal) x = val_main_v5 (F := Ideal) x := rfl
theorem v19_eq (x : (⟨S2000, .i32⟩ : BufTy).Contents (Elt Ideal)) : val_main_v19 (F := Ideal) x = val_main_v5 (F := Ideal) x := rfl
theorem v26_eq (x : (⟨S2000, .i32⟩ : BufTy).Contents (Elt Ideal)) : val_main_v26 (F := Ideal) x = val_main_v5 (F := Ideal) x := rfl

/-- The gene factors gathered at the gene rows. -/
theorem v27_at (x2 : (⟨S8x5000x16, .f32⟩ : BufTy).Contents (Elt Ideal)) (x4 : (⟨S2000, .i32⟩ : BufTy).Contents (Elt Ideal))
    (hg : ∀ i, (x4 i).toNat < 5000) (k : Fin 8) (g : Fin 2000) (p : Fin 16) :
    val_main_v27 (F := Ideal) x2 x4 (ix3 k g p) = x2 (ix3 k (rowOf x4 hg g) p) := by
  unfold val_main_v27
  rw [v26_eq]
  have hw := wrap_at x4 hg g
  rw [LibGather3.gather_mid _ rfl rfl rfl rfl rfl x2 (val_main_v5 (F := Ideal) x4) k g p (by norm_num) (by rw [hw]; exact hg _)]
  have e : (val_main_v5 (F := Ideal) x4 (ix2 g (0 : Fin 1))).toNat = (rowOf x4 hg g).val := by rw [hw, rowOf_val]
  exact congrArg x2 (congrArg (fun r => ix3 k r p) (Fin.ext e))

/-- The spot factors gathered at the spot columns. -/
theorem v20_at (x1 : (⟨S8x16x5000, .f32⟩ : BufTy).Contents (Elt Ideal)) (x3 : (⟨S2000, .i32⟩ : BufTy).Contents (Elt Ideal))
    (hs : ∀ i, (x3 i).toNat < 5000) (k : Fin 8) (p : Fin 16) (s : Fin 2000) :
    val_main_v20 (F := Ideal) x1 x3 (ix3 k p s) = x1 (ix3 k p (rowOf x3 hs s)) := by
  unfold val_main_v20
  rw [v19_eq]
  have hw := wrap_at x3 hs s
  rw [LibGather3.gather_last _ rfl rfl rfl rfl rfl x1 (val_main_v5 (F := Ideal) x3) k p s (by norm_num) (by rw [hw]; exact hs _)]
  have e : (val_main_v5 (F := Ideal) x3 (ix2 s (0 : Fin 1))).toNat = (rowOf x3 hs s).val := by rw [hw, rowOf_val]
  exact congrArg x1 (congrArg (fun r => ix3 k p r) (Fin.ext e))

/-- The log-rates gathered at the gene rows, every column kept. -/
theorem v6_at (x0 : (⟨S8x5000x5000, .f32⟩ : BufTy).Contents (Elt Ideal)) (x4 : (⟨S2000, .i32⟩ : BufTy).Contents (Elt Ideal))
    (hg : ∀ i, (x4 i).toNat < 5000) (k : Fin 8) (g : Fin 2000) (q : Fin 5000) :
    val_main_v6 (F := Ideal) x0 x4 (ix3 k g q) = x0 (ix3 k (rowOf x4 hg g) q) := by
  unfold val_main_v6
  have hw := wrap_at x4 hg g
  rw [LibGather3.gather_mid _ rfl rfl rfl rfl rfl x0 (val_main_v5 (F := Ideal) x4) k g q (by norm_num) (by rw [hw]; exact hg _)]
  have e : (val_main_v5 (F := Ideal) x4 (ix2 g (0 : Fin 1))).toNat = (rowOf x4 hg g).val := by rw [hw, rowOf_val]
  exact congrArg x0 (congrArg (fun r => ix3 k r q) (Fin.ext e))

/-- The log-rates gathered at the gene rows and then at the spot columns. -/
theorem v13_at (x0 : (⟨S8x5000x5000, .f32⟩ : BufTy).Contents (Elt Ideal)) (x3 x4 : (⟨S2000, .i32⟩ : BufTy).Contents (Elt Ideal))
    (hs : ∀ i, (x3 i).toNat < 5000) (hg : ∀ i, (x4 i).toNat < 5000) (k : Fin 8) (g s : Fin 2000) :
    val_main_v13 (F := Ideal) x0 x3 x4 (ix3 k g s) = x0 (ix3 k (rowOf x4 hg g) (rowOf x3 hs s)) := by
  unfold val_main_v13
  rw [v12_eq]
  have hw := wrap_at x3 hs s
  rw [LibGather3.gather_last _ rfl rfl rfl rfl rfl (val_main_v6 (F := Ideal) x0 x4) (val_main_v5 (F := Ideal) x3) k g s (by norm_num)
    (by rw [hw]; exact hs _), v6_at x0 x4 hg]
  have e : (val_main_v5 (F := Ideal) x3 (ix2 s (0 : Fin 1))).toNat = (rowOf x3 hs s).val := by rw [hw, rowOf_val]
  exact congrArg x0 (congrArg (fun r => ix3 k (rowOf x4 hg g) r) (Fin.ext e))

/-- THE REFERENCE'S RESULT: entry (g, s) is the sum over the eight cell types of exp of the log-rate at the
    gathered row and column plus the rank-16 product of the gathered factors. -/
theorem ref_eq (x0 : (⟨S8x5000x5000, .f32⟩ : BufTy).Contents (Elt Ideal)) (x1 : (⟨S8x16x5000, .f32⟩ : BufTy).Contents (Elt Ideal))
    (x2 : (⟨S8x5000x16, .f32⟩ : BufTy).Contents (Elt Ideal)) (x3 x4 : (⟨S2000, .i32⟩ : BufTy).Contents (Elt Ideal))
    (hs : ∀ i, (x3 i).toNat < 5000) (hg : ∀ i, (x4 i).toNat < 5000) :
    val_main_v31 (F := Ideal) x0 x1 x2 x3 x4 = G x0 x1 x2 (rowOf x4 hg) (rowOf x3 hs) := by
  funext i
  obtain ⟨g, s, rfl⟩ : ∃ (g s : Fin 2000), i = ix2 g s := ⟨i 0, i 1, eq_ix2 i⟩
  rw [val_main_v31_apply, G_ix2, val_main_cst_apply, Ideal.ofBits_def, Ideal.ofBits_zero_f32, zero_add]
  refine Finset.sum_congr rfl fun k _ => ?_
  have e31 : idx_main_v31 (ix2 g s) k = ix3 k g s :=
    funext fun a => Fin.ext (by match a with | ⟨0, _⟩ => rfl | ⟨1, _⟩ => rfl | ⟨2, _⟩ => rfl)
  have el : ∀ p : Fin 16, lidx_main_v28 (ix3 k g s) p = ix3 k g p := fun p =>
    funext fun a => Fin.ext (by match a with | ⟨0, _⟩ => rfl | ⟨1, _⟩ => rfl | ⟨2, _⟩ => rfl)
  have er : ∀ p : Fin 16, ridx_main_v28 (ix3 k g s) p = ix3 k p s := fun p =>
    funext fun a => Fin.ext (by match a with | ⟨0, _⟩ => rfl | ⟨1, _⟩ => rfl | ⟨2, _⟩ => rfl)
  rw [e31, val_main_v30_apply, val_main_v29_apply, val_main_v28_apply, v13_at x0 x3 x4 hs hg]
  simp only [el, er, v27_at x2 x4 hg, v20_at x1 x3 hs, Ideal.hostUnary_exp_def, Ideal.addf_def]
  rfl

/-- THE REFERENCE'S RUN: every weakly fair execution ends with the result array holding the specification's
    function of the argument arrays (the gene and spot words read as rows and columns below 5000), the
    arguments unchanged. -/
theorem run (m : (ℓ : Loc nD τ sig) → Buf (Elt Ideal) ℓ) (ρ : Dev nD → PrngReg)
    (hs : ∀ (c : Dev nD) (i : S2000.Idx), (m ((c.tc : Thread nD τ).loc main_arg3) i).toNat < 5000)
    (hg : ∀ (c : Dev nD) (i : S2000.Idx), (m ((c.tc : Thread nD τ).loc main_arg4) i).toNat < 5000) :
    θ_run defs (onTc (τ := τ) (main (F := Ideal))) ⟨m, fun _ => 0, ρ⟩ fun r => ∀ c : Dev nD,
      r.2.mem ((c.tc : Thread nD τ).loc main_v31)
          = G (m ((c.tc : Thread nD τ).loc main_arg0)) (m ((c.tc : Thread nD τ).loc main_arg1))
              (m ((c.tc : Thread nD τ).loc main_arg2)) (rowOf (m ((c.tc : Thread nD τ).loc main_arg4)) (hg c))
              (rowOf (m ((c.tc : Thread nD τ).loc main_arg3)) (hs c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v31_eq (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))).trans
        (ref_eq _ _ _ _ _ (hs c) (hg c))), (h c).2⟩)
    (Cert.ReferenceIdeal.Value.run (F := Ideal) m ρ)

end Cert.RefValue

end
-- ==== Proof.lean ====
/-
  The certificate's claims, assembled.

  Both programs compute, at entry (g, s) of the [2000, 2000] result,
      ∑_{c < 8} exp ( log_rates[c, genes g, spots s] + ∑_{p < 16} V[c, genes g, p] · W[c, p, spots s] )
  on the extended reals (Proof/Spec.lean), for index words in [0, 5000) and finite log-rates. The kernel gathers row
  genes g of every cell type into a scratch block by forty transfers per grid point, selects column spots s by a product
  with a one-hot matrix — the row split into a part and the remainder of the row minus that part, which at exact
  arithmetic on finite numbers is the row and zero —, adds the rank-16 product of the gathered factors, exponentiates and
  sums the eight cell types; fifty grid points of forty rows cover the result. The reference gathers by index and sums
  over the leading axis. The frames hold because every gene word is below 5000, so every gathered row lies inside the
  log-rate array; the idealization replaced eight narrowings to bf16 and back by the identity, which is what they are on
  the extended reals.
-/
import proofs.«422802_j50680614093476_3_alg».proof.Defs
import proofs.«422802_j50680614093476_3_alg».proof.Proof.Gen.Kernel
import proofs.«422802_j50680614093476_3_alg».proof.Proof.Gen.KernelIdeal
import proofs.«422802_j50680614093476_3_alg».proof.Proof.Gen.ReferenceIdeal
import proofs.«422802_j50680614093476_3_alg».proof.Proof.Gen.Pre_finite_inputs
import proofs.«422802_j50680614093476_3_alg».proof.Proof.KernelFrame
import proofs.«422802_j50680614093476_3_alg».proof.Proof.KernelIdealFrame
import proofs.«422802_j50680614093476_3_alg».proof.Proof.HypsKernel
import proofs.«422802_j50680614093476_3_alg».proof.Proof.HypsKernelIdeal
import proofs.«422802_j50680614093476_3_alg».proof.Proof.KernelValue
import proofs.«422802_j50680614093476_3_alg».proof.Proof.RefValue
import Idealize.ShloMosaic.Adequacy
import Idealize.ShloMosaic.Init

noncomputable section

namespace Cert.Proof

open Idealize.ShloMosaic Idealize.SL.Sem

/-- The word-level kernel runs and leaves its arguments: every gathered row is inside the array. -/
theorem frame_k : Cert.frame_Kernel := fun m ρ h =>
  Cert.Kernel.Gen.frame m ρ (Cert.Kernel.HypsOfPre.ok_of_pre m) (Cert.Kernel.HypsOfPre.hyps_of_pre m h _)

/-- So does the idealized kernel. -/
theorem frame_ki : Cert.frame_KernelIdeal := fun m ρ h =>
  Cert.KernelIdeal.Gen.frame m ρ (Cert.KernelIdeal.HypsOfPre.ok_of_pre m) (Cert.KernelIdeal.HypsOfPre.hyps_of_pre m h _)

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each of the eight narrowings to bf16 and back is the identity on the extended reals. -/
theorem preserves : Cert.preserves_Kernel_KernelIdeal :=
  ⟨IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16,
   IdealRules.truncf_extf.statement Cert.KernelIdeal.S40x5120 .f32 .bf16⟩

/-- The two idealized programs end with the same result: both are the specification's function of the arguments. -/
theorem algebraic : Cert.algebraic_KernelIdeal_ReferenceIdeal := by
  intro m ρ m' ρ' hpre hagree
  have hidx := fun c => Cert.PreDecode.idx_range _ _ _ _ _ (hpre c)
  refine ⟨_, Cert.KernelIdeal.KernelValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2]
  exact Cert.RefValue.ref_eq _ _ _ _ _ (hidx c).1 (hidx c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
